-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S64x256 : Shape := ⟨2, ![64, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x256 .f32) (main_arg1 : IVec S8192 32) (main_arg2 : FVec F S64x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 32 := constantI S_ 32 64#32
  let main_v11 : IVec S8192 32 := broadcastInDim S8192 ![] bcast_S_S8192 main_c_3
  let main_v12 : IVec S8192 1 := cmpi .slt main_arg1 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x256 : Shape := ⟨2, ![8192, 256]⟩
abbrev S8192 : Shape := ⟨1, ![8192]⟩
abbrev S64x256 : Shape := ⟨2, ![64, 256]⟩
abbrev S8192x1 : Shape := ⟨2, ![8192, 1]⟩
abbrev S1x8192 : Shape := ⟨2, ![1, 8192]⟩
abbrev S2x64x256 : Shape := ⟨3, ![2, 64, 256]⟩
abbrev S2x1x64 : Shape := ⟨3, ![2, 1, 64]⟩
abbrev S2048x256 : Shape := ⟨2, ![2048, 256]⟩
abbrev S2048x1 : Shape := ⟨2, ![2048, 1]⟩
abbrev S1x64x256 : Shape := ⟨3, ![1, 64, 256]⟩
abbrev S1x1x64 : Shape := ⟨3, ![1, 1, 64]⟩
abbrev S1x64 : Shape := ⟨2, ![1, 64]⟩
abbrev S2048 : Shape := ⟨1, ![2048]⟩
abbrev S2048x64 : Shape := ⟨2, ![2048, 64]⟩
abbrev S64 : Shape := ⟨1, ![64]⟩
abbrev S_ : Shape := ⟨0, ![]⟩
abbrev S64x1 : Shape := ⟨2, ![64, 1]⟩
abbrev S8192x64 : Shape := ⟨2, ![8192, 64]⟩
abbrev S1024x256 : Shape := ⟨2, ![1024, 256]⟩
abbrev S1024x1 : Shape := ⟨2, ![1024, 1]⟩
abbrev S1024x64 : Shape := ⟨2, ![1024, 64]⟩
abbrev S1x2048 : Shape := ⟨2, ![1, 2048]⟩
abbrev S1024 : Shape := ⟨1, ![1024]⟩
abbrev S1024x2048 : Shape := ⟨2, ![1024, 2048]⟩

abbrev nBuf : Space → Nat
  | .hbm => 78
  | .vmem => 26
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S64x256, .f32⟩
  | .hbm, ⟨3, _⟩ => ⟨S8192x1, .i32⟩
  | .hbm, ⟨4, _⟩ => ⟨S1x8192, .i32⟩
  | .hbm, ⟨5, _⟩ => ⟨S8192x256, .bf16⟩
  | .hbm, ⟨6, _⟩ => ⟨S2x64x256, .f32⟩
  | .hbm, ⟨7, _⟩ => ⟨S2x1x64, .f32⟩
  | .hbm, ⟨8, _⟩ => ⟨S_, .f32⟩
  | .hbm, ⟨9, _⟩ => ⟨S64x256, .f32⟩
  | .hbm, ⟨10, _⟩ => ⟨S_, .f32⟩
  | .hbm, ⟨11, _⟩ => ⟨S1x64, .f32⟩
  | .hbm, ⟨12, _⟩ => ⟨S64, .f32⟩
  | .hbm, ⟨13, _⟩ => ⟨S64x256, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x256, .f32⟩
  | .hbm, ⟨22, _⟩ => ⟨S64x256, .f32⟩
  | .hbm, ⟨23, _⟩ => ⟨S64x256, .f32⟩
  | .hbm, ⟨24, _⟩ => ⟨S_, .f32⟩
  | .hbm, ⟨25, _⟩ => ⟨S64, .f32⟩
  | .hbm, ⟨26, _⟩ => ⟨S64x1, .f32⟩
  | .hbm, ⟨27, _⟩ => ⟨S64x1, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S64x256, .f32⟩
  | .hbm, ⟨32, _⟩ => ⟨S64x256, .f32⟩
  | .hbm, ⟨33, _⟩ => ⟨S64x1, .f32⟩
  | .hbm, ⟨34, _⟩ => ⟨S_, .f32⟩
  | .hbm, ⟨35, _⟩ => ⟨S64x1, .f32⟩
  | .hbm, ⟨36, _⟩ => ⟨S64x1, .i1⟩
  | .hbm, ⟨37, _⟩ => ⟨S64x256, .i1⟩
  | .hbm, ⟨38, _⟩ => ⟨S64x256, .f32⟩
  | .hbm, ⟨39, _⟩ => ⟨S8192x1, .f32⟩
  | .hbm, ⟨40, _⟩ => ⟨S8192x1, .f32⟩
  | .hbm, ⟨41, _⟩ => ⟨S8192x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .i1⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x1, .i32⟩
  | .local _ .vmem, ⟨3, _⟩ => ⟨S2048x1, .i32⟩
  | .local _ .vmem, ⟨4, _⟩ => ⟨S2048x256, .bf16⟩
  | .local _ .vmem, ⟨5, _⟩ => ⟨S2048x256, .bf16⟩
  | .local _ .vmem, ⟨6, _⟩ => ⟨S1x64x256, .f32⟩
  | .local _ .vmem, ⟨7, _⟩ => ⟨S1x64x256, .f32⟩
  | .local _ .vmem, ⟨8, _⟩ => ⟨S1x1x64, .f32⟩
  | .local _ .vmem, ⟨9, _⟩ => ⟨S1x1x64, .f32⟩
  | .local _ .vmem, ⟨10, _⟩ => ⟨S64x256, .f32⟩
  | .local _ .vmem, ⟨11, _⟩ => ⟨S1x64, .f32⟩
  | .local _ .vmem, ⟨12, _⟩ => ⟨S1024x256, .bf16⟩
  | .local _ .vmem, ⟨13, _⟩ => ⟨S1024x256, .bf16⟩
  | .local _ .vmem, ⟨14, _⟩ => ⟨S8192x256, .bf16⟩
  | .local _ .vmem, ⟨15, _⟩ => ⟨S1024x1, .i32⟩
  | .local _ .vmem, ⟨16, _⟩ => ⟨S1024x1, .i32⟩
  | .local _ .vmem, ⟨17, _⟩ => ⟨S1x8192, .i32⟩
  | .local _ .vmem, ⟨18, _⟩ => ⟨S64x256, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x64, .f32⟩
  | .local _ .vmem, ⟨24, _⟩ => ⟨S1024x64, .f32⟩
  | .local _ .vmem, ⟨25, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_call2_v0 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_cst_4 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_cst_6 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_cst_8 : Ref sig .tc := ⟨.hbm, 51, rfl⟩
abbrev main_v26 : Ref sig .tc := ⟨.hbm, 52, rfl⟩
abbrev main_v27 : Ref sig .tc := ⟨.hbm, 53, rfl⟩
abbrev main_cst_9 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_10 : Ref sig .tc := ⟨.hbm, 58, rfl⟩
abbrev main_call3_v0 : Ref sig .tc := ⟨.hbm, 59, rfl⟩
abbrev main_call3_v1 : Ref sig .tc := ⟨.hbm, 60, rfl⟩
abbrev main_v31 : Ref sig .tc := ⟨.hbm, 61, rfl⟩
abbrev main_cst_11 : Ref sig .tc := ⟨.hbm, 62, rfl⟩
abbrev main_v32 : Ref sig .tc := ⟨.hbm, 63, rfl⟩
abbrev main_cst_12 : Ref sig .tc := ⟨.hbm, 64, rfl⟩
abbrev main_v33 : Ref sig .tc := ⟨.hbm, 65, rfl⟩
abbrev main_cst_13 : Ref sig .tc := ⟨.hbm, 66, rfl⟩
abbrev main_v34 : Ref sig .tc := ⟨.hbm, 67, rfl⟩
abbrev main_cst_14 : Ref sig .tc := ⟨.hbm, 68, rfl⟩
abbrev main_v35 : Ref sig .tc := ⟨.hbm, 69, rfl⟩
abbrev main_cst_15 : Ref sig .tc := ⟨.hbm, 70, rfl⟩
abbrev main_v36 : Ref sig .tc := ⟨.hbm, 71, rfl⟩
abbrev main_cst_16 : Ref sig .tc := ⟨.hbm, 72, rfl⟩
abbrev main_v37 : Ref sig .tc := ⟨.hbm, 73, rfl⟩
abbrev main_v38 : Ref sig .tc := ⟨.hbm, 74, rfl⟩
abbrev main_cst_17 : Ref sig .tc := ⟨.hbm, 75, rfl⟩
abbrev main_v39 : Ref sig .tc := ⟨.hbm, 76, rfl⟩
abbrev main_v40 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v37 : BitVec 1 := Scalar.cmpi .eq arg1 c1_i32
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v0 : BitVec 32 := Scalar.muli arg1 c2048_i32
  v0
def k1_off1 (i : grid1.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v4 : Index := Scalar.indexCast v1
  let c0_1 : Index := 0#32
  ![v4.toNat, 0]
def k1_off2 (i : grid1.Coords) : Fin 2 → Nat :=
  let c0_4 : Index := 0#32
  let arg1 : BitVec 32 := BitVec.ofNat 32 (i 1).val
  let c2048_i32 : BitVec 32 := 2048#32
  let v0 : BitVec 32 := Scalar.muli arg1 c2048_i32
  let v1 : BitVec 32 := v0
  let v9 : Index := Scalar.indexCast v1
  ![0, v9.toNat]
def k1_cond2 (i : grid1.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_12 : BitVec 32 := 0#32
  let v30 : BitVec 1 := Scalar.cmpi .ne v29 c0_i32_12
  v30

def k1_cond1 (i : grid1.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_5 : BitVec 32 := 0#32
  let v14 : BitVec 1 := Scalar.cmpi .ne v13 c0_i32_5
  v14

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x8192 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S8192_S8192x1 : S8192.ShapeCasts S8192x1
  shapeCasts_S8192_S1x8192 : S8192.ShapeCasts S1x8192
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  packedbf16_S2048x256_S2048x256_0_0 : (Rect.unit (s := S2048x256) ![0, 0] S2048x256.size inb_S2048x256_S2048x256_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x64_d1_w32 : S1x64.Iotas .tc 32 [1]
  broadcasts_S2048x1_S2048x64 : S2048x1.Broadcasts S2048x64
  broadcasts_S1x64_S2048x64 : S1x64.Broadcasts S2048x64
  natLt_1_32 : 1 < 32
  reduces_S2048x64_S64 : S2048x64.Reduces [0] S64
  shapeCasts_S64_S1x64 : S64.ShapeCasts S1x64
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  reducesTo_S2x64x256_S64x256_d0 : S2x64x256.ReducesTo [0] S64x256
  h_S_ : 0 < S_.numel
  reducesTo_S2x1x64_S1x64_d0 : S2x1x64.ReducesTo [0] S1x64
  shapeCasts_S1x64_S64 : S1x64.ShapeCasts S64
  reducesTo_S64x256_S64_d1 : S64x256.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S2048x256_S2048x256 : S2048x256.ShapeCasts S2048x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x2048 : 0 < S1x2048.numel
  shapeCasts_S1x2048_S1x2048 : S1x2048.ShapeCasts S1x2048
  broadcasts_S1024x1_S1024x64 : S1024x1.Broadcasts S1024x64
  broadcasts_S1x64_S1024x64 : S1x64.Broadcasts S1024x64
  reduces_S1024x256_S1024 : S1024x256.Reduces [1] S1024
  shapeCasts_S1024_S1024x1 : S1024.ShapeCasts S1024x1
  inb_S1024x64_S1024x64_0_0 : ∀ a, (![0, 0] : Fin 2 → Nat) a + S1024x64.size a ≤ S1024x64.size a
  h_S1024x64 : 0 < S1024x64.numel
  broadcasts_S1024x1_S1024x2048 : S1024x1.Broadcasts S1024x2048
  broadcasts_S1x2048_S1024x2048 : S1x2048.Broadcasts S1024x2048
  reduces_S1024x2048_S1024 : S1024x2048.Reduces [1] S1024
  reducesTo_S8192x1_S_d0_1 : S8192x1.ReducesTo [0, 1] S_
  bcast_S_S64 : S_.BroadcastsInDim S64 (![] : Fin 0 → Fin S64.rank)
  reducesTo_S8192x64_S64_d0 : S8192x64.ReducesTo [0] S64
  reducesTo_S64_S_d0 : S64.ReducesTo [0] S_
  dot_S2048x64_S2048x256_S64x256_0_0_1_1_n_n_wf : DotDims.WF S2048x64 S2048x256 S64x256 [0] [0] [1] [1] [] []
  dot_S1024x64_S64x256_S1024x256_1_0_0_1_n_n_wf : DotDims.WF S1024x64 S64x256 S1024x256 [1] [0] [0] [1] [] []
  dot_S1024x256_S64x256_S1024x64_1_1_0_0_n_n_wf : DotDims.WF S1024x256 S64x256 S1024x64 [1] [1] [0] [0] [] []
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .i32 = 32 ∨ (Rect.block (s := S8192x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .bf16 = 32 ∨ (Rect.block (s := S8192x256) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x256.size a ≤ S2x64x256.size a
  hwx0_3 : ∀ i : grid0.Coords, EltTy.bits .f32 = 32 ∨ (Rect.block (s := S2x64x256) S1x64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S2x1x64.size a
  hwx0_4 : ∀ i : grid0.Coords, EltTy.bits .f32 = 32 ∨ (Rect.block (s := S2x1x64) S1x1x64.size (cc0_transform_4 i) (hinb0_4 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  k1_off2_inb : ∀ i : grid1.Coords, ∀ a, (k1_off2 i) a + S1x2048.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .i32 = 32 ∨ (Rect.block (s := S1x8192) S1x8192.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x256.size a ≤ S64x256.size a
  hwx1_4 : ∀ i : grid1.Coords, EltTy.bits .f32 = 32 ∨ (Rect.block (s := S64x256) S64x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S8192x1.size a
  hwx1_6 : ∀ i : grid1.Coords, EltTy.bits .f32 = 32 ∨ (Rect.block (s := S8192x1) S1024x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x64.size a ≤ S8192x64.size a
  hwx1_7 : ∀ i : grid1.Coords, EltTy.bits .f32 = 32 ∨ (Rect.block (s := S8192x64) S1024x64.size (cc1_transform_7 i) (hinb1_7 i)).WholeWords (EltTy.packing .f32)

variable [Facts₀]

def dot_S2048x64_S2048x256_S64x256_0_0_1_1_n_n : DotDims S2048x64 S2048x256 S64x256 where
  lhsContracting := [0]
  rhsContracting := [0]
  lhsNonContracting := [1]
  rhsNonContracting := [1]
  lhsBatch := []
  rhsBatch := []
  wf := dot_S2048x64_S2048x256_S64x256_0_0_1_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S1024x256_S64x256_S1024x64_1_1_0_0_n_n : DotDims S1024x256 S64x256 S1024x64 where
  lhsContracting := [1]
  rhsContracting := [1]
  lhsNonContracting := [0]
  rhsNonContracting := [0]
  lhsBatch := []
  rhsBatch := []
  wf := dot_S1024x256_S64x256_S1024x64_1_1_0_0_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x64x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S64x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20_0) S1024x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v20_1) S1024x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20_2) S1024x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun i => !(k1_cond2 i == 1#1) | 6 => fun i => !(k1_cond1 i == 1#1) | 7 => fun i => !(k1_cond1 i == 1#1) | ⟨_ + 8, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S64x256 : Shape := ⟨2, ![64, 256]⟩
abbrev S_ : Shape := ⟨0, ![]⟩
abbrev S64 : Shape := ⟨1, ![64]⟩
abbrev S64x1 : Shape := ⟨2, ![64, 1]⟩
abbrev S8192x1 : Shape := ⟨2, ![8192, 1]⟩
abbrev S1x64 : Shape := ⟨2, ![1, 64]⟩
abbrev S8192x64 : Shape := ⟨2, ![8192, 64]⟩
abbrev S64x8192 : Shape := ⟨2, ![64, 8192]⟩
abbrev S256x64 : Shape := ⟨2, ![256, 64]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 138
  | .vmem => 0
  | .smem => 0
  | _ => 0

abbrev hbmTy0_0 (i : Nat) : BufTy := match i % 128 with
  | 0 => ⟨S8192x256, .f32⟩
  | 1 => ⟨S8192, .i32⟩
  | 2 => ⟨S64x256, .f32⟩
  | 3 => ⟨S64x256, .f32⟩
  | 4 => ⟨S_, .f32⟩
  | 5 => ⟨S64, .f32⟩
  | 6 => ⟨S64x1, .f32⟩
  | 7 => ⟨S64x1, .f32⟩
  | 8 => ⟨S_, .f32⟩
  | 9 => ⟨S64x1, .f32⟩
  | 10 => ⟨S64x1, .f32⟩
  | 11 => ⟨S64x256, .f32⟩
  | 12 => ⟨S64x256, .f32⟩
  | 13 => ⟨S8192x256, .f32⟩
  | 14 => ⟨S_, .f32⟩
  | 15 => ⟨S8192, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x256, .f32⟩
  | 22 => ⟨S8192x256, .f32⟩
  | 23 => ⟨S8192x1, .i32⟩
  | 24 => ⟨S64, .i32⟩
  | 25 => ⟨S1x64, .i32⟩
  | 26 => ⟨S8192x64, .i32⟩
  | 27 => ⟨S8192x64, .i32⟩
  | 28 => ⟨S8192x64, .i1⟩
  | 29 => ⟨S8192x64, .f32⟩
  | 30 => ⟨S_, .f32⟩
  | 31 => ⟨S64, .f32⟩
  | 32 => ⟨S64x8192, .f32⟩
  | 33 => ⟨S64x256, .f32⟩
  | 34 => ⟨S64x256, .f32⟩
  | 35 => ⟨S_, .f32⟩
  | 36 => ⟨S64, .f32⟩
  | 37 => ⟨S64x1, .f32⟩
  | 38 => ⟨S64x1, .f32⟩
  | 39 => ⟨S_, .f32⟩
  | 40 => ⟨S64x1, .f32⟩
  | 41 => ⟨S64x1, .f32⟩
  | 42 => ⟨S64x256, .f32⟩
  | 43 => ⟨S64x256, .f32⟩
  | 44 => ⟨S64x1, .f32⟩
  | 45 => ⟨S_, .f32⟩
  | 46 => ⟨S64x1, .f32⟩
  | 47 => ⟨S64x1, .i1⟩
  | 48 => ⟨S64x256, .i1⟩
  | 49 => ⟨S64x256, .f32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S8192x256, .f32⟩
  | 59 => ⟨S8192x256, .f32⟩
  | 60 => ⟨S_, .f32⟩
  | 61 => ⟨S8192, .f32⟩
  | 62 => ⟨S_, .f32⟩
  | 63 => ⟨S8192, .f32⟩
  | 64 => ⟨S8192, .f32⟩
  | 65 => ⟨S_, .f32⟩
  | 66 => ⟨S_, .f32⟩
  | 67 => ⟨S_, .f32⟩
  | 68 => ⟨S_, .f32⟩
  | 69 => ⟨S256x64, .f32⟩
  | 70 => ⟨S8192x64, .f32⟩
  | 71 => ⟨S8192x64, .i1⟩
  | 72 => ⟨S8192x64, .i32⟩
  | 73 => ⟨S_, .i32⟩
  | 74 => ⟨S64, .i32⟩
  | 75 => ⟨S_, .f32⟩
  | 76 => ⟨S8192x64, .f32⟩
  | 77 => ⟨S8192x64, .f32⟩
  | 78 => ⟨S_, .f32⟩
  | 79 => ⟨S8192x64, .f32⟩
  | 80 => ⟨S8192x64, .f32⟩
  | 81 => ⟨S8192x64, .f32⟩
  | 82 => ⟨S8192x64, .f32⟩
  | 83 => ⟨S_, .i32⟩
  | 84 => ⟨S64, .i32⟩
  | 85 => ⟨S64, .i1⟩
  | 86 => ⟨S_, .f32⟩
  | 87 => ⟨S64, .f32⟩
  | 88 => ⟨S_, .i32⟩
  | 89 => ⟨S64, .i32⟩
  | 90 => ⟨S64, .i32⟩
  | 91 => ⟨S64, .f32⟩
  | 92 => ⟨S64, .f32⟩
  | 93 => ⟨S_, .f32⟩
  | 94 => ⟨S_, .f32⟩
  | 95 => ⟨S64, .f32⟩
  | 96 => ⟨S64, .f32⟩
  | 97 => ⟨S_, .f32⟩
  | 98 => ⟨S_, .f32⟩
  | 99 => ⟨S_, .f32⟩
  | 100 => ⟨S_, .f32⟩
  | 101 => ⟨S256x8192, .f32⟩
  | 102 => ⟨S8192x8192, .f32⟩
  | 103 => ⟨S8192x1, .i32⟩
  | 104 => ⟨S1x8192, .i32⟩
  | 105 => ⟨S8192x8192, .i32⟩
  | 106 => ⟨S8192x8192, .i32⟩
  | 107 => ⟨S8192x8192, .i1⟩
  | 108 => ⟨S_, .f32⟩
  | 109 => ⟨S_, .f32⟩
  | 110 => ⟨S8192x8192, .f32⟩
  | 111 => ⟨S8192x8192, .f32⟩
  | 112 => ⟨S_, .f32⟩
  | 113 => ⟨S8192, .f32⟩
  | 114 => ⟨S_, .i1⟩
  | 115 => ⟨S8192, .i1⟩
  | 116 => ⟨S_, .f32⟩
  | 117 => ⟨S8192, .f32⟩
  | 118 => ⟨S8192, .f32⟩
  | 119 => ⟨S_, .f32⟩
  | 120 => ⟨S8192, .f32⟩
  | 121 => ⟨S8192, .f32⟩
  | 122 => ⟨S_, .f32⟩
  | 123 => ⟨S_, .f32⟩
  | 124 => ⟨S8192, .f32⟩
  | 125 => ⟨S8192, .f32⟩
  | 126 => ⟨S_, .f32⟩
  | 127 => ⟨S_, .f32⟩
  | _ => ⟨S8192x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call2_v0 : Ref sig .tc := ⟨.hbm, 34, rfl⟩
abbrev main_call2_cst : Ref sig .tc := ⟨.hbm, 35, rfl⟩
abbrev main_call2_v1 : Ref sig .tc := ⟨.hbm, 36, rfl⟩
abbrev main_call2_v2 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_call3_v0 : Ref sig .tc := ⟨.hbm, 48, rfl⟩
abbrev main_v28 : Ref sig .tc := ⟨.hbm, 49, rfl⟩
abbrev main_c : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_12 : Ref sig .tc := ⟨.hbm, 83, rfl⟩
abbrev main_v53 : Ref sig .tc := ⟨.hbm, 84, rfl⟩
abbrev main_v54 : Ref sig .tc := ⟨.hbm, 85, rfl⟩
abbrev main_cst_13 : Ref sig .tc := ⟨.hbm, 86, rfl⟩
abbrev main_v55 : Ref sig .tc := ⟨.hbm, 87, rfl⟩
abbrev main_c_14 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_15 : Ref sig .tc := ⟨.hbm, 93, rfl⟩
abbrev main_call4_v0 : Ref sig .tc := ⟨.hbm, 94, rfl⟩
abbrev main_call4_v1 : Ref sig .tc := ⟨.hbm, 95, rfl⟩
abbrev main_v60 : Ref sig .tc := ⟨.hbm, 96, rfl⟩
abbrev main_cst_16 : Ref sig .tc := ⟨.hbm, 97, rfl⟩
abbrev main_v61 : Ref sig .tc := ⟨.hbm, 98, rfl⟩
abbrev main_cst_17 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_18 : Ref sig .tc := ⟨.hbm, 108, rfl⟩
abbrev main_call5_v0 : Ref sig .tc := ⟨.hbm, 109, rfl⟩
abbrev main_call5_v1 : Ref sig .tc := ⟨.hbm, 110, rfl⟩
abbrev main_v70 : Ref sig .tc := ⟨.hbm, 111, rfl⟩
abbrev main_cst_19 : Ref sig .tc := ⟨.hbm, 112, rfl⟩
abbrev main_v71 : Ref sig .tc := ⟨.hbm, 113, rfl⟩
abbrev main_c_20 : Ref sig .tc := ⟨.hbm, 114, rfl⟩
abbrev main_v72 : Ref sig .tc := ⟨.hbm, 115, rfl⟩
abbrev main_cst_21 : Ref sig .tc := ⟨.hbm, 116, rfl⟩
abbrev main_v73 : Ref sig .tc := ⟨.hbm, 117, rfl⟩
abbrev main_v74 : Ref sig .tc := ⟨.hbm, 118, rfl⟩
abbrev main_cst_22 : Ref sig .tc := ⟨.hbm, 119, rfl⟩
abbrev main_v75 : Ref sig .tc := ⟨.hbm, 120, rfl⟩
abbrev main_v76 : Ref sig .tc := ⟨.hbm, 121, rfl⟩
abbrev main_cst_23 : Ref sig .tc := ⟨.hbm, 122, rfl⟩
abbrev main_call6_v0 : Ref sig .tc := ⟨.hbm, 123, rfl⟩
abbrev main_call6_v1 : Ref sig .tc := ⟨.hbm, 124, rfl⟩
abbrev main_v77 : Ref sig .tc := ⟨.hbm, 125, rfl⟩
abbrev main_cst_24 : Ref sig .tc := ⟨.hbm, 126, rfl⟩
abbrev main_v78 : Ref sig .tc := ⟨.hbm, 127, rfl⟩
abbrev main_cst_25 : Ref sig .tc := ⟨.hbm, 128, rfl⟩
abbrev main_v79 : Ref sig .tc := ⟨.hbm, 129, rfl⟩
abbrev main_cst_26 : Ref sig .tc := ⟨.hbm, 130, rfl⟩
abbrev main_v80 : Ref sig .tc := ⟨.hbm, 131, rfl⟩
abbrev main_cst_27 : Ref sig .tc := ⟨.hbm, 132, rfl⟩
abbrev main_v81 : Ref sig .tc := ⟨.hbm, 133, rfl⟩
abbrev main_v82 : Ref sig .tc := ⟨.hbm, 134, rfl⟩
abbrev main_cst_28 : Ref sig .tc := ⟨.hbm, 135, rfl⟩
abbrev main_v83 : Ref sig .tc := ⟨.hbm, 136, rfl⟩
abbrev main_v84 : Ref sig .tc := ⟨.hbm, 137, rfl⟩

abbrev nD : Nat := 1
abbrev τ : Topo := Topo.v7x

variable {F : FTy → Type} [FloatOps F]

class Facts₀ : Prop where
  reducesTo_S64x256_S64_d1 : S64x256.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  reducesTo_S8192x256_S8192_d1 : S8192x256.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S64_S1x64_1 : S64.BroadcastsInDim S1x64 (![1] : Fin 1 → Fin S1x64.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  reducesTo_S8192x64_S64_d0 : S8192x64.ReducesTo [0] S64
  transposes_S8192x64_S64x8192_1_0 : S8192x64.Transposes [1, 0] S64x8192
  bcast_S_S8192 : S_.BroadcastsInDim S8192 (![] : Fin 0 → Fin S8192.rank)
  reducesTo_S8192_S_d0 : S8192.ReducesTo [0] S_
  transposes_S64x256_S256x64_1_0 : S64x256.Transposes [1, 0] S256x64
  natLt_1_32 : 1 < 32
  bcast_S_S8192x64 : S_.BroadcastsInDim S8192x64 (![] : Fin 0 → Fin S8192x64.rank)
  bcast_S_S64 : S_.BroadcastsInDim S64 (![] : Fin 0 → Fin S64.rank)
  reducesTo_S64_S_d0 : S64.ReducesTo [0] S_
  transposes_S8192x256_S256x8192_1_0 : S8192x256.Transposes [1, 0] S256x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  dot_S64x8192_S8192x256_S64x256_1_0_0_1_n_n_wf : DotDims.WF S64x8192 S8192x256 S64x256 [1] [0] [0] [1] [] []
  gather_S64x256_S8192x1_S8192x256_1_0_n_n_0_1_1256_wf : GatherDims.WF S64x256 S8192x1 S8192x256 [1] [0] [] [0] [] 1 ![1, 256]
  dot_S8192x256_S256x64_S8192x64_1_0_0_1_n_n_wf : DotDims.WF S8192x256 S256x64 S8192x64 [1] [0] [0] [1] [] []
  dot_S8192x256_S256x8192_S8192x8192_1_0_0_1_n_n_wf : DotDims.WF S8192x256 S256x8192 S8192x8192 [1] [0] [0] [1] [] []

variable [Facts₀]

def dot_S64x8192_S8192x256_S64x256_1_0_0_1_n_n : DotDims S64x8192 S8192x256 S64x256 where
  lhsContracting := [1]
  rhsContracting := [0]
  lhsNonContracting := [0]
  rhsNonContracting := [1]
  lhsBatch := []
  rhsBatch := []
  wf := dot_S64x8192_S8192x256_S64x256_1_0_0_1_n_n_wf
def gather_S64x256_S8192x1_S8192x256_1_0_n_n_0_1_1256 : GatherDims S64x256 S8192x1 S8192x256 where
  offsetDims := [1]
  collapsedSliceDims := [0]
  operandBatchingDims := []
  startIndicesBatchingDims := []
  startIndexMap := [0]
  indexVectorDim := 1
  sliceSizes := ![1, 256]
  wf := gather_S64x256_S8192x1_S8192x256_1_0_n_n_0_1_1256_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KB.R0Base.lean ====
import proofs.«401042_j13357348290857_3_alg».proof.Proof.Gen.Kernel.Launch
import proofs.«401042_j13357348290857_3_alg».proof.Proof.Gen.Kernel.Skeleton
import proofs.«401042_j13357348290857_3_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the two control cases, the staging memrefs, the carried accumulators -/

/-- The first conditional (reset of the accumulators): grid coordinate 1 is zero. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional (copy-out of the accumulators): grid coordinate 1 is one. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The inputs and the rows output are stored (or fetched) at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At an even point the sums and counts windows are idle and not written back. -/
theorem idleAt0_3_E : ∀ t : Fin cfg0.N, cond0_0 (grid0.coords t) → ¬cond0_1 (grid0.coords t) → cfg0.idle 3 (grid0.coords t) = true := by decide +kernel
theorem noFlush0_3_E : ∀ t : Fin cfg0.N, cond0_0 (grid0.coords t) → ¬cond0_1 (grid0.coords t) → (cfg0.win 3).flush t = false := by decide +kernel
theorem idleAt0_4_E : ∀ t : Fin cfg0.N, cond0_0 (grid0.coords t) → ¬cond0_1 (grid0.coords t) → cfg0.idle 4 (grid0.coords t) = true := by decide +kernel
theorem noFlush0_4_E : ∀ t : Fin cfg0.N, cond0_0 (grid0.coords t) → ¬cond0_1 (grid0.coords t) → (cfg0.win 4).flush t = false := by decide +kernel
/-- At an odd point they are stored. -/
theorem liveAt0_3_O : ∀ t : Fin cfg0.N, ¬cond0_0 (grid0.coords t) → cond0_1 (grid0.coords t) → cfg0.idle 3 (grid0.coords t) = false := by decide +kernel
theorem liveAt0_4_O : ∀ t : Fin cfg0.N, ¬cond0_0 (grid0.coords t) → cond0_1 (grid0.coords t) → cfg0.idle 4 (grid0.coords t) = false := by decide +kernel

/-- One staging buffer of each output window, through which its contents are stated. -/
abbrev VO0_2 : View sig .tc .vmem S2048x256 .bf16 := (Memref.whole cc0_stg2_0 : Memref sig .tc .vmem S2048x256 .bf16).view
abbrev VO0_3 : View sig .tc .vmem S1x64x256 .f32 := (Memref.whole cc0_stg3_0 : Memref sig .tc .vmem S1x64x256 .f32).view
abbrev VO0_4 : View sig .tc .vmem S1x1x64 .f32 := (Memref.whole cc0_stg4_0 : Memref sig .tc .vmem S1x1x64 .f32).view
/-- Each window's current staging memref at point `t`, and its wholeness. -/
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)
/-- The two accumulators: whole scoped buffers passed beside the windows, and the views their contents are stated through. -/
abbrev scM0_0 : Memref sig .tc .vmem S64x256 .f32 := Memref.whole cc0_scratch0
abbrev scM0_1 : Memref sig .tc .vmem S1x64 .f32 := Memref.whole cc0_scratch1
abbrev VS0_0 : View sig .tc .vmem S64x256 .f32 := scM0_0.view
abbrev VS0_1 : View sig .tc .vmem S1x64 .f32 := scM0_1.view

/-- The core's other scoped buffers (the second region's staging buffers and scratch), each whole at anything: the
    first region's body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- What the launch hands the region: both accumulators at anything, the other scoped buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

end Cert.Kernel.Hand

end
-- ==== Proof.KB.R0RunE.lean ====
import proofs.«401042_j13357348290857_3_alg».proof.Proof.KB.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at an even point (accumulators reset, nothing copied out): from the inputs' blocks, the rows output and both
    accumulators at anything, and the sums and counts windows at contents handed back untouched, to the rows output and
    both accumulators with their stores written. The store lists are what the run finds. -/
noncomputable def kernelRun0_E (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i)
    (x0 : Vec F S2048x256 .f32) (x1 : Vec F S2048x1 .i32) :
    Σ' (L2 : List (View.Piece (Elt F) S2048x256 .bf16)) (LS0 : List (View.Piece (Elt F) S64x256 .f32)), { LS1 : List (View.Piece (Elt F) S1x64 .f32) //
      ∀ (xi3 : Vec F S1x64x256 .f32) (xi4 : Vec F S1x1x64 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__normalize_accumulate_kernel i arg2 harg2 arg3 harg3 arg4 harg4 arg5 harg5 arg6 harg6 arg7 harg7 arg8 harg8) K } := by
  refine ⟨?_, ?_, ?_, fun xi3 xi4 E K => ?run⟩
  case run =>
    simp only [cc0__normalize_accumulate_kernel_eq_skeleton]; unfold cc0__normalize_accumulate_kernel_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.KB.R0RunO.lean ====
import proofs.«401042_j13357348290857_3_alg».proof.Proof.KB.R0RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at an odd point (no reset, accumulators copied out): from the inputs' blocks, the three outputs at anything
    and both accumulators at what the point before left, to every output and both accumulators with their stores written.
    The store lists are what the run finds. -/
noncomputable def kernelRun0_O (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i)
    (x0 : Vec F S2048x256 .f32) (x1 : Vec F S2048x1 .i32) (xs0 : Vec F S64x256 .f32) (xs1 : Vec F S1x64 .f32) :
    Σ' (L2 : List (View.Piece (Elt F) S2048x256 .bf16)) (L3 : List (View.Piece (Elt F) S1x64x256 .f32)) (L4 : List (View.Piece (Elt F) S1x1x64 .f32)) (LS0 : List (View.Piece (Elt F) S64x256 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__normalize_accumulate_kernel i arg2 harg2 arg3 harg3 arg4 harg4 arg5 harg5 arg6 harg6 arg7 harg7 arg8 harg8) K } := by
  refine ⟨?_, ?_, ?_, ?_, ?_, fun E K => ?run⟩
  case run =>
    simp only [cc0__normalize_accumulate_kernel_eq_skeleton]; unfold cc0__normalize_accumulate_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Hand

end
-- ==== Proof.KB.R0Outs.lean ====
import proofs.«401042_j13357348290857_3_alg».proof.Proof.KB.R0RunO

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0 (normalise rows, accumulate per-class sums and counts): interface -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block and the labels block of point `t`, at their literal types. -/
abbrev xblk0 (c : Dev nD) (t : Fin cfg0.N) : Vec F S2048x256 .f32 := iblk0 V c 0 t
abbrev lblk0 (c : Dev nD) (t : Fin cfg0.N) : Vec F S2048x1 .i32 := iblk0 V c 1 t

/-- An input window's current staging buffer holds its block at every point (it is fetched at each). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in each buffer -/

/-- The rows output after an even point: the stores the run found there cover it, -/
theorem cover0_E_2 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) (y : S2048x256.Idx) :
    ∃ pc ∈ (kernelRun0_E c i arg2 harg2 arg3 harg3 arg4 harg4 arg5 harg5 arg6 harg6 arg7 harg7 arg8 harg8 hc0 hc1 x0 x1).1, y ∈ pc.1.set :=
  View.cover_of_tiledL (kernelRun0_E c i arg2 harg2 arg3 harg3 arg4 harg4 arg5 harg5 arg6 harg6 arg7 harg7 arg8 harg8 hc0 hc1 x0 x1).1 S2048x256.size (by sl_kernel_rfl) y
/-- and this is what they leave (read back over arbitrary prior contents). -/
def out0_E_2 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) : Vec F S2048x256 .bf16 :=
  VO0_2.read (Elt F) (VO0_2.writes (Elt F) VO0_2.junk (kernelRun0_E c i arg2 harg2 arg3 harg3 arg4 harg4 arg5 harg5 arg6 harg6 arg7 harg7 arg8 harg8 hc0 hc1 x0 x1).1)

/-- The sums accumulator after an even point: the stores the run found there cover it, -/
theorem scover0_E_0 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) (y : S64x256.Idx) :
    ∃ pc ∈ (kernelRun0_E c i arg2 harg2 arg3 harg3 arg4 harg4 arg5 harg5 arg6 harg6 arg7 harg7 arg8 harg8 hc0 hc1 x0 x1).2.1, y ∈ pc.1.set :=
  View.cover_of_tiledL (kernelRun0_E c i arg2 harg2 arg3 harg3 arg4 harg4 arg5 harg5 arg6 harg6 arg7 harg7 arg8 harg8 hc0 hc1 x0 x1).2.1 S64x256.size (by sl_kernel_rfl) y
/-- and this is what they leave (read back over arbitrary prior contents). -/
def sout0_E_0 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) : Vec F S64x256 .f32 :=
  VS0_0.read (Elt F) (VS0_0.writes (Elt F) VS0_0.junk (kernelRun0_E c i arg2 harg2 arg3 harg3 arg4 harg4 arg5 harg5 arg6 harg6 arg7 harg7 arg8 harg8 hc0 hc1 x0 x1).2.1)

/-- The counts accumulator after an even point: the stores the run found there cover it, -/
theorem scover0_E_1 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) (y : S1x64.Idx) :
    ∃ pc ∈ (kernelRun0_E c i arg2 harg2 arg3 harg3 arg4 harg4 arg5 harg5 arg6 harg6 arg7 harg7 arg8 harg8 hc0 hc1 x0 x1).2.2.1, y ∈ pc.1.set :=
  View.cover_of_tiledL (kernelRun0_E c i arg2 harg2 arg3 harg3 arg4 harg4 arg5 harg5 arg6 harg6 arg7 harg7 arg8 harg8 hc0 hc1 x0 x1).2.2.1 S1x64.size (by sl_kernel_rfl) y
/-- and this is what they leave (read back over arbitrary prior contents). -/
def sout0_E_1 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) : Vec F S1x64 .f32 :=
  VS0_1.read (Elt F) (VS0_1.writes (Elt F) VS0_1.junk (kernelRun0_E c i arg2 harg2 arg3 harg3 arg4 harg4 arg5 harg5 arg6 harg6 arg7 harg7 arg8 harg8 hc0 hc1 x0 x1).2.2.1)

/-- The rows output after an odd point: the stores the run found there cover it, -/
theorem cover0_O_2 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) (y : S2048x256.Idx) :
    ∃ pc ∈ (kernelRun0_O c i arg2 harg2 arg3 harg3 arg4 harg4 arg5 harg5 arg6 harg6 arg7 harg7 arg8 harg8 hc0 hc1 x0 x1 xs0 xs1).1, y ∈ pc.1.set :=
  View.cover_of_tiledL (kernelRun0_O c i arg2 harg2 arg3 harg3 arg4 harg4 arg5 harg5 arg6 harg6 arg7 harg7 arg8 harg8 hc0 hc1 x0 x1 xs0 xs1).1 S2048x256.size (by sl_kernel_rfl) y
/-- and this is what they leave (read back over arbitrary prior contents). -/
def out0_O_2 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : Vec F S2048x256 .bf16 :=
  VO0_2.read (Elt F) (VO0_2.writes (Elt F) VO0_2.junk (kernelRun0_O c i arg2 harg2 arg3 harg3 arg4 harg4 arg5 harg5 arg6 harg6 arg7 harg7 arg8 harg8 hc0 hc1 x0 x1 xs0 xs1).1)

/-- The sums output after an odd point: the stores the run found there cover it, -/
theorem cover0_O_3 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) (y : S1x64x256.Idx) :
    ∃ pc ∈ (kernelRun0_O c i arg2 harg2 arg3 harg3 arg4 harg4 arg5 harg5 arg6 harg6 arg7 harg7 arg8 harg8 hc0 hc1 x0 x1 xs0 xs1).2.1, y ∈ pc.1.set :=
  View.cover_of_tiledL (kernelRun0_O c i arg2 harg2 arg3 harg3 arg4 harg4 arg5 harg5 arg6 harg6 arg7 harg7 arg8 harg8 hc0 hc1 x0 x1 xs0 xs1).2.1 S1x64x256.size (by sl_kernel_rfl) y
/-- and this is what they leave (read back over arbitrary prior contents). -/
def out0_O_3 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : Vec F S1x64x256 .f32 :=
  VO0_3.read (Elt F) (VO0_3.writes (Elt F) VO0_3.junk (kernelRun0_O c i arg2 harg2 arg3 harg3 arg4 harg4 arg5 harg5 arg6 harg6 arg7 harg7 arg8 harg8 hc0 hc1 x0 x1 xs0 xs1).2.1)

/-- The counts output after an odd point: the stores the run found there cover it, -/
theorem cover0_O_4 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) (y : S1x1x64.Idx) :
    ∃ pc ∈ (kernelRun0_O c i arg2 harg2 arg3 harg3 arg4 harg4 arg5 harg5 arg6 harg6 arg7 harg7 arg8 harg8 hc0 hc1 x0 x1 xs0 xs1).2.2.1, y ∈ pc.1.set :=
  View.cover_of_tiledL (kernelRun0_O c i arg2 harg2 arg3 harg3 arg4 harg4 arg5 harg5 arg6 harg6 arg7 harg7 arg8 harg8 hc0 hc1 x0 x1 xs0 xs1).2.2.1 S1x1x64.size (by sl_kernel_rfl) y
/-- and this is what they leave (read back over arbitrary prior contents). -/
def out0_O_4 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : Vec F S1x1x64 .f32 :=
  VO0_4.read (Elt F) (VO0_4.writes (Elt F) VO0_4.junk (kernelRun0_O c i arg2 harg2 arg3 harg3 arg4 harg4 arg5 harg5 arg6 harg6 arg7 harg7 arg8 harg8 hc0 hc1 x0 x1 xs0 xs1).2.2.1)

/-- The sums accumulator after an odd point: the stores the run found there cover it, -/
theorem scover0_O_0 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) (y : S64x256.Idx) :
    ∃ pc ∈ (kernelRun0_O c i arg2 harg2 arg3 harg3 arg4 harg4 arg5 harg5 arg6 harg6 arg7 harg7 arg8 harg8 hc0 hc1 x0 x1 xs0 xs1).2.2.2.1, y ∈ pc.1.set :=
  View.cover_of_tiledL (kernelRun0_O c i arg2 harg2 arg3 harg3 arg4 harg4 arg5 harg5 arg6 harg6 arg7 harg7 arg8 harg8 hc0 hc1 x0 x1 xs0 xs1).2.2.2.1 S64x256.size (by sl_kernel_rfl) y
/-- and this is what they leave (read back over arbitrary prior contents). -/
def sout0_O_0 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : Vec F S64x256 .f32 :=
  VS0_0.read (Elt F) (VS0_0.writes (Elt F) VS0_0.junk (kernelRun0_O c i arg2 harg2 arg3 harg3 arg4 harg4 arg5 harg5 arg6 harg6 arg7 harg7 arg8 harg8 hc0 hc1 x0 x1 xs0 xs1).2.2.2.1)

/-- The counts accumulator after an odd point: the stores the run found there cover it, -/
theorem scover0_O_1 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) (y : S1x64.Idx) :
    ∃ pc ∈ (kernelRun0_O c i arg2 harg2 arg3 harg3 arg4 harg4 arg5 harg5 arg6 harg6 arg7 harg7 arg8 harg8 hc0 hc1 x0 x1 xs0 xs1).2.2.2.2.1, y ∈ pc.1.set :=
  View.cover_of_tiledL (kernelRun0_O c i arg2 harg2 arg3 harg3 arg4 harg4 arg5 harg5 arg6 harg6 arg7 harg7 arg8 harg8 hc0 hc1 x0 x1 xs0 xs1).2.2.2.2.1 S1x64.size (by sl_kernel_rfl) y
/-- and this is what they leave (read back over arbitrary prior contents). -/
def sout0_O_1 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : Vec F S1x64 .f32 :=
  VS0_1.read (Elt F) (VS0_1.writes (Elt F) VS0_1.junk (kernelRun0_O c i arg2 harg2 arg3 harg3 arg4 harg4 arg5 harg5 arg6 harg6 arg7 harg7 arg8 harg8 hc0 hc1 x0 x1 xs0 xs1).2.2.2.2.1)

/-! ## What the run found, through the payloads

Every store of the body writes a whole buffer, so a buffer ends at its LAST store's payload; a load of a buffer stored
earlier in the same run reads that store's payload, a load of a buffer not yet stored reads what the body was handed. -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- A reshape to the same shape is the identity. -/
theorem k0_pay1_eq (v : FVec F S1x64 .f32) : k0_pay1 v = v := shapeCast_self v _

/-- Even point: the rows output is the normalised rows block. -/
theorem out0_E_2_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) : out0_E_2 c i arg2 harg2 arg3 harg3 arg4 harg4 arg5 harg5 arg6 harg6 arg7 harg7 arg8 harg8 hc0 hc1 x0 x1 = k0_pay7 x0 := by
  unfold out0_E_2
  rw [View.read_writes_eq_canon _ _ _ (cover0_E_2 c i arg2 harg2 arg3 harg3 arg4 harg4 arg5 harg5 arg6 harg6 arg7 harg7 arg8 harg8 hc0 hc1 x0 x1)]
  unfold kernelRun0_E
  dsimp only
  sl_unfold_words
  rw [View.canon_unit_zero hz2]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Even point: the sums accumulator is the reset value plus this tile's per-class sums. -/
theorem sout0_E_0_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) : sout0_E_0 c i arg2 harg2 arg3 harg3 arg4 harg4 arg5 harg5 arg6 harg6 arg7 harg7 arg8 harg8 hc0 hc1 x0 x1 = k0_pay9 x0 x1 (k0_pay4 (F := F)) := by
  unfold sout0_E_0
  rw [View.read_writes_eq_canon _ _ _ (scover0_E_0 c i arg2 harg2 arg3 harg3 arg4 harg4 arg5 harg5 arg6 harg6 arg7 harg7 arg8 harg8 hc0 hc1 x0 x1)]
  unfold kernelRun0_E
  dsimp only
  sl_unfold_words
  rw [View.canon_cons_unit_zero (S := S64x256) hz2]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Even point: the counts accumulator is the reset value plus this tile's per-class counts. -/
theorem sout0_E_1_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) : sout0_E_1 c i arg2 harg2 arg3 harg3 arg4 harg4 arg5 harg5 arg6 harg6 arg7 harg7 arg8 harg8 hc0 hc1 x0 x1 = k0_pay10 x1 (k0_pay5 (F := F)) := by
  unfold sout0_E_1
  rw [View.read_writes_eq_canon _ _ _ (scover0_E_1 c i arg2 harg2 arg3 harg3 arg4 harg4 arg5 harg5 arg6 harg6 arg7 harg7 arg8 harg8 hc0 hc1 x0 x1)]
  unfold kernelRun0_E
  dsimp only
  sl_unfold_words
  rw [View.canon_cons_unit_zero (S := S1x64) hz2]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Odd point: the rows output is the normalised rows block. -/
theorem out0_O_2_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : out0_O_2 c i arg2 harg2 arg3 harg3 arg4 harg4 arg5 harg5 arg6 harg6 arg7 harg7 arg8 harg8 hc0 hc1 x0 x1 xs0 xs1 = k0_pay7 x0 := by
  unfold out0_O_2
  rw [View.read_writes_eq_canon _ _ _ (cover0_O_2 c i arg2 harg2 arg3 harg3 arg4 harg4 arg5 harg5 arg6 harg6 arg7 harg7 arg8 harg8 hc0 hc1 x0 x1 xs0 xs1)]
  unfold kernelRun0_O
  dsimp only
  sl_unfold_words
  rw [View.canon_unit_zero hz2]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Odd point: the sums accumulator is what it held plus this tile's per-class sums. -/
theorem sout0_O_0_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : sout0_O_0 c i arg2 harg2 arg3 harg3 arg4 harg4 arg5 harg5 arg6 harg6 arg7 harg7 arg8 harg8 hc0 hc1 x0 x1 xs0 xs1 = k0_pay9 x0 x1 xs0 := by
  unfold sout0_O_0
  rw [View.read_writes_eq_canon _ _ _ (scover0_O_0 c i arg2 harg2 arg3 harg3 arg4 harg4 arg5 harg5 arg6 harg6 arg7 harg7 arg8 harg8 hc0 hc1 x0 x1 xs0 xs1)]
  unfold kernelRun0_O
  dsimp only
  sl_unfold_words
  rw [View.canon_unit_zero hz2]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Odd point: the counts accumulator is what it held plus this tile's per-class counts. -/
theorem sout0_O_1_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : sout0_O_1 c i arg2 harg2 arg3 harg3 arg4 harg4 arg5 harg5 arg6 harg6 arg7 harg7 arg8 harg8 hc0 hc1 x0 x1 xs0 xs1 = k0_pay10 x1 xs1 := by
  unfold sout0_O_1
  rw [View.read_writes_eq_canon _ _ _ (scover0_O_1 c i arg2 harg2 arg3 harg3 arg4 harg4 arg5 harg5 arg6 harg6 arg7 harg7 arg8 harg8 hc0 hc1 x0 x1 xs0 xs1)]
  unfold kernelRun0_O
  dsimp only
  sl_unfold_words
  rw [View.canon_unit_zero hz2]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Odd point: the sums output is the sums accumulator, reshaped. -/
theorem out0_O_3_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : out0_O_3 c i arg2 harg2 arg3 harg3 arg4 harg4 arg5 harg5 arg6 harg6 arg7 harg7 arg8 harg8 hc0 hc1 x0 x1 xs0 xs1 = k0_pay2 (k0_pay9 x0 x1 xs0) := by
  unfold out0_O_3
  rw [View.read_writes_eq_canon _ _ _ (cover0_O_3 c i arg2 harg2 arg3 harg3 arg4 harg4 arg5 harg5 arg6 harg6 arg7 harg7 arg8 harg8 hc0 hc1 x0 x1 xs0 xs1)]
  unfold kernelRun0_O
  dsimp only
  sl_unfold_words
  rw [View.canon_unit_zero hz3]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Odd point: the counts output is the counts accumulator, reshaped. -/
theorem out0_O_4_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : out0_O_4 c i arg2 harg2 arg3 harg3 arg4 harg4 arg5 harg5 arg6 harg6 arg7 harg7 arg8 harg8 hc0 hc1 x0 x1 xs0 xs1 = k0_pay3 (k0_pay10 x1 xs1) := by
  unfold out0_O_4
  rw [View.read_writes_eq_canon _ _ _ (cover0_O_4 c i arg2 harg2 arg3 harg3 arg4 harg4 arg5 harg5 arg6 harg6 arg7 harg7 arg8 harg8 hc0 hc1 x0 x1 xs0 xs1)]
  unfold kernelRun0_O
  dsimp only
  sl_unfold_words
  rw [View.canon_unit_zero hz3]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

end Cert.Kernel.Hand

end
-- ==== Proof.KB.R0.lean ====
import proofs.«401042_j13357348290857_3_alg».proof.Proof.KB.R0Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Point by point -/

theorem even_not_odd {n : ℕ} (h : n % 2 = 0) : ¬ n % 2 = 1 := by omega
theorem odd_of_not_even {n : ℕ} (h : ¬ n % 2 = 0) : n % 2 = 1 := by omega
/-- The conditions at an even point and at an odd point. -/
theorem hcE0 (t : Fin cfg0.N) (h0 : t.val % 2 = 0) : cond0_0 (grid0.coords t) := (hcond0_0 t).mpr h0
theorem hcE1 (t : Fin cfg0.N) (h0 : t.val % 2 = 0) : ¬cond0_1 (grid0.coords t) := fun h => even_not_odd h0 ((hcond0_1 t).mp h)
theorem hcO0 (t : Fin cfg0.N) (h0 : ¬t.val % 2 = 0) : ¬cond0_0 (grid0.coords t) := fun h => h0 ((hcond0_0 t).mp h)
theorem hcO1 (t : Fin cfg0.N) (h0 : ¬t.val % 2 = 0) : cond0_1 (grid0.coords t) := (hcond0_1 t).mpr (odd_of_not_even h0)

/-- What the three outputs' staging buffers and the two accumulators hold after an even point `t` whose blocks are
    `x0`, `x1` (the sums and counts outputs are not stored there: placeholders nothing reads), -/
def caseE0 (c : Dev nD) (t : Fin cfg0.N) (h0 : t.val % 2 = 0) (x0 : Vec F S2048x256 .f32) (x1 : Vec F S2048x1 .i32) : Vec F S2048x256 .bf16 × Vec F S1x64x256 .f32 × Vec F S1x1x64 .f32 × Vec F S64x256 .f32 × Vec F S1x64 .f32 :=
  (out0_E_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) x0 x1, VO0_3.read (Elt F) VO0_3.junk, VO0_4.read (Elt F) VO0_4.junk, sout0_E_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) x0 x1, sout0_E_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) x0 x1)
/-- and after an odd point, over what the point before left in the accumulators. -/
def caseO0 (c : Dev nD) (t : Fin cfg0.N) (h0 : ¬t.val % 2 = 0) (x0 : Vec F S2048x256 .f32) (x1 : Vec F S2048x1 .i32) (xs0 : Vec F S64x256 .f32) (xs1 : Vec F S1x64 .f32) : Vec F S2048x256 .bf16 × Vec F S1x64x256 .f32 × Vec F S1x1x64 .f32 × Vec F S64x256 .f32 × Vec F S1x64 .f32 :=
  (out0_O_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) x0 x1 xs0 xs1, out0_O_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) x0 x1 xs0 xs1, out0_O_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) x0 x1 xs0 xs1, sout0_O_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) x0 x1 xs0 xs1, sout0_O_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) x0 x1 xs0 xs1)

/-- The accumulation: what the outputs' staging buffers and the accumulators hold after the body at position `n`. -/
def outsAt0 (c : Dev nD) : (n : ℕ) → n < cfg0.N → Vec F S2048x256 .bf16 × Vec F S1x64x256 .f32 × Vec F S1x1x64 .f32 × Vec F S64x256 .f32 × Vec F S1x64 .f32
  | 0, hn => caseE0 c ⟨0, hn⟩ (Nat.zero_mod _) (xblk0 V c ⟨0, hn⟩) (lblk0 V c ⟨0, hn⟩)
  | n + 1, hn =>
    if h0 : (n + 1) % 2 = 0 then
      caseE0 c ⟨n + 1, hn⟩ h0 (xblk0 V c ⟨n + 1, hn⟩) (lblk0 V c ⟨n + 1, hn⟩)
    else
      caseO0 c ⟨n + 1, hn⟩ h0 (xblk0 V c ⟨n + 1, hn⟩) (lblk0 V c ⟨n + 1, hn⟩) (outsAt0 c n (Nat.lt_of_succ_lt hn)).2.2.2.1 (outsAt0 c n (Nat.lt_of_succ_lt hn)).2.2.2.2

theorem outsAt0_E (c : Dev nD) (t : Fin cfg0.N) (h0 : t.val % 2 = 0) :
    outsAt0 V c t.val t.isLt = caseE0 c t h0 (xblk0 V c t) (lblk0 V c t) := by
  obtain ⟨n, hn⟩ := t
  cases n with
  | zero => exact rfl
  | succ n => exact (dif_pos h0).trans rfl

theorem outsAt0_O (c : Dev nD) (t : Fin cfg0.N) (h0 : ¬t.val % 2 = 0) :
    outsAt0 V c t.val t.isLt = caseO0 c t h0 (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans rfl

/-- What the two scratch accumulators (per-class sums, per-class counts) hold after the body at position `n`. -/
def sc0At (c : Dev nD) : (n : ℕ) → n < cfg0.N → Vec F S64x256 .f32 × Vec F S1x64 .f32 :=
  fun n hn => ((outsAt0 V c n hn).2.2.2.1, (outsAt0 V c n hn).2.2.2.2)

/-- The region invariant before position `n`: what the launch hands over before the first point; afterwards both
    accumulators at what the point before left, the other scoped buffers at anything, the generator register. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.2.2.1 ∗ owns (c : Thread nD τ) scM0_1 fullShare (outsAt0 V c n hn).2.2.2.2 ∗ rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (outsAt0 V c n hn).2.2.2.1 ∗ owns (c : Thread nD τ) scM0_1 fullShare (outsAt0 V c n hn).2.2.2.2 ∗ rest0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare (outsAt0 V c (n - 1) (by omega)).2.2.2.1 ∗ owns (c : Thread nD τ) scM0_1 fullShare (outsAt0 V c (n - 1) (by omega)).2.2.2.2 ∗ rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

/-! ## What each point leaves, through the skeleton's payloads -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2_at (c : Dev nD) (t : Fin cfg0.N) : (dat0 V c).after 2 t = (outsAt0 V c t.val t.isLt).1 := by dsimp only [dat0]
theorem after0_3_at (c : Dev nD) (t : Fin cfg0.N) : (dat0 V c).after 3 t = (outsAt0 V c t.val t.isLt).2.1 := by dsimp only [dat0]
theorem after0_4_at (c : Dev nD) (t : Fin cfg0.N) : (dat0 V c).after 4 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks. At an even point the accumulators are handed over at
    anything (they are reset), the sums and counts windows are handed back as found; at an odd point the accumulators are
    handed over at what the point before left and every output is stored. Either way the accumulators come back at this
    point's contents, because the stores found by the run cover them. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  by_cases h0 : t.val % 2 = 0
  · rw [show (dat0 V c).leavesExact 0 t = owns (c : Thread nD τ) (ms0_0 t) fullShare ((dat0 V c).after 0 t) from by
        unfold Dat.leavesExact; rw [liveAt0_0 t], after0_0]
    rw [show (dat0 V c).leavesExact 1 t = owns (c : Thread nD τ) (ms0_1 t) fullShare ((dat0 V c).after 1 t) from by
        unfold Dat.leavesExact; rw [liveAt0_1 t], after0_1]
    rw [show (dat0 V c).leavesExact 2 t = owns (c : Thread nD τ) (ms0_2 t) fullShare ((dat0 V c).after 2 t) from by
        unfold Dat.leavesExact; rw [liveAt0_2 t], after0_2_at]
    rw [Dat.leavesExact_idle (dat0 V c) 3 t (idleAt0_3_E t (hcE0 t h0) (hcE1 t h0)) (noFlush0_3_E t (hcE0 t h0) (hcE1 t h0))]
    rw [Dat.leavesExact_idle (dat0 V c) 4 t (idleAt0_4_E t (hcE0 t h0) (hcE1 t h0)) (noFlush0_4_E t (hcE0 t h0) (hcE1 t h0))]
    rw [outsAt0_E V c t h0]
    unfold caseE0 out0_E_2 sout0_E_0 sout0_E_1; (try dsimp only)
    by_cases hz : t.val = 0
    · rw [PhiS_castSucc V c t, PhiS_zero V c _ _ hz, PhiA0_eq]
      iintro ⟨⟨⟨HS0, HS1, Hr⟩, Hg⟩, Ho, ⟨%d0, H0⟩, ⟨%d1, H1⟩, ⟨%d2, H2⟩, ⟨%d3, H3⟩, ⟨%d4, H4⟩⟩
      iapply ((kernelRun0_E c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_E_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t))
          isplitl [HS1]
          · unfold owns; iexists _; isplitr
            swap; · iexact HS1
            ipureintro; exact View.read_writes_of_cover _ _ _ _ _ (scover0_E_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t))
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_E_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t))
      isplitl [H3]; · iexists _; iexact H3
      iexists _; iexact H4
    · rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩⟩
      iapply ((kernelRun0_E c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexists _; iexact HS0
      isplitl [HS1]; · iexists _; iexact HS1
      iintro ⟨H0, H1, ⟨%e2, H2⟩, H3, H4, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_E_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t))
          isplitl [HS1]
          · unfold owns; iexists _; isplitr
            swap; · iexact HS1
            ipureintro; exact View.read_writes_of_cover _ _ _ _ _ (scover0_E_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t))
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_E_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t))
      isplitl [H3]; · iexists _; iexact H3
      iexists _; iexact H4
  · have hz : t.val ≠ 0 := fun hz => h0 (by rw [hz])
    rw [show (dat0 V c).leavesExact 0 t = owns (c : Thread nD τ) (ms0_0 t) fullShare ((dat0 V c).after 0 t) from by
        unfold Dat.leavesExact; rw [liveAt0_0 t], after0_0]
    rw [show (dat0 V c).leavesExact 1 t = owns (c : Thread nD τ) (ms0_1 t) fullShare ((dat0 V c).after 1 t) from by
        unfold Dat.leavesExact; rw [liveAt0_1 t], after0_1]
    rw [show (dat0 V c).leavesExact 2 t = owns (c : Thread nD τ) (ms0_2 t) fullShare ((dat0 V c).after 2 t) from by
        unfold Dat.leavesExact; rw [liveAt0_2 t], after0_2_at]
    rw [show (dat0 V c).leavesExact 3 t = owns (c : Thread nD τ) (ms0_3 t) fullShare ((dat0 V c).after 3 t) from by
        unfold Dat.leavesExact; rw [liveAt0_3_O t (hcO0 t h0) (hcO1 t h0)], after0_3_at]
    rw [show (dat0 V c).leavesExact 4 t = owns (c : Thread nD τ) (ms0_4 t) fullShare ((dat0 V c).after 4 t) from by
        unfold Dat.leavesExact; rw [liveAt0_4_O t (hcO0 t h0) (hcO1 t h0)], after0_4_at]
    rw [outsAt0_O V c t h0]
    unfold caseO0 out0_O_2 out0_O_3 out0_O_4 sout0_O_0 sout0_O_1; (try dsimp only)
    rw [PhiS_castSucc V c t, PhiS_pos V c _ _ hz]
    iintro ⟨⟨⟨HS0, HS1, Hr⟩, Hg⟩, Ho, ⟨%d0, H0⟩, ⟨%d1, H1⟩, ⟨%d2, H2⟩, ⟨%d3, H3⟩, ⟨%d4, H4⟩⟩
    iapply ((kernelRun0_O c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) _ _).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, ⟨%e2, H2⟩, ⟨%e3, H3⟩, ⟨%e4, H4⟩, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_O_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) _ _)
        isplitl [HS1]
        · unfold owns; iexists _; isplitr
          swap; · iexact HS1
          ipureintro; exact View.read_writes_of_cover _ _ _ _ _ (scover0_O_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_O_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) _ _)
    isplitl [H3]
    · unfold owns; iexists _; isplitr
      swap; · iexact H3
      ipureintro; exact View.read_writes_of_cover _ _ _ _ _ (cover0_O_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) _ _)
    unfold owns; iexists _; isplitr
    swap; · iexact H4
    ipureintro; exact View.read_writes_of_cover _ _ _ _ _ (cover0_O_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) _ _)

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives it back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

theorem hout0 (c : Dev nD) : (dat0 V c).Φ (Fin.last cfg0.N) ⊢ Pipeline.ΦA spec0 c :=
  Phi_out0 V c _ (by rw [Fin.val_last]; have : cfg0.N = 4 := N_0; omega)

/-! ## What each point leaves, through the skeleton's payloads (continued) -/

theorem recorded_eq0 (c : Dev nD) (t : Fin (cfg0.N + 1)) : (dat0 V c).recorded t = Set.univ := rfl

/-- The normalised rows block. -/
theorem after0_2 (c : Dev nD) (t : Fin cfg0.N) : (dat0 V c).after 2 t = k0_pay7 (xblk0 V c t) := by
  rw [after0_2_at]
  by_cases h0 : t.val % 2 = 0
  · rw [outsAt0_E V c t h0]; unfold caseE0; dsimp only
    exact out0_E_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t)
  · rw [outsAt0_O V c t h0]; unfold caseO0; dsimp only
    exact out0_O_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2
/-- At a core's first tile the accumulators are reset, then this tile is added. -/
theorem sc0At_even (c : Dev nD) (t : Fin cfg0.N) (h : t.val % 2 = 0) :
    sc0At V c t.val t.isLt = (k0_pay9 (xblk0 V c t) (lblk0 V c t) (k0_pay4 (F := F)), k0_pay10 (lblk0 V c t) (k0_pay5 (F := F))) := by
  have h0 : t.val % 2 = 0 := h
  show ((outsAt0 V c t.val t.isLt).2.2.2.1, (outsAt0 V c t.val t.isLt).2.2.2.2) = _
  rw [outsAt0_E V c t h0]; unfold caseE0; dsimp only
  rw [sout0_E_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t), sout0_E_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t)]
/-- At a core's second tile this tile is added to what the first left. -/
theorem sc0At_odd (c : Dev nD) (t : Fin cfg0.N) (h : t.val % 2 = 1) :
    sc0At V c t.val t.isLt = (k0_pay9 (xblk0 V c t) (lblk0 V c t) (sc0At V c (t.val - 1) (Nat.lt_of_le_of_lt (Nat.sub_le _ _) t.isLt)).1,
      k0_pay10 (lblk0 V c t) (sc0At V c (t.val - 1) (Nat.lt_of_le_of_lt (Nat.sub_le _ _) t.isLt)).2) := by
  have h0 : ¬t.val % 2 = 0 := by omega
  show ((outsAt0 V c t.val t.isLt).2.2.2.1, (outsAt0 V c t.val t.isLt).2.2.2.2) = (k0_pay9 (xblk0 V c t) (lblk0 V c t) (outsAt0 V c (t.val - 1) (Nat.lt_of_le_of_lt (Nat.sub_le _ _) t.isLt)).2.2.2.1, k0_pay10 (lblk0 V c t) (outsAt0 V c (t.val - 1) (Nat.lt_of_le_of_lt (Nat.sub_le _ _) t.isLt)).2.2.2.2)
  rw [outsAt0_O V c t h0]; unfold caseO0; dsimp only
  rw [sout0_O_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_O_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2]
/-- At a core's last tile the accumulators are copied out. -/
theorem after0_3_odd (c : Dev nD) (t : Fin cfg0.N) (h : t.val % 2 = 1) : (dat0 V c).after 3 t = k0_pay2 (sc0At V c t.val t.isLt).1 := by
  have h0 : ¬t.val % 2 = 0 := by omega
  rw [after0_3_at]
  show (outsAt0 V c t.val t.isLt).2.1 = k0_pay2 (outsAt0 V c t.val t.isLt).2.2.2.1
  rw [outsAt0_O V c t h0]; unfold caseO0; dsimp only
  rw [out0_O_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_O_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2]
theorem after0_4_odd (c : Dev nD) (t : Fin cfg0.N) (h : t.val % 2 = 1) : (dat0 V c).after 4 t = k0_pay3 (sc0At V c t.val t.isLt).2 := by
  have h0 : ¬t.val % 2 = 0 := by omega
  rw [after0_4_at]
  show (outsAt0 V c t.val t.isLt).2.2.1 = k0_pay3 (outsAt0 V c t.val t.isLt).2.2.2.2
  rw [outsAt0_O V c t h0]; unfold caseO0; dsimp only
  rw [out0_O_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_O_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2]

end Cert.Kernel.Hand

end
-- ==== Proof.KB.R1Runs.lean ====
import proofs.«401042_j13357348290857_3_alg».proof.Proof.Gen.Kernel.Launch
import proofs.«401042_j13357348290857_3_alg».proof.Proof.Gen.Kernel.Skeleton
import proofs.«401042_j13357348290857_3_alg».proof.Proof.Gen.Kernel.Points
import Idealize.ShloMosaic.Lib.Pipeline.FrameBody
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what its three control cases share

The grid is 8 query tiles by 4 key steps; point `t` is query tile `t / 4` at key step `t % 4`. The body resets the
running maximum and stores the alignment and separation blocks exactly at key step 0, folds this step's tile maximum
into the running maximum at every step, and stores the hinge of the running maximum exactly at key step 3. -/

/-- The body's first branch (reset; alignment and separation stores) is taken: the key step is 0. -/
abbrev cond1_0 (i : grid1.Coords) : Prop := k1_cond1 i = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The body's second branch (hinge store) is taken: the key step is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where each window is idle, and where it is written back -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
/-- The hinge block is stored at key step 3 only; -/
theorem idle1_5 : ∀ t : Fin cfg1.N, t.val % 4 ≠ 3 → cfg1.idle 5 (grid1.coords t) = true :=
  (by decide +kernel : ∀ t : Fin grid1.N, t.val % 4 ≠ 3 → idle1 5 (grid1.coords t) = true)
theorem live1_5 : ∀ t : Fin cfg1.N, t.val % 4 = 3 → cfg1.idle 5 (grid1.coords t) = false :=
  (by decide +kernel : ∀ t : Fin grid1.N, t.val % 4 = 3 → idle1 5 (grid1.coords t) = false)
/-- the alignment and separation blocks at key step 0 only. -/
theorem idle1_6 : ∀ t : Fin cfg1.N, t.val % 4 ≠ 0 → cfg1.idle 6 (grid1.coords t) = true :=
  (by decide +kernel : ∀ t : Fin grid1.N, t.val % 4 ≠ 0 → idle1 6 (grid1.coords t) = true)
theorem live1_6 : ∀ t : Fin cfg1.N, t.val % 4 = 0 → cfg1.idle 6 (grid1.coords t) = false :=
  (by decide +kernel : ∀ t : Fin grid1.N, t.val % 4 = 0 → idle1 6 (grid1.coords t) = false)
theorem idle1_7 : ∀ t : Fin cfg1.N, t.val % 4 ≠ 0 → cfg1.idle 7 (grid1.coords t) = true :=
  (by decide +kernel : ∀ t : Fin grid1.N, t.val % 4 ≠ 0 → idle1 7 (grid1.coords t) = true)
theorem live1_7 : ∀ t : Fin cfg1.N, t.val % 4 = 0 → cfg1.idle 7 (grid1.coords t) = false :=
  (by decide +kernel : ∀ t : Fin grid1.N, t.val % 4 = 0 → idle1 7 (grid1.coords t) = false)
/-- All three outputs are written back exactly after key step 3. -/
theorem noflush1_5 (t : Fin cfg1.N) (h : t.val % 4 ≠ 3) : (cfg1.win 5).flush t = false :=
  Bool.eq_false_iff.mpr fun hf => h ((flush1_5 t).mp hf)
theorem noflush1_6 (t : Fin cfg1.N) (h : t.val % 4 ≠ 3) : (cfg1.win 6).flush t = false :=
  Bool.eq_false_iff.mpr fun hf => h ((flush1_6 t).mp hf)
theorem noflush1_7 (t : Fin cfg1.N) (h : t.val % 4 ≠ 3) : (cfg1.win 7).flush t = false :=
  Bool.eq_false_iff.mpr fun hf => h ((flush1_7 t).mp hf)

/-! ## The memrefs the body is called with -/

abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x64 .f32 := win1_7.stage (cfg1.slots t 7)
abbrev hs1_7 (t : Fin cfg1.N) : (ms1_7 t).IsWhole := hstage1_7 ((cfg1.slots t 7).cast nbuf1_7)
/-- The running-maximum scratch, whole, and the view its contents are stated through. -/
abbrev scM1_0 : Memref sig .tc .vmem S1024x1 .f32 := Memref.whole cc1_scratch0
abbrev VS1_0 : View sig .tc .vmem S1024x1 .f32 := scM1_0.view
/-- One staging buffer of each output, through which its contents are stated (which one does not matter for pieces that cover). -/
abbrev VO1_5 : View sig .tc .vmem S1024x1 .f32 := (Memref.whole cc1_stg5_0 : Memref sig .tc .vmem S1024x1 .f32).view
abbrev VO1_6 : View sig .tc .vmem S1024x1 .f32 := (Memref.whole cc1_stg6_0 : Memref sig .tc .vmem S1024x1 .f32).view
abbrev VO1_7 : View sig .tc .vmem S1024x64 .f32 := (Memref.whole cc1_stg7_0 : Memref sig .tc .vmem S1024x64 .f32).view

/-- The core's scoped buffers that are no staging buffer of this region, the running-maximum scratch apart: each at some contents. With `P` for the scratch. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ P)

/-- The region's entry invariant, opened: the other scoped buffers and the scratch at some contents, the generator register at some state. -/
theorem PhiA1_eq (c : Dev nD) :
    (Pipeline.ΦA spec1 c : sProp 𝕄)
      = iprop(scoped1 (F := F) c (iprop(∃ d, owns (c : Thread nD τ) scM1_0 fullShare d)) ∗ (∃ r, prngReg c r)) := by
  unfold Pipeline.ΦA scoped1; rw [scopedRest1_eq]; simp only [scM1_0, owns_whole]; try rfl

/-! ## The body, case by case

In each case the body is run once on arbitrary whole memrefs; what it leaves in every buffer it stores into is the
list of stores it made there (last first), found by the run itself. -/

set_option maxHeartbeats 1000000 in
/-- KEY STEP 0 (first branch taken, second not). On whole memrefs — the five inputs at their contents, the hinge block's buffer (idle
    here) at contents handed back untouched, the alignment and separation buffers and the scratch at anything — the body runs to the
    continuation holding the inputs as they were, the hinge buffer untouched, and the alignment buffer, the separation buffer and the
    scratch each with its pieces written (last first): the witness the run finds. -/
noncomputable def kernelRun1_A (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S8192x256 .bf16) (x2 : Vec F S1024x1 .i32) (x3 : Vec F S1x8192 .i32) (x4 : Vec F S64x256 .f32) :
    Σ' (L6 : List (View.Piece (Elt F) S1024x1 .f32)) (L7 : List (View.Piece (Elt F) S1024x64 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

set_option maxHeartbeats 1000000 in
/-- KEY STEPS 1 AND 2 (neither branch taken). The three output buffers (all idle here) at contents handed back untouched, the scratch
    at what the step before left: the body runs to the continuation holding everything but the scratch as it was, the scratch with its
    pieces written. -/
noncomputable def kernelRun1_B (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S8192x256 .bf16) (x2 : Vec F S1024x1 .i32) (x3 : Vec F S1x8192 .i32) (x4 : Vec F S64x256 .f32) (xs0 : Vec F S1024x1 .f32) :
    { LS0 : List (View.Piece (Elt F) S1024x1 .f32) //
      ∀ (xi5 : Vec F S1024x1 .f32) (xi6 : Vec F S1024x1 .f32) (xi7 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10) K } := by
  refine ⟨?_, fun xi5 xi6 xi7 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

set_option maxHeartbeats 1000000 in
/-- KEY STEP 3 (second branch taken, first not). The alignment and separation buffers (idle here) at contents handed back untouched,
    the hinge buffer at anything, the scratch at what the step before left: the body runs to the continuation holding the inputs and
    the two idle buffers as they were, the hinge buffer and the scratch each with its pieces written. -/
noncomputable def kernelRun1_C (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S8192x256 .bf16) (x2 : Vec F S1024x1 .i32) (x3 : Vec F S1x8192 .i32) (x4 : Vec F S64x256 .f32) (xs0 : Vec F S1024x1 .f32) :
    Σ' (L5 : List (View.Piece (Elt F) S1024x1 .f32)), { LS0 : List (View.Piece (Elt F) S1024x1 .f32) //
      ∀ (xi6 : Vec F S1024x1 .f32) (xi7 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10) K } := by
  refine ⟨?_, ?_, fun xi6 xi7 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    iexists _; iexact HS0

end Cert.Kernel.Hand

end
-- ==== Proof.KB.R1Pieces.lean ====
import proofs.«401042_j13357348290857_3_alg».proof.Proof.KB.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what each case's stores leave

Every store of the body covers its whole buffer, so what a buffer ends with is the payload of the last store into it, as a
function of the blocks the body loaded: the query rows `x0`, the 2048 key rows and 2048 key labels at this key step's
offset within the whole key matrix `x1` and label row `x3`, the query labels `x2`, the prototypes `x4`, and what the
running-maximum scratch held (`xs0`; at key step 0 the fill value just stored). -/

theorem hz1_2 : (![0, 0] : Fin 2 → Nat) = fun _ => 0 := by funext a; fin_cases a <;> rfl

/-- KEY STEP 0: the alignment block is one minus the row-wise inner product of each query row with its own class prototype. -/
theorem canon1A_6 (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i) (x0 : Vec F S1024x256 .bf16) (x1 : Vec F S8192x256 .bf16) (x2 : Vec F S1024x1 .i32) (x3 : Vec F S1x8192 .i32) (x4 : Vec F S64x256 .f32) : View.canon (kernelRun1_A c i arg2 harg2 arg3 harg3 arg4 harg4 arg5 harg5 arg6 harg6 arg7 harg7 arg8 harg8 arg9 harg9 arg10 harg10 hc0 hc1 x0 x1 x2 x3 x4).1 = k1_pay6 x0 x2 x4 := by
  unfold kernelRun1_A; dsimp only; sl_unfold_words
  rw [View.canon_unit_zero hz1_2]
  simp only [View.readAt_eq_ld, harg2.read_unread, harg3.read_unread, harg4.read_unread, harg5.read_unread, harg6.read_unread, harg7.read_unread, harg8.read_unread, harg9.read_unread, harg10.read_unread, View.ld_unit_zero (S := S1024x256) hz1_2, View.ld_unit_zero (S := S1024x1) hz1_2, View.ld_unit_zero (S := S64x256) hz1_2, View.ld_unit_zero (S := S1024x64) hz1_2, View.readCov_unit_zero (S := S1024x1) _ hz1_2]
theorem cover1A_6 (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i) (x0 : Vec F S1024x256 .bf16) (x1 : Vec F S8192x256 .bf16) (x2 : Vec F S1024x1 .i32) (x3 : Vec F S1x8192 .i32) (x4 : Vec F S64x256 .f32) (y : S1024x1.Idx) : ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).1 S1024x1.size (by sl_kernel_rfl) y
/-- KEY STEP 0: the separation block, the hinged similarity of each query row to every other class's prototype. -/
theorem canon1A_7 (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i) (x0 : Vec F S1024x256 .bf16) (x1 : Vec F S8192x256 .bf16) (x2 : Vec F S1024x1 .i32) (x3 : Vec F S1x8192 .i32) (x4 : Vec F S64x256 .f32) : View.canon (kernelRun1_A c i arg2 harg2 arg3 harg3 arg4 harg4 arg5 harg5 arg6 harg6 arg7 harg7 arg8 harg8 arg9 harg9 arg10 harg10 hc0 hc1 x0 x1 x2 x3 x4).2.1 = k1_pay7 x0 x2 x4 := by
  unfold kernelRun1_A; dsimp only; sl_unfold_words
  rw [View.canon_unit_zero hz1_2]
  simp only [View.readAt_eq_ld, harg2.read_unread, harg3.read_unread, harg4.read_unread, harg5.read_unread, harg6.read_unread, harg7.read_unread, harg8.read_unread, harg9.read_unread, harg10.read_unread, View.ld_unit_zero (S := S1024x256) hz1_2, View.ld_unit_zero (S := S1024x1) hz1_2, View.ld_unit_zero (S := S64x256) hz1_2, View.ld_unit_zero (S := S1024x64) hz1_2, View.readCov_unit_zero (S := S1024x1) _ hz1_2]
theorem cover1A_7 (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i) (x0 : Vec F S1024x256 .bf16) (x1 : Vec F S8192x256 .bf16) (x2 : Vec F S1024x1 .i32) (x3 : Vec F S1x8192 .i32) (x4 : Vec F S64x256 .f32) (y : S1024x64.Idx) : ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.1 S1024x64.size (by sl_kernel_rfl) y
/-- KEY STEP 0: the running maximum is reset to the fill value, then this step's tile maximum joins it. -/
theorem canon1A_S (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i) (x0 : Vec F S1024x256 .bf16) (x1 : Vec F S8192x256 .bf16) (x2 : Vec F S1024x1 .i32) (x3 : Vec F S1x8192 .i32) (x4 : Vec F S64x256 .f32) : View.canon (kernelRun1_A c i arg2 harg2 arg3 harg3 arg4 harg4 arg5 harg5 arg6 harg6 arg7 harg7 arg8 harg8 arg9 harg9 arg10 harg10 hc0 hc1 x0 x1 x2 x3 x4).2.2.1 = k1_pay8 x0 (View.ld x1 (Rect.unit (s := S8192x256) (k1_off1 i) S2048x256.size (k1_off1_inb i))) x2 (View.ld x3 (Rect.unit (s := S1x8192) (k1_off2 i) S1x2048.size (k1_off2_inb i))) (k1_pay3 (F := F)) := by
  unfold kernelRun1_A; dsimp only; sl_unfold_words
  rw [View.canon_cons_unit_zero (S := S1024x1) hz1_2]
  simp only [View.readAt_eq_ld, harg2.read_unread, harg3.read_unread, harg4.read_unread, harg5.read_unread, harg6.read_unread, harg7.read_unread, harg8.read_unread, harg9.read_unread, harg10.read_unread, View.ld_unit_zero (S := S1024x256) hz1_2, View.ld_unit_zero (S := S1024x1) hz1_2, View.ld_unit_zero (S := S64x256) hz1_2, View.ld_unit_zero (S := S1024x64) hz1_2, View.readCov_unit_zero (S := S1024x1) _ hz1_2]
theorem cover1A_S (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i) (x0 : Vec F S1024x256 .bf16) (x1 : Vec F S8192x256 .bf16) (x2 : Vec F S1024x1 .i32) (x3 : Vec F S1x8192 .i32) (x4 : Vec F S64x256 .f32) (y : S1024x1.Idx) : ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.1 S1024x1.size (by sl_kernel_rfl) y

/-- KEY STEPS 1, 2: this step's tile maximum joins what the scratch held. -/
theorem canon1B_S (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : ¬cond1_1 i) (x0 : Vec F S1024x256 .bf16) (x1 : Vec F S8192x256 .bf16) (x2 : Vec F S1024x1 .i32) (x3 : Vec F S1x8192 .i32) (x4 : Vec F S64x256 .f32) (xs0 : Vec F S1024x1 .f32) : View.canon (kernelRun1_B c i arg2 harg2 arg3 harg3 arg4 harg4 arg5 harg5 arg6 harg6 arg7 harg7 arg8 harg8 arg9 harg9 arg10 harg10 hc0 hc1 x0 x1 x2 x3 x4 xs0).1 = k1_pay8 x0 (View.ld x1 (Rect.unit (s := S8192x256) (k1_off1 i) S2048x256.size (k1_off1_inb i))) x2 (View.ld x3 (Rect.unit (s := S1x8192) (k1_off2 i) S1x2048.size (k1_off2_inb i))) xs0 := by
  unfold kernelRun1_B; dsimp only; sl_unfold_words
  rw [View.canon_unit_zero hz1_2]
  simp only [View.readAt_eq_ld, harg2.read_unread, harg3.read_unread, harg4.read_unread, harg5.read_unread, harg6.read_unread, harg7.read_unread, harg8.read_unread, harg9.read_unread, harg10.read_unread, View.ld_unit_zero (S := S1024x256) hz1_2, View.ld_unit_zero (S := S1024x1) hz1_2, View.ld_unit_zero (S := S64x256) hz1_2, View.ld_unit_zero (S := S1024x64) hz1_2, View.readCov_unit_zero (S := S1024x1) _ hz1_2]
theorem cover1B_S (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : ¬cond1_1 i) (x0 : Vec F S1024x256 .bf16) (x1 : Vec F S8192x256 .bf16) (x2 : Vec F S1024x1 .i32) (x3 : Vec F S1x8192 .i32) (x4 : Vec F S64x256 .f32) (xs0 : Vec F S1024x1 .f32) (y : S1024x1.Idx) : ∃ pc ∈ (kernelRun1_B c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0).1 S1024x1.size (by sl_kernel_rfl) y

/-- KEY STEP 3: the same update of the scratch, -/
theorem canon1C_S (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : cond1_1 i) (x0 : Vec F S1024x256 .bf16) (x1 : Vec F S8192x256 .bf16) (x2 : Vec F S1024x1 .i32) (x3 : Vec F S1x8192 .i32) (x4 : Vec F S64x256 .f32) (xs0 : Vec F S1024x1 .f32) : View.canon (kernelRun1_C c i arg2 harg2 arg3 harg3 arg4 harg4 arg5 harg5 arg6 harg6 arg7 harg7 arg8 harg8 arg9 harg9 arg10 harg10 hc0 hc1 x0 x1 x2 x3 x4 xs0).2.1 = k1_pay8 x0 (View.ld x1 (Rect.unit (s := S8192x256) (k1_off1 i) S2048x256.size (k1_off1_inb i))) x2 (View.ld x3 (Rect.unit (s := S1x8192) (k1_off2 i) S1x2048.size (k1_off2_inb i))) xs0 := by
  unfold kernelRun1_C; dsimp only; sl_unfold_words
  rw [View.canon_unit_zero hz1_2]
  simp only [View.readAt_eq_ld, harg2.read_unread, harg3.read_unread, harg4.read_unread, harg5.read_unread, harg6.read_unread, harg7.read_unread, harg8.read_unread, harg9.read_unread, harg10.read_unread, View.ld_unit_zero (S := S1024x256) hz1_2, View.ld_unit_zero (S := S1024x1) hz1_2, View.ld_unit_zero (S := S64x256) hz1_2, View.ld_unit_zero (S := S1024x64) hz1_2, View.readCov_unit_zero (S := S1024x1) _ hz1_2]
theorem cover1C_S (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : cond1_1 i) (x0 : Vec F S1024x256 .bf16) (x1 : Vec F S8192x256 .bf16) (x2 : Vec F S1024x1 .i32) (x3 : Vec F S1x8192 .i32) (x4 : Vec F S64x256 .f32) (xs0 : Vec F S1024x1 .f32) (y : S1024x1.Idx) : ∃ pc ∈ (kernelRun1_C c i arg2 harg2 arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0).2.1 S1024x1.size (by sl_kernel_rfl) y
/-- and the hinge block is the hinge of the scratch as just updated. -/
theorem canon1C_5 (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : cond1_1 i) (x0 : Vec F S1024x256 .bf16) (x1 : Vec F S8192x256 .bf16) (x2 : Vec F S1024x1 .i32) (x3 : Vec F S1x8192 .i32) (x4 : Vec F S64x256 .f32) (xs0 : Vec F S1024x1 .f32) : View.canon (kernelRun1_C c i arg2 harg2 arg3 harg3 arg4 harg4 arg5 harg5 arg6 harg6 arg7 harg7 arg8 harg8 arg9 harg9 arg10 harg10 hc0 hc1 x0 x1 x2 x3 x4 xs0).1 = k1_pay9 (k1_pay8 x0 (View.ld x1 (Rect.unit (s := S8192x256) (k1_off1 i) S2048x256.size (k1_off1_inb i))) x2 (View.ld x3 (Rect.unit (s := S1x8192) (k1_off2 i) S1x2048.size (k1_off2_inb i))) xs0) := by
  unfold kernelRun1_C; dsimp only; sl_unfold_words
  rw [View.canon_unit_zero hz1_2]
  simp only [View.readAt_eq_ld, harg2.read_unread, harg3.read_unread, harg4.read_unread, harg5.read_unread, harg6.read_unread, harg7.read_unread, harg8.read_unread, harg9.read_unread, harg10.read_unread, View.ld_unit_zero (S := S1024x256) hz1_2, View.ld_unit_zero (S := S1024x1) hz1_2, View.ld_unit_zero (S := S64x256) hz1_2, View.ld_unit_zero (S := S1024x64) hz1_2, View.readCov_unit_zero (S := S1024x1) _ hz1_2]
theorem cover1C_5 (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : cond1_1 i) (x0 : Vec F S1024x256 .bf16) (x1 : Vec F S8192x256 .bf16) (x2 : Vec F S1024x1 .i32) (x3 : Vec F S1x8192 .i32) (x4 : Vec F S64x256 .f32) (xs0 : Vec F S1024x1 .f32) (y : S1024x1.Idx) : ∃ pc ∈ (kernelRun1_C c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0).1 S1024x1.size (by sl_kernel_rfl) y

end Cert.Kernel.Hand

end
-- ==== Proof.KB.R1.lean ====
import proofs.«401042_j13357348290857_3_alg».proof.Proof.KB.R1Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (per-row alignment, separation terms, running hardest-negative maximum): interface -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows block, the whole key matrix, the query labels block, all key labels, the prototypes, at literal types. -/
abbrev qblk1 (c : Dev nD) (t : Fin cfg1.N) : Vec F S1024x256 .bf16 := iblk1 V c 0 t
abbrev kall1 (c : Dev nD) (t : Fin cfg1.N) : Vec F S8192x256 .bf16 := iblk1 V c 1 t
abbrev lq1 (c : Dev nD) (t : Fin cfg1.N) : Vec F S1024x1 .i32 := iblk1 V c 2 t
abbrev lkall1 (c : Dev nD) (t : Fin cfg1.N) : Vec F S1x8192 .i32 := iblk1 V c 3 t
abbrev pr1 (c : Dev nD) (t : Fin cfg1.N) : Vec F S64x256 .f32 := iblk1 V c 4 t

/-- The key rows and key labels the body loads at point `t`: rows / columns `(t mod 4)·2048 …` of the whole. -/
def kslice1 (c : Dev nD) (t : Fin cfg1.N) : Vec F S2048x256 .bf16 :=
  View.ld (kall1 V c t) (Rect.unit (s := S8192x256) (k1_off1 (grid1.coords t)) S2048x256.size (k1_off1_inb (grid1.coords t)))
def lkslice1 (c : Dev nD) (t : Fin cfg1.N) : Vec F S1x2048 .i32 :=
  View.ld (lkall1 V c t) (Rect.unit (s := S1x8192) (k1_off2 (grid1.coords t)) S1x2048.size (k1_off2_inb (grid1.coords t)))

/-- The key-step coordinate of point `t` is `t mod 4`. -/
theorem coord1_1 : ∀ t : Fin cfg1.N, ((grid1.coords t) 1).val = t.val % 4 :=
  (by decide +kernel : ∀ t : Fin grid1.N, ((grid1.coords t) 1).val = t.val % 4)

theorem kslice1_apply (c : Dev nD) (t : Fin cfg1.N) (r : Fin 2048) (d : Fin 256) :
    kslice1 V c t (ValueIdx.ix2 r d) = kall1 V c t (ValueIdx.ix2 (⟨(t.val % 4) * 2048 + r.val, by omega⟩ : Fin 8192) d) := by
  unfold kslice1
  show kall1 V c t ((Rect.unit (s := S8192x256) (k1_off1 (grid1.coords t)) S2048x256.size (k1_off1_inb (grid1.coords t))).idx (ValueIdx.ix2 r d)) = _
  refine congrArg (kall1 V c t) (funext fun a => Fin.ext ?_)
  rw [LoadRect.idx_apply]
  show k1_off1 (grid1.coords t) a + 1 * ((ValueIdx.ix2 r d) a).val = _
  rw [k1_off1_eq]
  match a with
  | ⟨0, _⟩ => show 2048 * ((grid1.coords t) 1).val + 1 * r.val = t.val % 4 * 2048 + r.val; rw [coord1_1]; omega
  | ⟨1, _⟩ => show 0 + 1 * d.val = d.val; omega
theorem lkslice1_apply (c : Dev nD) (t : Fin cfg1.N) (r : Fin 2048) :
    lkslice1 V c t (ValueIdx.ix2 (0 : Fin 1) r) = lkall1 V c t (ValueIdx.ix2 (0 : Fin 1) (⟨(t.val % 4) * 2048 + r.val, by omega⟩ : Fin 8192)) := by
  unfold lkslice1
  show lkall1 V c t ((Rect.unit (s := S1x8192) (k1_off2 (grid1.coords t)) S1x2048.size (k1_off2_inb (grid1.coords t))).idx (ValueIdx.ix2 (0 : Fin 1) r)) = _
  refine congrArg (lkall1 V c t) (funext fun a => Fin.ext ?_)
  rw [LoadRect.idx_apply]
  show k1_off2 (grid1.coords t) a + 1 * ((ValueIdx.ix2 (0 : Fin 1) r) a).val = _
  rw [k1_off2_eq]
  match a with
  | ⟨0, _⟩ => show 0 + 1 * (0 : Fin 1).val = (0 : Fin 1).val; rfl
  | ⟨1, _⟩ => show 2048 * ((grid1.coords t) 1).val + 1 * r.val = t.val % 4 * 2048 + r.val; rw [coord1_1]; omega

/-! ## What the scratch and the stored-once outputs hold, point by point -/

/-- What the running-maximum scratch holds after the body at position `n`: at a query tile's first key step the fill value joined with
    this step's tile maximum, later what the step before left joined with this step's. -/
def m1At (c : Dev nD) : (n : ℕ) → n < cfg1.N → Vec F S1024x1 .f32
  | 0, hn => k1_pay8 (qblk1 V c ⟨0, hn⟩) (kslice1 V c ⟨0, hn⟩) (lq1 V c ⟨0, hn⟩) (lkslice1 V c ⟨0, hn⟩) (k1_pay3 (F := F))
  | n + 1, hn =>
    if (n + 1) % 4 = 0 then k1_pay8 (qblk1 V c ⟨n + 1, hn⟩) (kslice1 V c ⟨n + 1, hn⟩) (lq1 V c ⟨n + 1, hn⟩) (lkslice1 V c ⟨n + 1, hn⟩) (k1_pay3 (F := F))
    else k1_pay8 (qblk1 V c ⟨n + 1, hn⟩) (kslice1 V c ⟨n + 1, hn⟩) (lq1 V c ⟨n + 1, hn⟩) (lkslice1 V c ⟨n + 1, hn⟩) (m1At c n (Nat.lt_of_succ_lt hn))
/-- The alignment block after position `n`: stored at the tile's first key step, kept afterwards. -/
def a1_6At (c : Dev nD) : (n : ℕ) → n < cfg1.N → Vec F S1024x1 .f32
  | 0, hn => k1_pay6 (qblk1 V c ⟨0, hn⟩) (lq1 V c ⟨0, hn⟩) (pr1 V c ⟨0, hn⟩)
  | n + 1, hn => if (n + 1) % 4 = 0 then k1_pay6 (qblk1 V c ⟨n + 1, hn⟩) (lq1 V c ⟨n + 1, hn⟩) (pr1 V c ⟨n + 1, hn⟩) else a1_6At c n (Nat.lt_of_succ_lt hn)
/-- The separation block after position `n`, likewise. -/
def a1_7At (c : Dev nD) : (n : ℕ) → n < cfg1.N → Vec F S1024x64 .f32
  | 0, hn => k1_pay7 (qblk1 V c ⟨0, hn⟩) (lq1 V c ⟨0, hn⟩) (pr1 V c ⟨0, hn⟩)
  | n + 1, hn => if (n + 1) % 4 = 0 then k1_pay7 (qblk1 V c ⟨n + 1, hn⟩) (lq1 V c ⟨n + 1, hn⟩) (pr1 V c ⟨n + 1, hn⟩) else a1_7At c n (Nat.lt_of_succ_lt hn)

/-- The region invariant before position `n`: at entry the class's; afterwards the scoped rest with the running-maximum scratch at what
    the point before left, the generator register at some state. -/
def PhiS1 (c : Dev nD) : (n : ℕ) → n ≤ cfg1.N → sProp 𝕄
  | 0, _ => Pipeline.ΦA spec1 c
  | n + 1, hn => iprop(scoped1 (F := F) c (owns (c : Thread nD τ) scM1_0 fullShare (m1At V c n hn)) ∗ (∃ r, prngReg c r))

theorem PhiS1_succ (c : Dev nD) (n : ℕ) (hn : n < cfg1.N) :
    PhiS1 V c (n + 1) hn = iprop(scoped1 (F := F) c (owns (c : Thread nD τ) scM1_0 fullShare (m1At V c n hn)) ∗ (∃ r, prngReg c r)) := rfl
theorem PhiS1_pos (c : Dev nD) (n : ℕ) (h : n ≤ cfg1.N) (hz : n ≠ 0) :
    PhiS1 V c n h = iprop(scoped1 (F := F) c (owns (c : Thread nD τ) scM1_0 fullShare (m1At V c (n - 1) (by omega))) ∗ (∃ r, prngReg c r)) := by
  cases n with
  | zero => exact absurd rfl hz
  | succ n => rfl

/-- The other scoped buffers ride along whatever is said of the scratch. -/
theorem scoped1_mono (c : Dev nD) {P Q : sProp 𝕄} (h : P ⊢ Q) : scoped1 (F := F) c P ⊢ scoped1 (F := F) c Q := by
  unfold scoped1
  exact sep_mono .rfl (sep_mono .rfl (sep_mono .rfl (sep_mono .rfl (sep_mono .rfl (sep_mono .rfl (sep_mono .rfl (sep_mono .rfl (sep_mono .rfl (sep_mono .rfl (sep_mono .rfl (sep_mono .rfl (h))))))))))))

/-- At any position the invariant gives the scratch at SOME contents. -/
theorem PhiS1_any (c : Dev nD) (n : ℕ) (h : n ≤ cfg1.N) :
    PhiS1 V c n h ⊢ iprop(scoped1 (F := F) c (iprop(∃ d, owns (c : Thread nD τ) scM1_0 fullShare d)) ∗ (∃ r, prngReg c r)) := by
  cases n with
  | zero => rw [show PhiS1 V c 0 h = Pipeline.ΦA spec1 c from rfl, PhiA1_eq]
  | succ n => rw [PhiS1_succ]; exact sep_mono (scoped1_mono c (by iintro H; iexists _; iexact H)) .rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay9 (m1At V c t.val t.isLt)
    | ⟨6, _⟩ => a1_6At V c t.val t.isLt
    | ⟨7, _⟩ => a1_7At V c t.val t.isLt
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by dsimp only [dat1]
theorem owed_eq1 (c : Dev nD) (t : Fin (cfg1.N + 1)) : (dat1 V c).owed t = 0 := by dsimp only [dat1]
/-- The query-rows window and the all-keys window read one array: each holds one half of it; every other input is held whole. -/
theorem q_eq1_0 (c : Dev nD) : (dat1 V c).q 0 = fullShare.left := by dsimp only [dat1]
theorem q_eq1_1 (c : Dev nD) : (dat1 V c).q 1 = fullShare.right := by dsimp only [dat1]
theorem q_eq1 (c : Dev nD) (w : Fin cfg1.W) (h : 2 ≤ w.val) : (dat1 V c).q w = fullShare := by
  match w, h with
  | ⟨0, _⟩, h => exact absurd h (Nat.not_succ_le_zero 1)
  | ⟨1, _⟩, h => exact absurd h (Nat.not_succ_le_self 1)
  | ⟨2, _⟩, _ => dsimp only [dat1]
  | ⟨3, _⟩, _ => dsimp only [dat1]
  | ⟨4, _⟩, _ => dsimp only [dat1]
  | ⟨5, _⟩, _ => dsimp only [dat1]
  | ⟨6, _⟩, _ => dsimp only [dat1]
  | ⟨7, _⟩, _ => dsimp only [dat1]
/-- The body takes on no new units: the bound on recorded pairs stays everything. -/
theorem recorded_eq1 (c : Dev nD) (t : Fin (cfg1.N + 1)) : (dat1 V c).recorded t = Set.univ := rfl

/-! ## What each point leaves, through the skeleton's payloads -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay9 (m1At V c t.val t.isLt) := by dsimp only [dat1]
theorem after1_6 (c : Dev nD) (t : Fin cfg1.N) : (dat1 V c).after 6 t = a1_6At V c t.val t.isLt := by dsimp only [dat1]
theorem after1_7 (c : Dev nD) (t : Fin cfg1.N) : (dat1 V c).after 7 t = a1_7At V c t.val t.isLt := by dsimp only [dat1]

/-- At a query tile's first key step the running maximum is reset to the fill value, then this step's tile maximum joins it. -/
theorem m1At_first (c : Dev nD) (t : Fin cfg1.N) (h : t.val % 4 = 0) :
    m1At V c t.val t.isLt = k1_pay8 (qblk1 V c t) (kslice1 V c t) (lq1 V c t) (lkslice1 V c t) (k1_pay3 (F := F)) := by
  obtain ⟨n, hn⟩ := t
  cases n with
  | zero => rfl
  | succ n => exact if_pos h
/-- At a later key step this step's tile maximum joins what the step before left. -/
theorem m1At_later (c : Dev nD) (t : Fin cfg1.N) (h : t.val % 4 ≠ 0) :
    m1At V c t.val t.isLt = k1_pay8 (qblk1 V c t) (kslice1 V c t) (lq1 V c t) (lkslice1 V c t) (m1At V c (t.val - 1) (Nat.lt_of_le_of_lt (Nat.sub_le _ _) t.isLt)) := by
  obtain ⟨n, hn⟩ := t
  cases n with
  | zero => exact absurd (Nat.zero_mod _) h
  | succ n => exact (if_neg h).trans rfl
theorem a1_6At_first (c : Dev nD) (t : Fin cfg1.N) (h : t.val % 4 = 0) : a1_6At V c t.val t.isLt = k1_pay6 (qblk1 V c t) (lq1 V c t) (pr1 V c t) := by
  obtain ⟨n, hn⟩ := t
  cases n with
  | zero => rfl
  | succ n => exact if_pos h
theorem a1_6At_later (c : Dev nD) (t : Fin cfg1.N) (h : t.val % 4 ≠ 0) : a1_6At V c t.val t.isLt = a1_6At V c (t.val - 1) (Nat.lt_of_le_of_lt (Nat.sub_le _ _) t.isLt) := by
  obtain ⟨n, hn⟩ := t
  cases n with
  | zero => exact absurd (Nat.zero_mod _) h
  | succ n => exact (if_neg h).trans rfl
theorem a1_7At_first (c : Dev nD) (t : Fin cfg1.N) (h : t.val % 4 = 0) : a1_7At V c t.val t.isLt = k1_pay7 (qblk1 V c t) (lq1 V c t) (pr1 V c t) := by
  obtain ⟨n, hn⟩ := t
  cases n with
  | zero => rfl
  | succ n => exact if_pos h
theorem a1_7At_later (c : Dev nD) (t : Fin cfg1.N) (h : t.val % 4 ≠ 0) : a1_7At V c t.val t.isLt = a1_7At V c (t.val - 1) (Nat.lt_of_le_of_lt (Nat.sub_le _ _) t.isLt) := by
  obtain ⟨n, hn⟩ := t
  cases n with
  | zero => exact absurd (Nat.zero_mod _) h
  | succ n => exact (if_neg h).trans rfl

/-- At a query tile's last key step the hinge of the running maximum is stored. -/
theorem after1_5_last (c : Dev nD) (t : Fin cfg1.N) (h : t.val % 4 = 3) : (dat1 V c).after 5 t = k1_pay9 (m1At V c t.val t.isLt) := after1_5 V c t
/-- The alignment and separation blocks are stored at the first key step and kept until written back. -/
theorem after1_6_first (c : Dev nD) (t : Fin cfg1.N) (h : t.val % 4 = 0) : (dat1 V c).after 6 t = k1_pay6 (qblk1 V c t) (lq1 V c t) (pr1 V c t) :=
  (after1_6 V c t).trans (a1_6At_first V c t h)
theorem after1_7_first (c : Dev nD) (t : Fin cfg1.N) (h : t.val % 4 = 0) : (dat1 V c).after 7 t = k1_pay7 (qblk1 V c t) (lq1 V c t) (pr1 V c t) :=
  (after1_7 V c t).trans (a1_7At_first V c t h)
theorem after1_6_later (c : Dev nD) (t : Fin cfg1.N) (h : t.val % 4 ≠ 0) :
    (dat1 V c).after 6 t = (dat1 V c).after 6 ⟨t.val - 1, Nat.lt_of_le_of_lt (Nat.sub_le _ _) t.isLt⟩ :=
  (after1_6 V c t).trans ((a1_6At_later V c t h).trans (after1_6 V c ⟨t.val - 1, Nat.lt_of_le_of_lt (Nat.sub_le _ _) t.isLt⟩).symm)
theorem after1_7_later (c : Dev nD) (t : Fin cfg1.N) (h : t.val % 4 ≠ 0) :
    (dat1 V c).after 7 t = (dat1 V c).after 7 ⟨t.val - 1, Nat.lt_of_le_of_lt (Nat.sub_le _ _) t.isLt⟩ :=
  (after1_7 V c t).trans ((a1_7At_later V c t h).trans (after1_7 V c ⟨t.val - 1, Nat.lt_of_le_of_lt (Nat.sub_le _ _) t.isLt⟩).symm)

/-! ## What the body finds in each buffer -/

/-- An input's current buffer holds its block at every point, fetched there or not: unfetched, the block index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- After its first key step a query tile's alignment (separation) buffer holds, at every later step, what the step before left: nothing
    stores into it and it is not written back before the tile's last step. -/
theorem before1_6_aux (c : Dev nD) : ∀ (k : ℕ) (t : Fin cfg1.N), t.val = k → t.val % 4 ≠ 0 → ∀ d,
    (dat1 V c).before 6 t d = (dat1 V c).after 6 ⟨t.val - 1, Nat.lt_of_le_of_lt (Nat.sub_le _ _) t.isLt⟩ := by
  intro k
  induction k using Nat.strong_induction_on with
  | _ k ih =>
    intro t hk h d
    have ht : t.val ≠ 0 := fun e => h (by rw [e])
    have hlt : t.val - 1 < k := by omega
    rw [(dat1 V c).before_of_pos 6 t ht ((cfg1.win 6).fetch_out rfl t) d]
    rw [noflush1_6 ⟨t.val - 1, Nat.lt_of_le_of_lt (Nat.sub_le _ _) t.isLt⟩ (by show (t.val - 1) % 4 ≠ 3; omega), if_neg Bool.false_ne_true]
    unfold Dat.left
    by_cases hz : (t.val - 1) % 4 = 0
    · rw [live1_6 ⟨t.val - 1, Nat.lt_of_le_of_lt (Nat.sub_le _ _) t.isLt⟩ hz]
      show (dat1 V c).kept 6 ⟨t.val - 1, Nat.lt_of_le_of_lt (Nat.sub_le _ _) t.isLt⟩ d = _
      unfold Dat.kept
      rw [Pipeline.fill_of_clip_none 6 _ (fun _ => rfl) d ((dat1 V c).after 6 ⟨t.val - 1, Nat.lt_of_le_of_lt (Nat.sub_le _ _) t.isLt⟩), Window.fill_cut]
    · rw [idle1_6 ⟨t.val - 1, Nat.lt_of_le_of_lt (Nat.sub_le _ _) t.isLt⟩ hz]
      show (dat1 V c).before 6 ⟨t.val - 1, Nat.lt_of_le_of_lt (Nat.sub_le _ _) t.isLt⟩ d = _
      rw [ih (t.val - 1) hlt ⟨t.val - 1, Nat.lt_of_le_of_lt (Nat.sub_le _ _) t.isLt⟩ rfl hz d]
      exact (after1_6_later V c ⟨t.val - 1, Nat.lt_of_le_of_lt (Nat.sub_le _ _) t.isLt⟩ hz).symm
theorem before1_6_at (c : Dev nD) (t : Fin cfg1.N) (h : t.val % 4 ≠ 0) (d) :
    (dat1 V c).before 6 t d = (dat1 V c).after 6 ⟨t.val - 1, Nat.lt_of_le_of_lt (Nat.sub_le _ _) t.isLt⟩ := before1_6_aux V c t.val t rfl h d
theorem before1_7_aux (c : Dev nD) : ∀ (k : ℕ) (t : Fin cfg1.N), t.val = k → t.val % 4 ≠ 0 → ∀ d,
    (dat1 V c).before 7 t d = (dat1 V c).after 7 ⟨t.val - 1, Nat.lt_of_le_of_lt (Nat.sub_le _ _) t.isLt⟩ := by
  intro k
  induction k using Nat.strong_induction_on with
  | _ k ih =>
    intro t hk h d
    have ht : t.val ≠ 0 := fun e => h (by rw [e])
    have hlt : t.val - 1 < k := by omega
    rw [(dat1 V c).before_of_pos 7 t ht ((cfg1.win 7).fetch_out rfl t) d]
    rw [noflush1_7 ⟨t.val - 1, Nat.lt_of_le_of_lt (Nat.sub_le _ _) t.isLt⟩ (by show (t.val - 1) % 4 ≠ 3; omega), if_neg Bool.false_ne_true]
    unfold Dat.left
    by_cases hz : (t.val - 1) % 4 = 0
    · rw [live1_7 ⟨t.val - 1, Nat.lt_of_le_of_lt (Nat.sub_le _ _) t.isLt⟩ hz]
      show (dat1 V c).kept 7 ⟨t.val - 1, Nat.lt_of_le_of_lt (Nat.sub_le _ _) t.isLt⟩ d = _
      unfold Dat.kept
      rw [Pipeline.fill_of_clip_none 7 _ (fun _ => rfl) d ((dat1 V c).after 7 ⟨t.val - 1, Nat.lt_of_le_of_lt (Nat.sub_le _ _) t.isLt⟩), Window.fill_cut]
    · rw [idle1_7 ⟨t.val - 1, Nat.lt_of_le_of_lt (Nat.sub_le _ _) t.isLt⟩ hz]
      show (dat1 V c).before 7 ⟨t.val - 1, Nat.lt_of_le_of_lt (Nat.sub_le _ _) t.isLt⟩ d = _
      rw [ih (t.val - 1) hlt ⟨t.val - 1, Nat.lt_of_le_of_lt (Nat.sub_le _ _) t.isLt⟩ rfl hz d]
      exact (after1_7_later V c ⟨t.val - 1, Nat.lt_of_le_of_lt (Nat.sub_le _ _) t.isLt⟩ hz).symm
theorem before1_7_at (c : Dev nD) (t : Fin cfg1.N) (h : t.val % 4 ≠ 0) (d) :
    (dat1 V c).before 7 t d = (dat1 V c).after 7 ⟨t.val - 1, Nat.lt_of_le_of_lt (Nat.sub_le _ _) t.isLt⟩ := before1_7_aux V c t.val t rfl h d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- KEY STEP 0. The scratch is handed over at anything and comes back reset-and-updated; the alignment and separation blocks are stored;
    the hinge buffer, idle, goes back untouched. -/
theorem sound1_A (c : Dev nD) (t : Fin cfg1.N) (h0 : t.val % 4 = 0) (h1 : ¬t.val % 4 = 3) :
    bodyPre1 V c t ⊢ wp frame (wpE (defs₀ (F := F)) Variants.none c none) Set.univ (bodyAt1 t) (fun _ => bodyPost1 V c t) := by
    unfold bodyPre1 bodyPost1 bodyAt1
    simp only [before1_0, before1_1, before1_2, before1_3, before1_4]
    rw [show (dat1 V c).owesAt () t.succ = (dat1 V c).owesAt () t.castSucc from rfl]
    rw [show (dat1 V c).Φ t.succ = PhiS1 V c (t.val + 1) t.isLt from rfl, PhiS1_succ]
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [show (dat1 V c).leavesExact 2 t = owns (c : Thread nD τ) (ms1_2 t) fullShare ((dat1 V c).after 2 t) from by
      unfold Dat.leavesExact; rw [live1_2 t], after1_2]
    rw [show (dat1 V c).leavesExact 3 t = owns (c : Thread nD τ) (ms1_3 t) fullShare ((dat1 V c).after 3 t) from by
      unfold Dat.leavesExact; rw [live1_3 t], after1_3]
    rw [show (dat1 V c).leavesExact 4 t = owns (c : Thread nD τ) (ms1_4 t) fullShare ((dat1 V c).after 4 t) from by
      unfold Dat.leavesExact; rw [live1_4 t], after1_4]
    rw [Dat.leavesExact_idle (dat1 V c) 5 t (idle1_5 t h1) (noflush1_5 t h1)]
    rw [show (dat1 V c).leavesExact 6 t = owns (c : Thread nD τ) (ms1_6 t) fullShare ((dat1 V c).after 6 t) from by
      unfold Dat.leavesExact; rw [live1_6 t h0], after1_6_first V c t h0]
    rw [show (dat1 V c).leavesExact 7 t = owns (c : Thread nD τ) (ms1_7 t) fullShare ((dat1 V c).after 7 t) from by
      unfold Dat.leavesExact; rw [live1_7 t h0], after1_7_first V c t h0]
    rw [m1At_first V c t h0]
    rw [show (dat1 V c).Φ t.castSucc = PhiS1 V c t.val (Nat.le_of_lt t.isLt) from rfl]
    refine (sep_mono (PhiS1_any V c t.val _) .rfl).trans ?_
    unfold scoped1
    iintro ⟨⟨⟨R1, R2, R3, R4, R5, R6, R7, R8, R9, R10, R11, R12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [R1 R2 R3 R4 R5 R6 R7 R8 R9 R10 R11 R12 HS0 Hg]
    · isplitl [R1 R2 R3 R4 R5 R6 R7 R8 R9 R10 R11 R12 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        unfold owns; iexists _; isplitr
        swap; · iexact HS0
        ipureintro; exact (View.read_writes_eq_canon _ _ _ (cover1A_S c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))).trans (canon1A_S c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]
    · unfold owns; iexists _; isplitr
      swap; · iexact H6
      ipureintro; exact (View.read_writes_eq_canon _ _ _ (cover1A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))).trans (canon1A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
    unfold owns; iexists _; isplitr
    swap; · iexact H7
    ipureintro; exact (View.read_writes_eq_canon _ _ _ (cover1A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))).trans (canon1A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))

set_option maxHeartbeats 4000000 in
/-- KEY STEPS 1, 2. The scratch arrives at what the step before left and comes back updated; all three output buffers, idle, go back untouched. -/
theorem sound1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
    have hz : t.val ≠ 0 := fun e => h0 (by rw [e])
    unfold bodyPre1 bodyPost1 bodyAt1
    simp only [before1_0, before1_1, before1_2, before1_3, before1_4]
    rw [show (dat1 V c).owesAt () t.succ = (dat1 V c).owesAt () t.castSucc from rfl]
    rw [show (dat1 V c).Φ t.succ = PhiS1 V c (t.val + 1) t.isLt from rfl, PhiS1_succ]
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [show (dat1 V c).leavesExact 2 t = owns (c : Thread nD τ) (ms1_2 t) fullShare ((dat1 V c).after 2 t) from by
      unfold Dat.leavesExact; rw [live1_2 t], after1_2]
    rw [show (dat1 V c).leavesExact 3 t = owns (c : Thread nD τ) (ms1_3 t) fullShare ((dat1 V c).after 3 t) from by
      unfold Dat.leavesExact; rw [live1_3 t], after1_3]
    rw [show (dat1 V c).leavesExact 4 t = owns (c : Thread nD τ) (ms1_4 t) fullShare ((dat1 V c).after 4 t) from by
      unfold Dat.leavesExact; rw [live1_4 t], after1_4]
    rw [Dat.leavesExact_idle (dat1 V c) 5 t (idle1_5 t h1) (noflush1_5 t h1)]
    rw [Dat.leavesExact_idle (dat1 V c) 6 t (idle1_6 t h0) (noflush1_6 t h1)]
    rw [Dat.leavesExact_idle (dat1 V c) 7 t (idle1_7 t h0) (noflush1_7 t h1)]
    rw [m1At_later V c t h0]
    rw [show (dat1 V c).Φ t.castSucc = PhiS1 V c t.val (Nat.le_of_lt t.isLt) from rfl, PhiS1_pos V c _ _ hz]
    unfold scoped1
    iintro ⟨⟨⟨R1, R2, R3, R4, R5, R6, R7, R8, R9, R10, R11, R12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (m1At V c (t.val - 1) (Nat.lt_of_le_of_lt (Nat.sub_le _ _) t.isLt))).2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    isplitl [R1 R2 R3 R4 R5 R6 R7 R8 R9 R10 R11 R12 HS0 Hg]
    · isplitl [R1 R2 R3 R4 R5 R6 R7 R8 R9 R10 R11 R12 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        unfold owns; iexists _; isplitr
        swap; · iexact HS0
        ipureintro; exact (View.read_writes_eq_canon _ _ _ (cover1B_S c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (m1At V c (t.val - 1) (Nat.lt_of_le_of_lt (Nat.sub_le _ _) t.isLt)))).trans (canon1B_S c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (m1At V c (t.val - 1) (Nat.lt_of_le_of_lt (Nat.sub_le _ _) t.isLt)))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

set_option maxHeartbeats 4000000 in
/-- KEY STEP 3. The scratch comes back updated and the hinge of it is stored; the alignment and separation buffers, idle but written back
    here, go back untouched — at what the tile's first key step stored, since nothing touched them between. -/
theorem sound1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
    have hz : t.val ≠ 0 := fun e => h0 (by rw [e])
    unfold bodyPre1 bodyPost1 bodyAt1
    simp only [before1_0, before1_1, before1_2, before1_3, before1_4]
    rw [show (dat1 V c).owesAt () t.succ = (dat1 V c).owesAt () t.castSucc from rfl]
    rw [show (dat1 V c).Φ t.succ = PhiS1 V c (t.val + 1) t.isLt from rfl, PhiS1_succ]
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [show (dat1 V c).leavesExact 2 t = owns (c : Thread nD τ) (ms1_2 t) fullShare ((dat1 V c).after 2 t) from by
      unfold Dat.leavesExact; rw [live1_2 t], after1_2]
    rw [show (dat1 V c).leavesExact 3 t = owns (c : Thread nD τ) (ms1_3 t) fullShare ((dat1 V c).after 3 t) from by
      unfold Dat.leavesExact; rw [live1_3 t], after1_3]
    rw [show (dat1 V c).leavesExact 4 t = owns (c : Thread nD τ) (ms1_4 t) fullShare ((dat1 V c).after 4 t) from by
      unfold Dat.leavesExact; rw [live1_4 t], after1_4]
    rw [show (dat1 V c).leavesExact 5 t = owns (c : Thread nD τ) (ms1_5 t) fullShare ((dat1 V c).after 5 t) from by
      unfold Dat.leavesExact; rw [live1_5 t h1], after1_5]
    rw [show (dat1 V c).leavesExact 6 t = owns (c : Thread nD τ) (ms1_6 t) fullShare ((dat1 V c).after 6 t) from by
      unfold Dat.leavesExact; rw [idle1_6 t h0, (flush1_6 t).mpr h1], after1_6_later V c t h0]
    rw [show (dat1 V c).leavesExact 7 t = owns (c : Thread nD τ) (ms1_7 t) fullShare ((dat1 V c).after 7 t) from by
      unfold Dat.leavesExact; rw [idle1_7 t h0, (flush1_7 t).mpr h1], after1_7_later V c t h0]
    simp only [before1_6_at V c t h0, before1_7_at V c t h0]
    rw [m1At_later V c t h0]
    rw [show (dat1 V c).Φ t.castSucc = PhiS1 V c t.val (Nat.le_of_lt t.isLt) from rfl, PhiS1_pos V c _ _ hz]
    unfold scoped1
    iintro ⟨⟨⟨R1, R2, R3, R4, R5, R6, R7, R8, R9, R10, R11, R12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (m1At V c (t.val - 1) (Nat.lt_of_le_of_lt (Nat.sub_le _ _) t.isLt))).2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    iintro ⟨H0, H1, H2, H3, H4, ⟨%e5, H5⟩, H6, H7, ⟨%es0, HS0⟩⟩
    isplitl [R1 R2 R3 R4 R5 R6 R7 R8 R9 R10 R11 R12 HS0 Hg]
    · isplitl [R1 R2 R3 R4 R5 R6 R7 R8 R9 R10 R11 R12 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        unfold owns; iexists _; isplitr
        swap; · iexact HS0
        ipureintro; exact (View.read_writes_eq_canon _ _ _ (cover1C_S c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (m1At V c (t.val - 1) (Nat.lt_of_le_of_lt (Nat.sub_le _ _) t.isLt)))).trans (canon1C_S c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (m1At V c (t.val - 1) (Nat.lt_of_le_of_lt (Nat.sub_le _ _) t.isLt)))
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact (View.read_writes_eq_canon _ _ _ (cover1C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (m1At V c (t.val - 1) (Nat.lt_of_le_of_lt (Nat.sub_le _ _) t.isLt)))).trans (canon1C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (m1At V c (t.val - 1) (Nat.lt_of_le_of_lt (Nat.sub_le _ _) t.isLt)))
    isplitl [H6]; · iexact H6
    iexact H7

/-- The body at any point: the closed forms say which case the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · exact sound1_A V c t h0 (by omega)
  · by_cases h1 : t.val % 4 = 3
    · exact sound1_C V c t h0 h1
    · exact sound1_B V c t h0 h1

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl]
  exact .rfl

/-- After any point the invariant gives the entry invariant back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Cert.Kernel.Hand

end
-- ==== Proof.KB.Run.lean ====
import proofs.«401042_j13357348290857_3_alg».proof.Proof.KB.R0
import proofs.«401042_j13357348290857_3_alg».proof.Proof.KB.R1
import proofs.«401042_j13357348290857_3_alg».proof.Proof.Gen.Kernel.Launch
import proofs.«401042_j13357348290857_3_alg».proof.Proof.Gen.Kernel.Points
import proofs.«401042_j13357348290857_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The unscoped buffers' contents at every item boundary of the program: a fold from the launch memory, per core -/

/-- Core `c`'s buffers at launch. -/
abbrev W0 (c : Dev nD) : Valuation τ sig (Elt F) := fun b => m (c, b)
/-- After the first host stretch: what region 0 is entered at. -/
abbrev W1 (c : Dev nD) : Valuation τ sig (Elt F) := StableHlo.after hostOps0 (W0 m c)
/-- The same read at the TensorCore's references: region 0's entry contents. -/
abbrev V1 : (c : Dev nD) → (b : Ref sig .tc) → Buf (Elt F) ((c : Thread nD τ).loc b) := fun c b => W1 m c (Proc.devRef .tc b)
/-- At region 0's exit: each of its five arrays at what the pipeline leaves there (an input as entered, an output with
    every write-back folded in), every other buffer as entered. -/
def W2 (c : Dev nD) : Valuation τ sig (Elt F) :=
  Pipeline.withArrays spec0 c (W1 m c) fun w => (dat0 (V1 m) c).arrAt w cfg0.N
/-- After the six host stretches between the regions. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
/-- What region 1 is entered at. -/
abbrev W8 (c : Dev nD) : Valuation τ sig (Elt F) := StableHlo.after hostOps1_5 (W7 m c)
/-- The same read at the TensorCore's references: region 1's entry contents. -/
abbrev V8 : (c : Dev nD) → (b : Ref sig .tc) → Buf (Elt F) ((c : Thread nD τ).loc b) := fun c b => W8 m c (Proc.devRef .tc b)
/-- At region 1's exit: its three output arrays at what the pipeline leaves there, every other buffer as entered (its five
    input windows read four arrays, two of them the same one, and change none). -/
def W9 (c : Dev nD) : Valuation τ sig (Elt F) :=
  Function.update (Function.update (Function.update (W8 m c)
    (Proc.devRef .tc main_v20_0) ((dat1 (V8 m) c).arrAt 5 cfg1.N))
    (Proc.devRef .tc main_v20_1) ((dat1 (V8 m) c).arrAt 6 cfg1.N))
    (Proc.devRef .tc main_v20_2) ((dat1 (V8 m) c).arrAt 7 cfg1.N)
/-- After the three closing host stretches: the contents the program returns at. -/
abbrev W10 (c : Dev nD) : Valuation τ sig (Elt F) := StableHlo.after hostOps2 (W9 m c)
abbrev W11 (c : Dev nD) : Valuation τ sig (Elt F) := StableHlo.after hostOps2_1 (W10 m c)
abbrev W12 (c : Dev nD) : Valuation τ sig (Elt F) := StableHlo.after hostOps2_2 (W11 m c)

/-! ## What each item changes and what it leaves -/

theorem W1_of (c : Dev nD) (r : Ref sig .tc) (h : r ∉ hostOps0_W) : W1 m c (Proc.devRef .tc r) = W0 m c (Proc.devRef .tc r) :=
  StableHlo.after_of_writes_sub hostOps0 _ hostOps0_writes h
/-- Region 0 leaves array `w` at the pipeline's last contents of it. -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ hostOps1_1_W) : W4 m c (Proc.devRef .tc r) = W3 m c (Proc.devRef .tc r) :=
  StableHlo.after_of_writes_sub hostOps1_1 _ hostOps1_1_writes h
theorem W5_of (c : Dev nD) (r : Ref sig .tc) (h : r ∉ hostOps1_2_W) : W5 m c (Proc.devRef .tc r) = W4 m c (Proc.devRef .tc r) :=
  StableHlo.after_of_writes_sub hostOps1_2 _ hostOps1_2_writes h
theorem W6_of (c : Dev nD) (r : Ref sig .tc) (h : r ∉ hostOps1_3_W) : W6 m c (Proc.devRef .tc r) = W5 m c (Proc.devRef .tc r) :=
  StableHlo.after_of_writes_sub hostOps1_3 _ hostOps1_3_writes h
theorem W7_of (c : Dev nD) (r : Ref sig .tc) (h : r ∉ hostOps1_4_W) : W7 m c (Proc.devRef .tc r) = W6 m c (Proc.devRef .tc r) :=
  StableHlo.after_of_writes_sub hostOps1_4 _ hostOps1_4_writes h
theorem W8_of (c : Dev nD) (r : Ref sig .tc) (h : r ∉ hostOps1_5_W) : W8 m c (Proc.devRef .tc r) = W7 m c (Proc.devRef .tc r) :=
  StableHlo.after_of_writes_sub hostOps1_5 _ hostOps1_5_writes h
/-- Region 1 leaves its three output arrays at the pipeline's last contents of them. -/
theorem W9_out5 (c : Dev nD) : W9 m c (Proc.devRef .tc main_v20_0) = (dat1 (V8 m) c).arrAt 5 cfg1.N := by
  unfold W9
  rw [Function.update_of_ne (StableHlo.devRef_ne_of_ne (by decide)), Function.update_of_ne (StableHlo.devRef_ne_of_ne (by decide)),
    Function.update_self]
theorem W9_out6 (c : Dev nD) : W9 m c (Proc.devRef .tc main_v20_1) = (dat1 (V8 m) c).arrAt 6 cfg1.N := by
  unfold W9
  rw [Function.update_of_ne (StableHlo.devRef_ne_of_ne (by decide)), Function.update_self]
theorem W9_out7 (c : Dev nD) : W9 m c (Proc.devRef .tc main_v20_2) = (dat1 (V8 m) c).arrAt 7 cfg1.N := by
  unfold W9
  rw [Function.update_self]
/-- and every other buffer as it found it. -/
theorem W9_of_ne (c : Dev nD) (b : Ref sig .tc) (h : b ∉ ([main_v20_0, main_v20_1, main_v20_2] : List (Ref sig .tc))) :
    W9 m c (Proc.devRef .tc b) = W8 m c (Proc.devRef .tc b) := by
  unfold W9
  rw [Function.update_of_ne (StableHlo.devRef_ne_of_ne (List.ne_of_not_mem_cons (List.not_mem_of_not_mem_cons (List.not_mem_of_not_mem_cons h)))),
    Function.update_of_ne (StableHlo.devRef_ne_of_ne (List.ne_of_not_mem_cons (List.not_mem_of_not_mem_cons h))),
    Function.update_of_ne (StableHlo.devRef_ne_of_ne (List.ne_of_not_mem_cons h))]
theorem W10_of (c : Dev nD) (r : Ref sig .tc) (h : r ∉ hostOps2_W) : W10 m c (Proc.devRef .tc r) = W9 m c (Proc.devRef .tc r) :=
  StableHlo.after_of_writes_sub hostOps2 _ hostOps2_writes h
theorem W11_of (c : Dev nD) (r : Ref sig .tc) (h : r ∉ hostOps2_1_W) : W11 m c (Proc.devRef .tc r) = W10 m c (Proc.devRef .tc r) :=
  StableHlo.after_of_writes_sub hostOps2_1 _ hostOps2_1_writes h
theorem W12_of (c : Dev nD) (r : Ref sig .tc) (h : r ∉ hostOps2_2_W) : W12 m c (Proc.devRef .tc r) = W11 m c (Proc.devRef .tc r) :=
  StableHlo.after_of_writes_sub hostOps2_2 _ hostOps2_2_writes h

/-! ## The arguments end as launched: no host operation writes one, region 0 reads two of them through input windows and
    region 1 names none -/

/-- A buffer that no host stretch writes and that is no array of region 0 and no output of region 1 ends as launched. -/
theorem W12_of_untouched (c : Dev nD) (r : Ref sig .tc)
    (h0 : r ∉ hostOps0_W) (h2 : ∀ w, Pipeline.arrRef spec0 w ≠ r) (h3 : r ∉ hostOps1_W) (h4 : r ∉ hostOps1_1_W) (h5 : r ∉ hostOps1_2_W)
    (h6 : r ∉ hostOps1_3_W) (h7 : r ∉ hostOps1_4_W) (h8 : r ∉ hostOps1_5_W)
    (h9 : r ∉ ([main_v20_0, main_v20_1, main_v20_2] : List (Ref sig .tc))) (h10 : r ∉ hostOps2_W) (h11 : r ∉ hostOps2_1_W) (h12 : r ∉ hostOps2_2_W) :
    W12 m c (Proc.devRef .tc r) = m ((c : Thread nD τ).loc r) :=
  (W12_of m c r h12).trans <| (W11_of m c r h11).trans <| (W10_of m c r h10).trans <| (W9_of_ne m c r h9).trans <|
    (W8_of m c r h8).trans <| (W7_of m c r h7).trans <| (W6_of m c r h6).trans <| (W5_of m c r h5).trans <| (W4_of m c r h4).trans <|
    (W3_of m c r h3).trans <| (W2_of_ne m c r h2).trans <| (W1_of m c r h0).trans rfl

/-- Region 0 leaves an input window's array as it found it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

theorem W12_main_arg0 (c : Dev nD) : W12 m c (Proc.devRef .tc main_arg0) = m ((c : Thread nD τ).loc main_arg0) :=
  (W12_of m c main_arg0 (by decide)).trans <| (W11_of m c main_arg0 (by decide)).trans <| (W10_of m c main_arg0 (by decide)).trans <|
    (W9_of_ne m c main_arg0 (by decide)).trans <| (W8_of m c main_arg0 (by decide)).trans <| (W7_of m c main_arg0 (by decide)).trans <|
    (W6_of m c main_arg0 (by decide)).trans <| (W5_of m c main_arg0 (by decide)).trans <| (W4_of m c main_arg0 (by decide)).trans <|
    (W3_of m c main_arg0 (by decide)).trans <| (W2_in m c 0 rfl).trans <| (W1_of m c main_arg0 (by decide)).trans rfl
theorem W12_main_arg1 (c : Dev nD) : W12 m c (Proc.devRef .tc main_arg1) = m ((c : Thread nD τ).loc main_arg1) :=
  W12_of_untouched m c main_arg1 (by decide) (by decide) (by decide) (by decide) (by decide) (by decide) (by decide) (by decide) (by decide) (by decide) (by decide) (by decide)
theorem W12_main_arg2 (c : Dev nD) : W12 m c (Proc.devRef .tc main_arg2) = m ((c : Thread nD τ).loc main_arg2) :=
  W12_of_untouched m c main_arg2 (by decide) (by decide) (by decide) (by decide) (by decide) (by decide) (by decide) (by decide) (by decide) (by decide) (by decide) (by decide)

/-! # Region 1's arrays: eight windows on seven buffers -/

/-- Region 1's share of array `w`: the two windows on the one shared array hold a half each, every other window the whole. -/
theorem share1_0 (V₁ : (c : Dev nD) → (b : Ref sig .tc) → Buf (Elt F) ((c : Thread nD τ).loc b)) (c : Dev nD) :
    (dat1 V₁ c).share 0 = fullShare.left := by
  unfold Dat.share; rw [if_neg (by decide)]; exact q_eq1_0 V₁ c
theorem share1_1 (V₁ : (c : Dev nD) → (b : Ref sig .tc) → Buf (Elt F) ((c : Thread nD τ).loc b)) (c : Dev nD) :
    (dat1 V₁ c).share 1 = fullShare.right := by
  unfold Dat.share; rw [if_neg (by decide)]; exact q_eq1_1 V₁ c
theorem share1_rest (V₁ : (c : Dev nD) → (b : Ref sig .tc) → Buf (Elt F) ((c : Thread nD τ).loc b)) (c : Dev nD)
    (w : Fin cfg1.W) (h : 2 ≤ w.val) : (dat1 V₁ c).share w = fullShare := by
  unfold Dat.share; split
  · rfl
  · exact q_eq1 V₁ c w h

/-- The buffers behind region 1's arrays, each whole, ARE the pipeline's arrays at the same contents: the one buffer two
    windows read is dealt to them by halves, every other buffer goes whole to its one window. -/
theorem arrays1_iff (V₁ : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs spec1 c V' : sProp 𝕄) ⊣⊢ (dat1 V₁ c).arrays G := by
  classical
  have hS : (Finset.univ : Finset (Fin 8)).image (Pipeline.arrRef spec1)
      = ((Finset.univ : Finset (Fin 8)).erase 1).image (Pipeline.arrRef spec1) := by decide
  have hinj : Set.InjOn (Pipeline.arrRef spec1) (((Finset.univ : Finset (Fin 8)).erase 1 : Finset (Fin 8)) : Set (Fin 8)) := by
    intro a ha b hb
    have ha' : a ∈ (Finset.univ : Finset (Fin 8)).erase 1 := ha
    have hb' : b ∈ (Finset.univ : Finset (Fin 8)).erase 1 := hb
    revert a b; decide
  have e1 : (Pipeline.arrBufs spec1 c V' : sProp 𝕄)
      = iprop((((c : Thread nD τ).loc (Pipeline.arrRef spec1 0)) ↦{fullShare} V' (Pipeline.arrRef spec1 0))
        ∗ bigSep (((Finset.univ : Finset (Fin 8)).erase 1).erase 0) fun w =>
            (((c : Thread nD τ).loc (Pipeline.arrRef spec1 w)) ↦{fullShare} V' (Pipeline.arrRef spec1 w) : sProp 𝕄)) := by
    unfold Pipeline.arrBufs
    rw [hS, bigSep_image_of_injOn hinj, bigSep_erase (i := (0 : Fin 8)) (by decide)]
    rfl
  have hrest : (bigSep (((Finset.univ : Finset (Fin 8)).erase 1).erase 0) fun w : Fin 8 =>
        ((cfg1.win w).arr.view.loc (c : Thread nD τ) ↦[(cfg1.win w).arr.view.set]{(dat1 V₁ c).share w} G w : sProp 𝕄))
      = bigSep (((Finset.univ : Finset (Fin 8)).erase 1).erase 0) fun w : Fin 8 =>
        (((c : Thread nD τ).loc (Pipeline.arrRef spec1 w)) ↦{fullShare} V' (Pipeline.arrRef spec1 w) : sProp 𝕄) :=
    bigSep_congr fun w hw => by
      have h0 : w.val ≠ 0 := fun h => (Finset.mem_erase.mp hw).1 (Fin.ext h)
      have h1 : w.val ≠ 1 := fun h => (Finset.mem_erase.mp (Finset.mem_erase.mp hw).2).1 (Fin.ext h)
      rw [(arr_whole1 w).set_eq_univ, share1_rest V₁ c w (by omega), hG w]
  have hhalf : (((c : Thread nD τ).loc (Pipeline.arrRef spec1 0)) ↦{fullShare} V' (Pipeline.arrRef spec1 0) : sProp 𝕄)
      ⊣⊢ iprop(((cfg1.win 1).arr.view.loc (c : Thread nD τ) ↦[(cfg1.win 1).arr.view.set]{(dat1 V₁ c).share 1} G 1)
          ∗ ((cfg1.win 0).arr.view.loc (c : Thread nD τ) ↦[(cfg1.win 0).arr.view.set]{(dat1 V₁ c).share 0} G 0)) := by
    rw [(arr_whole1 1).set_eq_univ, share1_0, share1_1, hG 0, hG 1]
    exact ⟨(pointsTo_share (PosShare.mem_left_op_right fullShare)).1.trans sep_comm.1,
      sep_comm.1.trans (pointsTo_share (PosShare.mem_left_op_right fullShare)).2⟩
  have e2 : ((dat1 V₁ c).arrays G : sProp 𝕄)
      = iprop(((cfg1.win 1).arr.view.loc (c : Thread nD τ) ↦[(cfg1.win 1).arr.view.set]{(dat1 V₁ c).share 1} G 1)
          ∗ ((cfg1.win 0).arr.view.loc (c : Thread nD τ) ↦[(cfg1.win 0).arr.view.set]{(dat1 V₁ c).share 0} G 0)
          ∗ bigSep (((Finset.univ : Finset (Fin 8)).erase 1).erase 0) fun w =>
            (((c : Thread nD τ).loc (Pipeline.arrRef spec1 w)) ↦{fullShare} V' (Pipeline.arrRef spec1 w) : sProp 𝕄)) := by
    unfold Dat.arrays
    rw [bigSep_univ_split (1 : Fin cfg1.W), bigSep_erase (i := (0 : Fin cfg1.W)) (by decide)]
    exact congrArg (fun X : sProp 𝕄 => iprop(_ ∗ _ ∗ X)) hrest
  rw [e1, e2]
  constructor
  · iintro ⟨H0, Hr⟩
    ihave H := hhalf.1 $$ H0
    icases H with ⟨H1, H0⟩
    isplitl [H1]; · iexact H1
    isplitl [H0]; · iexact H0
    iexact Hr
  · iintro ⟨H1, H0, Hr⟩
    isplitr [Hr]
    · iapply hhalf.2
      isplitl [H1]; · iexact H1
      iexact H0
    · iexact Hr

/-! # The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's invariant
    takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left at
    `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! # The regions as segments -/

/-- At region 0's exit each of its arrays holds what the pipeline leaves and every other buffer what it held at entry. -/
theorem hF0 (c : Dev nD) (w : Fin cfg0.W) : (dat0 (V1 m) c).arrAt w cfg0.N = W2 m c (Proc.devRef .tc (Pipeline.arrRef spec0 w)) :=
  (W2_arr m c w).symm
theorem hrest0 (c : Dev nD) : ∀ b : Ref sig .tc, b ∉ Finset.univ.image (Pipeline.arrRef spec0) → W2 m c (Proc.devRef .tc b) = V1 m c b :=
  fun b hb => W2_of_ne m c b fun w e => hb (Finset.mem_image.mpr ⟨w, Finset.mem_univ _, e⟩)

set_option backward.isDefEq.respectTransparency.types false in
/-- REGION 0 over the thread state: entered from every unscoped buffer at `W1`, left at `W2`. Its five arrays, distinct
    buffers, are split out of the unscoped buffers whole and put back at the exit contents; the generator register and the
    scratch buffers go into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats m 0 c).recorded 0 = Set.univ from recorded_eq0 (V1 m) c 0]; trivial)
      rw [show (pdats m 0 c).owed 0 = 0 from owed_eq0 (V1 m) c 0]
      iexact HO
    isplitl [Hp]; · iexact Hp
    iexact Hrest
  hin c := by
    refine (?_ : _ ⊢ Pipeline.ΦA spec0 c).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (V1 m) c w)
      (V1 m c) (fun b => W2 m c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed_eq0 (V1 m) c _]
    iexact HO

/-- At region 1's exit each window's array holds what the pipeline leaves there: an input's as entered (the fold keeps
    it), an output's what the write-backs made. -/
theorem hF9 (c : Dev nD) : ∀ w : Fin cfg1.W, (dat1 (V8 m) c).arrAt w cfg1.N = W9 m c (Proc.devRef .tc (Pipeline.arrRef spec1 w))
  | 0 => ((dat1 (V8 m) c).arrAt_in 0 rfl _).trans ((A_eq1 (V8 m) c 0).trans (W9_of_ne m c _ (by decide)).symm)
  | 1 => ((dat1 (V8 m) c).arrAt_in 1 rfl _).trans ((A_eq1 (V8 m) c 1).trans (W9_of_ne m c _ (by decide)).symm)
  | 2 => ((dat1 (V8 m) c).arrAt_in 2 rfl _).trans ((A_eq1 (V8 m) c 2).trans (W9_of_ne m c _ (by decide)).symm)
  | 3 => ((dat1 (V8 m) c).arrAt_in 3 rfl _).trans ((A_eq1 (V8 m) c 3).trans (W9_of_ne m c _ (by decide)).symm)
  | 4 => ((dat1 (V8 m) c).arrAt_in 4 rfl _).trans ((A_eq1 (V8 m) c 4).trans (W9_of_ne m c _ (by decide)).symm)
  | 5 => (W9_out5 m c).symm
  | 6 => (W9_out6 m c).symm
  | 7 => (W9_out7 m c).symm
  | ⟨_ + 8, h⟩ => absurd h (Nat.not_lt.2 (Nat.le_add_left _ _))
/-- and every buffer that is no window's array what it held at entry. -/
theorem hrest9 (c : Dev nD) (b : Ref sig .tc) (hb : b ∉ Finset.univ.image (Pipeline.arrRef spec1)) :
    W9 m c (Proc.devRef .tc b) = V8 m c b :=
  W9_of_ne m c b fun hmem => hb (by
    simp only [List.mem_cons, List.not_mem_nil, or_false] at hmem
    rcases hmem with rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩)

/-- ENTRY of region 1, the arrays' part: a core's unscoped buffers at the entry contents are the pipeline's arrays at their
    entry contents (the shared buffer dealt by halves) and the unscoped rest. -/
theorem hsplit1 (c : Dev nD) : (unscopedBufs c (V8 m c) : sProp 𝕄)
    ⊢ iprop((dat1 (V8 m) c).arrays ((dat1 (V8 m) c).arrAt · 0) ∗ Pipeline.unscopedRest spec1 c (V8 m c)) := by
  rw [Pipeline.unscopedBufs_split₀ cfgs 1 winFacts₀1.arr_unscoped c (V8 m c)]
  exact sep_mono (arrays1_iff (V8 m) c (V8 m c) _ (fun w => A_eq1 (V8 m) c w)).1 .rfl

/-- The unscoped buffers that are no array of region 1 hold at its exit what they held at its entry. -/
theorem rest9_eq (c : Dev nD) : (Pipeline.unscopedRest spec1 c (V8 m c) : sProp 𝕄)
    = Pipeline.unscopedRest spec1 c (fun b => W9 m c (Proc.devRef .tc b)) := by
  unfold Pipeline.unscopedRest
  exact bigSep_congr fun b hb => congrArg (fun f => ((c : Thread nD τ).loc b ↦{fullShare} f : sProp 𝕄)) (hrest9 m c b (Finset.mem_sdiff.mp hb).2).symm

/-- EXIT of region 1, the arrays' part: the pipeline's arrays at their last contents (the halves of the shared buffer
    rejoined) and the unscoped rest are the core's unscoped buffers at the exit contents. -/
theorem hjoin1 (c : Dev nD) : iprop((dat1 (V8 m) c).arrays ((dat1 (V8 m) c).arrAt · cfg1.N) ∗ Pipeline.unscopedRest spec1 c (V8 m c))
    ⊢ (unscopedBufs c (fun b => W9 m c (Proc.devRef .tc b)) : sProp 𝕄) := by
  rw [Pipeline.unscopedBufs_split₀ cfgs 1 winFacts₀1.arr_unscoped c (fun b => W9 m c (Proc.devRef .tc b)), rest9_eq m c]
  exact sep_mono (arrays1_iff (V8 m) c (fun b => W9 m c (Proc.devRef .tc b)) _ (hF9 m c)).2 .rfl

set_option maxHeartbeats 800000 in
set_option backward.isDefEq.respectTransparency.types false in
/-- REGION 1 over the thread state: entered from every unscoped buffer at `W8`, left at `W9`. The seven buffers behind
    its eight windows' arrays are split out of the unscoped buffers whole; the one two windows read is dealt to them by
    halves, which rejoin at the exit; the generator register and the scratch buffers go into the region's invariant and
    come back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V8 m) c).loose
  hwaits := Pipeline.hwaits_of_owed_zero _ _ _ _ L lv 1 fun c t => owed_eq1 (V8 m) c t
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (V8 m c)
  hentry c := by
    rw [Pipeline.ownSems0_none]
    have hsplit := hsplit1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats m 1 c).recorded 0 = Set.univ from recorded_eq1 (V8 m) c 0]; trivial)
      rw [show (pdats m 1 c).owed 0 = 0 from owed_eq1 (V8 m) c 0]
      iexact HO
    isplitl [Hp]; · iexact Hp
    iexact Hrest
  hin c := by
    refine (?_ : _ ⊢ Pipeline.ΦA spec1 c).trans (hin1 (V8 m) c)
    unfold Pipeline.ΦA
    iintro ⟨Hp, -, Hr⟩
    isplitl [Hr]; · iexact Hr
    iexact Hp
  hout c := by
    rw [Pipeline.ownSems0_none]
    refine (hout1 (V8 m) c).trans ?_
    unfold Pipeline.ΦA
    iintro ⟨Hr, Hp⟩
    isplitl [Hp]; · iexact Hp
    isplitr; · iempintro
    iexact Hr
  hexit c := by
    have hjoin := hjoin1 m c
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W
    rw [show (pdats m 1 c).owed (Fin.last _) = 0 from owed_eq1 (V8 m) c _]
    iexact HO

/-! # The program as segments, and the launch -/

/-- The program's twelve items in order: a host segment per stretch from its boundary's contents, a region per kernel call. -/
abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .region (reg1 m),
    .host (hseg hostOps2 hostOps2_sub hostOps2_fresh (W9 m)),
    .host (hseg hostOps2_1 hostOps2_1_sub hostOps2_1_fresh (W10 m)),
    .host (hseg hostOps2_2 hostOps2_2_sub hostOps2_2_fresh (W11 m)) ]

/-- The last thread state without what the core owes: every unscoped buffer at the last boundary's contents, the generator
    register at some state. -/
abbrev Tₙ (c : Dev nD) : sProp 𝕄 := iprop(StableHlo.held (c : Thread nD τ) (Pipeline.ucRefs τ sig) (W12 m c) ∗ ∃ r, prngReg c r)

set_option backward.isDefEq.respectTransparency.types false in
/-- THE RUN. From any memory with zero counters, every weakly fair execution of the program on the TensorCores terminates,
    nothing faulting, and in every final state each core's unscoped buffers hold the fold's last contents `W12`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          Prog.lift (.customCall (Pipeline.entry 1) ()),
          StableHlo.seq hostOps2,
          StableHlo.seq hostOps2_1,
          StableHlo.seq hostOps2_2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => by
        show iprop(StableHlo.held (c : Thread nD τ) (Pipeline.ucRefs τ sig) (W12 m c) ∗ R c)
          ⊢ iprop(Tₙ m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

/-- THE FRAME: the program runs and every final state has the three argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono (Q := fun r => ∀ c : Dev nD, ∀ b ∈ Pipeline.ucRefs τ sig, r.2.mem (((c : Thread nD τ)).1, b) = W12 m c b) (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c)⟩) (run_all m ρ)

end Cert.Kernel.Hand

end
-- ==== Proof.KI.R0Base.lean ====
import proofs.«401042_j13357348290857_3_alg».proof.Proof.Gen.KernelIdeal.Launch
import proofs.«401042_j13357348290857_3_alg».proof.Proof.Gen.KernelIdeal.Skeleton
import proofs.«401042_j13357348290857_3_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 0: the two control cases, the staging memrefs, the carried accumulators -/

/-- The first conditional (reset of the accumulators): grid coordinate 1 is zero. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional (copy-out of the accumulators): grid coordinate 1 is one. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The inputs and the rows output are stored (or fetched) at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At an even point the sums and counts windows are idle and not written back. -/
theorem idleAt0_3_E : ∀ t : Fin cfg0.N, cond0_0 (grid0.coords t) → ¬cond0_1 (grid0.coords t) → cfg0.idle 3 (grid0.coords t) = true := by decide +kernel
theorem noFlush0_3_E : ∀ t : Fin cfg0.N, cond0_0 (grid0.coords t) → ¬cond0_1 (grid0.coords t) → (cfg0.win 3).flush t = false := by decide +kernel
theorem idleAt0_4_E : ∀ t : Fin cfg0.N, cond0_0 (grid0.coords t) → ¬cond0_1 (grid0.coords t) → cfg0.idle 4 (grid0.coords t) = true := by decide +kernel
theorem noFlush0_4_E : ∀ t : Fin cfg0.N, cond0_0 (grid0.coords t) → ¬cond0_1 (grid0.coords t) → (cfg0.win 4).flush t = false := by decide +kernel
/-- At an odd point they are stored. -/
theorem liveAt0_3_O : ∀ t : Fin cfg0.N, ¬cond0_0 (grid0.coords t) → cond0_1 (grid0.coords t) → cfg0.idle 3 (grid0.coords t) = false := by decide +kernel
theorem liveAt0_4_O : ∀ t : Fin cfg0.N, ¬cond0_0 (grid0.coords t) → cond0_1 (grid0.coords t) → cfg0.idle 4 (grid0.coords t) = false := by decide +kernel

/-- One staging buffer of each output window, through which its contents are stated. -/
abbrev VO0_2 : View sig .tc .vmem S2048x256 .bf16 := (Memref.whole cc0_stg2_0 : Memref sig .tc .vmem S2048x256 .bf16).view
abbrev VO0_3 : View sig .tc .vmem S1x64x256 .f32 := (Memref.whole cc0_stg3_0 : Memref sig .tc .vmem S1x64x256 .f32).view
abbrev VO0_4 : View sig .tc .vmem S1x1x64 .f32 := (Memref.whole cc0_stg4_0 : Memref sig .tc .vmem S1x1x64 .f32).view
/-- Each window's current staging memref at point `t`, and its wholeness. -/
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)
/-- The two accumulators: whole scoped buffers passed beside the windows, and the views their contents are stated through. -/
abbrev scM0_0 : Memref sig .tc .vmem S64x256 .f32 := Memref.whole cc0_scratch0
abbrev scM0_1 : Memref sig .tc .vmem S1x64 .f32 := Memref.whole cc0_scratch1
abbrev VS0_0 : View sig .tc .vmem S64x256 .f32 := scM0_0.view
abbrev VS0_1 : View sig .tc .vmem S1x64 .f32 := scM0_1.view

/-- The core's other scoped buffers (the second region's staging buffers and scratch), each whole at anything: the
    first region's body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- What the launch hands the region: both accumulators at anything, the other scoped buffers, the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

end Cert.KernelIdeal.Hand

end
-- ==== Proof.KI.R0RunE.lean ====
import proofs.«401042_j13357348290857_3_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at an even point (accumulators reset, nothing copied out): from the inputs' blocks, the rows output and both
    accumulators at anything, and the sums and counts windows at contents handed back untouched, to the rows output and
    both accumulators with their stores written. The store lists are what the run finds. -/
noncomputable def kernelRun0_E (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i)
    (x0 : Vec F S2048x256 .f32) (x1 : Vec F S2048x1 .i32) :
    Σ' (L2 : List (View.Piece (Elt F) S2048x256 .bf16)) (LS0 : List (View.Piece (Elt F) S64x256 .f32)), { LS1 : List (View.Piece (Elt F) S1x64 .f32) //
      ∀ (xi3 : Vec F S1x64x256 .f32) (xi4 : Vec F S1x1x64 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__normalize_accumulate_kernel i arg2 harg2 arg3 harg3 arg4 harg4 arg5 harg5 arg6 harg6 arg7 harg7 arg8 harg8) K } := by
  refine ⟨?_, ?_, ?_, fun xi3 xi4 E K => ?run⟩
  case run =>
    simp only [cc0__normalize_accumulate_kernel_eq_skeleton]; unfold cc0__normalize_accumulate_kernel_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.R0RunO.lean ====
import proofs.«401042_j13357348290857_3_alg».proof.Proof.KI.R0RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at an odd point (no reset, accumulators copied out): from the inputs' blocks, the three outputs at anything
    and both accumulators at what the point before left, to every output and both accumulators with their stores written.
    The store lists are what the run finds. -/
noncomputable def kernelRun0_O (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i)
    (x0 : Vec F S2048x256 .f32) (x1 : Vec F S2048x1 .i32) (xs0 : Vec F S64x256 .f32) (xs1 : Vec F S1x64 .f32) :
    Σ' (L2 : List (View.Piece (Elt F) S2048x256 .bf16)) (L3 : List (View.Piece (Elt F) S1x64x256 .f32)) (L4 : List (View.Piece (Elt F) S1x1x64 .f32)) (LS0 : List (View.Piece (Elt F) S64x256 .f32)), { LS1 : List (View.Piece (Elt F) S1x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__normalize_accumulate_kernel i arg2 harg2 arg3 harg3 arg4 harg4 arg5 harg5 arg6 harg6 arg7 harg7 arg8 harg8) K } := by
  refine ⟨?_, ?_, ?_, ?_, ?_, fun E K => ?run⟩
  case run =>
    simp only [cc0__normalize_accumulate_kernel_eq_skeleton]; unfold cc0__normalize_accumulate_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.KI.R0Outs.lean ====
import proofs.«401042_j13357348290857_3_alg».proof.Proof.KI.R0RunO

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0 (normalise rows, accumulate per-class sums and counts): interface -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows block and the labels block of point `t`, at their literal types. -/
abbrev xblk0 (c : Dev nD) (t : Fin cfg0.N) : Vec F S2048x256 .f32 := iblk0 V c 0 t
abbrev lblk0 (c : Dev nD) (t : Fin cfg0.N) : Vec F S2048x1 .i32 := iblk0 V c 1 t

/-- An input window's current staging buffer holds its block at every point (it is fetched at each). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in each buffer -/

/-- The rows output after an even point: the stores the run found there cover it, -/
theorem cover0_E_2 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) (y : S2048x256.Idx) :
    ∃ pc ∈ (kernelRun0_E c i arg2 harg2 arg3 harg3 arg4 harg4 arg5 harg5 arg6 harg6 arg7 harg7 arg8 harg8 hc0 hc1 x0 x1).1, y ∈ pc.1.set :=
  View.cover_of_tiledL (kernelRun0_E c i arg2 harg2 arg3 harg3 arg4 harg4 arg5 harg5 arg6 harg6 arg7 harg7 arg8 harg8 hc0 hc1 x0 x1).1 S2048x256.size (by sl_kernel_rfl) y
/-- and this is what they leave (read back over arbitrary prior contents). -/
def out0_E_2 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) : Vec F S2048x256 .bf16 :=
  VO0_2.read (Elt F) (VO0_2.writes (Elt F) VO0_2.junk (kernelRun0_E c i arg2 harg2 arg3 harg3 arg4 harg4 arg5 harg5 arg6 harg6 arg7 harg7 arg8 harg8 hc0 hc1 x0 x1).1)

/-- The sums accumulator after an even point: the stores the run found there cover it, -/
theorem scover0_E_0 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) (y : S64x256.Idx) :
    ∃ pc ∈ (kernelRun0_E c i arg2 harg2 arg3 harg3 arg4 harg4 arg5 harg5 arg6 harg6 arg7 harg7 arg8 harg8 hc0 hc1 x0 x1).2.1, y ∈ pc.1.set :=
  View.cover_of_tiledL (kernelRun0_E c i arg2 harg2 arg3 harg3 arg4 harg4 arg5 harg5 arg6 harg6 arg7 harg7 arg8 harg8 hc0 hc1 x0 x1).2.1 S64x256.size (by sl_kernel_rfl) y
/-- and this is what they leave (read back over arbitrary prior contents). -/
def sout0_E_0 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) : Vec F S64x256 .f32 :=
  VS0_0.read (Elt F) (VS0_0.writes (Elt F) VS0_0.junk (kernelRun0_E c i arg2 harg2 arg3 harg3 arg4 harg4 arg5 harg5 arg6 harg6 arg7 harg7 arg8 harg8 hc0 hc1 x0 x1).2.1)

/-- The counts accumulator after an even point: the stores the run found there cover it, -/
theorem scover0_E_1 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) (y : S1x64.Idx) :
    ∃ pc ∈ (kernelRun0_E c i arg2 harg2 arg3 harg3 arg4 harg4 arg5 harg5 arg6 harg6 arg7 harg7 arg8 harg8 hc0 hc1 x0 x1).2.2.1, y ∈ pc.1.set :=
  View.cover_of_tiledL (kernelRun0_E c i arg2 harg2 arg3 harg3 arg4 harg4 arg5 harg5 arg6 harg6 arg7 harg7 arg8 harg8 hc0 hc1 x0 x1).2.2.1 S1x64.size (by sl_kernel_rfl) y
/-- and this is what they leave (read back over arbitrary prior contents). -/
def sout0_E_1 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) : Vec F S1x64 .f32 :=
  VS0_1.read (Elt F) (VS0_1.writes (Elt F) VS0_1.junk (kernelRun0_E c i arg2 harg2 arg3 harg3 arg4 harg4 arg5 harg5 arg6 harg6 arg7 harg7 arg8 harg8 hc0 hc1 x0 x1).2.2.1)

/-- The rows output after an odd point: the stores the run found there cover it, -/
theorem cover0_O_2 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) (y : S2048x256.Idx) :
    ∃ pc ∈ (kernelRun0_O c i arg2 harg2 arg3 harg3 arg4 harg4 arg5 harg5 arg6 harg6 arg7 harg7 arg8 harg8 hc0 hc1 x0 x1 xs0 xs1).1, y ∈ pc.1.set :=
  View.cover_of_tiledL (kernelRun0_O c i arg2 harg2 arg3 harg3 arg4 harg4 arg5 harg5 arg6 harg6 arg7 harg7 arg8 harg8 hc0 hc1 x0 x1 xs0 xs1).1 S2048x256.size (by sl_kernel_rfl) y
/-- and this is what they leave (read back over arbitrary prior contents). -/
def out0_O_2 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : Vec F S2048x256 .bf16 :=
  VO0_2.read (Elt F) (VO0_2.writes (Elt F) VO0_2.junk (kernelRun0_O c i arg2 harg2 arg3 harg3 arg4 harg4 arg5 harg5 arg6 harg6 arg7 harg7 arg8 harg8 hc0 hc1 x0 x1 xs0 xs1).1)

/-- The sums output after an odd point: the stores the run found there cover it, -/
theorem cover0_O_3 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) (y : S1x64x256.Idx) :
    ∃ pc ∈ (kernelRun0_O c i arg2 harg2 arg3 harg3 arg4 harg4 arg5 harg5 arg6 harg6 arg7 harg7 arg8 harg8 hc0 hc1 x0 x1 xs0 xs1).2.1, y ∈ pc.1.set :=
  View.cover_of_tiledL (kernelRun0_O c i arg2 harg2 arg3 harg3 arg4 harg4 arg5 harg5 arg6 harg6 arg7 harg7 arg8 harg8 hc0 hc1 x0 x1 xs0 xs1).2.1 S1x64x256.size (by sl_kernel_rfl) y
/-- and this is what they leave (read back over arbitrary prior contents). -/
def out0_O_3 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : Vec F S1x64x256 .f32 :=
  VO0_3.read (Elt F) (VO0_3.writes (Elt F) VO0_3.junk (kernelRun0_O c i arg2 harg2 arg3 harg3 arg4 harg4 arg5 harg5 arg6 harg6 arg7 harg7 arg8 harg8 hc0 hc1 x0 x1 xs0 xs1).2.1)

/-- The counts output after an odd point: the stores the run found there cover it, -/
theorem cover0_O_4 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) (y : S1x1x64.Idx) :
    ∃ pc ∈ (kernelRun0_O c i arg2 harg2 arg3 harg3 arg4 harg4 arg5 harg5 arg6 harg6 arg7 harg7 arg8 harg8 hc0 hc1 x0 x1 xs0 xs1).2.2.1, y ∈ pc.1.set :=
  View.cover_of_tiledL (kernelRun0_O c i arg2 harg2 arg3 harg3 arg4 harg4 arg5 harg5 arg6 harg6 arg7 harg7 arg8 harg8 hc0 hc1 x0 x1 xs0 xs1).2.2.1 S1x1x64.size (by sl_kernel_rfl) y
/-- and this is what they leave (read back over arbitrary prior contents). -/
def out0_O_4 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : Vec F S1x1x64 .f32 :=
  VO0_4.read (Elt F) (VO0_4.writes (Elt F) VO0_4.junk (kernelRun0_O c i arg2 harg2 arg3 harg3 arg4 harg4 arg5 harg5 arg6 harg6 arg7 harg7 arg8 harg8 hc0 hc1 x0 x1 xs0 xs1).2.2.1)

/-- The sums accumulator after an odd point: the stores the run found there cover it, -/
theorem scover0_O_0 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) (y : S64x256.Idx) :
    ∃ pc ∈ (kernelRun0_O c i arg2 harg2 arg3 harg3 arg4 harg4 arg5 harg5 arg6 harg6 arg7 harg7 arg8 harg8 hc0 hc1 x0 x1 xs0 xs1).2.2.2.1, y ∈ pc.1.set :=
  View.cover_of_tiledL (kernelRun0_O c i arg2 harg2 arg3 harg3 arg4 harg4 arg5 harg5 arg6 harg6 arg7 harg7 arg8 harg8 hc0 hc1 x0 x1 xs0 xs1).2.2.2.1 S64x256.size (by sl_kernel_rfl) y
/-- and this is what they leave (read back over arbitrary prior contents). -/
def sout0_O_0 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : Vec F S64x256 .f32 :=
  VS0_0.read (Elt F) (VS0_0.writes (Elt F) VS0_0.junk (kernelRun0_O c i arg2 harg2 arg3 harg3 arg4 harg4 arg5 harg5 arg6 harg6 arg7 harg7 arg8 harg8 hc0 hc1 x0 x1 xs0 xs1).2.2.2.1)

/-- The counts accumulator after an odd point: the stores the run found there cover it, -/
theorem scover0_O_1 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) (y : S1x64.Idx) :
    ∃ pc ∈ (kernelRun0_O c i arg2 harg2 arg3 harg3 arg4 harg4 arg5 harg5 arg6 harg6 arg7 harg7 arg8 harg8 hc0 hc1 x0 x1 xs0 xs1).2.2.2.2.1, y ∈ pc.1.set :=
  View.cover_of_tiledL (kernelRun0_O c i arg2 harg2 arg3 harg3 arg4 harg4 arg5 harg5 arg6 harg6 arg7 harg7 arg8 harg8 hc0 hc1 x0 x1 xs0 xs1).2.2.2.2.1 S1x64.size (by sl_kernel_rfl) y
/-- and this is what they leave (read back over arbitrary prior contents). -/
def sout0_O_1 (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : Vec F S1x64 .f32 :=
  VS0_1.read (Elt F) (VS0_1.writes (Elt F) VS0_1.junk (kernelRun0_O c i arg2 harg2 arg3 harg3 arg4 harg4 arg5 harg5 arg6 harg6 arg7 harg7 arg8 harg8 hc0 hc1 x0 x1 xs0 xs1).2.2.2.2.1)

/-! ## What the run found, through the payloads

Every store of the body writes a whole buffer, so a buffer ends at its LAST store's payload; a load of a buffer stored
earlier in the same run reads that store's payload, a load of a buffer not yet stored reads what the body was handed. -/

theorem hz2 : (![0, 0] : Fin 2 → ℕ) = fun _ => 0 := funext fun a => by fin_cases a <;> rfl
theorem hz3 : (![0, 0, 0] : Fin 3 → ℕ) = fun _ => 0 := funext fun a => by fin_cases a <;> rfl

/-- A reshape to the same shape is the identity. -/
theorem k0_pay1_eq (v : FVec F S1x64 .f32) : k0_pay1 v = v := shapeCast_self v _

/-- Even point: the rows output is the normalised rows block. -/
theorem out0_E_2_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) : out0_E_2 c i arg2 harg2 arg3 harg3 arg4 harg4 arg5 harg5 arg6 harg6 arg7 harg7 arg8 harg8 hc0 hc1 x0 x1 = k0_pay7 x0 := by
  unfold out0_E_2
  rw [View.read_writes_eq_canon _ _ _ (cover0_E_2 c i arg2 harg2 arg3 harg3 arg4 harg4 arg5 harg5 arg6 harg6 arg7 harg7 arg8 harg8 hc0 hc1 x0 x1)]
  unfold kernelRun0_E
  dsimp only
  sl_unfold_words
  rw [View.canon_unit_zero hz2]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Even point: the sums accumulator is the reset value plus this tile's per-class sums. -/
theorem sout0_E_0_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) : sout0_E_0 c i arg2 harg2 arg3 harg3 arg4 harg4 arg5 harg5 arg6 harg6 arg7 harg7 arg8 harg8 hc0 hc1 x0 x1 = k0_pay9 x0 x1 (k0_pay4 (F := F)) := by
  unfold sout0_E_0
  rw [View.read_writes_eq_canon _ _ _ (scover0_E_0 c i arg2 harg2 arg3 harg3 arg4 harg4 arg5 harg5 arg6 harg6 arg7 harg7 arg8 harg8 hc0 hc1 x0 x1)]
  unfold kernelRun0_E
  dsimp only
  sl_unfold_words
  rw [View.canon_cons_unit_zero (S := S64x256) hz2]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Even point: the counts accumulator is the reset value plus this tile's per-class counts. -/
theorem sout0_E_1_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : cond0_0 i) (hc1 : ¬cond0_1 i) (x0 : Vec F S2048x256 .f32) (x1 : Vec F S2048x1 .i32) : sout0_E_1 c i arg2 harg2 arg3 harg3 arg4 harg4 arg5 harg5 arg6 harg6 arg7 harg7 arg8 harg8 hc0 hc1 x0 x1 = k0_pay10 x1 (k0_pay5 (F := F)) := by
  unfold sout0_E_1
  rw [View.read_writes_eq_canon _ _ _ (scover0_E_1 c i arg2 harg2 arg3 harg3 arg4 harg4 arg5 harg5 arg6 harg6 arg7 harg7 arg8 harg8 hc0 hc1 x0 x1)]
  unfold kernelRun0_E
  dsimp only
  sl_unfold_words
  rw [View.canon_cons_unit_zero (S := S1x64) hz2]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Odd point: the rows output is the normalised rows block. -/
theorem out0_O_2_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : out0_O_2 c i arg2 harg2 arg3 harg3 arg4 harg4 arg5 harg5 arg6 harg6 arg7 harg7 arg8 harg8 hc0 hc1 x0 x1 xs0 xs1 = k0_pay7 x0 := by
  unfold out0_O_2
  rw [View.read_writes_eq_canon _ _ _ (cover0_O_2 c i arg2 harg2 arg3 harg3 arg4 harg4 arg5 harg5 arg6 harg6 arg7 harg7 arg8 harg8 hc0 hc1 x0 x1 xs0 xs1)]
  unfold kernelRun0_O
  dsimp only
  sl_unfold_words
  rw [View.canon_unit_zero hz2]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Odd point: the sums accumulator is what it held plus this tile's per-class sums. -/
theorem sout0_O_0_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : sout0_O_0 c i arg2 harg2 arg3 harg3 arg4 harg4 arg5 harg5 arg6 harg6 arg7 harg7 arg8 harg8 hc0 hc1 x0 x1 xs0 xs1 = k0_pay9 x0 x1 xs0 := by
  unfold sout0_O_0
  rw [View.read_writes_eq_canon _ _ _ (scover0_O_0 c i arg2 harg2 arg3 harg3 arg4 harg4 arg5 harg5 arg6 harg6 arg7 harg7 arg8 harg8 hc0 hc1 x0 x1 xs0 xs1)]
  unfold kernelRun0_O
  dsimp only
  sl_unfold_words
  rw [View.canon_unit_zero hz2]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Odd point: the counts accumulator is what it held plus this tile's per-class counts. -/
theorem sout0_O_1_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : sout0_O_1 c i arg2 harg2 arg3 harg3 arg4 harg4 arg5 harg5 arg6 harg6 arg7 harg7 arg8 harg8 hc0 hc1 x0 x1 xs0 xs1 = k0_pay10 x1 xs1 := by
  unfold sout0_O_1
  rw [View.read_writes_eq_canon _ _ _ (scover0_O_1 c i arg2 harg2 arg3 harg3 arg4 harg4 arg5 harg5 arg6 harg6 arg7 harg7 arg8 harg8 hc0 hc1 x0 x1 xs0 xs1)]
  unfold kernelRun0_O
  dsimp only
  sl_unfold_words
  rw [View.canon_unit_zero hz2]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Odd point: the sums output is the sums accumulator, reshaped. -/
theorem out0_O_3_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : out0_O_3 c i arg2 harg2 arg3 harg3 arg4 harg4 arg5 harg5 arg6 harg6 arg7 harg7 arg8 harg8 hc0 hc1 x0 x1 xs0 xs1 = k0_pay2 (k0_pay9 x0 x1 xs0) := by
  unfold out0_O_3
  rw [View.read_writes_eq_canon _ _ _ (cover0_O_3 c i arg2 harg2 arg3 harg3 arg4 harg4 arg5 harg5 arg6 harg6 arg7 harg7 arg8 harg8 hc0 hc1 x0 x1 xs0 xs1)]
  unfold kernelRun0_O
  dsimp only
  sl_unfold_words
  rw [View.canon_unit_zero hz3]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

/-- Odd point: the counts output is the counts accumulator, reshaped. -/
theorem out0_O_4_eq (c : Dev nD) (i : grid0.Coords) (arg2 : Memref sig .tc .vmem S2048x256 .f32) (harg2 : arg2.IsWhole) (arg3 : Memref sig .tc .vmem S2048x1 .i32) (harg3 : arg3.IsWhole) (arg4 : Memref sig .tc .vmem S2048x256 .bf16) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S64x256 .f32) (harg7 : arg7.IsWhole) (arg8 : Memref sig .tc .vmem S1x64 .f32) (harg8 : arg8.IsWhole) (hc0 : ¬cond0_0 i) (hc1 : cond0_1 i) (x0 : Vec F S2048x256 .f32) (x1 : Vec F S2048x1 .i32) (xs0 : Vec F S64x256 .f32) (xs1 : Vec F S1x64 .f32) : out0_O_4 c i arg2 harg2 arg3 harg3 arg4 harg4 arg5 harg5 arg6 harg6 arg7 harg7 arg8 harg8 hc0 hc1 x0 x1 xs0 xs1 = k0_pay3 (k0_pay10 x1 xs1) := by
  unfold out0_O_4
  rw [View.read_writes_eq_canon _ _ _ (cover0_O_4 c i arg2 harg2 arg3 harg3 arg4 harg4 arg5 harg5 arg6 harg6 arg7 harg7 arg8 harg8 hc0 hc1 x0 x1 xs0 xs1)]
  unfold kernelRun0_O
  dsimp only
  sl_unfold_words
  rw [View.canon_unit_zero hz3]
  simp only [View.readAt_eq_ld, harg2.read_unread, harg3.read_unread, harg7.read_unread, harg8.read_unread, View.ld_unit_zero (S := S2048x256) hz2, View.ld_unit_zero (S := S2048x1) hz2, View.ld_unit_zero (S := S64x256) hz2, View.ld_unit_zero (S := S1x64) hz2, View.readCov_unit_zero (S := S64x256) _ hz2, View.readCov_unit_zero (S := S1x64) _ hz2, k0_pay1_eq]

end Cert.KernelIdeal.Hand

end
-- ==== Proof.KI.R0.lean ====
import proofs.«401042_j13357348290857_3_alg».proof.Proof.KI.R0Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Point by point -/

theorem even_not_odd {n : ℕ} (h : n % 2 = 0) : ¬ n % 2 = 1 := by omega
theorem odd_of_not_even {n : ℕ} (h : ¬ n % 2 = 0) : n % 2 = 1 := by omega
/-- The conditions at an even point and at an odd point. -/
theorem hcE0 (t : Fin cfg0.N) (h0 : t.val % 2 = 0) : cond0_0 (grid0.coords t) := (hcond0_0 t).mpr h0
theorem hcE1 (t : Fin cfg0.N) (h0 : t.val % 2 = 0) : ¬cond0_1 (grid0.coords t) := fun h => even_not_odd h0 ((hcond0_1 t).mp h)
theorem hcO0 (t : Fin cfg0.N) (h0 : ¬t.val % 2 = 0) : ¬cond0_0 (grid0.coords t) := fun h => h0 ((hcond0_0 t).mp h)
theorem hcO1 (t : Fin cfg0.N) (h0 : ¬t.val % 2 = 0) : cond0_1 (grid0.coords t) := (hcond0_1 t).mpr (odd_of_not_even h0)

/-- What the three outputs' staging buffers and the two accumulators hold after an even point `t` whose blocks are
    `x0`, `x1` (the sums and counts outputs are not stored there: placeholders nothing reads), -/
def caseE0 (c : Dev nD) (t : Fin cfg0.N) (h0 : t.val % 2 = 0) (x0 : Vec F S2048x256 .f32) (x1 : Vec F S2048x1 .i32) : Vec F S2048x256 .bf16 × Vec F S1x64x256 .f32 × Vec F S1x1x64 .f32 × Vec F S64x256 .f32 × Vec F S1x64 .f32 :=
  (out0_E_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) x0 x1, VO0_3.read (Elt F) VO0_3.junk, VO0_4.read (Elt F) VO0_4.junk, sout0_E_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) x0 x1, sout0_E_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) x0 x1)
/-- and after an odd point, over what the point before left in the accumulators. -/
def caseO0 (c : Dev nD) (t : Fin cfg0.N) (h0 : ¬t.val % 2 = 0) (x0 : Vec F S2048x256 .f32) (x1 : Vec F S2048x1 .i32) (xs0 : Vec F S64x256 .f32) (xs1 : Vec F S1x64 .f32) : Vec F S2048x256 .bf16 × Vec F S1x64x256 .f32 × Vec F S1x1x64 .f32 × Vec F S64x256 .f32 × Vec F S1x64 .f32 :=
  (out0_O_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) x0 x1 xs0 xs1, out0_O_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) x0 x1 xs0 xs1, out0_O_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) x0 x1 xs0 xs1, sout0_O_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) x0 x1 xs0 xs1, sout0_O_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) x0 x1 xs0 xs1)

/-- The accumulation: what the outputs' staging buffers and the accumulators hold after the body at position `n`. -/
def outsAt0 (c : Dev nD) : (n : ℕ) → n < cfg0.N → Vec F S2048x256 .bf16 × Vec F S1x64x256 .f32 × Vec F S1x1x64 .f32 × Vec F S64x256 .f32 × Vec F S1x64 .f32
  | 0, hn => caseE0 c ⟨0, hn⟩ (Nat.zero_mod _) (xblk0 V c ⟨0, hn⟩) (lblk0 V c ⟨0, hn⟩)
  | n + 1, hn =>
    if h0 : (n + 1) % 2 = 0 then
      caseE0 c ⟨n + 1, hn⟩ h0 (xblk0 V c ⟨n + 1, hn⟩) (lblk0 V c ⟨n + 1, hn⟩)
    else
      caseO0 c ⟨n + 1, hn⟩ h0 (xblk0 V c ⟨n + 1, hn⟩) (lblk0 V c ⟨n + 1, hn⟩) (outsAt0 c n (Nat.lt_of_succ_lt hn)).2.2.2.1 (outsAt0 c n (Nat.lt_of_succ_lt hn)).2.2.2.2

theorem outsAt0_E (c : Dev nD) (t : Fin cfg0.N) (h0 : t.val % 2 = 0) :
    outsAt0 V c t.val t.isLt = caseE0 c t h0 (xblk0 V c t) (lblk0 V c t) := by
  obtain ⟨n, hn⟩ := t
  cases n with
  | zero => exact rfl
  | succ n => exact (dif_pos h0).trans rfl

theorem outsAt0_O (c : Dev nD) (t : Fin cfg0.N) (h0 : ¬t.val % 2 = 0) :
    outsAt0 V c t.val t.isLt = caseO0 c t h0 (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans rfl

/-- What the two scratch accumulators (per-class sums, per-class counts) hold after the body at position `n`. -/
def sc0At (c : Dev nD) : (n : ℕ) → n < cfg0.N → Vec F S64x256 .f32 × Vec F S1x64 .f32 :=
  fun n hn => ((outsAt0 V c n hn).2.2.2.1, (outsAt0 V c n hn).2.2.2.2)

/-- The region invariant before position `n`: what the launch hands over before the first point; afterwards both
    accumulators at what the point before left, the other scoped buffers at anything, the generator register. -/
def PhiS (c : Dev nD) : (n : ℕ) → n ≤ cfg0.N → sProp 𝕄
  | 0, _ => Pipeline.ΦA spec0 c
  | n + 1, hn => iprop(iprop(owns (c : Thread nD τ) scM0_0 fullShare (outsAt0 V c n hn).2.2.2.1 ∗ owns (c : Thread nD τ) scM0_1 fullShare (outsAt0 V c n hn).2.2.2.2 ∗ rest0 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (outsAt0 V c n hn).2.2.2.1 ∗ owns (c : Thread nD τ) scM0_1 fullShare (outsAt0 V c n hn).2.2.2.2 ∗ rest0 (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare (outsAt0 V c (n - 1) (by omega)).2.2.2.1 ∗ owns (c : Thread nD τ) scM0_1 fullShare (outsAt0 V c (n - 1) (by omega)).2.2.2.2 ∗ rest0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

/-! ## What each point leaves, through the skeleton's payloads -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2_at (c : Dev nD) (t : Fin cfg0.N) : (dat0 V c).after 2 t = (outsAt0 V c t.val t.isLt).1 := by dsimp only [dat0]
theorem after0_3_at (c : Dev nD) (t : Fin cfg0.N) : (dat0 V c).after 3 t = (outsAt0 V c t.val t.isLt).2.1 := by dsimp only [dat0]
theorem after0_4_at (c : Dev nD) (t : Fin cfg0.N) : (dat0 V c).after 4 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks. At an even point the accumulators are handed over at
    anything (they are reset), the sums and counts windows are handed back as found; at an odd point the accumulators are
    handed over at what the point before left and every output is stored. Either way the accumulators come back at this
    point's contents, because the stores found by the run cover them. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  by_cases h0 : t.val % 2 = 0
  · rw [show (dat0 V c).leavesExact 0 t = owns (c : Thread nD τ) (ms0_0 t) fullShare ((dat0 V c).after 0 t) from by
        unfold Dat.leavesExact; rw [liveAt0_0 t], after0_0]
    rw [show (dat0 V c).leavesExact 1 t = owns (c : Thread nD τ) (ms0_1 t) fullShare ((dat0 V c).after 1 t) from by
        unfold Dat.leavesExact; rw [liveAt0_1 t], after0_1]
    rw [show (dat0 V c).leavesExact 2 t = owns (c : Thread nD τ) (ms0_2 t) fullShare ((dat0 V c).after 2 t) from by
        unfold Dat.leavesExact; rw [liveAt0_2 t], after0_2_at]
    rw [Dat.leavesExact_idle (dat0 V c) 3 t (idleAt0_3_E t (hcE0 t h0) (hcE1 t h0)) (noFlush0_3_E t (hcE0 t h0) (hcE1 t h0))]
    rw [Dat.leavesExact_idle (dat0 V c) 4 t (idleAt0_4_E t (hcE0 t h0) (hcE1 t h0)) (noFlush0_4_E t (hcE0 t h0) (hcE1 t h0))]
    rw [outsAt0_E V c t h0]
    unfold caseE0 out0_E_2 sout0_E_0 sout0_E_1; (try dsimp only)
    by_cases hz : t.val = 0
    · rw [PhiS_castSucc V c t, PhiS_zero V c _ _ hz, PhiA0_eq]
      iintro ⟨⟨⟨HS0, HS1, Hr⟩, Hg⟩, Ho, ⟨%d0, H0⟩, ⟨%d1, H1⟩, ⟨%d2, H2⟩, ⟨%d3, H3⟩, ⟨%d4, H4⟩⟩
      iapply ((kernelRun0_E c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_E_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t))
          isplitl [HS1]
          · unfold owns; iexists _; isplitr
            swap; · iexact HS1
            ipureintro; exact View.read_writes_of_cover _ _ _ _ _ (scover0_E_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t))
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_E_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t))
      isplitl [H3]; · iexists _; iexact H3
      iexists _; iexact H4
    · rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩⟩
      iapply ((kernelRun0_E c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexists _; iexact HS0
      isplitl [HS1]; · iexists _; iexact HS1
      iintro ⟨H0, H1, ⟨%e2, H2⟩, H3, H4, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover0_E_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t))
          isplitl [HS1]
          · unfold owns; iexists _; isplitr
            swap; · iexact HS1
            ipureintro; exact View.read_writes_of_cover _ _ _ _ _ (scover0_E_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t))
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_E_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t))
      isplitl [H3]; · iexists _; iexact H3
      iexists _; iexact H4
  · have hz : t.val ≠ 0 := fun hz => h0 (by rw [hz])
    rw [show (dat0 V c).leavesExact 0 t = owns (c : Thread nD τ) (ms0_0 t) fullShare ((dat0 V c).after 0 t) from by
        unfold Dat.leavesExact; rw [liveAt0_0 t], after0_0]
    rw [show (dat0 V c).leavesExact 1 t = owns (c : Thread nD τ) (ms0_1 t) fullShare ((dat0 V c).after 1 t) from by
        unfold Dat.leavesExact; rw [liveAt0_1 t], after0_1]
    rw [show (dat0 V c).leavesExact 2 t = owns (c : Thread nD τ) (ms0_2 t) fullShare ((dat0 V c).after 2 t) from by
        unfold Dat.leavesExact; rw [liveAt0_2 t], after0_2_at]
    rw [show (dat0 V c).leavesExact 3 t = owns (c : Thread nD τ) (ms0_3 t) fullShare ((dat0 V c).after 3 t) from by
        unfold Dat.leavesExact; rw [liveAt0_3_O t (hcO0 t h0) (hcO1 t h0)], after0_3_at]
    rw [show (dat0 V c).leavesExact 4 t = owns (c : Thread nD τ) (ms0_4 t) fullShare ((dat0 V c).after 4 t) from by
        unfold Dat.leavesExact; rw [liveAt0_4_O t (hcO0 t h0) (hcO1 t h0)], after0_4_at]
    rw [outsAt0_O V c t h0]
    unfold caseO0 out0_O_2 out0_O_3 out0_O_4 sout0_O_0 sout0_O_1; (try dsimp only)
    rw [PhiS_castSucc V c t, PhiS_pos V c _ _ hz]
    iintro ⟨⟨⟨HS0, HS1, Hr⟩, Hg⟩, Ho, ⟨%d0, H0⟩, ⟨%d1, H1⟩, ⟨%d2, H2⟩, ⟨%d3, H3⟩, ⟨%d4, H4⟩⟩
    iapply ((kernelRun0_O c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) _ _).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, ⟨%e2, H2⟩, ⟨%e3, H3⟩, ⟨%e4, H4⟩, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover0_O_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) _ _)
        isplitl [HS1]
        · unfold owns; iexists _; isplitr
          swap; · iexact HS1
          ipureintro; exact View.read_writes_of_cover _ _ _ _ _ (scover0_O_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_O_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) _ _)
    isplitl [H3]
    · unfold owns; iexists _; isplitr
      swap; · iexact H3
      ipureintro; exact View.read_writes_of_cover _ _ _ _ _ (cover0_O_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) _ _)
    unfold owns; iexists _; isplitr
    swap; · iexact H4
    ipureintro; exact View.read_writes_of_cover _ _ _ _ _ (cover0_O_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) _ _)

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives it back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

theorem hout0 (c : Dev nD) : (dat0 V c).Φ (Fin.last cfg0.N) ⊢ Pipeline.ΦA spec0 c :=
  Phi_out0 V c _ (by rw [Fin.val_last]; have : cfg0.N = 4 := N_0; omega)

/-! ## What each point leaves, through the skeleton's payloads (continued) -/

theorem recorded_eq0 (c : Dev nD) (t : Fin (cfg0.N + 1)) : (dat0 V c).recorded t = Set.univ := rfl

/-- The normalised rows block. -/
theorem after0_2 (c : Dev nD) (t : Fin cfg0.N) : (dat0 V c).after 2 t = k0_pay7 (xblk0 V c t) := by
  rw [after0_2_at]
  by_cases h0 : t.val % 2 = 0
  · rw [outsAt0_E V c t h0]; unfold caseE0; dsimp only
    exact out0_E_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t)
  · rw [outsAt0_O V c t h0]; unfold caseO0; dsimp only
    exact out0_O_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2
/-- At a core's first tile the accumulators are reset, then this tile is added. -/
theorem sc0At_even (c : Dev nD) (t : Fin cfg0.N) (h : t.val % 2 = 0) :
    sc0At V c t.val t.isLt = (k0_pay9 (xblk0 V c t) (lblk0 V c t) (k0_pay4 (F := F)), k0_pay10 (lblk0 V c t) (k0_pay5 (F := F))) := by
  have h0 : t.val % 2 = 0 := h
  show ((outsAt0 V c t.val t.isLt).2.2.2.1, (outsAt0 V c t.val t.isLt).2.2.2.2) = _
  rw [outsAt0_E V c t h0]; unfold caseE0; dsimp only
  rw [sout0_E_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t), sout0_E_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcE0 t h0) (hcE1 t h0) (xblk0 V c t) (lblk0 V c t)]
/-- At a core's second tile this tile is added to what the first left. -/
theorem sc0At_odd (c : Dev nD) (t : Fin cfg0.N) (h : t.val % 2 = 1) :
    sc0At V c t.val t.isLt = (k0_pay9 (xblk0 V c t) (lblk0 V c t) (sc0At V c (t.val - 1) (Nat.lt_of_le_of_lt (Nat.sub_le _ _) t.isLt)).1,
      k0_pay10 (lblk0 V c t) (sc0At V c (t.val - 1) (Nat.lt_of_le_of_lt (Nat.sub_le _ _) t.isLt)).2) := by
  have h0 : ¬t.val % 2 = 0 := by omega
  show ((outsAt0 V c t.val t.isLt).2.2.2.1, (outsAt0 V c t.val t.isLt).2.2.2.2) = (k0_pay9 (xblk0 V c t) (lblk0 V c t) (outsAt0 V c (t.val - 1) (Nat.lt_of_le_of_lt (Nat.sub_le _ _) t.isLt)).2.2.2.1, k0_pay10 (lblk0 V c t) (outsAt0 V c (t.val - 1) (Nat.lt_of_le_of_lt (Nat.sub_le _ _) t.isLt)).2.2.2.2)
  rw [outsAt0_O V c t h0]; unfold caseO0; dsimp only
  rw [sout0_O_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_O_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2]
/-- At a core's last tile the accumulators are copied out. -/
theorem after0_3_odd (c : Dev nD) (t : Fin cfg0.N) (h : t.val % 2 = 1) : (dat0 V c).after 3 t = k0_pay2 (sc0At V c t.val t.isLt).1 := by
  have h0 : ¬t.val % 2 = 0 := by omega
  rw [after0_3_at]
  show (outsAt0 V c t.val t.isLt).2.1 = k0_pay2 (outsAt0 V c t.val t.isLt).2.2.2.1
  rw [outsAt0_O V c t h0]; unfold caseO0; dsimp only
  rw [out0_O_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_O_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2]
theorem after0_4_odd (c : Dev nD) (t : Fin cfg0.N) (h : t.val % 2 = 1) : (dat0 V c).after 4 t = k0_pay3 (sc0At V c t.val t.isLt).2 := by
  have h0 : ¬t.val % 2 = 0 := by omega
  rw [after0_4_at]
  show (outsAt0 V c t.val t.isLt).2.2.1 = k0_pay3 (outsAt0 V c t.val t.isLt).2.2.2.2
  rw [outsAt0_O V c t h0]; unfold caseO0; dsimp only
  rw [out0_O_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_O_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (hcO0 t h0) (hcO1 t h0) (xblk0 V c t) (lblk0 V c t) (outsAt0 V c (t.val - 1) (Nat.lt_of_le_of_lt (Nat.sub_le _ _) t.isLt)).2.2.2.1 (outsAt0 V c (t.val - 1) (Nat.lt_of_le_of_lt (Nat.sub_le _ _) t.isLt)).2.2.2.2]

end Cert.KernelIdeal.Hand

end
-- ==== Proof.KI.R1Runs.lean ====
import proofs.«401042_j13357348290857_3_alg».proof.Proof.Gen.KernelIdeal.Launch
import proofs.«401042_j13357348290857_3_alg».proof.Proof.Gen.KernelIdeal.Skeleton
import proofs.«401042_j13357348290857_3_alg».proof.Proof.Gen.KernelIdeal.Points
import Idealize.ShloMosaic.Lib.Pipeline.FrameBody
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1: what its three control cases share

The grid is 8 query tiles by 4 key steps; point `t` is query tile `t / 4` at key step `t % 4`. The body resets the
running maximum and stores the alignment and separation blocks exactly at key step 0, folds this step's tile maximum
into the running maximum at every step, and stores the hinge of the running maximum exactly at key step 3. -/

/-- The body's first branch (reset; alignment and separation stores) is taken: the key step is 0. -/
abbrev cond1_0 (i : grid1.Coords) : Prop := k1_cond1 i = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The body's second branch (hinge store) is taken: the key step is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where each window is idle, and where it is written back -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
/-- The hinge block is stored at key step 3 only; -/
theorem idle1_5 : ∀ t : Fin cfg1.N, t.val % 4 ≠ 3 → cfg1.idle 5 (grid1.coords t) = true :=
  (by decide +kernel : ∀ t : Fin grid1.N, t.val % 4 ≠ 3 → idle1 5 (grid1.coords t) = true)
theorem live1_5 : ∀ t : Fin cfg1.N, t.val % 4 = 3 → cfg1.idle 5 (grid1.coords t) = false :=
  (by decide +kernel : ∀ t : Fin grid1.N, t.val % 4 = 3 → idle1 5 (grid1.coords t) = false)
/-- the alignment and separation blocks at key step 0 only. -/
theorem idle1_6 : ∀ t : Fin cfg1.N, t.val % 4 ≠ 0 → cfg1.idle 6 (grid1.coords t) = true :=
  (by decide +kernel : ∀ t : Fin grid1.N, t.val % 4 ≠ 0 → idle1 6 (grid1.coords t) = true)
theorem live1_6 : ∀ t : Fin cfg1.N, t.val % 4 = 0 → cfg1.idle 6 (grid1.coords t) = false :=
  (by decide +kernel : ∀ t : Fin grid1.N, t.val % 4 = 0 → idle1 6 (grid1.coords t) = false)
theorem idle1_7 : ∀ t : Fin cfg1.N, t.val % 4 ≠ 0 → cfg1.idle 7 (grid1.coords t) = true :=
  (by decide +kernel : ∀ t : Fin grid1.N, t.val % 4 ≠ 0 → idle1 7 (grid1.coords t) = true)
theorem live1_7 : ∀ t : Fin cfg1.N, t.val % 4 = 0 → cfg1.idle 7 (grid1.coords t) = false :=
  (by decide +kernel : ∀ t : Fin grid1.N, t.val % 4 = 0 → idle1 7 (grid1.coords t) = false)
/-- All three outputs are written back exactly after key step 3. -/
theorem noflush1_5 (t : Fin cfg1.N) (h : t.val % 4 ≠ 3) : (cfg1.win 5).flush t = false :=
  Bool.eq_false_iff.mpr fun hf => h ((flush1_5 t).mp hf)
theorem noflush1_6 (t : Fin cfg1.N) (h : t.val % 4 ≠ 3) : (cfg1.win 6).flush t = false :=
  Bool.eq_false_iff.mpr fun hf => h ((flush1_6 t).mp hf)
theorem noflush1_7 (t : Fin cfg1.N) (h : t.val % 4 ≠ 3) : (cfg1.win 7).flush t = false :=
  Bool.eq_false_iff.mpr fun hf => h ((flush1_7 t).mp hf)

/-! ## The memrefs the body is called with -/

abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x64 .f32 := win1_7.stage (cfg1.slots t 7)
abbrev hs1_7 (t : Fin cfg1.N) : (ms1_7 t).IsWhole := hstage1_7 ((cfg1.slots t 7).cast nbuf1_7)
/-- The running-maximum scratch, whole, and the view its contents are stated through. -/
abbrev scM1_0 : Memref sig .tc .vmem S1024x1 .f32 := Memref.whole cc1_scratch0
abbrev VS1_0 : View sig .tc .vmem S1024x1 .f32 := scM1_0.view
/-- One staging buffer of each output, through which its contents are stated (which one does not matter for pieces that cover). -/
abbrev VO1_5 : View sig .tc .vmem S1024x1 .f32 := (Memref.whole cc1_stg5_0 : Memref sig .tc .vmem S1024x1 .f32).view
abbrev VO1_6 : View sig .tc .vmem S1024x1 .f32 := (Memref.whole cc1_stg6_0 : Memref sig .tc .vmem S1024x1 .f32).view
abbrev VO1_7 : View sig .tc .vmem S1024x64 .f32 := (Memref.whole cc1_stg7_0 : Memref sig .tc .vmem S1024x64 .f32).view

/-- The core's scoped buffers that are no staging buffer of this region, the running-maximum scratch apart: each at some contents. With `P` for the scratch. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ P)

/-- The region's entry invariant, opened: the other scoped buffers and the scratch at some contents, the generator register at some state. -/
theorem PhiA1_eq (c : Dev nD) :
    (Pipeline.ΦA spec1 c : sProp 𝕄)
      = iprop(scoped1 (F := F) c (iprop(∃ d, owns (c : Thread nD τ) scM1_0 fullShare d)) ∗ (∃ r, prngReg c r)) := by
  unfold Pipeline.ΦA scoped1; rw [scopedRest1_eq]; simp only [scM1_0, owns_whole]; try rfl

/-! ## The body, case by case

In each case the body is run once on arbitrary whole memrefs; what it leaves in every buffer it stores into is the
list of stores it made there (last first), found by the run itself. -/

set_option maxHeartbeats 1000000 in
/-- KEY STEP 0 (first branch taken, second not). On whole memrefs — the five inputs at their contents, the hinge block's buffer (idle
    here) at contents handed back untouched, the alignment and separation buffers and the scratch at anything — the body runs to the
    continuation holding the inputs as they were, the hinge buffer untouched, and the alignment buffer, the separation buffer and the
    scratch each with its pieces written (last first): the witness the run finds. -/
noncomputable def kernelRun1_A (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i)
    (x0 : Vec F S1024x256 .bf16) (x1 : Vec F S8192x256 .bf16) (x2 : Vec F S1024x1 .i32) (x3 : Vec F S1x8192 .i32) (x4 : Vec F S64x256 .f32) :
    Σ' (L6 : List (View.Piece (Elt F) S1024x1 .f32)) (L7 : List (View.Piece (Elt F) S1024x64 .f32)), { LS0 : List (View.Piece (Elt F) S1024x1 .f32) //
      ∀ (xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

set_option maxHeartbeats 1000000 in
/-- KEY STEPS 1 AND 2 (neither branch taken). The three output buffers (all idle here) at contents handed back untouched, the scratch
    at what the step before left: the body runs to the continuation holding everything but the scratch as it was, the scratch with its
    pieces written. -/
noncomputable def kernelRun1_B (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : ¬cond1_1 i)
    (x0 : Vec F S1024x256 .bf16) (x1 : Vec F S8192x256 .bf16) (x2 : Vec F S1024x1 .i32) (x3 : Vec F S1x8192 .i32) (x4 : Vec F S64x256 .f32) (xs0 : Vec F S1024x1 .f32) :
    { LS0 : List (View.Piece (Elt F) S1024x1 .f32) //
      ∀ (xi5 : Vec F S1024x1 .f32) (xi6 : Vec F S1024x1 .f32) (xi7 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10) K } := by
  refine ⟨?_, fun xi5 xi6 xi7 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS0

set_option maxHeartbeats 1000000 in
/-- KEY STEP 3 (second branch taken, first not). The alignment and separation buffers (idle here) at contents handed back untouched,
    the hinge buffer at anything, the scratch at what the step before left: the body runs to the continuation holding the inputs and
    the two idle buffers as they were, the hinge buffer and the scratch each with its pieces written. -/
noncomputable def kernelRun1_C (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : cond1_1 i)
    (x0 : Vec F S1024x256 .bf16) (x1 : Vec F S8192x256 .bf16) (x2 : Vec F S1024x1 .i32) (x3 : Vec F S1x8192 .i32) (x4 : Vec F S64x256 .f32) (xs0 : Vec F S1024x1 .f32) :
    Σ' (L5 : List (View.Piece (Elt F) S1024x1 .f32)), { LS0 : List (View.Piece (Elt F) S1024x1 .f32) //
      ∀ (xi6 : Vec F S1024x1 .f32) (xi7 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10) K } := by
  refine ⟨?_, ?_, fun xi6 xi7 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    iexists _; iexact HS0

end Cert.KernelIdeal.Hand

end
-- ==== Proof.KI.R1Pieces.lean ====
import proofs.«401042_j13357348290857_3_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1: what each case's stores leave

Every store of the body covers its whole buffer, so what a buffer ends with is the payload of the last store into it, as a
function of the blocks the body loaded: the query rows `x0`, the 2048 key rows and 2048 key labels at this key step's
offset within the whole key matrix `x1` and label row `x3`, the query labels `x2`, the prototypes `x4`, and what the
running-maximum scratch held (`xs0`; at key step 0 the fill value just stored). -/

theorem hz1_2 : (![0, 0] : Fin 2 → Nat) = fun _ => 0 := by funext a; fin_cases a <;> rfl

/-- KEY STEP 0: the alignment block is one minus the row-wise inner product of each query row with its own class prototype. -/
theorem canon1A_6 (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i) (x0 : Vec F S1024x256 .bf16) (x1 : Vec F S8192x256 .bf16) (x2 : Vec F S1024x1 .i32) (x3 : Vec F S1x8192 .i32) (x4 : Vec F S64x256 .f32) : View.canon (kernelRun1_A c i arg2 harg2 arg3 harg3 arg4 harg4 arg5 harg5 arg6 harg6 arg7 harg7 arg8 harg8 arg9 harg9 arg10 harg10 hc0 hc1 x0 x1 x2 x3 x4).1 = k1_pay6 x0 x2 x4 := by
  unfold kernelRun1_A; dsimp only; sl_unfold_words
  rw [View.canon_unit_zero hz1_2]
  simp only [View.readAt_eq_ld, harg2.read_unread, harg3.read_unread, harg4.read_unread, harg5.read_unread, harg6.read_unread, harg7.read_unread, harg8.read_unread, harg9.read_unread, harg10.read_unread, View.ld_unit_zero (S := S1024x256) hz1_2, View.ld_unit_zero (S := S1024x1) hz1_2, View.ld_unit_zero (S := S64x256) hz1_2, View.ld_unit_zero (S := S1024x64) hz1_2, View.readCov_unit_zero (S := S1024x1) _ hz1_2]
theorem cover1A_6 (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i) (x0 : Vec F S1024x256 .bf16) (x1 : Vec F S8192x256 .bf16) (x2 : Vec F S1024x1 .i32) (x3 : Vec F S1x8192 .i32) (x4 : Vec F S64x256 .f32) (y : S1024x1.Idx) : ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).1 S1024x1.size (by sl_kernel_rfl) y
/-- KEY STEP 0: the separation block, the hinged similarity of each query row to every other class's prototype. -/
theorem canon1A_7 (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i) (x0 : Vec F S1024x256 .bf16) (x1 : Vec F S8192x256 .bf16) (x2 : Vec F S1024x1 .i32) (x3 : Vec F S1x8192 .i32) (x4 : Vec F S64x256 .f32) : View.canon (kernelRun1_A c i arg2 harg2 arg3 harg3 arg4 harg4 arg5 harg5 arg6 harg6 arg7 harg7 arg8 harg8 arg9 harg9 arg10 harg10 hc0 hc1 x0 x1 x2 x3 x4).2.1 = k1_pay7 x0 x2 x4 := by
  unfold kernelRun1_A; dsimp only; sl_unfold_words
  rw [View.canon_unit_zero hz1_2]
  simp only [View.readAt_eq_ld, harg2.read_unread, harg3.read_unread, harg4.read_unread, harg5.read_unread, harg6.read_unread, harg7.read_unread, harg8.read_unread, harg9.read_unread, harg10.read_unread, View.ld_unit_zero (S := S1024x256) hz1_2, View.ld_unit_zero (S := S1024x1) hz1_2, View.ld_unit_zero (S := S64x256) hz1_2, View.ld_unit_zero (S := S1024x64) hz1_2, View.readCov_unit_zero (S := S1024x1) _ hz1_2]
theorem cover1A_7 (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i) (x0 : Vec F S1024x256 .bf16) (x1 : Vec F S8192x256 .bf16) (x2 : Vec F S1024x1 .i32) (x3 : Vec F S1x8192 .i32) (x4 : Vec F S64x256 .f32) (y : S1024x64.Idx) : ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.1 S1024x64.size (by sl_kernel_rfl) y
/-- KEY STEP 0: the running maximum is reset to the fill value, then this step's tile maximum joins it. -/
theorem canon1A_S (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i) (x0 : Vec F S1024x256 .bf16) (x1 : Vec F S8192x256 .bf16) (x2 : Vec F S1024x1 .i32) (x3 : Vec F S1x8192 .i32) (x4 : Vec F S64x256 .f32) : View.canon (kernelRun1_A c i arg2 harg2 arg3 harg3 arg4 harg4 arg5 harg5 arg6 harg6 arg7 harg7 arg8 harg8 arg9 harg9 arg10 harg10 hc0 hc1 x0 x1 x2 x3 x4).2.2.1 = k1_pay8 x0 (View.ld x1 (Rect.unit (s := S8192x256) (k1_off1 i) S2048x256.size (k1_off1_inb i))) x2 (View.ld x3 (Rect.unit (s := S1x8192) (k1_off2 i) S1x2048.size (k1_off2_inb i))) (k1_pay3 (F := F)) := by
  unfold kernelRun1_A; dsimp only; sl_unfold_words
  rw [View.canon_cons_unit_zero (S := S1024x1) hz1_2]
  simp only [View.readAt_eq_ld, harg2.read_unread, harg3.read_unread, harg4.read_unread, harg5.read_unread, harg6.read_unread, harg7.read_unread, harg8.read_unread, harg9.read_unread, harg10.read_unread, View.ld_unit_zero (S := S1024x256) hz1_2, View.ld_unit_zero (S := S1024x1) hz1_2, View.ld_unit_zero (S := S64x256) hz1_2, View.ld_unit_zero (S := S1024x64) hz1_2, View.readCov_unit_zero (S := S1024x1) _ hz1_2]
theorem cover1A_S (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : cond1_0 i) (hc1 : ¬cond1_1 i) (x0 : Vec F S1024x256 .bf16) (x1 : Vec F S8192x256 .bf16) (x2 : Vec F S1024x1 .i32) (x3 : Vec F S1x8192 .i32) (x4 : Vec F S64x256 .f32) (y : S1024x1.Idx) : ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.1 S1024x1.size (by sl_kernel_rfl) y

/-- KEY STEPS 1, 2: this step's tile maximum joins what the scratch held. -/
theorem canon1B_S (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : ¬cond1_1 i) (x0 : Vec F S1024x256 .bf16) (x1 : Vec F S8192x256 .bf16) (x2 : Vec F S1024x1 .i32) (x3 : Vec F S1x8192 .i32) (x4 : Vec F S64x256 .f32) (xs0 : Vec F S1024x1 .f32) : View.canon (kernelRun1_B c i arg2 harg2 arg3 harg3 arg4 harg4 arg5 harg5 arg6 harg6 arg7 harg7 arg8 harg8 arg9 harg9 arg10 harg10 hc0 hc1 x0 x1 x2 x3 x4 xs0).1 = k1_pay8 x0 (View.ld x1 (Rect.unit (s := S8192x256) (k1_off1 i) S2048x256.size (k1_off1_inb i))) x2 (View.ld x3 (Rect.unit (s := S1x8192) (k1_off2 i) S1x2048.size (k1_off2_inb i))) xs0 := by
  unfold kernelRun1_B; dsimp only; sl_unfold_words
  rw [View.canon_unit_zero hz1_2]
  simp only [View.readAt_eq_ld, harg2.read_unread, harg3.read_unread, harg4.read_unread, harg5.read_unread, harg6.read_unread, harg7.read_unread, harg8.read_unread, harg9.read_unread, harg10.read_unread, View.ld_unit_zero (S := S1024x256) hz1_2, View.ld_unit_zero (S := S1024x1) hz1_2, View.ld_unit_zero (S := S64x256) hz1_2, View.ld_unit_zero (S := S1024x64) hz1_2, View.readCov_unit_zero (S := S1024x1) _ hz1_2]
theorem cover1B_S (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : ¬cond1_1 i) (x0 : Vec F S1024x256 .bf16) (x1 : Vec F S8192x256 .bf16) (x2 : Vec F S1024x1 .i32) (x3 : Vec F S1x8192 .i32) (x4 : Vec F S64x256 .f32) (xs0 : Vec F S1024x1 .f32) (y : S1024x1.Idx) : ∃ pc ∈ (kernelRun1_B c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0).1 S1024x1.size (by sl_kernel_rfl) y

/-- KEY STEP 3: the same update of the scratch, -/
theorem canon1C_S (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : cond1_1 i) (x0 : Vec F S1024x256 .bf16) (x1 : Vec F S8192x256 .bf16) (x2 : Vec F S1024x1 .i32) (x3 : Vec F S1x8192 .i32) (x4 : Vec F S64x256 .f32) (xs0 : Vec F S1024x1 .f32) : View.canon (kernelRun1_C c i arg2 harg2 arg3 harg3 arg4 harg4 arg5 harg5 arg6 harg6 arg7 harg7 arg8 harg8 arg9 harg9 arg10 harg10 hc0 hc1 x0 x1 x2 x3 x4 xs0).2.1 = k1_pay8 x0 (View.ld x1 (Rect.unit (s := S8192x256) (k1_off1 i) S2048x256.size (k1_off1_inb i))) x2 (View.ld x3 (Rect.unit (s := S1x8192) (k1_off2 i) S1x2048.size (k1_off2_inb i))) xs0 := by
  unfold kernelRun1_C; dsimp only; sl_unfold_words
  rw [View.canon_unit_zero hz1_2]
  simp only [View.readAt_eq_ld, harg2.read_unread, harg3.read_unread, harg4.read_unread, harg5.read_unread, harg6.read_unread, harg7.read_unread, harg8.read_unread, harg9.read_unread, harg10.read_unread, View.ld_unit_zero (S := S1024x256) hz1_2, View.ld_unit_zero (S := S1024x1) hz1_2, View.ld_unit_zero (S := S64x256) hz1_2, View.ld_unit_zero (S := S1024x64) hz1_2, View.readCov_unit_zero (S := S1024x1) _ hz1_2]
theorem cover1C_S (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : cond1_1 i) (x0 : Vec F S1024x256 .bf16) (x1 : Vec F S8192x256 .bf16) (x2 : Vec F S1024x1 .i32) (x3 : Vec F S1x8192 .i32) (x4 : Vec F S64x256 .f32) (xs0 : Vec F S1024x1 .f32) (y : S1024x1.Idx) : ∃ pc ∈ (kernelRun1_C c i arg2 harg2 arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0).2.1 S1024x1.size (by sl_kernel_rfl) y
/-- and the hinge block is the hinge of the scratch as just updated. -/
theorem canon1C_5 (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : cond1_1 i) (x0 : Vec F S1024x256 .bf16) (x1 : Vec F S8192x256 .bf16) (x2 : Vec F S1024x1 .i32) (x3 : Vec F S1x8192 .i32) (x4 : Vec F S64x256 .f32) (xs0 : Vec F S1024x1 .f32) : View.canon (kernelRun1_C c i arg2 harg2 arg3 harg3 arg4 harg4 arg5 harg5 arg6 harg6 arg7 harg7 arg8 harg8 arg9 harg9 arg10 harg10 hc0 hc1 x0 x1 x2 x3 x4 xs0).1 = k1_pay9 (k1_pay8 x0 (View.ld x1 (Rect.unit (s := S8192x256) (k1_off1 i) S2048x256.size (k1_off1_inb i))) x2 (View.ld x3 (Rect.unit (s := S1x8192) (k1_off2 i) S1x2048.size (k1_off2_inb i))) xs0) := by
  unfold kernelRun1_C; dsimp only; sl_unfold_words
  rw [View.canon_unit_zero hz1_2]
  simp only [View.readAt_eq_ld, harg2.read_unread, harg3.read_unread, harg4.read_unread, harg5.read_unread, harg6.read_unread, harg7.read_unread, harg8.read_unread, harg9.read_unread, harg10.read_unread, View.ld_unit_zero (S := S1024x256) hz1_2, View.ld_unit_zero (S := S1024x1) hz1_2, View.ld_unit_zero (S := S64x256) hz1_2, View.ld_unit_zero (S := S1024x64) hz1_2, View.readCov_unit_zero (S := S1024x1) _ hz1_2]
theorem cover1C_5 (c : Dev nD) (i : grid1.Coords) (arg2 : Memref sig .tc .vmem S1024x256 .bf16) (harg2 : arg2.IsWhole) (arg3 : Memref sig .tc .vmem S8192x256 .bf16) (harg3 : arg3.IsWhole) (arg4 : Memref sig .tc .vmem S1024x1 .i32) (harg4 : arg4.IsWhole) (arg5 : Memref sig .tc .vmem S1x8192 .i32) (harg5 : arg5.IsWhole) (arg6 : Memref sig .tc .vmem S64x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x1 .f32) (harg10 : arg10.IsWhole) (hc0 : ¬cond1_0 i) (hc1 : cond1_1 i) (x0 : Vec F S1024x256 .bf16) (x1 : Vec F S8192x256 .bf16) (x2 : Vec F S1024x1 .i32) (x3 : Vec F S1x8192 .i32) (x4 : Vec F S64x256 .f32) (xs0 : Vec F S1024x1 .f32) (y : S1024x1.Idx) : ∃ pc ∈ (kernelRun1_C c i arg2 harg2 arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0).1 S1024x1.size (by sl_kernel_rfl) y

end Cert.KernelIdeal.Hand

end
-- ==== Proof.KI.R1.lean ====
import proofs.«401042_j13357348290857_3_alg».proof.Proof.KI.R1Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 1 (per-row alignment, separation terms, running hardest-negative maximum): interface -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows block, the whole key matrix, the query labels block, all key labels, the prototypes, at literal types. -/
abbrev qblk1 (c : Dev nD) (t : Fin cfg1.N) : Vec F S1024x256 .bf16 := iblk1 V c 0 t
abbrev kall1 (c : Dev nD) (t : Fin cfg1.N) : Vec F S8192x256 .bf16 := iblk1 V c 1 t
abbrev lq1 (c : Dev nD) (t : Fin cfg1.N) : Vec F S1024x1 .i32 := iblk1 V c 2 t
abbrev lkall1 (c : Dev nD) (t : Fin cfg1.N) : Vec F S1x8192 .i32 := iblk1 V c 3 t
abbrev pr1 (c : Dev nD) (t : Fin cfg1.N) : Vec F S64x256 .f32 := iblk1 V c 4 t

/-- The key rows and key labels the body loads at point `t`: rows / columns `(t mod 4)·2048 …` of the whole. -/
def kslice1 (c : Dev nD) (t : Fin cfg1.N) : Vec F S2048x256 .bf16 :=
  View.ld (kall1 V c t) (Rect.unit (s := S8192x256) (k1_off1 (grid1.coords t)) S2048x256.size (k1_off1_inb (grid1.coords t)))
def lkslice1 (c : Dev nD) (t : Fin cfg1.N) : Vec F S1x2048 .i32 :=
  View.ld (lkall1 V c t) (Rect.unit (s := S1x8192) (k1_off2 (grid1.coords t)) S1x2048.size (k1_off2_inb (grid1.coords t)))

/-- The key-step coordinate of point `t` is `t mod 4`. -/
theorem coord1_1 : ∀ t : Fin cfg1.N, ((grid1.coords t) 1).val = t.val % 4 :=
  (by decide +kernel : ∀ t : Fin grid1.N, ((grid1.coords t) 1).val = t.val % 4)

theorem kslice1_apply (c : Dev nD) (t : Fin cfg1.N) (r : Fin 2048) (d : Fin 256) :
    kslice1 V c t (ValueIdx.ix2 r d) = kall1 V c t (ValueIdx.ix2 (⟨(t.val % 4) * 2048 + r.val, by omega⟩ : Fin 8192) d) := by
  unfold kslice1
  show kall1 V c t ((Rect.unit (s := S8192x256) (k1_off1 (grid1.coords t)) S2048x256.size (k1_off1_inb (grid1.coords t))).idx (ValueIdx.ix2 r d)) = _
  refine congrArg (kall1 V c t) (funext fun a => Fin.ext ?_)
  rw [LoadRect.idx_apply]
  show k1_off1 (grid1.coords t) a + 1 * ((ValueIdx.ix2 r d) a).val = _
  rw [k1_off1_eq]
  match a with
  | ⟨0, _⟩ => show 2048 * ((grid1.coords t) 1).val + 1 * r.val = t.val % 4 * 2048 + r.val; rw [coord1_1]; omega
  | ⟨1, _⟩ => show 0 + 1 * d.val = d.val; omega
theorem lkslice1_apply (c : Dev nD) (t : Fin cfg1.N) (r : Fin 2048) :
    lkslice1 V c t (ValueIdx.ix2 (0 : Fin 1) r) = lkall1 V c t (ValueIdx.ix2 (0 : Fin 1) (⟨(t.val % 4) * 2048 + r.val, by omega⟩ : Fin 8192)) := by
  unfold lkslice1
  show lkall1 V c t ((Rect.unit (s := S1x8192) (k1_off2 (grid1.coords t)) S1x2048.size (k1_off2_inb (grid1.coords t))).idx (ValueIdx.ix2 (0 : Fin 1) r)) = _
  refine congrArg (lkall1 V c t) (funext fun a => Fin.ext ?_)
  rw [LoadRect.idx_apply]
  show k1_off2 (grid1.coords t) a + 1 * ((ValueIdx.ix2 (0 : Fin 1) r) a).val = _
  rw [k1_off2_eq]
  match a with
  | ⟨0, _⟩ => show 0 + 1 * (0 : Fin 1).val = (0 : Fin 1).val; rfl
  | ⟨1, _⟩ => show 2048 * ((grid1.coords t) 1).val + 1 * r.val = t.val % 4 * 2048 + r.val; rw [coord1_1]; omega

/-! ## What the scratch and the stored-once outputs hold, point by point -/

/-- What the running-maximum scratch holds after the body at position `n`: at a query tile's first key step the fill value joined with
    this step's tile maximum, later what the step before left joined with this step's. -/
def m1At (c : Dev nD) : (n : ℕ) → n < cfg1.N → Vec F S1024x1 .f32
  | 0, hn => k1_pay8 (qblk1 V c ⟨0, hn⟩) (kslice1 V c ⟨0, hn⟩) (lq1 V c ⟨0, hn⟩) (lkslice1 V c ⟨0, hn⟩) (k1_pay3 (F := F))
  | n + 1, hn =>
    if (n + 1) % 4 = 0 then k1_pay8 (qblk1 V c ⟨n + 1, hn⟩) (kslice1 V c ⟨n + 1, hn⟩) (lq1 V c ⟨n + 1, hn⟩) (lkslice1 V c ⟨n + 1, hn⟩) (k1_pay3 (F := F))
    else k1_pay8 (qblk1 V c ⟨n + 1, hn⟩) (kslice1 V c ⟨n + 1, hn⟩) (lq1 V c ⟨n + 1, hn⟩) (lkslice1 V c ⟨n + 1, hn⟩) (m1At c n (Nat.lt_of_succ_lt hn))
/-- The alignment block after position `n`: stored at the tile's first key step, kept afterwards. -/
def a1_6At (c : Dev nD) : (n : ℕ) → n < cfg1.N → Vec F S1024x1 .f32
  | 0, hn => k1_pay6 (qblk1 V c ⟨0, hn⟩) (lq1 V c ⟨0, hn⟩) (pr1 V c ⟨0, hn⟩)
  | n + 1, hn => if (n + 1) % 4 = 0 then k1_pay6 (qblk1 V c ⟨n + 1, hn⟩) (lq1 V c ⟨n + 1, hn⟩) (pr1 V c ⟨n + 1, hn⟩) else a1_6At c n (Nat.lt_of_succ_lt hn)
/-- The separation block after position `n`, likewise. -/
def a1_7At (c : Dev nD) : (n : ℕ) → n < cfg1.N → Vec F S1024x64 .f32
  | 0, hn => k1_pay7 (qblk1 V c ⟨0, hn⟩) (lq1 V c ⟨0, hn⟩) (pr1 V c ⟨0, hn⟩)
  | n + 1, hn => if (n + 1) % 4 = 0 then k1_pay7 (qblk1 V c ⟨n + 1, hn⟩) (lq1 V c ⟨n + 1, hn⟩) (pr1 V c ⟨n + 1, hn⟩) else a1_7At c n (Nat.lt_of_succ_lt hn)

/-- The region invariant before position `n`: at entry the class's; afterwards the scoped rest with the running-maximum scratch at what
    the point before left, the generator register at some state. -/
def PhiS1 (c : Dev nD) : (n : ℕ) → n ≤ cfg1.N → sProp 𝕄
  | 0, _ => Pipeline.ΦA spec1 c
  | n + 1, hn => iprop(scoped1 (F := F) c (owns (c : Thread nD τ) scM1_0 fullShare (m1At V c n hn)) ∗ (∃ r, prngReg c r))

theorem PhiS1_succ (c : Dev nD) (n : ℕ) (hn : n < cfg1.N) :
    PhiS1 V c (n + 1) hn = iprop(scoped1 (F := F) c (owns (c : Thread nD τ) scM1_0 fullShare (m1At V c n hn)) ∗ (∃ r, prngReg c r)) := rfl
theorem PhiS1_pos (c : Dev nD) (n : ℕ) (h : n ≤ cfg1.N) (hz : n ≠ 0) :
    PhiS1 V c n h = iprop(scoped1 (F := F) c (owns (c : Thread nD τ) scM1_0 fullShare (m1At V c (n - 1) (by omega))) ∗ (∃ r, prngReg c r)) := by
  cases n with
  | zero => exact absurd rfl hz
  | succ n => rfl

/-- The other scoped buffers ride along whatever is said of the scratch. -/
theorem scoped1_mono (c : Dev nD) {P Q : sProp 𝕄} (h : P ⊢ Q) : scoped1 (F := F) c P ⊢ scoped1 (F := F) c Q := by
  unfold scoped1
  exact sep_mono .rfl (sep_mono .rfl (sep_mono .rfl (sep_mono .rfl (sep_mono .rfl (sep_mono .rfl (sep_mono .rfl (sep_mono .rfl (sep_mono .rfl (sep_mono .rfl (sep_mono .rfl (sep_mono .rfl (h))))))))))))

/-- At any position the invariant gives the scratch at SOME contents. -/
theorem PhiS1_any (c : Dev nD) (n : ℕ) (h : n ≤ cfg1.N) :
    PhiS1 V c n h ⊢ iprop(scoped1 (F := F) c (iprop(∃ d, owns (c : Thread nD τ) scM1_0 fullShare d)) ∗ (∃ r, prngReg c r)) := by
  cases n with
  | zero => rw [show PhiS1 V c 0 h = Pipeline.ΦA spec1 c from rfl, PhiA1_eq]
  | succ n => rw [PhiS1_succ]; exact sep_mono (scoped1_mono c (by iintro H; iexists _; iexact H)) .rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay9 (m1At V c t.val t.isLt)
    | ⟨6, _⟩ => a1_6At V c t.val t.isLt
    | ⟨7, _⟩ => a1_7At V c t.val t.isLt
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by dsimp only [dat1]
theorem owed_eq1 (c : Dev nD) (t : Fin (cfg1.N + 1)) : (dat1 V c).owed t = 0 := by dsimp only [dat1]
/-- The query-rows window and the all-keys window read one array: each holds one half of it; every other input is held whole. -/
theorem q_eq1_0 (c : Dev nD) : (dat1 V c).q 0 = fullShare.left := by dsimp only [dat1]
theorem q_eq1_1 (c : Dev nD) : (dat1 V c).q 1 = fullShare.right := by dsimp only [dat1]
theorem q_eq1 (c : Dev nD) (w : Fin cfg1.W) (h : 2 ≤ w.val) : (dat1 V c).q w = fullShare := by
  match w, h with
  | ⟨0, _⟩, h => exact absurd h (Nat.not_succ_le_zero 1)
  | ⟨1, _⟩, h => exact absurd h (Nat.not_succ_le_self 1)
  | ⟨2, _⟩, _ => dsimp only [dat1]
  | ⟨3, _⟩, _ => dsimp only [dat1]
  | ⟨4, _⟩, _ => dsimp only [dat1]
  | ⟨5, _⟩, _ => dsimp only [dat1]
  | ⟨6, _⟩, _ => dsimp only [dat1]
  | ⟨7, _⟩, _ => dsimp only [dat1]
/-- The body takes on no new units: the bound on recorded pairs stays everything. -/
theorem recorded_eq1 (c : Dev nD) (t : Fin (cfg1.N + 1)) : (dat1 V c).recorded t = Set.univ := rfl

/-! ## What each point leaves, through the skeleton's payloads -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay9 (m1At V c t.val t.isLt) := by dsimp only [dat1]
theorem after1_6 (c : Dev nD) (t : Fin cfg1.N) : (dat1 V c).after 6 t = a1_6At V c t.val t.isLt := by dsimp only [dat1]
theorem after1_7 (c : Dev nD) (t : Fin cfg1.N) : (dat1 V c).after 7 t = a1_7At V c t.val t.isLt := by dsimp only [dat1]

/-- At a query tile's first key step the running maximum is reset to the fill value, then this step's tile maximum joins it. -/
theorem m1At_first (c : Dev nD) (t : Fin cfg1.N) (h : t.val % 4 = 0) :
    m1At V c t.val t.isLt = k1_pay8 (qblk1 V c t) (kslice1 V c t) (lq1 V c t) (lkslice1 V c t) (k1_pay3 (F := F)) := by
  obtain ⟨n, hn⟩ := t
  cases n with
  | zero => rfl
  | succ n => exact if_pos h
/-- At a later key step this step's tile maximum joins what the step before left. -/
theorem m1At_later (c : Dev nD) (t : Fin cfg1.N) (h : t.val % 4 ≠ 0) :
    m1At V c t.val t.isLt = k1_pay8 (qblk1 V c t) (kslice1 V c t) (lq1 V c t) (lkslice1 V c t) (m1At V c (t.val - 1) (Nat.lt_of_le_of_lt (Nat.sub_le _ _) t.isLt)) := by
  obtain ⟨n, hn⟩ := t
  cases n with
  | zero => exact absurd (Nat.zero_mod _) h
  | succ n => exact (if_neg h).trans rfl
theorem a1_6At_first (c : Dev nD) (t : Fin cfg1.N) (h : t.val % 4 = 0) : a1_6At V c t.val t.isLt = k1_pay6 (qblk1 V c t) (lq1 V c t) (pr1 V c t) := by
  obtain ⟨n, hn⟩ := t
  cases n with
  | zero => rfl
  | succ n => exact if_pos h
theorem a1_6At_later (c : Dev nD) (t : Fin cfg1.N) (h : t.val % 4 ≠ 0) : a1_6At V c t.val t.isLt = a1_6At V c (t.val - 1) (Nat.lt_of_le_of_lt (Nat.sub_le _ _) t.isLt) := by
  obtain ⟨n, hn⟩ := t
  cases n with
  | zero => exact absurd (Nat.zero_mod _) h
  | succ n => exact (if_neg h).trans rfl
theorem a1_7At_first (c : Dev nD) (t : Fin cfg1.N) (h : t.val % 4 = 0) : a1_7At V c t.val t.isLt = k1_pay7 (qblk1 V c t) (lq1 V c t) (pr1 V c t) := by
  obtain ⟨n, hn⟩ := t
  cases n with
  | zero => rfl
  | succ n => exact if_pos h
theorem a1_7At_later (c : Dev nD) (t : Fin cfg1.N) (h : t.val % 4 ≠ 0) : a1_7At V c t.val t.isLt = a1_7At V c (t.val - 1) (Nat.lt_of_le_of_lt (Nat.sub_le _ _) t.isLt) := by
  obtain ⟨n, hn⟩ := t
  cases n with
  | zero => exact absurd (Nat.zero_mod _) h
  | succ n => exact (if_neg h).trans rfl

/-- At a query tile's last key step the hinge of the running maximum is stored. -/
theorem after1_5_last (c : Dev nD) (t : Fin cfg1.N) (h : t.val % 4 = 3) : (dat1 V c).after 5 t = k1_pay9 (m1At V c t.val t.isLt) := after1_5 V c t
/-- The alignment and separation blocks are stored at the first key step and kept until written back. -/
theorem after1_6_first (c : Dev nD) (t : Fin cfg1.N) (h : t.val % 4 = 0) : (dat1 V c).after 6 t = k1_pay6 (qblk1 V c t) (lq1 V c t) (pr1 V c t) :=
  (after1_6 V c t).trans (a1_6At_first V c t h)
theorem after1_7_first (c : Dev nD) (t : Fin cfg1.N) (h : t.val % 4 = 0) : (dat1 V c).after 7 t = k1_pay7 (qblk1 V c t) (lq1 V c t) (pr1 V c t) :=
  (after1_7 V c t).trans (a1_7At_first V c t h)
theorem after1_6_later (c : Dev nD) (t : Fin cfg1.N) (h : t.val % 4 ≠ 0) :
    (dat1 V c).after 6 t = (dat1 V c).after 6 ⟨t.val - 1, Nat.lt_of_le_of_lt (Nat.sub_le _ _) t.isLt⟩ :=
  (after1_6 V c t).trans ((a1_6At_later V c t h).trans (after1_6 V c ⟨t.val - 1, Nat.lt_of_le_of_lt (Nat.sub_le _ _) t.isLt⟩).symm)
theorem after1_7_later (c : Dev nD) (t : Fin cfg1.N) (h : t.val % 4 ≠ 0) :
    (dat1 V c).after 7 t = (dat1 V c).after 7 ⟨t.val - 1, Nat.lt_of_le_of_lt (Nat.sub_le _ _) t.isLt⟩ :=
  (after1_7 V c t).trans ((a1_7At_later V c t h).trans (after1_7 V c ⟨t.val - 1, Nat.lt_of_le_of_lt (Nat.sub_le _ _) t.isLt⟩).symm)

/-! ## What the body finds in each buffer -/

/-- An input's current buffer holds its block at every point, fetched there or not: unfetched, the block index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- After its first key step a query tile's alignment (separation) buffer holds, at every later step, what the step before left: nothing
    stores into it and it is not written back before the tile's last step. -/
theorem before1_6_aux (c : Dev nD) : ∀ (k : ℕ) (t : Fin cfg1.N), t.val = k → t.val % 4 ≠ 0 → ∀ d,
    (dat1 V c).before 6 t d = (dat1 V c).after 6 ⟨t.val - 1, Nat.lt_of_le_of_lt (Nat.sub_le _ _) t.isLt⟩ := by
  intro k
  induction k using Nat.strong_induction_on with
  | _ k ih =>
    intro t hk h d
    have ht : t.val ≠ 0 := fun e => h (by rw [e])
    have hlt : t.val - 1 < k := by omega
    rw [(dat1 V c).before_of_pos 6 t ht ((cfg1.win 6).fetch_out rfl t) d]
    rw [noflush1_6 ⟨t.val - 1, Nat.lt_of_le_of_lt (Nat.sub_le _ _) t.isLt⟩ (by show (t.val - 1) % 4 ≠ 3; omega), if_neg Bool.false_ne_true]
    unfold Dat.left
    by_cases hz : (t.val - 1) % 4 = 0
    · rw [live1_6 ⟨t.val - 1, Nat.lt_of_le_of_lt (Nat.sub_le _ _) t.isLt⟩ hz]
      show (dat1 V c).kept 6 ⟨t.val - 1, Nat.lt_of_le_of_lt (Nat.sub_le _ _) t.isLt⟩ d = _
      unfold Dat.kept
      rw [Pipeline.fill_of_clip_none 6 _ (fun _ => rfl) d ((dat1 V c).after 6 ⟨t.val - 1, Nat.lt_of_le_of_lt (Nat.sub_le _ _) t.isLt⟩), Window.fill_cut]
    · rw [idle1_6 ⟨t.val - 1, Nat.lt_of_le_of_lt (Nat.sub_le _ _) t.isLt⟩ hz]
      show (dat1 V c).before 6 ⟨t.val - 1, Nat.lt_of_le_of_lt (Nat.sub_le _ _) t.isLt⟩ d = _
      rw [ih (t.val - 1) hlt ⟨t.val - 1, Nat.lt_of_le_of_lt (Nat.sub_le _ _) t.isLt⟩ rfl hz d]
      exact (after1_6_later V c ⟨t.val - 1, Nat.lt_of_le_of_lt (Nat.sub_le _ _) t.isLt⟩ hz).symm
theorem before1_6_at (c : Dev nD) (t : Fin cfg1.N) (h : t.val % 4 ≠ 0) (d) :
    (dat1 V c).before 6 t d = (dat1 V c).after 6 ⟨t.val - 1, Nat.lt_of_le_of_lt (Nat.sub_le _ _) t.isLt⟩ := before1_6_aux V c t.val t rfl h d
theorem before1_7_aux (c : Dev nD) : ∀ (k : ℕ) (t : Fin cfg1.N), t.val = k → t.val % 4 ≠ 0 → ∀ d,
    (dat1 V c).before 7 t d = (dat1 V c).after 7 ⟨t.val - 1, Nat.lt_of_le_of_lt (Nat.sub_le _ _) t.isLt⟩ := by
  intro k
  induction k using Nat.strong_induction_on with
  | _ k ih =>
    intro t hk h d
    have ht : t.val ≠ 0 := fun e => h (by rw [e])
    have hlt : t.val - 1 < k := by omega
    rw [(dat1 V c).before_of_pos 7 t ht ((cfg1.win 7).fetch_out rfl t) d]
    rw [noflush1_7 ⟨t.val - 1, Nat.lt_of_le_of_lt (Nat.sub_le _ _) t.isLt⟩ (by show (t.val - 1) % 4 ≠ 3; omega), if_neg Bool.false_ne_true]
    unfold Dat.left
    by_cases hz : (t.val - 1) % 4 = 0
    · rw [live1_7 ⟨t.val - 1, Nat.lt_of_le_of_lt (Nat.sub_le _ _) t.isLt⟩ hz]
      show (dat1 V c).kept 7 ⟨t.val - 1, Nat.lt_of_le_of_lt (Nat.sub_le _ _) t.isLt⟩ d = _
      unfold Dat.kept
      rw [Pipeline.fill_of_clip_none 7 _ (fun _ => rfl) d ((dat1 V c).after 7 ⟨t.val - 1, Nat.lt_of_le_of_lt (Nat.sub_le _ _) t.isLt⟩), Window.fill_cut]
    · rw [idle1_7 ⟨t.val - 1, Nat.lt_of_le_of_lt (Nat.sub_le _ _) t.isLt⟩ hz]
      show (dat1 V c).before 7 ⟨t.val - 1, Nat.lt_of_le_of_lt (Nat.sub_le _ _) t.isLt⟩ d = _
      rw [ih (t.val - 1) hlt ⟨t.val - 1, Nat.lt_of_le_of_lt (Nat.sub_le _ _) t.isLt⟩ rfl hz d]
      exact (after1_7_later V c ⟨t.val - 1, Nat.lt_of_le_of_lt (Nat.sub_le _ _) t.isLt⟩ hz).symm
theorem before1_7_at (c : Dev nD) (t : Fin cfg1.N) (h : t.val % 4 ≠ 0) (d) :
    (dat1 V c).before 7 t d = (dat1 V c).after 7 ⟨t.val - 1, Nat.lt_of_le_of_lt (Nat.sub_le _ _) t.isLt⟩ := before1_7_aux V c t.val t rfl h d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- KEY STEP 0. The scratch is handed over at anything and comes back reset-and-updated; the alignment and separation blocks are stored;
    the hinge buffer, idle, goes back untouched. -/
theorem sound1_A (c : Dev nD) (t : Fin cfg1.N) (h0 : t.val % 4 = 0) (h1 : ¬t.val % 4 = 3) :
    bodyPre1 V c t ⊢ wp frame (wpE (defs₀ (F := F)) Variants.none c none) Set.univ (bodyAt1 t) (fun _ => bodyPost1 V c t) := by
    unfold bodyPre1 bodyPost1 bodyAt1
    simp only [before1_0, before1_1, before1_2, before1_3, before1_4]
    rw [show (dat1 V c).owesAt () t.succ = (dat1 V c).owesAt () t.castSucc from rfl]
    rw [show (dat1 V c).Φ t.succ = PhiS1 V c (t.val + 1) t.isLt from rfl, PhiS1_succ]
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [show (dat1 V c).leavesExact 2 t = owns (c : Thread nD τ) (ms1_2 t) fullShare ((dat1 V c).after 2 t) from by
      unfold Dat.leavesExact; rw [live1_2 t], after1_2]
    rw [show (dat1 V c).leavesExact 3 t = owns (c : Thread nD τ) (ms1_3 t) fullShare ((dat1 V c).after 3 t) from by
      unfold Dat.leavesExact; rw [live1_3 t], after1_3]
    rw [show (dat1 V c).leavesExact 4 t = owns (c : Thread nD τ) (ms1_4 t) fullShare ((dat1 V c).after 4 t) from by
      unfold Dat.leavesExact; rw [live1_4 t], after1_4]
    rw [Dat.leavesExact_idle (dat1 V c) 5 t (idle1_5 t h1) (noflush1_5 t h1)]
    rw [show (dat1 V c).leavesExact 6 t = owns (c : Thread nD τ) (ms1_6 t) fullShare ((dat1 V c).after 6 t) from by
      unfold Dat.leavesExact; rw [live1_6 t h0], after1_6_first V c t h0]
    rw [show (dat1 V c).leavesExact 7 t = owns (c : Thread nD τ) (ms1_7 t) fullShare ((dat1 V c).after 7 t) from by
      unfold Dat.leavesExact; rw [live1_7 t h0], after1_7_first V c t h0]
    rw [m1At_first V c t h0]
    rw [show (dat1 V c).Φ t.castSucc = PhiS1 V c t.val (Nat.le_of_lt t.isLt) from rfl]
    refine (sep_mono (PhiS1_any V c t.val _) .rfl).trans ?_
    unfold scoped1
    iintro ⟨⟨⟨R1, R2, R3, R4, R5, R6, R7, R8, R9, R10, R11, R12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [R1 R2 R3 R4 R5 R6 R7 R8 R9 R10 R11 R12 HS0 Hg]
    · isplitl [R1 R2 R3 R4 R5 R6 R7 R8 R9 R10 R11 R12 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        unfold owns; iexists _; isplitr
        swap; · iexact HS0
        ipureintro; exact (View.read_writes_eq_canon _ _ _ (cover1A_S c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))).trans (canon1A_S c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]
    · unfold owns; iexists _; isplitr
      swap; · iexact H6
      ipureintro; exact (View.read_writes_eq_canon _ _ _ (cover1A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))).trans (canon1A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))
    unfold owns; iexists _; isplitr
    swap; · iexact H7
    ipureintro; exact (View.read_writes_eq_canon _ _ _ (cover1A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))).trans (canon1A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t))

set_option maxHeartbeats 4000000 in
/-- KEY STEPS 1, 2. The scratch arrives at what the step before left and comes back updated; all three output buffers, idle, go back untouched. -/
theorem sound1_B (c : Dev nD) (t : Fin cfg1.N) (h0 : ¬t.val % 4 = 0) (h1 : ¬t.val % 4 = 3) :
    bodyPre1 V c t ⊢ wp frame (wpE (defs₀ (F := F)) Variants.none c none) Set.univ (bodyAt1 t) (fun _ => bodyPost1 V c t) := by
    have hz : t.val ≠ 0 := fun e => h0 (by rw [e])
    unfold bodyPre1 bodyPost1 bodyAt1
    simp only [before1_0, before1_1, before1_2, before1_3, before1_4]
    rw [show (dat1 V c).owesAt () t.succ = (dat1 V c).owesAt () t.castSucc from rfl]
    rw [show (dat1 V c).Φ t.succ = PhiS1 V c (t.val + 1) t.isLt from rfl, PhiS1_succ]
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [show (dat1 V c).leavesExact 2 t = owns (c : Thread nD τ) (ms1_2 t) fullShare ((dat1 V c).after 2 t) from by
      unfold Dat.leavesExact; rw [live1_2 t], after1_2]
    rw [show (dat1 V c).leavesExact 3 t = owns (c : Thread nD τ) (ms1_3 t) fullShare ((dat1 V c).after 3 t) from by
      unfold Dat.leavesExact; rw [live1_3 t], after1_3]
    rw [show (dat1 V c).leavesExact 4 t = owns (c : Thread nD τ) (ms1_4 t) fullShare ((dat1 V c).after 4 t) from by
      unfold Dat.leavesExact; rw [live1_4 t], after1_4]
    rw [Dat.leavesExact_idle (dat1 V c) 5 t (idle1_5 t h1) (noflush1_5 t h1)]
    rw [Dat.leavesExact_idle (dat1 V c) 6 t (idle1_6 t h0) (noflush1_6 t h1)]
    rw [Dat.leavesExact_idle (dat1 V c) 7 t (idle1_7 t h0) (noflush1_7 t h1)]
    rw [m1At_later V c t h0]
    rw [show (dat1 V c).Φ t.castSucc = PhiS1 V c t.val (Nat.le_of_lt t.isLt) from rfl, PhiS1_pos V c _ _ hz]
    unfold scoped1
    iintro ⟨⟨⟨R1, R2, R3, R4, R5, R6, R7, R8, R9, R10, R11, R12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (m1At V c (t.val - 1) (Nat.lt_of_le_of_lt (Nat.sub_le _ _) t.isLt))).2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    isplitl [R1 R2 R3 R4 R5 R6 R7 R8 R9 R10 R11 R12 HS0 Hg]
    · isplitl [R1 R2 R3 R4 R5 R6 R7 R8 R9 R10 R11 R12 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        unfold owns; iexists _; isplitr
        swap; · iexact HS0
        ipureintro; exact (View.read_writes_eq_canon _ _ _ (cover1B_S c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (m1At V c (t.val - 1) (Nat.lt_of_le_of_lt (Nat.sub_le _ _) t.isLt)))).trans (canon1B_S c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (m1At V c (t.val - 1) (Nat.lt_of_le_of_lt (Nat.sub_le _ _) t.isLt)))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7

set_option maxHeartbeats 4000000 in
/-- KEY STEP 3. The scratch comes back updated and the hinge of it is stored; the alignment and separation buffers, idle but written back
    here, go back untouched — at what the tile's first key step stored, since nothing touched them between. -/
theorem sound1_C (c : Dev nD) (t : Fin cfg1.N) (h0 : ¬t.val % 4 = 0) (h1 : t.val % 4 = 3) :
    bodyPre1 V c t ⊢ wp frame (wpE (defs₀ (F := F)) Variants.none c none) Set.univ (bodyAt1 t) (fun _ => bodyPost1 V c t) := by
    have hz : t.val ≠ 0 := fun e => h0 (by rw [e])
    unfold bodyPre1 bodyPost1 bodyAt1
    simp only [before1_0, before1_1, before1_2, before1_3, before1_4]
    rw [show (dat1 V c).owesAt () t.succ = (dat1 V c).owesAt () t.castSucc from rfl]
    rw [show (dat1 V c).Φ t.succ = PhiS1 V c (t.val + 1) t.isLt from rfl, PhiS1_succ]
    rw [show (dat1 V c).leavesExact 0 t = owns (c : Thread nD τ) (ms1_0 t) fullShare ((dat1 V c).after 0 t) from by
      unfold Dat.leavesExact; rw [live1_0 t], after1_0]
    rw [show (dat1 V c).leavesExact 1 t = owns (c : Thread nD τ) (ms1_1 t) fullShare ((dat1 V c).after 1 t) from by
      unfold Dat.leavesExact; rw [live1_1 t], after1_1]
    rw [show (dat1 V c).leavesExact 2 t = owns (c : Thread nD τ) (ms1_2 t) fullShare ((dat1 V c).after 2 t) from by
      unfold Dat.leavesExact; rw [live1_2 t], after1_2]
    rw [show (dat1 V c).leavesExact 3 t = owns (c : Thread nD τ) (ms1_3 t) fullShare ((dat1 V c).after 3 t) from by
      unfold Dat.leavesExact; rw [live1_3 t], after1_3]
    rw [show (dat1 V c).leavesExact 4 t = owns (c : Thread nD τ) (ms1_4 t) fullShare ((dat1 V c).after 4 t) from by
      unfold Dat.leavesExact; rw [live1_4 t], after1_4]
    rw [show (dat1 V c).leavesExact 5 t = owns (c : Thread nD τ) (ms1_5 t) fullShare ((dat1 V c).after 5 t) from by
      unfold Dat.leavesExact; rw [live1_5 t h1], after1_5]
    rw [show (dat1 V c).leavesExact 6 t = owns (c : Thread nD τ) (ms1_6 t) fullShare ((dat1 V c).after 6 t) from by
      unfold Dat.leavesExact; rw [idle1_6 t h0, (flush1_6 t).mpr h1], after1_6_later V c t h0]
    rw [show (dat1 V c).leavesExact 7 t = owns (c : Thread nD τ) (ms1_7 t) fullShare ((dat1 V c).after 7 t) from by
      unfold Dat.leavesExact; rw [idle1_7 t h0, (flush1_7 t).mpr h1], after1_7_later V c t h0]
    simp only [before1_6_at V c t h0, before1_7_at V c t h0]
    rw [m1At_later V c t h0]
    rw [show (dat1 V c).Φ t.castSucc = PhiS1 V c t.val (Nat.le_of_lt t.isLt) from rfl, PhiS1_pos V c _ _ hz]
    unfold scoped1
    iintro ⟨⟨⟨R1, R2, R3, R4, R5, R6, R7, R8, R9, R10, R11, R12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (m1At V c (t.val - 1) (Nat.lt_of_le_of_lt (Nat.sub_le _ _) t.isLt))).2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    iintro ⟨H0, H1, H2, H3, H4, ⟨%e5, H5⟩, H6, H7, ⟨%es0, HS0⟩⟩
    isplitl [R1 R2 R3 R4 R5 R6 R7 R8 R9 R10 R11 R12 HS0 Hg]
    · isplitl [R1 R2 R3 R4 R5 R6 R7 R8 R9 R10 R11 R12 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        unfold owns; iexists _; isplitr
        swap; · iexact HS0
        ipureintro; exact (View.read_writes_eq_canon _ _ _ (cover1C_S c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (m1At V c (t.val - 1) (Nat.lt_of_le_of_lt (Nat.sub_le _ _) t.isLt)))).trans (canon1C_S c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (m1At V c (t.val - 1) (Nat.lt_of_le_of_lt (Nat.sub_le _ _) t.isLt)))
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact (View.read_writes_eq_canon _ _ _ (cover1C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (m1At V c (t.val - 1) (Nat.lt_of_le_of_lt (Nat.sub_le _ _) t.isLt)))).trans (canon1C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (m1At V c (t.val - 1) (Nat.lt_of_le_of_lt (Nat.sub_le _ _) t.isLt)))
    isplitl [H6]; · iexact H6
    iexact H7

/-- The body at any point: the closed forms say which case the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 4 = 0
  · exact sound1_A V c t h0 (by omega)
  · by_cases h1 : t.val % 4 = 3
    · exact sound1_C V c t h0 h1
    · exact sound1_B V c t h0 h1

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl]
  exact .rfl

/-- After any point the invariant gives the entry invariant back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Cert.KernelIdeal.Hand

end
-- ==== Proof.KI.Run.lean ====
import proofs.«401042_j13357348290857_3_alg».proof.Proof.KI.R0
import proofs.«401042_j13357348290857_3_alg».proof.Proof.KI.R1
import proofs.«401042_j13357348290857_3_alg».proof.Proof.Gen.KernelIdeal.Launch
import proofs.«401042_j13357348290857_3_alg».proof.Proof.Gen.KernelIdeal.Points
import proofs.«401042_j13357348290857_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! # The unscoped buffers' contents at every item boundary of the program: a fold from the launch memory, per core -/

/-- Core `c`'s buffers at launch. -/
abbrev W0 (c : Dev nD) : Valuation τ sig (Elt F) := fun b => m (c, b)
/-- After the first host stretch: what region 0 is entered at. -/
abbrev W1 (c : Dev nD) : Valuation τ sig (Elt F) := StableHlo.after hostOps0 (W0 m c)
/-- The same read at the TensorCore's references: region 0's entry contents. -/
abbrev V1 : (c : Dev nD) → (b : Ref sig .tc) → Buf (Elt F) ((c : Thread nD τ).loc b) := fun c b => W1 m c (Proc.devRef .tc b)
/-- At region 0's exit: each of its five arrays at what the pipeline leaves there (an input as entered, an output with
    every write-back folded in), every other buffer as entered. -/
def W2 (c : Dev nD) : Valuation τ sig (Elt F) :=
  Pipeline.withArrays spec0 c (W1 m c) fun w => (dat0 (V1 m) c).arrAt w cfg0.N
/-- After the six host stretches between the regions. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
/-- What region 1 is entered at. -/
abbrev W8 (c : Dev nD) : Valuation τ sig (Elt F) := StableHlo.after hostOps1_5 (W7 m c)
/-- The same read at the TensorCore's references: region 1's entry contents. -/
abbrev V8 : (c : Dev nD) → (b : Ref sig .tc) → Buf (Elt F) ((c : Thread nD τ).loc b) := fun c b => W8 m c (Proc.devRef .tc b)
/-- At region 1's exit: its three output arrays at what the pipeline leaves there, every other buffer as entered (its five
    input windows read four arrays, two of them the same one, and change none). -/
def W9 (c : Dev nD) : Valuation τ sig (Elt F) :=
  Function.update (Function.update (Function.update (W8 m c)
    (Proc.devRef .tc main_v20_0) ((dat1 (V8 m) c).arrAt 5 cfg1.N))
    (Proc.devRef .tc main_v20_1) ((dat1 (V8 m) c).arrAt 6 cfg1.N))
    (Proc.devRef .tc main_v20_2) ((dat1 (V8 m) c).arrAt 7 cfg1.N)
/-- After the three closing host stretches: the contents the program returns at. -/
abbrev W10 (c : Dev nD) : Valuation τ sig (Elt F) := StableHlo.after hostOps2 (W9 m c)
abbrev W11 (c : Dev nD) : Valuation τ sig (Elt F) := StableHlo.after hostOps2_1 (W10 m c)
abbrev W12 (c : Dev nD) : Valuation τ sig (Elt F) := StableHlo.after hostOps2_2 (W11 m c)

/-! ## What each item changes and what it leaves -/

theorem W1_of (c : Dev nD) (r : Ref sig .tc) (h : r ∉ hostOps0_W) : W1 m c (Proc.devRef .tc r) = W0 m c (Proc.devRef .tc r) :=
  StableHlo.after_of_writes_sub hostOps0 _ hostOps0_writes h
/-- Region 0 leaves array `w` at the pipeline's last contents of it. -/
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ hostOps1_1_W) : W4 m c (Proc.devRef .tc r) = W3 m c (Proc.devRef .tc r) :=
  StableHlo.after_of_writes_sub hostOps1_1 _ hostOps1_1_writes h
theorem W5_of (c : Dev nD) (r : Ref sig .tc) (h : r ∉ hostOps1_2_W) : W5 m c (Proc.devRef .tc r) = W4 m c (Proc.devRef .tc r) :=
  StableHlo.after_of_writes_sub hostOps1_2 _ hostOps1_2_writes h
theorem W6_of (c : Dev nD) (r : Ref sig .tc) (h : r ∉ hostOps1_3_W) : W6 m c (Proc.devRef .tc r) = W5 m c (Proc.devRef .tc r) :=
  StableHlo.after_of_writes_sub hostOps1_3 _ hostOps1_3_writes h
theorem W7_of (c : Dev nD) (r : Ref sig .tc) (h : r ∉ hostOps1_4_W) : W7 m c (Proc.devRef .tc r) = W6 m c (Proc.devRef .tc r) :=
  StableHlo.after_of_writes_sub hostOps1_4 _ hostOps1_4_writes h
theorem W8_of (c : Dev nD) (r : Ref sig .tc) (h : r ∉ hostOps1_5_W) : W8 m c (Proc.devRef .tc r) = W7 m c (Proc.devRef .tc r) :=
  StableHlo.after_of_writes_sub hostOps1_5 _ hostOps1_5_writes h
/-- Region 1 leaves its three output arrays at the pipeline's last contents of them. -/
theorem W9_out5 (c : Dev nD) : W9 m c (Proc.devRef .tc main_v20_0) = (dat1 (V8 m) c).arrAt 5 cfg1.N := by
  unfold W9
  rw [Function.update_of_ne (StableHlo.devRef_ne_of_ne (by decide)), Function.update_of_ne (StableHlo.devRef_ne_of_ne (by decide)),
    Function.update_self]
theorem W9_out6 (c : Dev nD) : W9 m c (Proc.devRef .tc main_v20_1) = (dat1 (V8 m) c).arrAt 6 cfg1.N := by
  unfold W9
  rw [Function.update_of_ne (StableHlo.devRef_ne_of_ne (by decide)), Function.update_self]
theorem W9_out7 (c : Dev nD) : W9 m c (Proc.devRef .tc main_v20_2) = (dat1 (V8 m) c).arrAt 7 cfg1.N := by
  unfold W9
  rw [Function.update_self]
/-- and every other buffer as it found it. -/
theorem W9_of_ne (c : Dev nD) (b : Ref sig .tc) (h : b ∉ ([main_v20_0, main_v20_1, main_v20_2] : List (Ref sig .tc))) :
    W9 m c (Proc.devRef .tc b) = W8 m c (Proc.devRef .tc b) := by
  unfold W9
  rw [Function.update_of_ne (StableHlo.devRef_ne_of_ne (List.ne_of_not_mem_cons (List.not_mem_of_not_mem_cons (List.not_mem_of_not_mem_cons h)))),
    Function.update_of_ne (StableHlo.devRef_ne_of_ne (List.ne_of_not_mem_cons (List.not_mem_of_not_mem_cons h))),
    Function.update_of_ne (StableHlo.devRef_ne_of_ne (List.ne_of_not_mem_cons h))]
theorem W10_of (c : Dev nD) (r : Ref sig .tc) (h : r ∉ hostOps2_W) : W10 m c (Proc.devRef .tc r) = W9 m c (Proc.devRef .tc r) :=
  StableHlo.after_of_writes_sub hostOps2 _ hostOps2_writes h
theorem W11_of (c : Dev nD) (r : Ref sig .tc) (h : r ∉ hostOps2_1_W) : W11 m c (Proc.devRef .tc r) = W10 m c (Proc.devRef .tc r) :=
  StableHlo.after_of_writes_sub hostOps2_1 _ hostOps2_1_writes h
theorem W12_of (c : Dev nD) (r : Ref sig .tc) (h : r ∉ hostOps2_2_W) : W12 m c (Proc.devRef .tc r) = W11 m c (Proc.devRef .tc r) :=
  StableHlo.after_of_writes_sub hostOps2_2 _ hostOps2_2_writes h

/-! ## The arguments end as launched: no host operation writes one, region 0 reads two of them through input windows and
    region 1 names none -/

/-- A buffer that no host stretch writes and that is no array of region 0 and no output of region 1 ends as launched. -/
theorem W12_of_untouched (c : Dev nD) (r : Ref sig .tc)
    (h0 : r ∉ hostOps0_W) (h2 : ∀ w, Pipeline.arrRef spec0 w ≠ r) (h3 : r ∉ hostOps1_W) (h4 : r ∉ hostOps1_1_W) (h5 : r ∉ hostOps1_2_W)
    (h6 : r ∉ hostOps1_3_W) (h7 : r ∉ hostOps1_4_W) (h8 : r ∉ hostOps1_5_W)
    (h9 : r ∉ ([main_v20_0, main_v20_1, main_v20_2] : List (Ref sig .tc))) (h10 : r ∉ hostOps2_W) (h11 : r ∉ hostOps2_1_W) (h12 : r ∉ hostOps2_2_W) :
    W12 m c (Proc.devRef .tc r) = m ((c : Thread nD τ).loc r) :=
  (W12_of m c r h12).trans <| (W11_of m c r h11).trans <| (W10_of m c r h10).trans <| (W9_of_ne m c r h9).trans <|
    (W8_of m c r h8).trans <| (W7_of m c r h7).trans <| (W6_of m c r h6).trans <| (W5_of m c r h5).trans <| (W4_of m c r h4).trans <|
    (W3_of m c r h3).trans <| (W2_of_ne m c r h2).trans <| (W1_of m c r h0).trans rfl

/-- Region 0 leaves an input window's array as it found it. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

theorem W12_main_arg0 (c : Dev nD) : W12 m c (Proc.devRef .tc main_arg0) = m ((c : Thread nD τ).loc main_arg0) :=
  (W12_of m c main_arg0 (by decide)).trans <| (W11_of m c main_arg0 (by decide)).trans <| (W10_of m c main_arg0 (by decide)).trans <|
    (W9_of_ne m c main_arg0 (by decide)).trans <| (W8_of m c main_arg0 (by decide)).trans <| (W7_of m c main_arg0 (by decide)).trans <|
    (W6_of m c main_arg0 (by decide)).trans <| (W5_of m c main_arg0 (by decide)).trans <| (W4_of m c main_arg0 (by decide)).trans <|
    (W3_of m c main_arg0 (by decide)).trans <| (W2_in m c 0 rfl).trans <| (W1_of m c main_arg0 (by decide)).trans rfl
theorem W12_main_arg1 (c : Dev nD) : W12 m c (Proc.devRef .tc main_arg1) = m ((c : Thread nD τ).loc main_arg1) :=
  W12_of_untouched m c main_arg1 (by decide) (by decide) (by decide) (by decide) (by decide) (by decide) (by decide) (by decide) (by decide) (by decide) (by decide) (by decide)
theorem W12_main_arg2 (c : Dev nD) : W12 m c (Proc.devRef .tc main_arg2) = m ((c : Thread nD τ).loc main_arg2) :=
  W12_of_untouched m c main_arg2 (by decide) (by decide) (by decide) (by decide) (by decide) (by decide) (by decide) (by decide) (by decide) (by decide) (by decide) (by decide)

/-! # Region 1's arrays: eight windows on seven buffers -/

/-- Region 1's share of array `w`: the two windows on the one shared array hold a half each, every other window the whole. -/
theorem share1_0 (V₁ : (c : Dev nD) → (b : Ref sig .tc) → Buf (Elt F) ((c : Thread nD τ).loc b)) (c : Dev nD) :
    (dat1 V₁ c).share 0 = fullShare.left := by
  unfold Dat.share; rw [if_neg (by decide)]; exact q_eq1_0 V₁ c
theorem share1_1 (V₁ : (c : Dev nD) → (b : Ref sig .tc) → Buf (Elt F) ((c : Thread nD τ).loc b)) (c : Dev nD) :
    (dat1 V₁ c).share 1 = fullShare.right := by
  unfold Dat.share; rw [if_neg (by decide)]; exact q_eq1_1 V₁ c
theorem share1_rest (V₁ : (c : Dev nD) → (b : Ref sig .tc) → Buf (Elt F) ((c : Thread nD τ).loc b)) (c : Dev nD)
    (w : Fin cfg1.W) (h : 2 ≤ w.val) : (dat1 V₁ c).share w = fullShare := by
  unfold Dat.share; split
  · rfl
  · exact q_eq1 V₁ c w h

/-- The buffers behind region 1's arrays, each whole, ARE the pipeline's arrays at the same contents: the one buffer two
    windows read is dealt to them by halves, every other buffer goes whole to its one window. -/
theorem arrays1_iff (V₁ : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs spec1 c V' : sProp 𝕄) ⊣⊢ (dat1 V₁ c).arrays G := by
  classical
  have hS : (Finset.univ : Finset (Fin 8)).image (Pipeline.arrRef spec1)
      = ((Finset.univ : Finset (Fin 8)).erase 1).image (Pipeline.arrRef spec1) := by decide
  have hinj : Set.InjOn (Pipeline.arrRef spec1) (((Finset.univ : Finset (Fin 8)).erase 1 : Finset (Fin 8)) : Set (Fin 8)) := by
    intro a ha b hb
    have ha' : a ∈ (Finset.univ : Finset (Fin 8)).erase 1 := ha
    have hb' : b ∈ (Finset.univ : Finset (Fin 8)).erase 1 := hb
    revert a b; decide
  have e1 : (Pipeline.arrBufs spec1 c V' : sProp 𝕄)
      = iprop((((c : Thread nD τ).loc (Pipeline.arrRef spec1 0)) ↦{fullShare} V' (Pipeline.arrRef spec1 0))
        ∗ bigSep (((Finset.univ : Finset (Fin 8)).erase 1).erase 0) fun w =>
            (((c : Thread nD τ).loc (Pipeline.arrRef spec1 w)) ↦{fullShare} V' (Pipeline.arrRef spec1 w) : sProp 𝕄)) := by
    unfold Pipeline.arrBufs
    rw [hS, bigSep_image_of_injOn hinj, bigSep_erase (i := (0 : Fin 8)) (by decide)]
    rfl
  have hrest : (bigSep (((Finset.univ : Finset (Fin 8)).erase 1).erase 0) fun w : Fin 8 =>
        ((cfg1.win w).arr.view.loc (c : Thread nD τ) ↦[(cfg1.win w).arr.view.set]{(dat1 V₁ c).share w} G w : sProp 𝕄))
      = bigSep (((Finset.univ : Finset (Fin 8)).erase 1).erase 0) fun w : Fin 8 =>
        (((c : Thread nD τ).loc (Pipeline.arrRef spec1 w)) ↦{fullShare} V' (Pipeline.arrRef spec1 w) : sProp 𝕄) :=
    bigSep_congr fun w hw => by
      have h0 : w.val ≠ 0 := fun h => (Finset.mem_erase.mp hw).1 (Fin.ext h)
      have h1 : w.val ≠ 1 := fun h => (Finset.mem_erase.mp (Finset.mem_erase.mp hw).2).1 (Fin.ext h)
      rw [(arr_whole1 w).set_eq_univ, share1_rest V₁ c w (by omega), hG w]
  have hhalf : (((c : Thread nD τ).loc (Pipeline.arrRef spec1 0)) ↦{fullShare} V' (Pipeline.arrRef spec1 0) : sProp 𝕄)
      ⊣⊢ iprop(((cfg1.win 1).arr.view.loc (c : Thread nD τ) ↦[(cfg1.win 1).arr.view.set]{(dat1 V₁ c).share 1} G 1)
          ∗ ((cfg1.win 0).arr.view.loc (c : Thread nD τ) ↦[(cfg1.win 0).arr.view.set]{(dat1 V₁ c).share 0} G 0)) := by
    rw [(arr_whole1 1).set_eq_univ, share1_0, share1_1, hG 0, hG 1]
    exact ⟨(pointsTo_share (PosShare.mem_left_op_right fullShare)).1.trans sep_comm.1,
      sep_comm.1.trans (pointsTo_share (PosShare.mem_left_op_right fullShare)).2⟩
  have e2 : ((dat1 V₁ c).arrays G : sProp 𝕄)
      = iprop(((cfg1.win 1).arr.view.loc (c : Thread nD τ) ↦[(cfg1.win 1).arr.view.set]{(dat1 V₁ c).share 1} G 1)
          ∗ ((cfg1.win 0).arr.view.loc (c : Thread nD τ) ↦[(cfg1.win 0).arr.view.set]{(dat1 V₁ c).share 0} G 0)
          ∗ bigSep (((Finset.univ : Finset (Fin 8)).erase 1).erase 0) fun w =>
            (((c : Thread nD τ).loc (Pipeline.arrRef spec1 w)) ↦{fullShare} V' (Pipeline.arrRef spec1 w) : sProp 𝕄)) := by
    unfold Dat.arrays
    rw [bigSep_univ_split (1 : Fin cfg1.W), bigSep_erase (i := (0 : Fin cfg1.W)) (by decide)]
    exact congrArg (fun X : sProp 𝕄 => iprop(_ ∗ _ ∗ X)) hrest
  rw [e1, e2]
  constructor
  · iintro ⟨H0, Hr⟩
    ihave H := hhalf.1 $$ H0
    icases H with ⟨H1, H0⟩
    isplitl [H1]; · iexact H1
    isplitl [H0]; · iexact H0
    iexact Hr
  · iintro ⟨H1, H0, Hr⟩
    isplitr [Hr]
    · iapply hhalf.2
      isplitl [H1]; · iexact H1
      iexact H0
    · iexact Hr

/-! # The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V8 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's invariant
    takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left at
    `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! # The regions as segments -/

/-- At region 0's exit each of its arrays holds what the pipeline leaves and every other buffer what it held at entry. -/
theorem hF0 (c : Dev nD) (w : Fin cfg0.W) : (dat0 (V1 m) c).arrAt w cfg0.N = W2 m c (Proc.devRef .tc (Pipeline.arrRef spec0 w)) :=
  (W2_arr m c w).symm
theorem hrest0 (c : Dev nD) : ∀ b : Ref sig .tc, b ∉ Finset.univ.image (Pipeline.arrRef spec0) → W2 m c (Proc.devRef .tc b) = V1 m c b :=
  fun b hb => W2_of_ne m c b fun w e => hb (Finset.mem_image.mpr ⟨w, Finset.mem_univ _, e⟩)

set_option backward.isDefEq.respectTransparency.types false in
/-- REGION 0 over the thread state: entered from every unscoped buffer at `W1`, left at `W2`. Its five arrays, distinct
    buffers, are split out of the unscoped buffers whole and put back at the exit contents; the generator register and the
    scratch buffers go into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => q_eq0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats m 0 c).recorded 0 = Set.univ from recorded_eq0 (V1 m) c 0]; trivial)
      rw [show (pdats m 0 c).owed 0 = 0 from owed_eq0 (V1 m) c 0]
      iexact HO
    isplitl [Hp]; · iexact Hp
    iexact Hrest
  hin c := by
    refine (?_ : _ ⊢ Pipeline.ΦA spec0 c).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => q_eq0 (V1 m) c w)
      (V1 m c) (fun b => W2 m c (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed_eq0 (V1 m) c _]
    iexact HO

/-- At region 1's exit each window's array holds what the pipeline leaves there: an input's as entered (the fold keeps
    it), an output's what the write-backs made. -/
theorem hF9 (c : Dev nD) : ∀ w : Fin cfg1.W, (dat1 (V8 m) c).arrAt w cfg1.N = W9 m c (Proc.devRef .tc (Pipeline.arrRef spec1 w))
  | 0 => ((dat1 (V8 m) c).arrAt_in 0 rfl _).trans ((A_eq1 (V8 m) c 0).trans (W9_of_ne m c _ (by decide)).symm)
  | 1 => ((dat1 (V8 m) c).arrAt_in 1 rfl _).trans ((A_eq1 (V8 m) c 1).trans (W9_of_ne m c _ (by decide)).symm)
  | 2 => ((dat1 (V8 m) c).arrAt_in 2 rfl _).trans ((A_eq1 (V8 m) c 2).trans (W9_of_ne m c _ (by decide)).symm)
  | 3 => ((dat1 (V8 m) c).arrAt_in 3 rfl _).trans ((A_eq1 (V8 m) c 3).trans (W9_of_ne m c _ (by decide)).symm)
  | 4 => ((dat1 (V8 m) c).arrAt_in 4 rfl _).trans ((A_eq1 (V8 m) c 4).trans (W9_of_ne m c _ (by decide)).symm)
  | 5 => (W9_out5 m c).symm
  | 6 => (W9_out6 m c).symm
  | 7 => (W9_out7 m c).symm
  | ⟨_ + 8, h⟩ => absurd h (Nat.not_lt.2 (Nat.le_add_left _ _))
/-- and every buffer that is no window's array what it held at entry. -/
theorem hrest9 (c : Dev nD) (b : Ref sig .tc) (hb : b ∉ Finset.univ.image (Pipeline.arrRef spec1)) :
    W9 m c (Proc.devRef .tc b) = V8 m c b :=
  W9_of_ne m c b fun hmem => hb (by
    simp only [List.mem_cons, List.not_mem_nil, or_false] at hmem
    rcases hmem with rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩)

/-- ENTRY of region 1, the arrays' part: a core's unscoped buffers at the entry contents are the pipeline's arrays at their
    entry contents (the shared buffer dealt by halves) and the unscoped rest. -/
theorem hsplit1 (c : Dev nD) : (unscopedBufs c (V8 m c) : sProp 𝕄)
    ⊢ iprop((dat1 (V8 m) c).arrays ((dat1 (V8 m) c).arrAt · 0) ∗ Pipeline.unscopedRest spec1 c (V8 m c)) := by
  rw [Pipeline.unscopedBufs_split₀ cfgs 1 winFacts₀1.arr_unscoped c (V8 m c)]
  exact sep_mono (arrays1_iff (V8 m) c (V8 m c) _ (fun w => A_eq1 (V8 m) c w)).1 .rfl

/-- The unscoped buffers that are no array of region 1 hold at its exit what they held at its entry. -/
theorem rest9_eq (c : Dev nD) : (Pipeline.unscopedRest spec1 c (V8 m c) : sProp 𝕄)
    = Pipeline.unscopedRest spec1 c (fun b => W9 m c (Proc.devRef .tc b)) := by
  unfold Pipeline.unscopedRest
  exact bigSep_congr fun b hb => congrArg (fun f => ((c : Thread nD τ).loc b ↦{fullShare} f : sProp 𝕄)) (hrest9 m c b (Finset.mem_sdiff.mp hb).2).symm

/-- EXIT of region 1, the arrays' part: the pipeline's arrays at their last contents (the halves of the shared buffer
    rejoined) and the unscoped rest are the core's unscoped buffers at the exit contents. -/
theorem hjoin1 (c : Dev nD) : iprop((dat1 (V8 m) c).arrays ((dat1 (V8 m) c).arrAt · cfg1.N) ∗ Pipeline.unscopedRest spec1 c (V8 m c))
    ⊢ (unscopedBufs c (fun b => W9 m c (Proc.devRef .tc b)) : sProp 𝕄) := by
  rw [Pipeline.unscopedBufs_split₀ cfgs 1 winFacts₀1.arr_unscoped c (fun b => W9 m c (Proc.devRef .tc b)), rest9_eq m c]
  exact sep_mono (arrays1_iff (V8 m) c (fun b => W9 m c (Proc.devRef .tc b)) _ (hF9 m c)).2 .rfl

set_option maxHeartbeats 800000 in
set_option backward.isDefEq.respectTransparency.types false in
/-- REGION 1 over the thread state: entered from every unscoped buffer at `W8`, left at `W9`. The seven buffers behind
    its eight windows' arrays are split out of the unscoped buffers whole; the one two windows read is dealt to them by
    halves, which rejoin at the exit; the generator register and the scratch buffers go into the region's invariant and
    come back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V8 m) c).loose
  hwaits := Pipeline.hwaits_of_owed_zero _ _ _ _ L lv 1 fun c t => owed_eq1 (V8 m) c t
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (V8 m c)
  hentry c := by
    rw [Pipeline.ownSems0_none]
    have hsplit := hsplit1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats m 1 c).recorded 0 = Set.univ from recorded_eq1 (V8 m) c 0]; trivial)
      rw [show (pdats m 1 c).owed 0 = 0 from owed_eq1 (V8 m) c 0]
      iexact HO
    isplitl [Hp]; · iexact Hp
    iexact Hrest
  hin c := by
    refine (?_ : _ ⊢ Pipeline.ΦA spec1 c).trans (hin1 (V8 m) c)
    unfold Pipeline.ΦA
    iintro ⟨Hp, -, Hr⟩
    isplitl [Hr]; · iexact Hr
    iexact Hp
  hout c := by
    rw [Pipeline.ownSems0_none]
    refine (hout1 (V8 m) c).trans ?_
    unfold Pipeline.ΦA
    iintro ⟨Hr, Hp⟩
    isplitl [Hp]; · iexact Hp
    isplitr; · iempintro
    iexact Hr
  hexit c := by
    have hjoin := hjoin1 m c
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W
    rw [show (pdats m 1 c).owed (Fin.last _) = 0 from owed_eq1 (V8 m) c _]
    iexact HO

/-! # The program as segments, and the launch -/

/-- The program's twelve items in order: a host segment per stretch from its boundary's contents, a region per kernel call. -/
abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .region (reg1 m),
    .host (hseg hostOps2 hostOps2_sub hostOps2_fresh (W9 m)),
    .host (hseg hostOps2_1 hostOps2_1_sub hostOps2_1_fresh (W10 m)),
    .host (hseg hostOps2_2 hostOps2_2_sub hostOps2_2_fresh (W11 m)) ]

/-- The last thread state without what the core owes: every unscoped buffer at the last boundary's contents, the generator
    register at some state. -/
abbrev Tₙ (c : Dev nD) : sProp 𝕄 := iprop(StableHlo.held (c : Thread nD τ) (Pipeline.ucRefs τ sig) (W12 m c) ∗ ∃ r, prngReg c r)

set_option backward.isDefEq.respectTransparency.types false in
/-- THE RUN. From any memory with zero counters, every weakly fair execution of the program on the TensorCores terminates,
    nothing faulting, and in every final state each core's unscoped buffers hold the fold's last contents `W12`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          Prog.lift (.customCall (Pipeline.entry 1) ()),
          StableHlo.seq hostOps2,
          StableHlo.seq hostOps2_1,
          StableHlo.seq hostOps2_2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => by
        show iprop(StableHlo.held (c : Thread nD τ) (Pipeline.ucRefs τ sig) (W12 m c) ∗ R c)
          ⊢ iprop(Tₙ m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

/-- THE FRAME: the program runs and every final state has the three argument arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs (onTc (τ := τ) (main (F := F))) ⟨m, fun _ => 0, ρ⟩).mono (Q := fun r => ∀ c : Dev nD, ∀ b ∈ Pipeline.ucRefs τ sig, r.2.mem (((c : Thread nD τ)).1, b) = W12 m c b) (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c)⟩) (run_all m ρ)

end Cert.KernelIdeal.Hand

end
-- ==== Proof.Spec.lean ====
import Idealize.ShloMosaic.PureOps.Ideal
import Idealize.ShloMosaic.Lib.ValueIdx

/-!
# The loss as one function of the three inputs, over the extended reals

Rows `x r` (8192 rows of 256), integer labels `lab r`, class prototypes `p cl` (64 rows of 256).
Every row is divided by the larger of its Euclidean norm and a small constant; per class the
normalised rows are summed and counted; a class's prototype is its normalised sum when the class
occurs and the normalised given prototype otherwise.  Three averages are then combined:
one minus the cosine of a row with its own class's prototype; per class, the mean over rows of
other classes of the hinge of the cosine with that class's prototype; and the hinge of the largest
cosine of a row with a row of a different label.  A maximum over no rows is `⊥`, whose hinge is `0`.
-/

noncomputable section

namespace Cert.Spec

open Idealize.ShloMosaic

/-- The literals both programs carry, as the words they print. -/
abbrev eps : EReal := Ideal.ofBits .f32 0x2B8CBCCC#32
abbrev zero : EReal := Ideal.ofBits .f32 0x00000000#32
abbrev one : EReal := Ideal.ofBits .f32 0x3F800000#32
abbrev c8192 : EReal := Ideal.ofBits .f32 0x46000000#32
abbrev c64 : EReal := Ideal.ofBits .f32 0x42800000#32
abbrev sepMargin : EReal := Ideal.ofBits .f32 0x3E4CCCCD#32
abbrev hardMargin : EReal := Ideal.ofBits .f32 0x3E99999A#32
abbrev alignW : EReal := Ideal.ofBits .f32 0x3E19999A#32
abbrev sepW : EReal := Ideal.ofBits .f32 0x3DCCCCCD#32
abbrev hardW : EReal := Ideal.ofBits .f32 0x3D4CCCCD#32

abbrev Rows (n : ℕ) := Fin n → Fin 256 → EReal
abbrev Labels := Fin 8192 → BitVec 32

/-- A row over the larger of its norm and `eps`. -/
def normRow {n : ℕ} (y : Rows n) (r : Fin n) (d : Fin 256) : EReal :=
  Ideal.div (y r d) (max (Ideal.sqrt (∑ k : Fin 256, y r k * y r k)) eps)

/-- `1` where row `r` has class `cl`, else `0`. -/
def onehot (lab : Labels) (r : Fin 8192) (cl : Fin 64) : EReal :=
  if lab r = BitVec.ofNat 32 cl.val then 1 else 0

def counts (lab : Labels) (cl : Fin 64) : EReal := ∑ r : Fin 8192, onehot lab r cl

def sums (x : Rows 8192) (lab : Labels) : Rows 64 := fun cl d => ∑ r : Fin 8192, onehot lab r cl * normRow x r d

/-- A class's prototype: its normalised sum of rows when it occurs, else the normalised given one. -/
def protos (x : Rows 8192) (lab : Labels) (p : Rows 64) : Rows 64 := fun cl d =>
  if Ideal.cmp .ogt (counts lab cl) zero = 1#1 then normRow (sums x lab) cl d else normRow p cl d

/-- One minus the cosine of row `r` with the prototypes weighted by the row's class indicator. -/
def alignRow (dn : Rows 8192) (lab : Labels) (pr : Rows 64) (r : Fin 8192) : EReal :=
  one - ∑ d : Fin 256, dn r d * ∑ cl : Fin 64, onehot lab r cl * pr cl d

/-- The hinge of the cosine with class `cl`'s prototype, kept for rows of other classes. -/
def wrongAt (dn : Rows 8192) (lab : Labels) (pr : Rows 64) (r : Fin 8192) (cl : Fin 64) : EReal :=
  max ((∑ d : Fin 256, dn r d * pr cl d) - sepMargin) zero * (one - onehot lab r cl)

/-- The largest cosine of row `r` with a row of a different label; `⊥` when there is none. -/
def hardest (dn : Rows 8192) (labq labk : Labels) (r : Fin 8192) : EReal :=
  Finset.univ.sup fun j : Fin 8192 => if labq r ≠ labk j then ∑ d : Fin 256, dn r d * dn j d else ⊥

def contribRow (dn : Rows 8192) (labq labk : Labels) (r : Fin 8192) : EReal := max (hardest dn labq labk r - hardMargin) zero

def lAlign (dn : Rows 8192) (lab : Labels) (pr : Rows 64) : EReal := Ideal.div (∑ r : Fin 8192, alignRow dn lab pr r) c8192

def negCount (lab : Labels) (cl : Fin 64) : EReal := c8192 - counts lab cl

def perClass (dn : Rows 8192) (lab : Labels) (pr : Rows 64) (cl : Fin 64) : EReal :=
  if Ideal.cmp .ogt (negCount lab cl) zero = 1#1 then Ideal.div (∑ r : Fin 8192, wrongAt dn lab pr r cl) (max (negCount lab cl) one) else zero

def lSep (dn : Rows 8192) (lab : Labels) (pr : Rows 64) : EReal := Ideal.div (∑ cl : Fin 64, perClass dn lab pr cl) c64

def lHard (dn : Rows 8192) (lab : Labels) : EReal := Ideal.div (∑ r : Fin 8192, contribRow dn lab lab r) c8192

/-- The whole loss. -/
def total (x : Rows 8192) (lab : Labels) (p : Rows 64) : EReal :=
  alignW * lAlign (normRow x) lab (protos x lab p) + sepW * lSep (normRow x) lab (protos x lab p) + hardW * lHard (normRow x) lab

end Cert.Spec

end
-- ==== Proof.KI.Val0.lean ====
import proofs.«401042_j13357348290857_3_alg».proof.Proof.KI.R0
import proofs.«401042_j13357348290857_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

-- the TensorCore's buffer contents when the region is entered, over the extended reals
variable (V : (c : Dev nD) → (b : Ref sig .tc) → Buf (Elt Ideal) ((c : Thread nD τ).loc b))

/-- The rows the region is entered with. -/
abbrev xin (c : Dev nD) : Cert.Spec.Rows 8192 := fun r d => (V c main_arg0 : S8192x256.Idx → EReal) (ix2 r d)
/-- The labels the region is entered with (a column). -/
abbrev labin (c : Dev nD) : Cert.Spec.Labels := fun r => (V c main_v0 : S8192x1.Idx → BitVec 32) (ix2 r (0 : Fin 1))

/-! ## Layout operations read at an index: the column forms -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The body's arithmetic, one entry at a time -/

/-- The class indicator of two words: `1` when they are equal, else `0`. -/
theorem indicator_word (a b : BitVec 32) :
    (FloatOps.sitofp (F := Ideal) .f32 ((IntOp.cmpi .eq a b).setWidth 32) : EReal) = if a = b then 1 else 0 := by
  have one : ((1#32 : BitVec 32).toInt : ℤ) = 1 := by decide
  have zer : ((0#32 : BitVec 32).toInt : ℤ) = 0 := by decide
  by_cases h : a = b
  · have e : (IntOp.cmpi .eq a b).setWidth 32 = 1#32 := by subst h; simp [IntOp.cmpi]
    rw [e, if_pos h]
    show ((((1#32 : BitVec 32).toInt : ℤ) : ℝ) : EReal) = 1
    rw [one]; simp
  · have hb : (a == b) = false := beq_eq_false_iff_ne.mpr h
    have e : (IntOp.cmpi .eq a b).setWidth 32 = 0#32 := by
      show BitVec.setWidth 32 (BitVec.ofBool (a == b)) = 0#32
      rw [hb]; rfl
    rw [e, if_neg h]
    show ((((0#32 : BitVec 32).toInt : ℤ) : ℝ) : EReal) = 0
    rw [zer]; simp

/-- A row of the tile over the larger of its norm and the small constant: entry `(p, q)` depends on row `p` only. -/
theorem pay6_apply (v : Vec Ideal S2048x256 .f32) (p : Fin 2048) (q : Fin 256) :
    k0_pay6 v (ix2 p q)
      = Ideal.div (v (ix2 p q)) (max (Ideal.sqrt (∑ k : Fin 256, v (ix2 p k) * v (ix2 p k))) Cert.Spec.eps) := by
  unfold k0_pay6
  refine congrArg (Ideal.div (v (ix2 p q))) ?_
  refine (broadcastTo_a1_ab_apply _ _ p q).trans ?_
  refine congrArg (fun z => max (Ideal.sqrt z) Cert.Spec.eps) ?_
  refine (shapeCast_a_a1_apply _ _ p (0 : Fin 1)).trans ?_
  refine (Ideal.multiReduction_add_single (mulf v v) _ reduces_S2048x256_S2048 _ _ (ix1 p)).trans ?_
  refine Finset.sum_congr rfl fun k _ => ?_
  have e : reduces_S2048x256_S2048.lift (ix1 p) k = ix2 p k := by
    funext a; apply Fin.ext
    match a with
    | ⟨0, _⟩ => rfl
    | ⟨1, _⟩ => rfl
  exact congrArg (fun i => v i * v i) e

/-- The stored rows are those rows (the narrowing is the identity on extended reals). -/
theorem pay7_apply (v : Vec Ideal S2048x256 .f32) (i : S2048x256.Idx) : k0_pay7 v i = k0_pay6 v i := rfl

/-- The class indicator of the tile: entry `(p, cl)` is `1` when row `p`'s label is `cl`, else `0`. -/
theorem pay8_apply (l : Vec Ideal S2048x1 .i32) (p : Fin 2048) (cl : Fin 64) :
    k0_pay8 l (ix2 p cl) = if l (ix2 p (0 : Fin 1)) = BitVec.ofNat 32 cl.val then 1 else 0 := by
  unfold k0_pay8
  refine Eq.trans ?_ (indicator_word (l (ix2 p (0 : Fin 1))) (BitVec.ofNat 32 cl.val))
  refine congrArg (fun z : BitVec 1 => (FloatOps.sitofp (F := Ideal) .f32 (z.setWidth 32) : EReal)) ?_
  refine congrArg₂ (IntOp.cmpi .eq) ?_ ?_
  · refine (broadcastTo_a1_ab_apply _ _ p cl).trans ?_
    exact congrFun (shapeCast_self l _) _
  · refine (broadcastTo_1b_ab_apply _ _ p cl).trans ?_
    exact iota_single_apply .tc S1x64 32 1 iota_S1x64_d1_w32 (ix2 (0 : Fin 1) cl)

/-- The zero accumulators. -/
theorem pay4_apply (i : S64x256.Idx) : (k0_pay4 (F := Ideal)) i = 0 := by
  unfold k0_pay4
  refine (congrFun (shapeCast_self _ _) i).trans ?_
  exact Ideal.ofBits_zero_f32
theorem pay5_apply (i : S1x64.Idx) : (k0_pay5 (F := Ideal)) i = 0 := by
  unfold k0_pay5
  refine (congrFun (shapeCast_self _ _) i).trans ?_
  exact Ideal.ofBits_zero_f32

/-- The copies out: a leading unit axis added. -/
theorem pay2_apply (S : Vec Ideal S64x256 .f32) (u : Fin 1) (cl : Fin 64) (d : Fin 256) :
    k0_pay2 S (ix3 u cl d) = S (ix2 cl d) := by
  unfold k0_pay2
  exact shapeCast_ab_1ab_apply S _ u cl d
theorem pay3_apply (S : Vec Ideal S1x64 .f32) (u : Fin 1) (o : Fin 1) (cl : Fin 64) :
    k0_pay3 S (ix3 u o cl) = S (ix2 o cl) := by
  unfold k0_pay3
  exact shapeCast_ab_1ab_apply S _ u o cl

/-- The counts accumulator: the tile's column sums of the indicator added to what it held. -/
theorem pay10_apply (l : Vec Ideal S2048x1 .i32) (S : Vec Ideal S1x64 .f32) (o : Fin 1) (cl : Fin 64) :
    k0_pay10 l S (ix2 o cl) = S (ix2 o cl) + ∑ p : Fin 2048, k0_pay8 l (ix2 p cl) := by
  unfold k0_pay10
  refine congrArg (S (ix2 o cl) + ·) ?_
  refine (shapeCast_a_1a_apply _ _ o cl).trans ?_
  refine (Ideal.multiReduction_add_single (k0_pay8 l) _ reduces_S2048x64_S64 _ _ (ix1 cl)).trans ?_
  refine Finset.sum_congr rfl fun p _ => ?_
  have e : reduces_S2048x64_S64.lift (ix1 cl) p = ix2 p cl := by
    funext a; apply Fin.ext
    match a with
    | ⟨0, _⟩ => rfl
    | ⟨1, _⟩ => rfl
  exact congrArg (k0_pay8 l) e

/-- The product's operand indices: the contracted coordinate is the tile's row on both sides; the left operand's
    other coordinate is the class, the right operand's the lane. -/
theorem lhs9_idx (cl : Fin 64) (d : Fin 256) (p : Fin 2048) :
    dot_S2048x64_S2048x256_S64x256_0_0_1_1_n_n.lhsIdx (ix2 cl d)
      ((contrEquiv1 dot_S2048x64_S2048x256_S64x256_0_0_1_1_n_n 2048 rfl rfl).symm p) = ix2 p cl := by
  have c2 := contrEquiv1_symm_val dot_S2048x64_S2048x256_S64x256_0_0_1_1_n_n 2048 rfl rfl p
  funext ax; apply Fin.ext
  match ax with
  | ⟨0, _⟩ => simp [DotDims.lhsIdx, dot_S2048x64_S2048x256_S64x256_0_0_1_1_n_n]; exact c2
  | ⟨1, _⟩ => simp [DotDims.lhsIdx, dot_S2048x64_S2048x256_S64x256_0_0_1_1_n_n]; rfl
theorem rhs9_idx (cl : Fin 64) (d : Fin 256) (p : Fin 2048) :
    dot_S2048x64_S2048x256_S64x256_0_0_1_1_n_n.rhsIdx (ix2 cl d)
      ((contrEquiv1 dot_S2048x64_S2048x256_S64x256_0_0_1_1_n_n 2048 rfl rfl).symm p) = ix2 p d := by
  have c2 := contrEquiv1_symm_val dot_S2048x64_S2048x256_S64x256_0_0_1_1_n_n 2048 rfl rfl p
  funext ax; apply Fin.ext
  match ax with
  | ⟨0, _⟩ => simp [DotDims.rhsIdx, dot_S2048x64_S2048x256_S64x256_0_0_1_1_n_n]; exact c2
  | ⟨1, _⟩ => simp [DotDims.rhsIdx, dot_S2048x64_S2048x256_S64x256_0_0_1_1_n_n]; rfl

/-- The sums accumulator: indicatorᵀ · rows over the tile's 2048 rows, added to what it held. -/
theorem pay9_apply (v : Vec Ideal S2048x256 .f32) (l : Vec Ideal S2048x1 .i32) (S : Vec Ideal S64x256 .f32)
    (cl : Fin 64) (d : Fin 256) :
    k0_pay9 v l S (ix2 cl d) = S (ix2 cl d) + ∑ p : Fin 2048, k0_pay8 l (ix2 p cl) * k0_pay6 v (ix2 p d) := by
  unfold k0_pay9
  refine (congrFun (shapeCast_self _ _) (ix2 cl d)).trans ?_
  refine congrArg (S (ix2 cl d) + ·) ?_
  refine (Ideal.matmul_constant_zero_apply dot_S2048x64_S2048x256_S64x256_0_0_1_1_n_n none _ _ (ix2 cl d)).trans ?_
  rw [← Equiv.sum_comp (contrEquiv1 dot_S2048x64_S2048x256_S64x256_0_0_1_1_n_n 2048 rfl rfl).symm]
  refine Finset.sum_congr rfl fun p _ => ?_
  rw [lhs9_idx, rhs9_idx]
  rfl

/-! ## The blocks the body loads: rows of the arrays the region is entered with -/

/-- The printed index maps over the four points: windows 0, 1, 2 are at tile `t`, windows 3, 4 at half `t / 2`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val / 2 ∧ win0_3.index t (1 : Fin 3) = 0 ∧ win0_3.index t (2 : Fin 3) = 0
    ∧ win0_4.index t (0 : Fin 3) = t.val / 2 ∧ win0_4.index t (1 : Fin 3) = 0 ∧ win0_4.index t (2 : Fin 3) = 0 :=
  (by decide +kernel : ∀ t : Fin grid0.N, _)

theorem lt4 (t : Fin cfg0.N) : t.val < 4 := by
  have h : t.val < grid0.N := t.isLt
  rw [N_0] at h; exact h

/-- Tile `t` of the rows. -/
theorem xblk_apply (c : Dev nD) (t : Fin cfg0.N) (p : Fin 2048) (q : Fin 256) :
    xblk0 V c t (ix2 p q) = xin V c ⟨t.val * 2048 + p.val, by have := lt4 t; have := p.isLt; omega⟩ q := by
  obtain ⟨e0, e1, -⟩ := idx_facts t
  unfold xblk0 iblk0
  rw [View.read_apply]
  show (V c main_arg0 : S8192x256.Idx → EReal) _ = (V c main_arg0 : S8192x256.Idx → EReal) _
  congr 1
  funext a
  apply Fin.ext
  match a with
  | ⟨0, _⟩ => show win0_0.index t (0 : Fin 2) * 2048 + 1 * p.val = t.val * 2048 + p.val; rw [e0]; omega
  | ⟨1, _⟩ => show win0_0.index t (1 : Fin 2) * 256 + 1 * q.val = q.val; rw [e1]; omega

/-- Tile `t` of the labels. -/
theorem lblk_apply (c : Dev nD) (t : Fin cfg0.N) (p : Fin 2048) :
    lblk0 V c t (ix2 p (0 : Fin 1)) = labin V c ⟨t.val * 2048 + p.val, by have := lt4 t; have := p.isLt; omega⟩ := by
  obtain ⟨-, -, e0, e1, -⟩ := idx_facts t
  unfold lblk0 iblk0
  rw [View.read_apply]
  show (V c main_v0 : S8192x1.Idx → BitVec 32) _ = (V c main_v0 : S8192x1.Idx → BitVec 32) _
  congr 1
  funext a
  apply Fin.ext
  match a with
  | ⟨0, _⟩ => show win0_1.index t (0 : Fin 2) * 2048 + 1 * p.val = t.val * 2048 + p.val; rw [e0]; omega
  | ⟨1, _⟩ => show win0_1.index t (1 : Fin 2) * 1 + 1 * 0 = 0; rw [e1]

/-- The tile's normalised rows are the array's. -/
theorem norm_tile (c : Dev nD) (t : Fin cfg0.N) (p : Fin 2048) (q : Fin 256) :
    k0_pay6 (xblk0 V c t) (ix2 p q)
      = Cert.Spec.normRow (xin V c) ⟨t.val * 2048 + p.val, by have := lt4 t; have := p.isLt; omega⟩ q := by
  rw [pay6_apply]
  unfold Cert.Spec.normRow
  rw [xblk_apply V c t p q]
  congr 3
  exact Finset.sum_congr rfl fun k _ => by rw [xblk_apply V c t p k]

/-- The tile's class indicator is the array's. -/
theorem onehot_tile (c : Dev nD) (t : Fin cfg0.N) (p : Fin 2048) (cl : Fin 64) :
    k0_pay8 (lblk0 V c t) (ix2 p cl)
      = Cert.Spec.onehot (labin V c) ⟨t.val * 2048 + p.val, by have := lt4 t; have := p.isLt; omega⟩ cl := by
  rw [pay8_apply, lblk_apply V c t p]
  rfl

/-! ## Window 2: the normalised rows -/

/-- What the rows array ends holding. -/
abbrev G2 (c : Dev nD) : S8192x256.Idx → EReal := fun i => Cert.Spec.normRow (xin V c) (i 0) (i 1)

/-- The stored tile, entry by entry, is that function under the tile. -/
theorem tile2_read (c : Dev nD) (t : Fin cfg0.N) (y : S2048x256.Idx) (i : S8192x256.Idx)
    (hi0 : (i 0).val = t.val * 2048 + (y 0).val) (hi1 : (i 1).val = (y 1).val) :
    k0_pay7 (xblk0 V c t) y = G2 V c i := by
  obtain ⟨p, q, rfl⟩ : ∃ (p : Fin 2048) (q : Fin 256), y = ix2 p q := ⟨y 0, y 1, eq_ix2 y⟩
  rw [pay7_apply, norm_tile V c t p q]
  show Cert.Spec.normRow (xin V c) _ _ = Cert.Spec.normRow (xin V c) (i 0) (i 1)
  congr 1
  · exact Fin.ext hi0.symm
  · exact Fin.ext hi1.symm

/-- What every point writes back to the rows array is its tile of that function. -/
theorem flushed2_eq (c : Dev nD) (t : Fin cfg0.N) :
    (dat0 V c).flushed 2 t = ((cfg0.win 2).blk t).view.read (Elt Ideal) (G2 V c) := by
  obtain ⟨-, -, -, -, e0, e1, -⟩ := idx_facts t
  show (cfg0.win 2).cut (grid0.coords t) ((dat0 V c).after 2 t) = _
  rw [after0_2 V c t]
  funext j
  show k0_pay7 (xblk0 V c t) ((cfg0.win 2).xinj (grid0.coords t) j) = G2 V c (((cfg0.win 2).blk t).view.emb j)
  refine tile2_read V c t _ _ ?_ ?_
  · show win0_2.index t (0 : Fin 2) * 2048 + 1 * (j 0).val = t.val * 2048 + (j 0).val
    rw [e0]; omega
  · show win0_2.index t (1 : Fin 2) * 256 + 1 * (j 1).val = (j 1).val
    rw [e1]; omega

/-- An index of the rows array is in point `t`'s tile iff each coordinate is in the tile's range. -/
theorem mem_blk2 (t : Fin cfg0.N) (i : S8192x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v2_0).slice (win0_2.rect t)).set ↔ _
  rw [View.set_slice_whole, Rect.mem_set_unit]
  exact Iff.rfl

/-- Row `r` is under tile `r / 2048`. -/
theorem cover2 (i : S8192x256.Idx) :
    ∃ t : Fin cfg0.N, (cfg0.win 2).flush t = true ∧ i ∈ ((cfg0.win 2).blk t).view.set := by
  have h0 : (i 0).val < 8192 := (i 0).isLt
  have h1 : (i 1).val < 256 := (i 1).isLt
  obtain ⟨t, ht⟩ : ∃ t : Fin cfg0.N, t.val = (i 0).val / 2048 :=
    ⟨⟨(i 0).val / 2048, by show _ < grid0.N; rw [N_0]; omega⟩, rfl⟩
  obtain ⟨-, -, -, -, e0, e1, -⟩ := idx_facts t
  refine ⟨t, flush0_2 t, ?_⟩
  rw [mem_blk2]
  intro a
  match a with
  | ⟨0, _⟩ =>
    show win0_2.index t (0 : Fin 2) * 2048 ≤ (i 0).val ∧ (i 0).val < win0_2.index t (0 : Fin 2) * 2048 + 2048
    rw [e0, ht]; omega
  | ⟨1, _⟩ =>
    show win0_2.index t (1 : Fin 2) * 256 ≤ (i 1).val ∧ (i 1).val < win0_2.index t (1 : Fin 2) * 256 + 256
    rw [e1]; omega

/-- The rows array after the region. -/
theorem final2 (c : Dev nD) : (dat0 V c).arrAt 2 cfg0.N = G2 V c :=
  (dat0 V c).arrAt_eq_of_cover 2 (G2 V c) (fun t _ => flushed2_eq V c t) cover2

/-- The normalised rows. -/
theorem dirsN_arr (c : Dev nD) (r : Fin 8192) (d : Fin 256) :
    ((dat0 V c).arrAt 2 cfg0.N : S8192x256.Idx → EReal) (ix2 r d) = Cert.Spec.normRow (xin V c) r d :=
  congrFun (final2 V c) (ix2 r d)

/-! ## Windows 3 and 4: per half of the rows, the per-class sums and counts -/

/-- A half's per-class sums of the normalised rows, and its per-class counts. -/
def halfSums (c : Dev nD) (h : Fin 2) (cl : Fin 64) (d : Fin 256) : EReal :=
  ∑ r' : Fin 4096, Cert.Spec.onehot (labin V c) ⟨h.val * 4096 + r'.val, by have := h.isLt; have := r'.isLt; omega⟩ cl
    * Cert.Spec.normRow (xin V c) ⟨h.val * 4096 + r'.val, by have := h.isLt; have := r'.isLt; omega⟩ d
def halfCounts (c : Dev nD) (h : Fin 2) (cl : Fin 64) : EReal :=
  ∑ r' : Fin 4096, Cert.Spec.onehot (labin V c) ⟨h.val * 4096 + r'.val, by have := h.isLt; have := r'.isLt; omega⟩ cl

/-- A half's 4096 rows are its two tiles' 2048 rows: the sum regrouped. -/
theorem sum_half (g : Fin 8192 → EReal) (h : ℕ) (hh : h < 2) :
    ∑ r' : Fin 4096, g ⟨h * 4096 + r'.val, by have := r'.isLt; omega⟩
      = ∑ p : Fin 2048, g ⟨(2 * h) * 2048 + p.val, by have := p.isLt; omega⟩
        + ∑ p : Fin 2048, g ⟨(2 * h + 1) * 2048 + p.val, by have := p.isLt; omega⟩ := by
  have e := Fin.sum_univ_add (a := 2048) (b := 2048)
    (fun r' : Fin (2048 + 2048) => g ⟨h * 4096 + r'.val, by have := r'.isLt; omega⟩)
  refine Eq.trans e ?_
  refine congrArg₂ (· + ·) (Finset.sum_congr rfl fun p _ => congrArg g (Fin.ext ?_))
    (Finset.sum_congr rfl fun p _ => congrArg g (Fin.ext ?_))
  · show h * 4096 + (Fin.castAdd 2048 p).val = 2 * h * 2048 + p.val
    rw [Fin.coe_castAdd]; omega
  · show h * 4096 + (Fin.natAdd 2048 p).val = (2 * h + 1) * 2048 + p.val
    rw [Fin.coe_natAdd]; omega

/-- After a half's second tile the sums accumulator holds the half's per-class sums: reset and first tile, then second. -/
theorem acc_sums (c : Dev nD) (t : Fin cfg0.N) (ht : t.val % 2 = 1) (cl : Fin 64) (d : Fin 256) :
    (sc0At V c t.val t.isLt).1 (ix2 cl d) = halfSums V c ⟨t.val / 2, by have := lt4 t; omega⟩ cl d := by
  have h4 := lt4 t
  have hlt : t.val - 1 < cfg0.N := Nat.lt_of_le_of_lt (Nat.sub_le _ _) t.isLt
  have e1 : sc0At V c (t.val - 1) hlt
      = (k0_pay9 (xblk0 V c ⟨t.val - 1, hlt⟩) (lblk0 V c ⟨t.val - 1, hlt⟩) (k0_pay4 (F := Ideal)),
          k0_pay10 (lblk0 V c ⟨t.val - 1, hlt⟩) (k0_pay5 (F := Ideal))) :=
    sc0At_even V c ⟨t.val - 1, hlt⟩ (by show (t.val - 1) % 2 = 0; omega)
  rw [sc0At_odd V c t ht, e1]
  dsimp only
  refine (pay9_apply (xblk0 V c t) (lblk0 V c t) _ cl d).trans ?_
  rw [pay9_apply (xblk0 V c ⟨t.val - 1, hlt⟩) (lblk0 V c ⟨t.val - 1, hlt⟩) _ cl d, pay4_apply, zero_add]
  unfold halfSums
  rw [sum_half (fun r => Cert.Spec.onehot (labin V c) r cl * Cert.Spec.normRow (xin V c) r d) (t.val / 2) (by omega)]
  refine congrArg₂ (· + ·) (Finset.sum_congr rfl fun p _ => ?_) (Finset.sum_congr rfl fun p _ => ?_)
  · rw [onehot_tile V c ⟨t.val - 1, hlt⟩ p cl, norm_tile V c ⟨t.val - 1, hlt⟩ p d]
    exact congrArg (fun r => Cert.Spec.onehot (labin V c) r cl * Cert.Spec.normRow (xin V c) r d)
      (Fin.ext (by show (t.val - 1) * 2048 + p.val = 2 * (t.val / 2) * 2048 + p.val; omega))
  · rw [onehot_tile V c t p cl, norm_tile V c t p d]
    exact congrArg (fun r => Cert.Spec.onehot (labin V c) r cl * Cert.Spec.normRow (xin V c) r d)
      (Fin.ext (by show t.val * 2048 + p.val = (2 * (t.val / 2) + 1) * 2048 + p.val; omega))

/-- … and the counts accumulator the half's per-class counts. -/
theorem acc_counts (c : Dev nD) (t : Fin cfg0.N) (ht : t.val % 2 = 1) (o : Fin 1) (cl : Fin 64) :
    (sc0At V c t.val t.isLt).2 (ix2 o cl) = halfCounts V c ⟨t.val / 2, by have := lt4 t; omega⟩ cl := by
  have h4 := lt4 t
  have hlt : t.val - 1 < cfg0.N := Nat.lt_of_le_of_lt (Nat.sub_le _ _) t.isLt
  have e1 : sc0At V c (t.val - 1) hlt
      = (k0_pay9 (xblk0 V c ⟨t.val - 1, hlt⟩) (lblk0 V c ⟨t.val - 1, hlt⟩) (k0_pay4 (F := Ideal)),
          k0_pay10 (lblk0 V c ⟨t.val - 1, hlt⟩) (k0_pay5 (F := Ideal))) :=
    sc0At_even V c ⟨t.val - 1, hlt⟩ (by show (t.val - 1) % 2 = 0; omega)
  rw [sc0At_odd V c t ht, e1]
  dsimp only
  refine (pay10_apply (lblk0 V c t) _ o cl).trans ?_
  rw [pay10_apply (lblk0 V c ⟨t.val - 1, hlt⟩) _ o cl, pay5_apply, zero_add]
  unfold halfCounts
  rw [sum_half (fun r => Cert.Spec.onehot (labin V c) r cl) (t.val / 2) (by omega)]
  refine congrArg₂ (· + ·) (Finset.sum_congr rfl fun p _ => ?_) (Finset.sum_congr rfl fun p _ => ?_)
  · rw [onehot_tile V c ⟨t.val - 1, hlt⟩ p cl]
    exact congrArg (fun r => Cert.Spec.onehot (labin V c) r cl)
      (Fin.ext (by show (t.val - 1) * 2048 + p.val = 2 * (t.val / 2) * 2048 + p.val; omega))
  · rw [onehot_tile V c t p cl]
    exact congrArg (fun r => Cert.Spec.onehot (labin V c) r cl)
      (Fin.ext (by show t.val * 2048 + p.val = (2 * (t.val / 2) + 1) * 2048 + p.val; omega))

/-- What the sums and counts arrays end holding. -/
abbrev G3 (c : Dev nD) : S2x64x256.Idx → EReal := fun i => halfSums V c (i 0) (i 1) (i 2)
abbrev G4 (c : Dev nD) : S2x1x64.Idx → EReal := fun i => halfCounts V c (i 0) (i 2)

/-- The block copied out at a half's last tile, entry by entry, is that function under the half's block. -/
theorem tile3_read (c : Dev nD) (t : Fin cfg0.N) (ht : t.val % 2 = 1) (y : S1x64x256.Idx) (i : S2x64x256.Idx)
    (hi0 : (i 0).val = t.val / 2 + (y 0).val) (hi1 : (i 1).val = (y 1).val) (hi2 : (i 2).val = (y 2).val) :
    k0_pay2 (sc0At V c t.val t.isLt).1 y = G3 V c i := by
  obtain ⟨u, cl, d, rfl⟩ : ∃ (u : Fin 1) (cl : Fin 64) (d : Fin 256), y = ix3 u cl d := ⟨y 0, y 1, y 2, eq_ix3 y⟩
  have hu : u.val = 0 := by omega
  rw [pay2_apply, acc_sums V c t ht cl d]
  show halfSums V c _ cl d = halfSums V c (i 0) (i 1) (i 2)
  congr 1
  · exact Fin.ext (by show t.val / 2 = (i 0).val; rw [hi0]; show _ = t.val / 2 + u.val; omega)
  · exact Fin.ext hi1.symm
  · exact Fin.ext hi2.symm
theorem tile4_read (c : Dev nD) (t : Fin cfg0.N) (ht : t.val % 2 = 1) (y : S1x1x64.Idx) (i : S2x1x64.Idx)
    (hi0 : (i 0).val = t.val / 2 + (y 0).val) (hi2 : (i 2).val = (y 2).val) :
    k0_pay3 (sc0At V c t.val t.isLt).2 y = G4 V c i := by
  obtain ⟨u, o, cl, rfl⟩ : ∃ (u : Fin 1) (o : Fin 1) (cl : Fin 64), y = ix3 u o cl := ⟨y 0, y 1, y 2, eq_ix3 y⟩
  have hu : u.val = 0 := by omega
  rw [pay3_apply, acc_counts V c t ht o cl]
  show halfCounts V c _ cl = halfCounts V c (i 0) (i 2)
  congr 1
  · exact Fin.ext (by show t.val / 2 = (i 0).val; rw [hi0]; show _ = t.val / 2 + u.val; omega)
  · exact Fin.ext hi2.symm

/-- What a half's last tile writes back is the half's block of those functions. -/
theorem flushed3_eq (c : Dev nD) (t : Fin cfg0.N) (hf : (cfg0.win 3).flush t = true) :
    (dat0 V c).flushed 3 t = ((cfg0.win 3).blk t).view.read (Elt Ideal) (G3 V c) := by
  have ht : t.val % 2 = 1 := (flush0_3 t).mp hf
  obtain ⟨-, -, -, -, -, -, e0, e1, e2, -⟩ := idx_facts t
  show (cfg0.win 3).cut (grid0.coords t) ((dat0 V c).after 3 t) = _
  rw [after0_3_odd V c t ht]
  funext j
  show k0_pay2 (sc0At V c t.val t.isLt).1 ((cfg0.win 3).xinj (grid0.coords t) j) = G3 V c (((cfg0.win 3).blk t).view.emb j)
  refine tile3_read V c t ht _ _ ?_ ?_ ?_
  · show win0_3.index t (0 : Fin 3) * 1 + 1 * (j 0).val = t.val / 2 + (j 0).val
    rw [e0]; omega
  · show win0_3.index t (1 : Fin 3) * 64 + 1 * (j 1).val = (j 1).val
    rw [e1]; omega
  · show win0_3.index t (2 : Fin 3) * 256 + 1 * (j 2).val = (j 2).val
    rw [e2]; omega
theorem flushed4_eq (c : Dev nD) (t : Fin cfg0.N) (hf : (cfg0.win 4).flush t = true) :
    (dat0 V c).flushed 4 t = ((cfg0.win 4).blk t).view.read (Elt Ideal) (G4 V c) := by
  have ht : t.val % 2 = 1 := (flush0_4 t).mp hf
  obtain ⟨-, -, -, -, -, -, -, -, -, e0, e1, e2⟩ := idx_facts t
  show (cfg0.win 4).cut (grid0.coords t) ((dat0 V c).after 4 t) = _
  rw [after0_4_odd V c t ht]
  funext j
  show k0_pay3 (sc0At V c t.val t.isLt).2 ((cfg0.win 4).xinj (grid0.coords t) j) = G4 V c (((cfg0.win 4).blk t).view.emb j)
  refine tile4_read V c t ht _ _ ?_ ?_
  · show win0_4.index t (0 : Fin 3) * 1 + 1 * (j 0).val = t.val / 2 + (j 0).val
    rw [e0]; omega
  · show win0_4.index t (2 : Fin 3) * 64 + 1 * (j 2).val = (j 2).val
    rw [e2]; omega

/-- An index of the sums (counts) array is in point `t`'s block iff each coordinate is in the block's range. -/
theorem mem_blk3 (t : Fin cfg0.N) (i : S2x64x256.Idx) :
    i ∈ ((cfg0.win 3).blk t).view.set ↔ ∀ a : Fin 3, win0_3.index t a * S1x64x256.size a ≤ (i a).val
      ∧ (i a).val < win0_3.index t a * S1x64x256.size a + S1x64x256.size a := by
  show i ∈ ((View.whole main_v2_1).slice (win0_3.rect t)).set ↔ _
  rw [View.set_slice_whole, Rect.mem_set_unit]
  exact Iff.rfl
theorem mem_blk4 (t : Fin cfg0.N) (i : S2x1x64.Idx) :
    i ∈ ((cfg0.win 4).blk t).view.set ↔ ∀ a : Fin 3, win0_4.index t a * S1x1x64.size a ≤ (i a).val
      ∧ (i a).val < win0_4.index t a * S1x1x64.size a + S1x1x64.size a := by
  show i ∈ ((View.whole main_v2_2).slice (win0_4.rect t)).set ↔ _
  rw [View.set_slice_whole, Rect.mem_set_unit]
  exact Iff.rfl

/-- Half `h`'s block is written back at the half's last tile, point `2 h + 1`. -/
theorem cover3 (i : S2x64x256.Idx) :
    ∃ t : Fin cfg0.N, (cfg0.win 3).flush t = true ∧ i ∈ ((cfg0.win 3).blk t).view.set := by
  have h0 : (i 0).val < 2 := (i 0).isLt
  have h1 : (i 1).val < 64 := (i 1).isLt
  have h2 : (i 2).val < 256 := (i 2).isLt
  obtain ⟨t, ht⟩ : ∃ t : Fin cfg0.N, t.val = 2 * (i 0).val + 1 :=
    ⟨⟨2 * (i 0).val + 1, by show _ < grid0.N; rw [N_0]; omega⟩, rfl⟩
  obtain ⟨-, -, -, -, -, -, e0, e1, e2, -⟩ := idx_facts t
  refine ⟨t, (flush0_3 t).mpr (by rw [ht]; omega), ?_⟩
  rw [mem_blk3]
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 64 ≤ (i 1).val ∧ (i 1).val < win0_3.index t (1 : Fin 3) * 64 + 64
    rw [e1]; omega
  | ⟨2, _⟩ =>
    show win0_3.index t (2 : Fin 3) * 256 ≤ (i 2).val ∧ (i 2).val < win0_3.index t (2 : Fin 3) * 256 + 256
    rw [e2]; omega
theorem cover4 (i : S2x1x64.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 64 := (i 2).isLt
  obtain ⟨t, ht⟩ : ∃ t : Fin cfg0.N, t.val = 2 * (i 0).val + 1 :=
    ⟨⟨2 * (i 0).val + 1, by show _ < grid0.N; rw [N_0]; omega⟩, rfl⟩
  obtain ⟨-, -, -, -, -, -, -, -, -, e0, e1, e2⟩ := idx_facts t
  refine ⟨t, (flush0_4 t).mpr (by rw [ht]; omega), ?_⟩
  rw [mem_blk4]
  intro a
  match a with
  | ⟨0, _⟩ =>
    show win0_4.index t (0 : Fin 3) * 1 ≤ (i 0).val ∧ (i 0).val < win0_4.index t (0 : Fin 3) * 1 + 1
    rw [e0, ht]; omega
  | ⟨1, _⟩ =>
    show win0_4.index t (1 : Fin 3) * 1 ≤ (i 1).val ∧ (i 1).val < win0_4.index t (1 : Fin 3) * 1 + 1
    rw [e1]; omega
  | ⟨2, _⟩ =>
    show win0_4.index t (2 : Fin 3) * 64 ≤ (i 2).val ∧ (i 2).val < win0_4.index t (2 : Fin 3) * 64 + 64
    rw [e2]; omega

/-- The sums and counts arrays after the region. -/
theorem final3 (c : Dev nD) : (dat0 V c).arrAt 3 cfg0.N = G3 V c :=
  (dat0 V c).arrAt_eq_of_cover 3 (G3 V c) (flushed3_eq V c) cover3
theorem final4 (c : Dev nD) : (dat0 V c).arrAt 4 cfg0.N = G4 V c :=
  (dat0 V c).arrAt_eq_of_cover 4 (G4 V c) (flushed4_eq V c) cover4

/-- Per half of the rows, the per-class sums of the normalised rows. -/
theorem sumsPc_arr (c : Dev nD) (h : Fin 2) (cl : Fin 64) (d : Fin 256) :
    ((dat0 V c).arrAt 3 cfg0.N : S2x64x256.Idx → EReal) (ix3 h cl d)
      = ∑ r' : Fin 4096, Cert.Spec.onehot (labin V c) ⟨h.val * 4096 + r'.val, by have := h.isLt; have := r'.isLt; omega⟩ cl
          * Cert.Spec.normRow (xin V c) ⟨h.val * 4096 + r'.val, by have := h.isLt; have := r'.isLt; omega⟩ d :=
  congrFun (final3 V c) (ix3 h cl d)

/-- Per half of the rows, the per-class counts. -/
theorem countsPc_arr (c : Dev nD) (h : Fin 2) (cl : Fin 64) :
    ((dat0 V c).arrAt 4 cfg0.N : S2x1x64.Idx → EReal) (ix3 h (0 : Fin 1) cl)
      = ∑ r' : Fin 4096, Cert.Spec.onehot (labin V c) ⟨h.val * 4096 + r'.val, by have := h.isLt; have := r'.isLt; omega⟩ cl :=
  congrFun (final4 V c) (ix3 h (0 : Fin 1) cl)

end Cert.KernelIdeal.HandValue

end
-- ==== Proof.KI.Val1Pay.lean ====
import proofs.«401042_j13357348290857_3_alg».proof.Proof.Gen.KernelIdeal.Skeleton
import proofs.«401042_j13357348290857_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# Region 1's arithmetic, one entry at a time, over the extended reals

Each value the region's body stores is read at one index as a term of the entries of the blocks it
was computed from: a product of two blocks is the sum over the 256 lanes (or the 64 classes) of the
entries' products; a lane maximum from minus infinity is the supremum over the lanes; a comparison
of two label words, widened and converted, is `1` or `0`; the fill value is `⊥`.
-/

noncomputable section

namespace Cert.KernelIdeal.HandPay

open Cert.KernelIdeal Cert.KernelIdeal.Gen
open Idealize.ShloMosaic Idealize.ShloMosaic.TcCoe Idealize.ShloMosaic.ValueIdx

/-! ## Columns and rows -/

/-- A length-`a` vector viewed as a column reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column repeated along the lanes reads, at `(p, q)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## Words -/

/-- The fill value is `⊥`, by the certificate's table. -/
theorem neg_big : Named.named (F := Ideal) Cert.KernelIdeal.κ "neg_big" (φ := .f32) 0xFF333332#32 = (⊥ : EReal) :=
  IdealRules.named_const.ideal_named_scalar _ _ _ _ rfl

/-- The word a lane maximum starts from denotes `⊥`. -/
theorem neg_inf : Ideal.ofBits .f32 0xFF800000#32 = (⊥ : EReal) := by
  simp [Ideal.ofBits, Ideal.ieee]

/-- A select on "the two label words differ". -/
theorem select_ne {α : Type} (a b : BitVec 32) (x y : α) :
    Scalar.select (IntOp.cmpi .ne a b) x y = if a ≠ b then x else y := by
  unfold Scalar.select IntOp.cmpi
  by_cases h : a = b
  · subst h; simp
  · have hb : (a != b) = true := by simpa [bne_iff_ne] using h
    rw [hb]; simp [h]

/-- "The two label words are equal", widened and converted, is `1` or `0`. -/
theorem ind_eq (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  unfold IntOp.cmpi
  by_cases h : a = b
  · subst h; simp
  · have hb : (a == b) = false := by simpa using h
    rw [hb]; simp [h]

/-- A fold of `max` from `⊥` is the supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

/-! ## Products of blocks: the dimension numbers' index maps, axis by axis, and the product at an index -/

theorem lhs_qk_0 (i : S1024x2048.Idx) (q : dot_S1024x256_S2048x256_S1024x2048_1_1_0_0_n_n.contr.Idx) :
    (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem lhs_qk_1 (i : S1024x2048.Idx) (q : dot_S1024x256_S2048x256_S1024x2048_1_1_0_0_n_n.contr.Idx) :
    (dot_S1024x256_S2048x256_S1024x2048_1_1_0_0_n_n.lhsIdx i q 1).val = (q ⟨0, by decide⟩).val :=
  dot_S1024x256_S2048x256_S1024x2048_1_1_0_0_n_n.lhsIdx_val_of_single rfl i q
theorem rhs_qk_0 (i : S1024x2048.Idx) (q : dot_S1024x256_S2048x256_S1024x2048_1_1_0_0_n_n.contr.Idx) :
    (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem rhs_qk_1 (i : S1024x2048.Idx) (q : dot_S1024x256_S2048x256_S1024x2048_1_1_0_0_n_n.contr.Idx) :
    (dot_S1024x256_S2048x256_S1024x2048_1_1_0_0_n_n.rhsIdx i q 1).val = (q ⟨0, by decide⟩).val :=
  dot_S1024x256_S2048x256_S1024x2048_1_1_0_0_n_n.rhsIdx_val_of_single rfl i q

/-- Query rows against key rows: entry `(p, j)` is the sum over the lanes of row `p`'s and key row `j`'s entries' products. -/
theorem matmul_qk_apply (x : FVec Ideal S1024x256 .bf16) (y : FVec Ideal S2048x256 .bf16) (p : Fin 1024) (j : Fin 2048) :
    matmul dot_S1024x256_S2048x256_S1024x2048_1_1_0_0_n_n none x y (constant (F := Ideal) S1024x2048 .f32 0x00000000#32) (ix2 p j)
      = ∑ k : Fin 256, x (ix2 p k) * y (ix2 j k) := by
  simp only [matmul]
  rw [Ideal.matmul_constant_zero_apply, ← Equiv.sum_comp (contrEquiv1 dot_S1024x256_S2048x256_S1024x2048_1_1_0_0_n_n 256 rfl rfl).symm]
  refine Finset.sum_congr rfl fun k _ => ?_
  have hk := contrEquiv1_symm_val dot_S1024x256_S2048x256_S1024x2048_1_1_0_0_n_n 256 rfl rfl k
  have el : dot_S1024x256_S2048x256_S1024x2048_1_1_0_0_n_n.lhsIdx (ix2 p j) ((contrEquiv1 dot_S1024x256_S2048x256_S1024x2048_1_1_0_0_n_n 256 rfl rfl).symm k) = ix2 p k := funext fun a => Fin.ext (by
    match a with
    | ⟨0, _⟩ => exact lhs_qk_0 _ _
    | ⟨1, _⟩ => exact (lhs_qk_1 _ _).trans hk)
  have er : dot_S1024x256_S2048x256_S1024x2048_1_1_0_0_n_n.rhsIdx (ix2 p j) ((contrEquiv1 dot_S1024x256_S2048x256_S1024x2048_1_1_0_0_n_n 256 rfl rfl).symm k) = ix2 j k := funext fun a => Fin.ext (by
    match a with
    | ⟨0, _⟩ => exact rhs_qk_0 _ _
    | ⟨1, _⟩ => exact (rhs_qk_1 _ _).trans hk)
  rw [el, er]

theorem lhs_qp_0 (i : S1024x64.Idx) (q : dot_S1024x256_S64x256_S1024x64_1_1_0_0_n_n.contr.Idx) :
    (dot_S1024x256_S64x256_S1024x64_1_1_0_0_n_n.lhsIdx i q 0).val = (i 0).val := by
  unfold DotDims.lhsIdx
  rw [dif_neg (show ¬(0 : Fin S1024x256.rank) ∈ dot_S1024x256_S64x256_S1024x64_1_1_0_0_n_n.lhsBatch by decide), dif_pos (show (0 : Fin S1024x256.rank) ∈ dot_S1024x256_S64x256_S1024x64_1_1_0_0_n_n.lhsNonContracting by decide)]
  rfl
theorem lhs_qp_1 (i : S1024x64.Idx) (q : dot_S1024x256_S64x256_S1024x64_1_1_0_0_n_n.contr.Idx) :
    (dot_S1024x256_S64x256_S1024x64_1_1_0_0_n_n.lhsIdx i q 1).val = (q ⟨0, by decide⟩).val :=
  dot_S1024x256_S64x256_S1024x64_1_1_0_0_n_n.lhsIdx_val_of_single rfl i q
theorem rhs_qp_0 (i : S1024x64.Idx) (q : dot_S1024x256_S64x256_S1024x64_1_1_0_0_n_n.contr.Idx) :
    (dot_S1024x256_S64x256_S1024x64_1_1_0_0_n_n.rhsIdx i q 0).val = (i 1).val := by
  unfold DotDims.rhsIdx
  rw [dif_neg (show ¬(0 : Fin S64x256.rank) ∈ dot_S1024x256_S64x256_S1024x64_1_1_0_0_n_n.rhsBatch by decide), dif_pos (show (0 : Fin S64x256.rank) ∈ dot_S1024x256_S64x256_S1024x64_1_1_0_0_n_n.rhsNonContracting by decide)]
  rfl
theorem rhs_qp_1 (i : S1024x64.Idx) (q : dot_S1024x256_S64x256_S1024x64_1_1_0_0_n_n.contr.Idx) :
    (dot_S1024x256_S64x256_S1024x64_1_1_0_0_n_n.rhsIdx i q 1).val = (q ⟨0, by decide⟩).val :=
  dot_S1024x256_S64x256_S1024x64_1_1_0_0_n_n.rhsIdx_val_of_single rfl i q

/-- Query rows against prototype rows: entry `(p, cl)` is the sum over the lanes. -/
theorem matmul_qp_apply (x : FVec Ideal S1024x256 .bf16) (y : FVec Ideal S64x256 .bf16) (p : Fin 1024) (j : Fin 64) :
    matmul dot_S1024x256_S64x256_S1024x64_1_1_0_0_n_n none x y (constant (F := Ideal) S1024x64 .f32 0x00000000#32) (ix2 p j)
      = ∑ k : Fin 256, x (ix2 p k) * y (ix2 j k) := by
  simp only [matmul]
  rw [Ideal.matmul_constant_zero_apply, ← Equiv.sum_comp (contrEquiv1 dot_S1024x256_S64x256_S1024x64_1_1_0_0_n_n 256 rfl rfl).symm]
  refine Finset.sum_congr rfl fun k _ => ?_
  have hk := contrEquiv1_symm_val dot_S1024x256_S64x256_S1024x64_1_1_0_0_n_n 256 rfl rfl k
  have el : dot_S1024x256_S64x256_S1024x64_1_1_0_0_n_n.lhsIdx (ix2 p j) ((contrEquiv1 dot_S1024x256_S64x256_S1024x64_1_1_0_0_n_n 256 rfl rfl).symm k) = ix2 p k := funext fun a => Fin.ext (by
    match a with
    | ⟨0, _⟩ => exact lhs_qp_0 _ _
    | ⟨1, _⟩ => exact (lhs_qp_1 _ _).trans hk)
  have er : dot_S1024x256_S64x256_S1024x64_1_1_0_0_n_n.rhsIdx (ix2 p j) ((contrEquiv1 dot_S1024x256_S64x256_S1024x64_1_1_0_0_n_n 256 rfl rfl).symm k) = ix2 j k := funext fun a => Fin.ext (by
    match a with
    | ⟨0, _⟩ => exact rhs_qp_0 _ _
    | ⟨1, _⟩ => exact (rhs_qp_1 _ _).trans hk)
  rw [el, er]

theorem lhs_ip_0 (i : S1024x256.Idx) (q : dot_S1024x64_S64x256_S1024x256_1_0_0_1_n_n.contr.Idx) :
    (dot_S1024x64_S64x256_S1024x256_1_0_0_1_n_n.lhsIdx i q 0).val = (i 0).val := by
  unfold DotDims.lhsIdx
  rw [dif_neg (show ¬(0 : Fin S1024x64.rank) ∈ dot_S1024x64_S64x256_S1024x256_1_0_0_1_n_n.lhsBatch by decide), dif_pos (show (0 : Fin S1024x64.rank) ∈ dot_S1024x64_S64x256_S1024x256_1_0_0_1_n_n.lhsNonContracting by decide)]
  rfl
theorem lhs_ip_1 (i : S1024x256.Idx) (q : dot_S1024x64_S64x256_S1024x256_1_0_0_1_n_n.contr.Idx) :
    (dot_S1024x64_S64x256_S1024x256_1_0_0_1_n_n.lhsIdx i q 1).val = (q ⟨0, by decide⟩).val :=
  dot_S1024x64_S64x256_S1024x256_1_0_0_1_n_n.lhsIdx_val_of_single rfl i q
theorem rhs_ip_1 (i : S1024x256.Idx) (q : dot_S1024x64_S64x256_S1024x256_1_0_0_1_n_n.contr.Idx) :
    (dot_S1024x64_S64x256_S1024x256_1_0_0_1_n_n.rhsIdx i q 1).val = (i 1).val := by
  unfold DotDims.rhsIdx
  rw [dif_neg (show ¬(1 : Fin S64x256.rank) ∈ dot_S1024x64_S64x256_S1024x256_1_0_0_1_n_n.rhsBatch by decide), dif_pos (show (1 : Fin S64x256.rank) ∈ dot_S1024x64_S64x256_S1024x256_1_0_0_1_n_n.rhsNonContracting by decide)]
  rfl
theorem rhs_ip_0 (i : S1024x256.Idx) (q : dot_S1024x64_S64x256_S1024x256_1_0_0_1_n_n.contr.Idx) :
    (dot_S1024x64_S64x256_S1024x256_1_0_0_1_n_n.rhsIdx i q 0).val = (q ⟨0, by decide⟩).val :=
  dot_S1024x64_S64x256_S1024x256_1_0_0_1_n_n.rhsIdx_val_of_single rfl i q

/-- Class indicators against prototypes: entry `(p, d)` is the sum over the classes. -/
theorem matmul_ip_apply (x : FVec Ideal S1024x64 .bf16) (y : FVec Ideal S64x256 .bf16) (p : Fin 1024) (j : Fin 256) :
    matmul dot_S1024x64_S64x256_S1024x256_1_0_0_1_n_n none x y (constant (F := Ideal) S1024x256 .f32 0x00000000#32) (ix2 p j)
      = ∑ k : Fin 64, x (ix2 p k) * y (ix2 k j) := by
  simp only [matmul]
  rw [Ideal.matmul_constant_zero_apply, ← Equiv.sum_comp (contrEquiv1 dot_S1024x64_S64x256_S1024x256_1_0_0_1_n_n 64 rfl rfl).symm]
  refine Finset.sum_congr rfl fun k _ => ?_
  have hk := contrEquiv1_symm_val dot_S1024x64_S64x256_S1024x256_1_0_0_1_n_n 64 rfl rfl k
  have el : dot_S1024x64_S64x256_S1024x256_1_0_0_1_n_n.lhsIdx (ix2 p j) ((contrEquiv1 dot_S1024x64_S64x256_S1024x256_1_0_0_1_n_n 64 rfl rfl).symm k) = ix2 p k := funext fun a => Fin.ext (by
    match a with
    | ⟨0, _⟩ => exact lhs_ip_0 _ _
    | ⟨1, _⟩ => exact (lhs_ip_1 _ _).trans hk)
  have er : dot_S1024x64_S64x256_S1024x256_1_0_0_1_n_n.rhsIdx (ix2 p j) ((contrEquiv1 dot_S1024x64_S64x256_S1024x256_1_0_0_1_n_n 64 rfl rfl).symm k) = ix2 k j := funext fun a => Fin.ext (by
    match a with
    | ⟨0, _⟩ => exact (rhs_ip_0 _ _).trans hk
    | ⟨1, _⟩ => exact rhs_ip_1 _ _)
  rw [el, er]

/-! ## Lane sums and lane maxima -/

/-- A sum over the 256 lanes of a block of 1024 rows, at row `p`. -/
theorem lanesum_apply (src : FVec Ideal S1024x256 .f32) (hφ : FKind.Formats .f32)
    (hacc : (0x00000000#32 : BitVec 32) = 0x00000000#32) (p : Fin 1024) :
    multiReduction .add [1] S1024 src 0x00000000#32 reduces_S1024x256_S1024 hφ hacc (ix1 p) = ∑ d : Fin 256, src (ix2 p d) := by
  refine (Ideal.multiReduction_add_single src 0x00000000#32 reduces_S1024x256_S1024 hφ hacc (ix1 p)).trans ?_
  refine Finset.sum_congr rfl fun d _ => ?_
  exact congrArg src (funext fun a => Fin.ext (by
    match a with
    | ⟨0, _⟩ => rfl
    | ⟨1, _⟩ => rfl))

/-- A maximum from minus infinity over the 2048 lanes of a block of 1024 rows, at row `p`: the supremum. -/
theorem lanemax_apply (src : FVec Ideal S1024x2048 .f32) (hφ : FKind.Formats .f32)
    (hacc : (0xFF800000#32 : BitVec 32) = 0xFF800000#32) (p : Fin 1024) :
    multiReduction .maximumf [1] S1024 src 0xFF800000#32 reduces_S1024x2048_S1024 hφ hacc (ix1 p)
      = Finset.univ.sup fun j : Fin 2048 => src (ix2 p j) := by
  refine (Ideal.multiReduction_maximumf_single src 0xFF800000#32 reduces_S1024x2048_S1024 hφ hacc (ix1 p)).trans ?_
  rw [Ideal.ofBits_def, neg_inf, fold_max_bot]
  refine Finset.sup_congr rfl fun j _ => ?_
  exact congrArg src (funext fun a => Fin.ext (by
    match a with
    | ⟨0, _⟩ => rfl
    | ⟨1, _⟩ => rfl))

/-! ## The shapes of the body's reductions, over any operand -/

/-- A column joined with the column of lane maxima of a block, at row `p`. -/
theorem max_lanemax_at (m : FVec Ideal S1024x1 .f32) (X : FVec Ideal S1024x2048 .f32) (hφ : FKind.Formats .f32)
    (hacc : (0xFF800000#32 : BitVec 32) = 0xFF800000#32) (h1 : S1024.ShapeCasts S1024x1) (p : Fin 1024) :
    maximumf m (shapeCast S1024x1 (multiReduction .maximumf [1] S1024 X 0xFF800000#32 reduces_S1024x2048_S1024 hφ hacc) h1) (ix2 p (0 : Fin 1))
      = max (m (ix2 p (0 : Fin 1))) (Finset.univ.sup fun j : Fin 2048 => X (ix2 p j)) :=
  (maximumf_apply _ _ _).trans (congrArg (max (m (ix2 p (0 : Fin 1)))) ((shapeCast_a_a1_apply _ h1 p 0).trans (lanemax_apply X hφ hacc p)))

/-- A column less the column of lane sums of a block, at row `p`. -/
theorem sub_lanesum_at (a : FVec Ideal S1024x1 .f32) (Y : FVec Ideal S1024x256 .f32) (hφ : FKind.Formats .f32)
    (hacc : (0x00000000#32 : BitVec 32) = 0x00000000#32) (h1 : S1024.ShapeCasts S1024x1) (p : Fin 1024) :
    subf a (shapeCast S1024x1 (multiReduction .add [1] S1024 Y 0x00000000#32 reduces_S1024x256_S1024 hφ hacc) h1) (ix2 p (0 : Fin 1))
      = a (ix2 p (0 : Fin 1)) - ∑ d : Fin 256, Y (ix2 p d) :=
  (subf_apply _ _ _).trans (congrArg (fun z : EReal => a (ix2 p (0 : Fin 1)) - z) ((shapeCast_a_a1_apply _ h1 p 0).trans (lanesum_apply Y hφ hacc p)))

/-- A block kept where the row's label differs from the lane's, filled elsewhere, at `(p, j)`. -/
theorem masked_at (lq : IVec S1024x1 32) (lks : IVec S1x2048 32) (S : FVec Ideal S1024x2048 .f32) (nb : Ideal .f32)
    (h1 : S1024x1.Broadcasts S1024x2048) (h2 : S1x2048.Broadcasts S1024x2048) (p : Fin 1024) (j : Fin 2048) :
    select (cmpi .ne (broadcastTo S1024x2048 lq h1) (broadcastTo S1024x2048 lks h2)) S (broadcast S1024x2048 nb) (ix2 p j)
      = if lq (ix2 p (0 : Fin 1)) ≠ lks (ix2 (0 : Fin 1) j) then S (ix2 p j) else nb := by
  show Scalar.select (IntOp.cmpi .ne (broadcastTo S1024x2048 lq h1 (ix2 p j)) (broadcastTo S1024x2048 lks h2 (ix2 p j))) (S (ix2 p j)) nb = _
  rw [broadcastTo_a1_ab_apply, broadcastTo_1b_ab_apply, select_ne]

/-- The hinge of a block times one minus another, at an entry. -/
theorem hinge_mask_at (S I : FVec Ideal S1024x64 .f32) (p : Fin 1024) (cl : Fin 64) :
    mulf (maximumf (subf S (broadcast S1024x64 (Scalar.ofBits (F := Ideal) .f32 0x3E4CCCCD#32))) (broadcast S1024x64 (Scalar.ofBits (F := Ideal) .f32 0x00000000#32)))
        (subf (broadcast S1024x64 (Scalar.ofBits (F := Ideal) .f32 0x3F800000#32)) I) (ix2 p cl)
      = max (S (ix2 p cl) - Cert.Spec.sepMargin) Cert.Spec.zero * (Cert.Spec.one - I (ix2 p cl)) := rfl

/-! ## The stored values at an index -/

/-- The value the running maximum is reset to. -/
theorem pay3_at (p : Fin 1024) : k1_pay3 (F := Ideal) (ix2 p (0 : Fin 1)) = (⊥ : EReal) := by
  unfold k1_pay3
  simp only [shapeCast_self, broadcast_apply]
  exact neg_big

/-- The hinge of the running maximum. -/
theorem pay9_at (m : Vec Ideal S1024x1 .f32) (p : Fin 1024) :
    k1_pay9 m (ix2 p (0 : Fin 1)) = max (m (ix2 p (0 : Fin 1)) - Cert.Spec.hardMargin) Cert.Spec.zero := rfl

/-- The class indicator of a query row. -/
theorem pay5_at (lq : Vec Ideal S1024x1 .i32) (p : Fin 1024) (cl : Fin 64) :
    k1_pay5 (F := Ideal) lq (ix2 p cl) = if lq (ix2 p (0 : Fin 1)) = BitVec.ofNat 32 cl.val then (1 : EReal) else 0 := by
  unfold k1_pay5 k1_pay2
  simp only [shapeCast_self]
  show FloatOps.sitofp (F := Ideal) .f32 ((IntOp.cmpi .eq (broadcastTo S1024x64 lq broadcasts_S1024x1_S1024x64 (ix2 p cl))
      (broadcastTo S1024x64 (iota .tc S1x64 32 [1] iota_S1x64_d1_w32) broadcasts_S1x64_S1024x64 (ix2 p cl))).setWidth 32) = _
  rw [broadcastTo_a1_ab_apply, broadcastTo_1b_ab_apply, iota_single_apply]
  exact ind_eq _ _

/-- The running maximum after a key step: what it held, joined with the largest product of the row with a key row of
    another label among the step's 2048 key rows (`⊥` if there is none). -/
theorem pay8_at (q : Vec Ideal S1024x256 .bf16) (ks : Vec Ideal S2048x256 .bf16) (lq : Vec Ideal S1024x1 .i32)
    (lks : Vec Ideal S1x2048 .i32) (m : Vec Ideal S1024x1 .f32) (p : Fin 1024) :
    k1_pay8 q ks lq lks m (ix2 p (0 : Fin 1))
      = max (m (ix2 p (0 : Fin 1))) (Finset.univ.sup fun j : Fin 2048 =>
          if lq (ix2 p (0 : Fin 1)) ≠ lks (ix2 (0 : Fin 1) j) then ∑ d : Fin 256, q (ix2 p d) * ks (ix2 j d) else (⊥ : EReal)) := by
  unfold k1_pay8 k1_pay1 k1_pay2
  simp only [shapeCast_self]
  refine (max_lanemax_at m _ _ _ _ p).trans ?_
  refine congrArg (max (m (ix2 p (0 : Fin 1)))) (Finset.sup_congr rfl fun j _ => ?_)
  refine (masked_at lq lks _ _ _ _ p j).trans ?_
  rw [matmul_qk_apply, neg_big]

/-- One minus the row's product with the prototypes weighted by its class indicator. -/
theorem pay6_at (q : Vec Ideal S1024x256 .bf16) (lq : Vec Ideal S1024x1 .i32) (pr : Vec Ideal S64x256 .f32) (p : Fin 1024) :
    k1_pay6 q lq pr (ix2 p (0 : Fin 1))
      = Cert.Spec.one - ∑ d : Fin 256, q (ix2 p d) * ∑ cl : Fin 64,
          (if lq (ix2 p (0 : Fin 1)) = BitVec.ofNat 32 cl.val then (1 : EReal) else 0) * pr (ix2 cl d) := by
  unfold k1_pay6 k1_pay1 k1_pay4
  simp only [shapeCast_self]
  refine (sub_lanesum_at _ _ _ _ _ p).trans ?_
  refine congrArg (fun z : EReal => Cert.Spec.one - z) (Finset.sum_congr rfl fun d _ => ?_)
  refine (mulf_apply _ _ _).trans ?_
  refine congrArg (fun z : EReal => q (ix2 p d) * z) ((matmul_ip_apply _ _ p d).trans (Finset.sum_congr rfl fun cl _ => ?_))
  exact congrArg (fun z : EReal => z * pr (ix2 cl d)) (pay5_at lq p cl)

/-- The hinge of the row's product with class `cl`'s prototype, kept when the row is of another class. -/
theorem pay7_at (q : Vec Ideal S1024x256 .bf16) (lq : Vec Ideal S1024x1 .i32) (pr : Vec Ideal S64x256 .f32) (p : Fin 1024) (cl : Fin 64) :
    k1_pay7 q lq pr (ix2 p cl)
      = max ((∑ d : Fin 256, q (ix2 p d) * pr (ix2 cl d)) - Cert.Spec.sepMargin) Cert.Spec.zero
          * (Cert.Spec.one - (if lq (ix2 p (0 : Fin 1)) = BitVec.ofNat 32 cl.val then (1 : EReal) else 0)) := by
  unfold k1_pay7 k1_pay1 k1_pay4
  simp only [shapeCast_self]
  refine (hinge_mask_at _ _ p cl).trans ?_
  rw [matmul_qp_apply, pay5_at]
  rfl

end Cert.KernelIdeal.HandPay

end
-- ==== Proof.KI.Val1.lean ====
import proofs.«401042_j13357348290857_3_alg».proof.Proof.KI.R1
import proofs.«401042_j13357348290857_3_alg».proof.Proof.Spec
import proofs.«401042_j13357348290857_3_alg».proof.Proof.KI.Val1Pay
import Idealize.ShloMosaic.Lib.Pipeline.Value
import Idealize.ShloMosaic.Lib.ValueIdx
import Idealize.ShloMosaic.Lib.ValueLayout
import Idealize.ShloMosaic.PureOps.Ideal.Laws

/-!
# Region 1's three output arrays as functions of the arrays it is entered with

Point `t = 4·qi + ki` of the 8 × 4 grid holds query rows `qi·1024 …` and reads key rows `ki·2048 …`.
The running maximum of a query tile is reset at `ki = 0` and joined, at each key step, with the largest
product of each row with a key row of another label among that step's keys; after `ki = 3` it is the
supremum over all 8192 keys, and its hinge is written back.  The alignment and separation blocks are
computed at `ki = 0` from the query rows, their labels and the prototypes, kept, and written back at `ki = 3`.
Each output's blocks tile its array, so each array ends at one function of its row (and class) index.
-/

set_option maxRecDepth 16384

noncomputable section

namespace Cert.KernelIdeal.HandValue

open Cert.KernelIdeal Cert.KernelIdeal.Gen Cert.KernelIdeal.Hand Cert.KernelIdeal.HandPay
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The normalised rows, the labels as a column and as a row, and the prototypes, as the region finds them. -/
abbrev dn (c : Dev nD) : Cert.Spec.Rows 8192 := fun r d => V c main_v2_0 (ix2 r d)
abbrev labq (c : Dev nD) : Cert.Spec.Labels := fun r => V c main_v0 (ix2 r (0 : Fin 1))
abbrev labk (c : Dev nD) : Cert.Spec.Labels := fun j => V c main_v1 (ix2 (0 : Fin 1) j)
abbrev pr (c : Dev nD) : Cert.Spec.Rows 64 := fun cl d => V c main_v19 (ix2 cl d)

/-! ## The grid and the windows' block indices -/

theorem lt32 (t : Fin cfg1.N) : t.val < 32 := lt_of_lt_of_eq t.isLt N_1

/-- The printed index maps over the 32 points: the query-side and output windows are on block `t / 4`, the others on block 0. -/
theorem idx_facts1 : ∀ t : Fin cfg1.N,
    win1_0.index t (0 : Fin 2) = t.val / 4 ∧ win1_0.index t (1 : Fin 2) = 0
    ∧ win1_1.index t (0 : Fin 2) = 0 ∧ win1_1.index t (1 : Fin 2) = 0
    ∧ win1_2.index t (0 : Fin 2) = t.val / 4 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0
    ∧ win1_6.index t (0 : Fin 2) = t.val / 4 ∧ win1_6.index t (1 : Fin 2) = 0
    ∧ win1_7.index t (0 : Fin 2) = t.val / 4 ∧ win1_7.index t (1 : Fin 2) = 0 :=
  (by decide +kernel : ∀ t : Fin grid1.N, _)

/-! ## The input blocks as entries of the arrays -/

/-- Query row `p` of point `t`'s block is row `(t / 4)·1024 + p`. -/
theorem q_at (c : Dev nD) (t : Fin cfg1.N) (p : Fin 1024) (d : Fin 256) (r : Fin 8192) (hr : r.val = t.val / 4 * 1024 + p.val) :
    qblk1 V c t (ix2 p d) = dn V c r d := by
  obtain ⟨e0, e1, -⟩ := idx_facts1 t
  unfold qblk1 iblk1
  rw [View.read_apply]
  show V c main_v2_0 _ = V c main_v2_0 (ix2 r d)
  congr 1
  funext a
  apply Fin.ext
  match a with
  | ⟨0, _⟩ => show win1_0.index t (0 : Fin 2) * 1024 + 1 * p.val = r.val; rw [e0, hr]; omega
  | ⟨1, _⟩ => show win1_0.index t (1 : Fin 2) * 256 + 1 * d.val = d.val; rw [e1]; omega

/-- The all-keys window holds every row. -/
theorem kall_at (c : Dev nD) (t : Fin cfg1.N) (j : Fin 8192) (d : Fin 256) :
    kall1 V c t (ix2 j d) = dn V c j d := by
  obtain ⟨-, -, e0, e1, -⟩ := idx_facts1 t
  unfold kall1 iblk1
  rw [View.read_apply]
  show V c main_v2_0 _ = V c main_v2_0 (ix2 j d)
  congr 1
  funext a
  apply Fin.ext
  match a with
  | ⟨0, _⟩ => show win1_1.index t (0 : Fin 2) * 8192 + 1 * j.val = j.val; rw [e0]; omega
  | ⟨1, _⟩ => show win1_1.index t (1 : Fin 2) * 256 + 1 * d.val = d.val; rw [e1]; omega

theorem lq_at (c : Dev nD) (t : Fin cfg1.N) (p : Fin 1024) (r : Fin 8192) (hr : r.val = t.val / 4 * 1024 + p.val) :
    lq1 V c t (ix2 p (0 : Fin 1)) = labq V c r := by
  obtain ⟨-, -, -, -, e0, e1, -⟩ := idx_facts1 t
  unfold lq1 iblk1
  rw [View.read_apply]
  show V c main_v0 _ = V c main_v0 (ix2 r (0 : Fin 1))
  congr 1
  funext a
  apply Fin.ext
  match a with
  | ⟨0, _⟩ => show win1_2.index t (0 : Fin 2) * 1024 + 1 * p.val = r.val; rw [e0, hr]; omega
  | ⟨1, _⟩ => show win1_2.index t (1 : Fin 2) * 1 + 1 * 0 = 0; rw [e1]

theorem lkall_at (c : Dev nD) (t : Fin cfg1.N) (j : Fin 8192) :
    lkall1 V c t (ix2 (0 : Fin 1) j) = labk V c j := by
  obtain ⟨-, -, -, -, -, -, e0, e1, -⟩ := idx_facts1 t
  unfold lkall1 iblk1
  rw [View.read_apply]
  show V c main_v1 _ = V c main_v1 (ix2 (0 : Fin 1) j)
  congr 1
  funext a
  apply Fin.ext
  match a with
  | ⟨0, _⟩ => show win1_3.index t (0 : Fin 2) * 1 + 1 * 0 = 0; rw [e0]
  | ⟨1, _⟩ => show win1_3.index t (1 : Fin 2) * 8192 + 1 * j.val = j.val; rw [e1]; omega

theorem pr_at (c : Dev nD) (t : Fin cfg1.N) (cl : Fin 64) (d : Fin 256) :
    pr1 V c t (ix2 cl d) = pr V c cl d := by
  obtain ⟨-, -, -, -, -, -, -, -, e0, e1, -⟩ := idx_facts1 t
  unfold pr1 iblk1
  rw [View.read_apply]
  show V c main_v19 _ = V c main_v19 (ix2 cl d)
  congr 1
  funext a
  apply Fin.ext
  match a with
  | ⟨0, _⟩ => show win1_4.index t (0 : Fin 2) * 64 + 1 * cl.val = cl.val; rw [e0]; omega
  | ⟨1, _⟩ => show win1_4.index t (1 : Fin 2) * 256 + 1 * d.val = d.val; rw [e1]; omega

/-- Key row `j` of the slice the body loads at point `t` is row `(t mod 4)·2048 + j`. -/
theorem kslice_at (c : Dev nD) (t : Fin cfg1.N) (j : Fin 2048) (d : Fin 256) (kj : Fin 8192) (hkj : kj.val = t.val % 4 * 2048 + j.val) :
    kslice1 V c t (ix2 j d) = dn V c kj d :=
  (kslice1_apply V c t j d).trans ((kall_at V c t _ d).trans (congrArg (fun x => dn V c x d) (Fin.ext hkj.symm)))

theorem lkslice_at (c : Dev nD) (t : Fin cfg1.N) (j : Fin 2048) (kj : Fin 8192) (hkj : kj.val = t.val % 4 * 2048 + j.val) :
    lkslice1 V c t (ix2 (0 : Fin 1) j) = labk V c kj :=
  (lkslice1_apply V c t j).trans ((lkall_at V c t _).trans (congrArg (fun x => labk V c x) (Fin.ext hkj.symm)))

/-! ## The running maximum over the keys -/

/-- The product of row `r` with key row `j` when their labels differ, `⊥` when they agree. -/
def score (c : Dev nD) (r j : Fin 8192) : EReal :=
  if labq V c r ≠ labk V c j then ∑ d : Fin 256, dn V c r d * dn V c j d else ⊥

/-- Key `j` of key block `k`. -/
def keyEmb (k : Fin 4) : Fin 2048 ↪ Fin 8192 :=
  ⟨fun j => ⟨k.val * 2048 + j.val, by have := k.isLt; have := j.isLt; omega⟩,
   fun a b h => Fin.ext (by have := congrArg Fin.val h; simp only at this; omega)⟩

theorem keyEmb_val (k : Fin 4) (j : Fin 2048) : (keyEmb k j).val = k.val * 2048 + j.val := rfl

/-- The largest score of row `r` among the 2048 keys of block `k`. -/
def tileMax (c : Dev nD) (r : Fin 8192) (k : Fin 4) : EReal :=
  Finset.univ.sup fun j : Fin 2048 => score V c r (keyEmb k j)

/-- The largest score of row `r` among the keys below `n`. -/
def runMax (c : Dev nD) (r : Fin 8192) (n : ℕ) : EReal :=
  (Finset.univ.filter fun j : Fin 8192 => j.val < n).sup (score V c r)

theorem runMax_zero (c : Dev nD) (r : Fin 8192) : runMax V c r 0 = ⊥ := by
  unfold runMax
  rw [Finset.filter_false_of_mem (fun j _ => Nat.not_lt_zero _), Finset.sup_empty]

/-- The keys below `(k + 1)·2048` are those below `k·2048` and block `k`. -/
theorem keys_succ (k : Fin 4) : (Finset.univ.filter fun j : Fin 8192 => j.val < (k.val + 1) * 2048)
    = (Finset.univ.filter fun j : Fin 8192 => j.val < k.val * 2048) ∪ Finset.univ.map (keyEmb k) := by
  ext j
  simp only [Finset.mem_filter, Finset.mem_univ, true_and, Finset.mem_union, Finset.mem_map]
  constructor
  · intro h
    by_cases h' : j.val < k.val * 2048
    · exact Or.inl h'
    · exact Or.inr ⟨⟨j.val - k.val * 2048, by omega⟩, Fin.ext (by rw [keyEmb_val]; show k.val * 2048 + (j.val - k.val * 2048) = j.val; omega)⟩
  · rintro (h | ⟨i, rfl⟩)
    · omega
    · rw [keyEmb_val]; have := i.isLt; omega

theorem runMax_succ (c : Dev nD) (r : Fin 8192) (k : Fin 4) :
    runMax V c r ((k.val + 1) * 2048) = max (runMax V c r (k.val * 2048)) (tileMax V c r k) := by
  unfold runMax tileMax
  rw [keys_succ, Finset.sup_union, Finset.sup_map]
  rfl

theorem runMax_full (c : Dev nD) (r : Fin 8192) :
    runMax V c r 8192 = Cert.Spec.hardest (dn V c) (labq V c) (labk V c) r := by
  unfold runMax
  rw [Finset.filter_true_of_mem (fun j _ => j.isLt)]
  rfl

/-- One key step at a row: what the scratch held, joined with the step's tile maximum. -/
theorem step_at (c : Dev nD) (t : Fin cfg1.N) (M : Vec Ideal S1024x1 .f32) (p : Fin 1024) (r : Fin 8192)
    (hr : r.val = t.val / 4 * 1024 + p.val) (k : Fin 4) (hk : k.val = t.val % 4) :
    k1_pay8 (qblk1 V c t) (kslice1 V c t) (lq1 V c t) (lkslice1 V c t) M (ix2 p (0 : Fin 1))
      = max (M (ix2 p (0 : Fin 1))) (tileMax V c r k) := by
  refine (pay8_at (qblk1 V c t) (kslice1 V c t) (lq1 V c t) (lkslice1 V c t) M p).trans ?_
  refine congrArg (max (M (ix2 p (0 : Fin 1)))) ?_
  unfold tileMax score
  refine Finset.sup_congr rfl fun j _ => ?_
  have hkj : (keyEmb k j).val = t.val % 4 * 2048 + j.val := by rw [keyEmb_val, hk]
  rw [lq_at V c t p r hr, lkslice_at V c t j (keyEmb k j) hkj]
  refine if_congr Iff.rfl (Finset.sum_congr rfl fun d _ => ?_) rfl
  rw [q_at V c t p d r hr, kslice_at V c t j d (keyEmb k j) hkj]

/-- After key step `k` of a query tile the scratch holds, at each row, the largest score among the first `(k + 1)·2048` keys. -/
theorem m1At_run (c : Dev nD) (p : Fin 1024) : ∀ (k : ℕ) (hk : k < 4) (t : Fin cfg1.N) (r : Fin 8192),
    t.val % 4 = k → r.val = t.val / 4 * 1024 + p.val →
    m1At V c t.val t.isLt (ix2 p (0 : Fin 1)) = runMax V c r ((k + 1) * 2048)
  | 0, hk, t, r, h, hr => by
    rw [m1At_first V c t h]
    refine (step_at V c t _ p r hr ⟨0, by omega⟩ h.symm).trans ?_
    rw [pay3_at p]
    refine ((runMax_succ V c r ⟨0, by omega⟩).trans ?_).symm
    show max (runMax V c r (0 * 2048)) _ = _
    rw [Nat.zero_mul, runMax_zero]
  | k + 1, hk, t, r, h, hr => by
    have hne : t.val % 4 ≠ 0 := by omega
    rw [m1At_later V c t hne]
    refine (step_at V c t _ p r hr ⟨k + 1, hk⟩ h.symm).trans ?_
    have ih := m1At_run c p k (by omega) ⟨t.val - 1, Nat.lt_of_le_of_lt (Nat.sub_le _ _) t.isLt⟩ r
      (by show (t.val - 1) % 4 = k; omega) (by show r.val = (t.val - 1) / 4 * 1024 + p.val; omega)
    rw [ih]
    exact (runMax_succ V c r ⟨k + 1, hk⟩).symm

/-! ## The alignment and separation blocks, kept from the first key step -/

theorem after6_at (c : Dev nD) (p : Fin 1024) : ∀ (k : ℕ) (t : Fin cfg1.N) (r : Fin 8192),
    t.val % 4 = k → r.val = t.val / 4 * 1024 + p.val →
    (dat1 V c).after 6 t (ix2 p (0 : Fin 1)) = Cert.Spec.alignRow (dn V c) (labq V c) (pr V c) r
  | 0, t, r, h, hr => by
    rw [after1_6_first V c t h]
    refine (pay6_at (qblk1 V c t) (lq1 V c t) (pr1 V c t) p).trans ?_
    unfold Cert.Spec.alignRow Cert.Spec.onehot
    rw [lq_at V c t p r hr]
    refine congrArg (fun z : EReal => Cert.Spec.one - z) (Finset.sum_congr rfl fun d _ => ?_)
    rw [q_at V c t p d r hr]
    refine congrArg (fun z : EReal => dn V c r d * z) (Finset.sum_congr rfl fun cl _ => ?_)
    rw [pr_at V c t cl d]
  | k + 1, t, r, h, hr => by
    rw [after1_6_later V c t (by omega)]
    exact after6_at c p k ⟨t.val - 1, Nat.lt_of_le_of_lt (Nat.sub_le _ _) t.isLt⟩ r
      (by show (t.val - 1) % 4 = k; omega) (by show r.val = (t.val - 1) / 4 * 1024 + p.val; omega)

theorem after7_at (c : Dev nD) (p : Fin 1024) (cl : Fin 64) : ∀ (k : ℕ) (t : Fin cfg1.N) (r : Fin 8192),
    t.val % 4 = k → r.val = t.val / 4 * 1024 + p.val →
    (dat1 V c).after 7 t (ix2 p cl) = Cert.Spec.wrongAt (dn V c) (labq V c) (pr V c) r cl
  | 0, t, r, h, hr => by
    rw [after1_7_first V c t h]
    refine (pay7_at (qblk1 V c t) (lq1 V c t) (pr1 V c t) p cl).trans ?_
    unfold Cert.Spec.wrongAt Cert.Spec.onehot
    rw [lq_at V c t p r hr]
    refine congrArg (fun z : EReal => max (z - Cert.Spec.sepMargin) Cert.Spec.zero
      * (Cert.Spec.one - if labq V c r = BitVec.ofNat 32 cl.val then (1 : EReal) else 0)) (Finset.sum_congr rfl fun d _ => ?_)
    rw [q_at V c t p d r hr, pr_at V c t cl d]
  | k + 1, t, r, h, hr => by
    rw [after1_7_later V c t (by omega)]
    exact after7_at c p cl k ⟨t.val - 1, Nat.lt_of_le_of_lt (Nat.sub_le _ _) t.isLt⟩ r
      (by show (t.val - 1) % 4 = k; omega) (by show r.val = (t.val - 1) / 4 * 1024 + p.val; omega)

/-! ## What is written back, the cover, and the arrays after the run -/

/-- The three results as functions of the row (and class) index. -/
def G5 (c : Dev nD) : S8192x1.Idx → EReal := fun i => Cert.Spec.contribRow (dn V c) (labq V c) (labk V c) (i 0)
def G6 (c : Dev nD) : S8192x1.Idx → EReal := fun i => Cert.Spec.alignRow (dn V c) (labq V c) (pr V c) (i 0)
def G7 (c : Dev nD) : S8192x64.Idx → EReal := fun i => Cert.Spec.wrongAt (dn V c) (labq V c) (pr V c) (i 0) (i 1)

/-- The hinge of the running maximum, written back after the last key step, is the block of `G5`. -/
theorem flushed5_eq (c : Dev nD) (t : Fin cfg1.N) (hf : (cfg1.win 5).flush t = true) :
    (dat1 V c).flushed 5 t = ((cfg1.win 5).blk t).view.read (Elt Ideal) (G5 V c) := by
  have h3 : t.val % 4 = 3 := (flush1_5 t).mp hf
  obtain ⟨-, -, -, -, -, -, -, -, -, -, e0, e1, -⟩ := idx_facts1 t
  have hlt := lt32 t
  show (cfg1.win 5).cut (grid1.coords t) ((dat1 V c).after 5 t) = _
  rw [after1_5_last V c t h3]
  refine funext fun (j : S1024x1.Idx) => ?_
  obtain ⟨p, u, rfl⟩ : ∃ (p : Fin 1024) (u : Fin 1), j = ix2 p u := ⟨j 0, j 1, eq_ix2 j⟩
  obtain rfl : u = 0 := Subsingleton.elim _ _
  obtain ⟨r, hr⟩ : ∃ r : Fin 8192, r.val = t.val / 4 * 1024 + p.val := ⟨⟨t.val / 4 * 1024 + p.val, by omega⟩, rfl⟩
  have hemb : (((cfg1.win 5).blk t).view.emb (ix2 p (0 : Fin 1)) : S8192x1.Idx) 0 = r :=
    Fin.ext (by show win1_5.index t (0 : Fin 2) * 1024 + 1 * p.val = r.val; rw [e0, hr]; omega)
  rw [View.read_apply]
  show k1_pay9 (m1At V c t.val t.isLt) (ix2 p (0 : Fin 1))
    = Cert.Spec.contribRow (dn V c) (labq V c) (labk V c) ((((cfg1.win 5).blk t).view.emb (ix2 p (0 : Fin 1)) : S8192x1.Idx) 0)
  rw [hemb, pay9_at, m1At_run V c p 3 (by omega) t r h3 hr]
  show _ = max (Cert.Spec.hardest (dn V c) (labq V c) (labk V c) r - Cert.Spec.hardMargin) Cert.Spec.zero
  rw [← runMax_full]

theorem flushed6_eq (c : Dev nD) (t : Fin cfg1.N) (hf : (cfg1.win 6).flush t = true) :
    (dat1 V c).flushed 6 t = ((cfg1.win 6).blk t).view.read (Elt Ideal) (G6 V c) := by
  have h3 : t.val % 4 = 3 := (flush1_6 t).mp hf
  obtain ⟨-, -, -, -, -, -, -, -, -, -, -, -, e0, e1, -⟩ := idx_facts1 t
  have hlt := lt32 t
  show (cfg1.win 6).cut (grid1.coords t) ((dat1 V c).after 6 t) = _
  refine funext fun (j : S1024x1.Idx) => ?_
  obtain ⟨p, u, rfl⟩ : ∃ (p : Fin 1024) (u : Fin 1), j = ix2 p u := ⟨j 0, j 1, eq_ix2 j⟩
  obtain rfl : u = 0 := Subsingleton.elim _ _
  obtain ⟨r, hr⟩ : ∃ r : Fin 8192, r.val = t.val / 4 * 1024 + p.val := ⟨⟨t.val / 4 * 1024 + p.val, by omega⟩, rfl⟩
  have hemb : (((cfg1.win 6).blk t).view.emb (ix2 p (0 : Fin 1)) : S8192x1.Idx) 0 = r :=
    Fin.ext (by show win1_6.index t (0 : Fin 2) * 1024 + 1 * p.val = r.val; rw [e0, hr]; omega)
  rw [View.read_apply]
  show (dat1 V c).after 6 t (ix2 p (0 : Fin 1))
    = Cert.Spec.alignRow (dn V c) (labq V c) (pr V c) ((((cfg1.win 6).blk t).view.emb (ix2 p (0 : Fin 1)) : S8192x1.Idx) 0)
  rw [hemb]
  exact after6_at V c p 3 t r h3 hr

theorem flushed7_eq (c : Dev nD) (t : Fin cfg1.N) (hf : (cfg1.win 7).flush t = true) :
    (dat1 V c).flushed 7 t = ((cfg1.win 7).blk t).view.read (Elt Ideal) (G7 V c) := by
  have h3 : t.val % 4 = 3 := (flush1_7 t).mp hf
  obtain ⟨-, -, -, -, -, -, -, -, -, -, -, -, -, -, e0, e1⟩ := idx_facts1 t
  have hlt := lt32 t
  show (cfg1.win 7).cut (grid1.coords t) ((dat1 V c).after 7 t) = _
  refine funext fun (j : S1024x64.Idx) => ?_
  obtain ⟨p, cl, rfl⟩ : ∃ (p : Fin 1024) (cl : Fin 64), j = ix2 p cl := ⟨j 0, j 1, eq_ix2 j⟩
  obtain ⟨r, hr⟩ : ∃ r : Fin 8192, r.val = t.val / 4 * 1024 + p.val := ⟨⟨t.val / 4 * 1024 + p.val, by omega⟩, rfl⟩
  have hemb0 : (((cfg1.win 7).blk t).view.emb (ix2 p cl) : S8192x64.Idx) 0 = r :=
    Fin.ext (by show win1_7.index t (0 : Fin 2) * 1024 + 1 * p.val = r.val; rw [e0, hr]; omega)
  have hemb1 : (((cfg1.win 7).blk t).view.emb (ix2 p cl) : S8192x64.Idx) 1 = cl :=
    Fin.ext (by show win1_7.index t (1 : Fin 2) * 64 + 1 * cl.val = cl.val; rw [e1]; omega)
  rw [View.read_apply]
  show (dat1 V c).after 7 t (ix2 p cl)
    = Cert.Spec.wrongAt (dn V c) (labq V c) (pr V c) ((((cfg1.win 7).blk t).view.emb (ix2 p cl) : S8192x64.Idx) 0)
        ((((cfg1.win 7).blk t).view.emb (ix2 p cl) : S8192x64.Idx) 1)
  rw [hemb0, hemb1]
  exact after7_at V c p cl 3 t r h3 hr

/-- An index is in point `t`'s block iff each coordinate is in the block's range on its axis. -/
theorem mem_blk5 (t : Fin cfg1.N) (i : S8192x1.Idx) :
    i ∈ ((cfg1.win 5).blk t).view.set ↔ ∀ a : Fin 2, win1_5.index t a * S1024x1.size a ≤ (i a).val ∧ (i a).val < win1_5.index t a * S1024x1.size a + S1024x1.size a := by
  show i ∈ ((View.whole main_v20_0).slice (win1_5.rect t)).set ↔ _
  rw [View.set_slice_whole, Rect.mem_set_unit]
  exact Iff.rfl
theorem mem_blk6 (t : Fin cfg1.N) (i : S8192x1.Idx) :
    i ∈ ((cfg1.win 6).blk t).view.set ↔ ∀ a : Fin 2, win1_6.index t a * S1024x1.size a ≤ (i a).val ∧ (i a).val < win1_6.index t a * S1024x1.size a + S1024x1.size a := by
  show i ∈ ((View.whole main_v20_1).slice (win1_6.rect t)).set ↔ _
  rw [View.set_slice_whole, Rect.mem_set_unit]
  exact Iff.rfl
theorem mem_blk7 (t : Fin cfg1.N) (i : S8192x64.Idx) :
    i ∈ ((cfg1.win 7).blk t).view.set ↔ ∀ a : Fin 2, win1_7.index t a * S1024x64.size a ≤ (i a).val ∧ (i a).val < win1_7.index t a * S1024x64.size a + S1024x64.size a := by
  show i ∈ ((View.whole main_v20_2).slice (win1_7.rect t)).set ↔ _
  rw [View.set_slice_whole, Rect.mem_set_unit]
  exact Iff.rfl

/-- Row `r` is in the block written back at the last key step of query tile `r / 1024`. -/
theorem last_point (n : ℕ) (hn : n < 8192) : ∃ t : Fin cfg1.N, t.val = 4 * (n / 1024) + 3 :=
  ⟨⟨4 * (n / 1024) + 3, by rw [show cfg1.N = 32 from N_1]; omega⟩, rfl⟩

theorem cover5 (i : S8192x1.Idx) : ∃ t : Fin cfg1.N, (cfg1.win 5).flush t = true ∧ i ∈ ((cfg1.win 5).blk t).view.set := by
  have h0 : (i 0).val < 8192 := (i 0).isLt
  have h1 : (i 1).val < 1 := (i 1).isLt
  obtain ⟨t, ht⟩ := last_point (i 0).val h0
  obtain ⟨-, -, -, -, -, -, -, -, -, -, e0, e1, -⟩ := idx_facts1 t
  refine ⟨t, (flush1_5 t).mpr (by omega), ?_⟩
  rw [mem_blk5]
  intro a
  match a with
  | ⟨0, _⟩ => show win1_5.index t (0 : Fin 2) * 1024 ≤ (i 0).val ∧ (i 0).val < win1_5.index t (0 : Fin 2) * 1024 + 1024; rw [e0]; omega
  | ⟨1, _⟩ => show win1_5.index t (1 : Fin 2) * 1 ≤ (i 1).val ∧ (i 1).val < win1_5.index t (1 : Fin 2) * 1 + 1; rw [e1]; omega

theorem cover6 (i : S8192x1.Idx) : ∃ t : Fin cfg1.N, (cfg1.win 6).flush t = true ∧ i ∈ ((cfg1.win 6).blk t).view.set := by
  have h0 : (i 0).val < 8192 := (i 0).isLt
  have h1 : (i 1).val < 1 := (i 1).isLt
  obtain ⟨t, ht⟩ := last_point (i 0).val h0
  obtain ⟨-, -, -, -, -, -, -, -, -, -, -, -, e0, e1, -⟩ := idx_facts1 t
  refine ⟨t, (flush1_6 t).mpr (by omega), ?_⟩
  rw [mem_blk6]
  intro a
  match a with
  | ⟨0, _⟩ => show win1_6.index t (0 : Fin 2) * 1024 ≤ (i 0).val ∧ (i 0).val < win1_6.index t (0 : Fin 2) * 1024 + 1024; rw [e0]; omega
  | ⟨1, _⟩ => show win1_6.index t (1 : Fin 2) * 1 ≤ (i 1).val ∧ (i 1).val < win1_6.index t (1 : Fin 2) * 1 + 1; rw [e1]; omega

theorem cover7 (i : S8192x64.Idx) : ∃ t : Fin cfg1.N, (cfg1.win 7).flush t = true ∧ i ∈ ((cfg1.win 7).blk t).view.set := by
  have h0 : (i 0).val < 8192 := (i 0).isLt
  have h1 : (i 1).val < 64 := (i 1).isLt
  obtain ⟨t, ht⟩ := last_point (i 0).val h0
  obtain ⟨-, -, -, -, -, -, -, -, -, -, -, -, -, -, e0, e1⟩ := idx_facts1 t
  refine ⟨t, (flush1_7 t).mpr (by omega), ?_⟩
  rw [mem_blk7]
  intro a
  match a with
  | ⟨0, _⟩ => show win1_7.index t (0 : Fin 2) * 1024 ≤ (i 0).val ∧ (i 0).val < win1_7.index t (0 : Fin 2) * 1024 + 1024; rw [e0]; omega
  | ⟨1, _⟩ => show win1_7.index t (1 : Fin 2) * 64 ≤ (i 1).val ∧ (i 1).val < win1_7.index t (1 : Fin 2) * 64 + 64; rw [e1]; omega

/-- `main_v20_0` after the region: per row, the hinge of the largest product with a row of another label. -/
theorem contrib_arr (c : Dev nD) (r : Fin 8192) :
    (dat1 V c).arrAt 5 cfg1.N (ix2 r (0 : Fin 1)) = Cert.Spec.contribRow (dn V c) (labq V c) (labk V c) r :=
  congrFun ((dat1 V c).arrAt_eq_of_cover 5 (G5 V c) (flushed5_eq V c) cover5) (ix2 r (0 : Fin 1))

/-- `main_v20_1` after the region: per row, one minus its product with its own class's prototype. -/
theorem align_arr (c : Dev nD) (r : Fin 8192) :
    (dat1 V c).arrAt 6 cfg1.N (ix2 r (0 : Fin 1)) = Cert.Spec.alignRow (dn V c) (labq V c) (pr V c) r :=
  congrFun ((dat1 V c).arrAt_eq_of_cover 6 (G6 V c) (flushed6_eq V c) cover6) (ix2 r (0 : Fin 1))

/-- `main_v20_2` after the region: per row and class, the hinge of the product with the class's prototype, for rows of other classes. -/
theorem wrong_arr (c : Dev nD) (r : Fin 8192) (cl : Fin 64) :
    (dat1 V c).arrAt 7 cfg1.N (ix2 r cl) = Cert.Spec.wrongAt (dn V c) (labq V c) (pr V c) r cl :=
  congrFun ((dat1 V c).arrAt_eq_of_cover 7 (G7 V c) (flushed7_eq V c) cover7) (ix2 r cl)

end Cert.KernelIdeal.HandValue

end
-- ==== Proof.KI.Host.lean ====
import proofs.«401042_j13357348290857_3_alg».proof.Proof.KI.Run
import proofs.«401042_j13357348290857_3_alg».proof.Proof.KI.Val0
import proofs.«401042_j13357348290857_3_alg».proof.Proof.KI.Val1
import proofs.«401042_j13357348290857_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.ValueIdx
open scoped BigOperators

/-- A TensorCore's buffer contents at the ideal values. -/
abbrev Wv := Valuation τ sig (Elt Ideal)

/-! # The host operations of the program, read at an index

Between and after the two regions the program reshapes the labels, joins the two halves' per-class sums and
counts, normalises the given prototypes and the sums, chooses per class between them, and at the end averages
the three per-row (or per-class) quantities and weighs them. Each operation is read here at one index of its
result, over arrays of the literal shapes. -/

/-! ## Sums over index sets -/

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {n : Nat} (f : (⟨1, ![n]⟩ : Shape).Idx → EReal) : ∑ i, f i = ∑ a : Fin n, f (ix1 a) :=
  (Equiv.sum_comp (idxEquiv1 (n := n)).symm f).symm

/-- A sum over all 8192 rows is the sum over the two halves of the sums over each half's 4096 rows. -/
theorem sum_halves (f : Fin 8192 → EReal) :
    ∑ r : Fin 8192, f r = ∑ h : Fin 2, ∑ r' : Fin 4096, f ⟨h.val * 4096 + r'.val, by have := h.isLt; have := r'.isLt; omega⟩ := by
  rw [Fin.sum_univ_two]
  refine (Fin.sum_univ_add (a := 4096) (b := 4096) f).trans ?_
  refine congrArg₂ (· + ·) (Finset.sum_congr rfl fun i _ => congrArg f (Fin.ext ?_)) (Finset.sum_congr rfl fun i _ => congrArg f (Fin.ext ?_))
  · show i.val = 0 * 4096 + i.val
    omega
  · show 4096 + i.val = 1 * 4096 + i.val
    omega

/-- The f32 zero word as the initial value of a sum. -/
theorem zeroInit (hu : 0 < S_.numel) : (constant (F := Ideal) S_ .f32 0x00000000#32) (Shape.Idx.first hu) = (0 : EReal) :=
  Ideal.ofBits_zero_f32

/-! ## The labels reshaped -/

/-- The labels as a column: row `r` reads label `r`. -/
theorem col_apply (a : IVec S8192 32) (h : S8192.ShapeCasts S8192x1) (r : Fin 8192) :
    shapeCast S8192x1 a h (ix2 r (0 : Fin 1)) = a (ix1 r) := by
  refine shapeCast_apply a h _ _ ?_
  rw [Shape.rowMajor_val_two, Shape.rowMajor_val_one]
  show r.val = r.val * 1 + 0
  omega

/-- The labels as a row: column `j` reads label `j`. -/
theorem row_apply (a : IVec S8192 32) (h : S8192.ShapeCasts S1x8192) (j : Fin 8192) :
    shapeCast S1x8192 a h (ix2 (0 : Fin 1) j) = a (ix1 j) :=
  shapeCast_a_1a_apply a h 0 j

/-! ## Sums along one axis -/

/-- The two halves' per-class sums joined: entry `(cl, d)` is the sum over the halves. -/
theorem halves_apply (s : FVec Ideal S2x64x256 .f32) (h' : S2x64x256.ReducesTo [0] S64x256) (hu : 0 < S_.numel) (cl : Fin 64) (d : Fin 256) :
    Host.reduceAdd (F := Ideal) s (constant (F := Ideal) S_ .f32 0x00000000#32) h' hu (ix2 cl d) = ∑ h : Fin 2, s (ix3 h cl d) := by
  have hr : S2x64x256.Reduces [0] S64x256 := by decide
  refine (Ideal.hostReduceAdd_single h' hr s _ (ix2 cl d)).trans ?_
  rw [zeroInit, zero_add]
  show ∑ k : Fin 2, s (hr.lift (ix2 cl d) k) = _
  refine Finset.sum_congr rfl fun k _ => congrArg s ?_
  funext a
  match a with
  | ⟨0, _⟩ => exact Fin.ext rfl
  | ⟨1, _⟩ => exact Fin.ext rfl
  | ⟨2, _⟩ => exact Fin.ext rfl

/-- The two halves' per-class counts joined: entry `(0, cl)` is the sum over the halves. -/
theorem halvesCnt_apply (s : FVec Ideal S2x1x64 .f32) (h' : S2x1x64.ReducesTo [0] S1x64) (hu : 0 < S_.numel) (cl : Fin 64) :
    Host.reduceAdd (F := Ideal) s (constant (F := Ideal) S_ .f32 0x00000000#32) h' hu (ix2 (0 : Fin 1) cl) = ∑ h : Fin 2, s (ix3 h (0 : Fin 1) cl) := by
  have hr : S2x1x64.Reduces [0] S1x64 := by decide
  refine (Ideal.hostReduceAdd_single h' hr s _ (ix2 (0 : Fin 1) cl)).trans ?_
  rw [zeroInit, zero_add]
  show ∑ k : Fin 2, s (hr.lift (ix2 (0 : Fin 1) cl) k) = _
  refine Finset.sum_congr rfl fun k _ => congrArg s ?_
  funext a
  match a with
  | ⟨0, _⟩ => exact Fin.ext rfl
  | ⟨1, _⟩ => exact Fin.ext rfl
  | ⟨2, _⟩ => exact Fin.ext rfl

/-- A `[64, 256]` array summed along its rows' entries: entry `cl` is the sum over the 256 columns. -/
theorem rowSum_apply (z : FVec Ideal S64x256 .f32) (h' : S64x256.ReducesTo [1] S64) (hu : 0 < S_.numel) (cl : Fin 64) :
    Host.reduceAdd (F := Ideal) z (constant (F := Ideal) S_ .f32 0x00000000#32) h' hu (ix1 cl) = ∑ k : Fin 256, z (ix2 cl k) := by
  have hr : S64x256.Reduces [1] S64 := by decide
  refine (Ideal.hostReduceAdd_single h' hr z _ (ix1 cl)).trans ?_
  rw [zeroInit, zero_add]
  show ∑ k : Fin 256, z (hr.lift (ix1 cl) k) = _
  refine Finset.sum_congr rfl fun k _ => congrArg z ?_
  funext a
  match a with
  | ⟨0, _⟩ => exact Fin.ext rfl
  | ⟨1, _⟩ => exact Fin.ext rfl

/-- An `[8192, 64]` array summed down its columns: entry `cl` is the sum over the 8192 rows. -/
theorem colSum_apply (w : FVec Ideal S8192x64 .f32) (h' : S8192x64.ReducesTo [0] S64) (hu : 0 < S_.numel) (cl : Fin 64) :
    Host.reduceAdd (F := Ideal) w (constant (F := Ideal) S_ .f32 0x00000000#32) h' hu (ix1 cl) = ∑ r : Fin 8192, w (ix2 r cl) := by
  have hr : S8192x64.Reduces [0] S64 := by decide
  refine (Ideal.hostReduceAdd_single h' hr w _ (ix1 cl)).trans ?_
  rw [zeroInit, zero_add]
  show ∑ k : Fin 8192, w (hr.lift (ix1 cl) k) = _
  refine Finset.sum_congr rfl fun k _ => congrArg w ?_
  funext a
  match a with
  | ⟨0, _⟩ => exact Fin.ext rfl
  | ⟨1, _⟩ => exact Fin.ext rfl

/-! ## Sums over every axis -/

/-- An `[8192, 1]` array summed over both axes is the sum over its 8192 rows. -/
theorem rowsTotal_apply (v : FVec Ideal S8192x1 .f32) (h' : S8192x1.ReducesTo [0, 1] S_) (hu : 0 < S_.numel) :
    Host.reduceAdd (F := Ideal) v (constant (F := Ideal) S_ .f32 0x00000000#32) h' hu ix0 = ∑ r : Fin 8192, v (ix2 r (0 : Fin 1)) := by
  refine (Ideal.hostReduceAdd_total h' (fun b => b.elim0) v _ ix0).trans ?_
  rw [zeroInit, zero_add, sum_idx2]
  exact Finset.sum_congr rfl fun r _ => Fin.sum_univ_one _

/-- A `[64]` array summed over its axis is the sum over its 64 entries. -/
theorem clsTotal_apply (v : FVec Ideal S64 .f32) (h' : S64.ReducesTo [0] S_) (hu : 0 < S_.numel) :
    Host.reduceAdd (F := Ideal) v (constant (F := Ideal) S_ .f32 0x00000000#32) h' hu ix0 = ∑ cl : Fin 64, v (ix1 cl) := by
  refine (Ideal.hostReduceAdd_total h' (fun b => b.elim0) v _ ix0).trans ?_
  rw [zeroInit, zero_add]
  exact sum_idx1 v

/-! ## The normalisation of the rows of a `[64, 256]` array -/

/-- The Euclidean norms of the rows, as a column: squares, summed along each row, the root. -/
def rowNorms (y : FVec Ideal S64x256 .f32) : FVec Ideal S64x1 .f32 :=
  Host.sqrt (F := Ideal) (broadcastInDim S64x1 ![0] bcast_S64_S64x1_0
    (Host.reduceAdd (F := Ideal) (mulf (F := Ideal) y y) (constant (F := Ideal) S_ .f32 0x00000000#32) reducesTo_S64x256_S64_d1 h_S_))

/-- Row `cl`'s norm is the root of the sum of the squares of its 256 entries. -/
theorem rowNorms_apply (y : FVec Ideal S64x256 .f32) (cl : Fin 64) :
    rowNorms y (ix2 cl (0 : Fin 1)) = Ideal.sqrt (∑ k : Fin 256, y (ix2 cl k) * y (ix2 cl k)) := by
  unfold rowNorms
  refine congrArg Ideal.sqrt ?_
  refine (broadcastInDim_apply _ bcast_S64_S64x1_0 _ (ix2 cl (0 : Fin 1)) (ix1 cl) (fun a => match a with | ⟨0, _⟩ => rfl)).trans ?_
  exact rowSum_apply (mulf (F := Ideal) y y) _ _ cl

/-- Every row over the larger of its norm and the small constant. -/
def overNorms (y : FVec Ideal S64x256 .f32) (s : FVec Ideal S64x1 .f32) : FVec Ideal S64x256 .f32 :=
  Host.divf (F := Ideal) y (broadcastInDim S64x256 ![0, 1] bcast_S64x1_S64x256_0_1
    (maximumf (F := Ideal) s (broadcastInDim S64x1 ![] bcast_S_S64x1 (constant (F := Ideal) S_ .f32 0x2B8CBCCC#32))))

/-- Entry `(cl, d)` is the entry over the larger of row `cl`'s norm and the small constant. -/
theorem overNorms_apply (y : FVec Ideal S64x256 .f32) (s : FVec Ideal S64x1 .f32) (cl : Fin 64) (d : Fin 256) :
    overNorms y s (ix2 cl d) = Ideal.div (y (ix2 cl d)) (max (s (ix2 cl (0 : Fin 1))) Cert.Spec.eps) := by
  unfold overNorms
  refine congrArg (Ideal.div (y (ix2 cl d))) ?_
  refine (broadcastInDim_apply _ bcast_S64x1_S64x256_0_1 _ (ix2 cl d) (ix2 cl (0 : Fin 1))
    (fun a => match a with | ⟨0, _⟩ => rfl | ⟨1, _⟩ => rfl)).trans ?_
  refine congrArg (max (s (ix2 cl (0 : Fin 1)))) ?_
  exact broadcastInDim_scalar_apply bcast_S_S64x1 _ _

/-- The two together are the specification's normalised row. -/
theorem overNorms_rowNorms (y : FVec Ideal S64x256 .f32) (cl : Fin 64) (d : Fin 256) :
    overNorms y (rowNorms y) (ix2 cl d) = Cert.Spec.normRow (fun a b => y (ix2 a b)) cl d := by
  rw [overNorms_apply, rowNorms_apply]
  rfl

/-! ## Which classes occur, and the choice of prototype -/

/-- Per class, whether its count is above zero. -/
def occurs (cnt : FVec Ideal S64 .f32) : IVec S64x1 1 :=
  cmpf (F := Ideal) .ogt (broadcastInDim S64x1 ![0] bcast_S64_S64x1_0 cnt)
    (broadcastInDim S64x1 ![] bcast_S_S64x1 (constant (F := Ideal) S_ .f32 0x00000000#32))

theorem occurs_apply (cnt : FVec Ideal S64 .f32) (cl : Fin 64) :
    occurs cnt (ix2 cl (0 : Fin 1)) = Ideal.cmp .ogt (cnt (ix1 cl)) Cert.Spec.zero := by
  unfold occurs
  refine congrArg₂ (Ideal.cmp .ogt) ?_ ?_
  · exact broadcastInDim_apply _ bcast_S64_S64x1_0 _ (ix2 cl (0 : Fin 1)) (ix1 cl) (fun a => match a with | ⟨0, _⟩ => rfl)
  · exact broadcastInDim_scalar_apply bcast_S_S64x1 _ _

/-- Per class the first array's row where the class occurs, else the second's. -/
def choose (occ : IVec S64x1 1) (a b : FVec Ideal S64x256 .f32) : FVec Ideal S64x256 .f32 :=
  select (broadcastInDim S64x256 ![0, 1] bcast_S64x1_S64x256_0_1 occ) a b

theorem choose_apply (occ : IVec S64x1 1) (a b : FVec Ideal S64x256 .f32) (cl : Fin 64) (d : Fin 256) :
    choose occ a b (ix2 cl d) = if occ (ix2 cl (0 : Fin 1)) = 1#1 then a (ix2 cl d) else b (ix2 cl d) := by
  unfold choose
  show Scalar.select (broadcastInDim S64x256 ![0, 1] bcast_S64x1_S64x256_0_1 occ (ix2 cl d)) _ _ = _
  rw [broadcastInDim_apply _ bcast_S64x1_S64x256_0_1 occ (ix2 cl d) (ix2 cl (0 : Fin 1))
    (fun a => match a with | ⟨0, _⟩ => rfl | ⟨1, _⟩ => rfl)]
  rfl

/-! ## The three averages and the weighted total -/

/-- The mean over the 8192 rows of an `[8192, 1]` array. -/
def meanRows (v : FVec Ideal S8192x1 .f32) : FVec Ideal S_ .f32 :=
  Host.divf (F := Ideal) (Host.reduceAdd (F := Ideal) v (constant (F := Ideal) S_ .f32 0x00000000#32) reducesTo_S8192x1_S_d0_1 h_S_)
    (constant (F := Ideal) S_ .f32 0x46000000#32)

theorem meanRows_apply (v : FVec Ideal S8192x1 .f32) :
    meanRows v ix0 = Ideal.div (∑ r : Fin 8192, v (ix2 r (0 : Fin 1))) Cert.Spec.c8192 := by
  unfold meanRows
  exact congrArg (fun t => Ideal.div t Cert.Spec.c8192) (rowsTotal_apply v _ _)

/-- Per class the number of rows of other classes: 8192 less the class's count. -/
def others (cnt : FVec Ideal S64 .f32) : FVec Ideal S64 .f32 :=
  subf (F := Ideal) (broadcastInDim S64 ![] bcast_S_S64 (constant (F := Ideal) S_ .f32 0x46000000#32)) cnt

theorem others_apply (cnt : FVec Ideal S64 .f32) (cl : Fin 64) : others cnt (ix1 cl) = Cert.Spec.c8192 - cnt (ix1 cl) := by
  unfold others
  exact congrArg (· - cnt (ix1 cl)) (broadcastInDim_scalar_apply bcast_S_S64 _ _)

/-- The separation terms summed down each class's column. -/
def colSums (w : FVec Ideal S8192x64 .f32) : FVec Ideal S64 .f32 :=
  Host.reduceAdd (F := Ideal) w (constant (F := Ideal) S_ .f32 0x00000000#32) reducesTo_S8192x64_S64_d0 h_S_

theorem colSums_apply (w : FVec Ideal S8192x64 .f32) (cl : Fin 64) : colSums w (ix1 cl) = ∑ r : Fin 8192, w (ix2 r cl) :=
  colSum_apply w _ _ cl

/-- Per class, whether any row is of another class. -/
def anyOther (neg : FVec Ideal S64 .f32) : IVec S64 1 :=
  cmpf (F := Ideal) .ogt neg (broadcastInDim S64 ![] bcast_S_S64 (constant (F := Ideal) S_ .f32 0x00000000#32))

theorem anyOther_apply (neg : FVec Ideal S64 .f32) (cl : Fin 64) :
    anyOther neg (ix1 cl) = Ideal.cmp .ogt (neg (ix1 cl)) Cert.Spec.zero := by
  unfold anyOther
  exact congrArg (Ideal.cmp .ogt (neg (ix1 cl))) (broadcastInDim_scalar_apply bcast_S_S64 _ _)

/-- Per class the column sum over the larger of the other-class count and one. -/
def perOther (tot neg : FVec Ideal S64 .f32) : FVec Ideal S64 .f32 :=
  Host.divf (F := Ideal) tot (maximumf (F := Ideal) neg (broadcastInDim S64 ![] bcast_S_S64 (constant (F := Ideal) S_ .f32 0x3F800000#32)))

theorem perOther_apply (tot neg : FVec Ideal S64 .f32) (cl : Fin 64) :
    perOther tot neg (ix1 cl) = Ideal.div (tot (ix1 cl)) (max (neg (ix1 cl)) Cert.Spec.one) := by
  unfold perOther
  refine congrArg (Ideal.div (tot (ix1 cl))) ?_
  exact congrArg (max (neg (ix1 cl))) (broadcastInDim_scalar_apply bcast_S_S64 _ _)

/-- Per class the quotient where some row is of another class, else the given scalar. -/
def pick (c : IVec S64 1) (q : FVec Ideal S64 .f32) (z : FVec Ideal S_ .f32) : FVec Ideal S64 .f32 :=
  select c q (broadcastInDim S64 ![] bcast_S_S64 (id z))

theorem pick_apply (c : IVec S64 1) (q : FVec Ideal S64 .f32) (z : FVec Ideal S_ .f32) (cl : Fin 64) :
    pick c q z (ix1 cl) = if c (ix1 cl) = 1#1 then q (ix1 cl) else z ix0 := by
  unfold pick
  show Scalar.select (c (ix1 cl)) (q (ix1 cl)) (broadcastInDim S64 ![] bcast_S_S64 (id z) (ix1 cl)) = _
  rw [broadcastInDim_scalar_apply bcast_S_S64 (id z) (ix1 cl)]
  rfl

/-- The mean over the 64 classes. -/
def meanCls (v : FVec Ideal S64 .f32) : FVec Ideal S_ .f32 :=
  Host.divf (F := Ideal) (Host.reduceAdd (F := Ideal) v (constant (F := Ideal) S_ .f32 0x00000000#32) reducesTo_S64_S_d0 h_S_)
    (constant (F := Ideal) S_ .f32 0x42800000#32)

theorem meanCls_apply (v : FVec Ideal S64 .f32) :
    meanCls v ix0 = Ideal.div (∑ cl : Fin 64, v (ix1 cl)) Cert.Spec.c64 := by
  unfold meanCls
  exact congrArg (fun t => Ideal.div t Cert.Spec.c64) (clsTotal_apply v _ _)

/-- The three averages weighed and added. -/
def weighted (a s h : FVec Ideal S_ .f32) : FVec Ideal S_ .f32 :=
  addf (F := Ideal) (addf (F := Ideal) (mulf (F := Ideal) (constant (F := Ideal) S_ .f32 0x3E19999A#32) a)
    (mulf (F := Ideal) (constant (F := Ideal) S_ .f32 0x3DCCCCCD#32) s))
    (mulf (F := Ideal) (constant (F := Ideal) S_ .f32 0x3D4CCCCD#32) h)

theorem weighted_apply (a s h : FVec Ideal S_ .f32) :
    weighted a s h ix0 = Cert.Spec.alignW * a ix0 + Cert.Spec.sepW * s ix0 + Cert.Spec.hardW * h ix0 := rfl

/-! ## What each stretch of host operations leaves in the buffers it writes, from any contents -/

section Stretch
variable (W : Wv)

theorem ops0_v0 : StableHlo.after (hostOps0 (F := Ideal)) W (Proc.devRef .tc main_v0)
    = shapeCast S8192x1 (W (Proc.devRef .tc main_arg1)) shapeCasts_S8192_S8192x1 := by
  after_results <;> rfl

theorem ops0_v1 : StableHlo.after (hostOps0 (F := Ideal)) W (Proc.devRef .tc main_v1)
    = shapeCast S1x8192 (W (Proc.devRef .tc main_arg1)) shapeCasts_S8192_S1x8192 := by
  after_results <;> rfl

theorem ops1_v3 : StableHlo.after (hostOps1 (F := Ideal)) W (Proc.devRef .tc main_v3)
    = Host.reduceAdd (F := Ideal) (W (Proc.devRef .tc main_v2_1)) (constant (F := Ideal) S_ .f32 0x00000000#32) reducesTo_S2x64x256_S64x256_d0 h_S_ := by
  after_results <;> rfl

theorem ops1_v5 : StableHlo.after (hostOps1 (F := Ideal)) W (Proc.devRef .tc main_v5)
    = shapeCast S64 (Host.reduceAdd (F := Ideal) (W (Proc.devRef .tc main_v2_2)) (constant (F := Ideal) S_ .f32 0x00000000#32) reducesTo_S2x1x64_S1x64_d0 h_S_) shapeCasts_S1x64_S64 := by
  after_results <;> rfl

theorem ops1_1_v6 : StableHlo.after (hostOps1_1 (F := Ideal)) W (Proc.devRef .tc main_v6) = rowNorms (W (Proc.devRef .tc main_arg2)) := by
  after_results <;> rfl

theorem ops1_2_v10 : StableHlo.after (hostOps1_2 (F := Ideal)) W (Proc.devRef .tc main_v10)
    = overNorms (W (Proc.devRef .tc main_arg2)) (W (Proc.devRef .tc main_v6)) := by
  after_results <;> rfl

theorem ops1_3_v11 : StableHlo.after (hostOps1_3 (F := Ideal)) W (Proc.devRef .tc main_v11) = rowNorms (W (Proc.devRef .tc main_v3)) := by
  after_results <;> rfl

theorem ops1_4_v15 : StableHlo.after (hostOps1_4 (F := Ideal)) W (Proc.devRef .tc main_v15)
    = overNorms (W (Proc.devRef .tc main_v3)) (W (Proc.devRef .tc main_v11)) := by
  after_results <;> rfl

theorem ops1_4_v18 : StableHlo.after (hostOps1_4 (F := Ideal)) W (Proc.devRef .tc main_v18) = occurs (W (Proc.devRef .tc main_v5)) := by
  after_results <;> rfl

theorem ops1_5_v19 : StableHlo.after (hostOps1_5 (F := Ideal)) W (Proc.devRef .tc main_v19)
    = choose (W (Proc.devRef .tc main_v18)) (W (Proc.devRef .tc main_v15)) (W (Proc.devRef .tc main_v10)) := by
  after_results <;> rfl

theorem ops2_v22 : StableHlo.after (hostOps2 (F := Ideal)) W (Proc.devRef .tc main_v22) = meanRows (W (Proc.devRef .tc main_v20_1)) := by
  after_results <;> rfl

theorem ops2_v27 : StableHlo.after (hostOps2 (F := Ideal)) W (Proc.devRef .tc main_v27) = anyOther (others (W (Proc.devRef .tc main_v5))) := by
  after_results <;> rfl

theorem ops2_v30 : StableHlo.after (hostOps2 (F := Ideal)) W (Proc.devRef .tc main_v30)
    = perOther (colSums (W (Proc.devRef .tc main_v20_2))) (others (W (Proc.devRef .tc main_v5))) := by
  after_results <;> rfl

theorem ops2_cst10 : StableHlo.after (hostOps2 (F := Ideal)) W (Proc.devRef .tc main_cst_10) = constant (F := Ideal) S_ .f32 0x00000000#32 := by
  after_results <;> rfl

theorem ops2_1_v31 : StableHlo.after (hostOps2_1 (F := Ideal)) W (Proc.devRef .tc main_v31)
    = pick (W (Proc.devRef .tc main_v27)) (W (Proc.devRef .tc main_v30)) (W (Proc.devRef .tc main_cst_10)) := by
  after_results <;> rfl

theorem ops2_2_v40 : StableHlo.after (hostOps2_2 (F := Ideal)) W (Proc.devRef .tc main_v40)
    = weighted (W (Proc.devRef .tc main_v22)) (meanCls (W (Proc.devRef .tc main_v31))) (meanRows (W (Proc.devRef .tc main_v20_0))) := by
  after_results_simp <;> rfl

end Stretch

/-! # The program's buffers at every item boundary, from the launch contents

`x`, `lab`, `p`: the rows, the labels and the given prototypes the program is launched with on core `c`. Region 0
is entered with `x` and the labels as a column; it leaves the normalised rows and the per-half per-class sums and counts.
The host operations between the regions join the halves (a sum over all 8192 rows regrouped by halves), normalise, and
choose; region 1 is entered with the normalised rows, the labels as a column and as a row, and the prototypes; the
closing host operations average its three outputs and weigh them. -/

section Launch
open Cert.KernelIdeal.Hand

variable (m : (ℓ : Loc nD τ sig) → Buf (Elt Ideal) ℓ) (c : Dev nD)

/-- The launch contents of the three arguments, at their literal types. -/
abbrev xA : FVec Ideal S8192x256 .f32 := m ((c : Thread nD τ).loc main_arg0)
abbrev labA : IVec S8192 32 := m ((c : Thread nD τ).loc main_arg1)
abbrev pA : FVec Ideal S64x256 .f32 := m ((c : Thread nD τ).loc main_arg2)
/-- The same by coordinates: what the specification is stated over. -/
abbrev xL : Cert.Spec.Rows 8192 := fun r d => xA m c (ix2 r d)
abbrev labL : Cert.Spec.Labels := fun r => labA m c (ix1 r)
abbrev pL : Cert.Spec.Rows 64 := fun cl d => pA m c (ix2 cl d)

/-! ## Region 0's entry -/

theorem W1_arg0 : W1 m c (Proc.devRef .tc main_arg0) = xA m c := W1_of m c main_arg0 (by decide)
theorem W1_arg2 : W1 m c (Proc.devRef .tc main_arg2) = pA m c := W1_of m c main_arg2 (by decide)

/-- The labels as a column are the labels. -/
theorem W1_v0 (r : Fin 8192) : W1 m c (Proc.devRef .tc main_v0) (ix2 r (0 : Fin 1)) = labL m c r :=
  (congrFun (ops0_v0 (W0 m c)) (ix2 r (0 : Fin 1))).trans (col_apply (labA m c) _ r)
/-- The labels as a row are the labels. -/
theorem W1_v1 (j : Fin 8192) : W1 m c (Proc.devRef .tc main_v1) (ix2 (0 : Fin 1) j) = labL m c j :=
  (congrFun (ops0_v1 (W0 m c)) (ix2 (0 : Fin 1) j)).trans (row_apply (labA m c) _ j)

theorem V1_x : xin (V1 m) c = xL m c := by
  funext r d
  exact congrFun (W1_arg0 m c) (ix2 r d)
theorem V1_lab : labin (V1 m) c = labL m c := by
  funext r
  exact W1_v0 m c r

/-! ## Region 0's exit -/

theorem W2_dirs (r : Fin 8192) (d : Fin 256) :
    W2 m c (Proc.devRef .tc main_v2_0) (ix2 r d) = Cert.Spec.normRow (xL m c) r d := by
  refine (congrFun (W2_arr m c 2) (ix2 r d)).trans ?_
  refine (dirsN_arr (V1 m) c r d).trans ?_
  rw [V1_x]

theorem W2_sums (h : Fin 2) (cl : Fin 64) (d : Fin 256) :
    W2 m c (Proc.devRef .tc main_v2_1) (ix3 h cl d)
      = ∑ r' : Fin 4096, Cert.Spec.onehot (labL m c) ⟨h.val * 4096 + r'.val, by have := h.isLt; have := r'.isLt; omega⟩ cl
          * Cert.Spec.normRow (xL m c) ⟨h.val * 4096 + r'.val, by have := h.isLt; have := r'.isLt; omega⟩ d := by
  refine (congrFun (W2_arr m c 3) (ix3 h cl d)).trans ?_
  refine (sumsPc_arr (V1 m) c h cl d).trans ?_
  rw [V1_x, V1_lab]

theorem W2_counts (h : Fin 2) (cl : Fin 64) :
    W2 m c (Proc.devRef .tc main_v2_2) (ix3 h (0 : Fin 1) cl)
      = ∑ r' : Fin 4096, Cert.Spec.onehot (labL m c) ⟨h.val * 4096 + r'.val, by have := h.isLt; have := r'.isLt; omega⟩ cl := by
  refine (congrFun (W2_arr m c 4) (ix3 h (0 : Fin 1) cl)).trans ?_
  refine (countsPc_arr (V1 m) c h cl).trans ?_
  rw [V1_lab]

/-- Region 0 leaves the labels column as it found it. -/
theorem W2_v0 : W2 m c (Proc.devRef .tc main_v0) = W1 m c (Proc.devRef .tc main_v0) := W2_in m c 1 rfl
theorem W2_v1 : W2 m c (Proc.devRef .tc main_v1) = W1 m c (Proc.devRef .tc main_v1) := W2_of_ne m c main_v1 (by decide)
theorem W2_arg2 : W2 m c (Proc.devRef .tc main_arg2) = pA m c := (W2_of_ne m c main_arg2 (by decide)).trans (W1_arg2 m c)

/-! ## The halves joined -/

/-- The per-class sums over all rows. -/
theorem W3_v3 (cl : Fin 64) (d : Fin 256) :
    W3 m c (Proc.devRef .tc main_v3) (ix2 cl d) = Cert.Spec.sums (xL m c) (labL m c) cl d := by
  refine (congrFun (ops1_v3 (W2 m c)) (ix2 cl d)).trans ?_
  refine (halves_apply _ _ _ cl d).trans ?_
  unfold Cert.Spec.sums
  rw [sum_halves]
  exact Finset.sum_congr rfl fun h _ => W2_sums m c h cl d

/-- The per-class counts over all rows. -/
theorem W3_v5 (cl : Fin 64) : W3 m c (Proc.devRef .tc main_v5) (ix1 cl) = Cert.Spec.counts (labL m c) cl := by
  refine (congrFun (ops1_v5 (W2 m c)) (ix1 cl)).trans ?_
  refine (shapeCast_1a_a_apply _ shapeCasts_S1x64_S64 cl).trans ?_
  refine (halvesCnt_apply _ _ _ cl).trans ?_
  unfold Cert.Spec.counts
  rw [sum_halves]
  exact Finset.sum_congr rfl fun h _ => W2_counts m c h cl

theorem W3_arg2 : W3 m c (Proc.devRef .tc main_arg2) = pA m c := (W3_of m c main_arg2 (by decide)).trans (W2_arg2 m c)

/-! ## The given prototypes normalised -/

theorem W4_v6 : W4 m c (Proc.devRef .tc main_v6) = rowNorms (pA m c) :=
  (ops1_1_v6 (W3 m c)).trans (congrArg rowNorms (W3_arg2 m c))
theorem W4_arg2 : W4 m c (Proc.devRef .tc main_arg2) = pA m c := (W4_of m c main_arg2 (by decide)).trans (W3_arg2 m c)

theorem W5_v10 (cl : Fin 64) (d : Fin 256) : W5 m c (Proc.devRef .tc main_v10) (ix2 cl d) = Cert.Spec.normRow (pL m c) cl d := by
  have e : W5 m c (Proc.devRef .tc main_v10) = overNorms (pA m c) (rowNorms (pA m c)) :=
    (ops1_2_v10 (W4 m c)).trans (congrArg₂ overNorms (W4_arg2 m c) (W4_v6 m c))
  exact (congrFun e (ix2 cl d)).trans (overNorms_rowNorms (pA m c) cl d)

/-! ## The sums normalised, and which classes occur -/

theorem W5_v3 : W5 m c (Proc.devRef .tc main_v3) = W3 m c (Proc.devRef .tc main_v3) :=
  (W5_of m c main_v3 (by decide)).trans (W4_of m c main_v3 (by decide))
theorem W6_v3 : W6 m c (Proc.devRef .tc main_v3) = W3 m c (Proc.devRef .tc main_v3) :=
  (W6_of m c main_v3 (by decide)).trans (W5_v3 m c)
theorem W6_v5 : W6 m c (Proc.devRef .tc main_v5) = W3 m c (Proc.devRef .tc main_v5) :=
  (W6_of m c main_v5 (by decide)).trans <| (W5_of m c main_v5 (by decide)).trans (W4_of m c main_v5 (by decide))
theorem W6_v11 : W6 m c (Proc.devRef .tc main_v11) = rowNorms (W3 m c (Proc.devRef .tc main_v3)) :=
  (ops1_3_v11 (W5 m c)).trans (congrArg rowNorms (W5_v3 m c))

theorem W7_v15 (cl : Fin 64) (d : Fin 256) :
    W7 m c (Proc.devRef .tc main_v15) (ix2 cl d) = Cert.Spec.normRow (Cert.Spec.sums (xL m c) (labL m c)) cl d := by
  have e : W7 m c (Proc.devRef .tc main_v15) = overNorms (W3 m c (Proc.devRef .tc main_v3)) (rowNorms (W3 m c (Proc.devRef .tc main_v3))) :=
    (ops1_4_v15 (W6 m c)).trans (congrArg₂ overNorms (W6_v3 m c) (W6_v11 m c))
  refine (congrFun e (ix2 cl d)).trans ?_
  refine (overNorms_rowNorms _ cl d).trans ?_
  exact congrArg (fun y : Cert.Spec.Rows 64 => Cert.Spec.normRow y cl d) (funext fun a => funext fun b => W3_v3 m c a b)

theorem W7_v18 (cl : Fin 64) :
    W7 m c (Proc.devRef .tc main_v18) (ix2 cl (0 : Fin 1)) = Ideal.cmp .ogt (Cert.Spec.counts (labL m c) cl) Cert.Spec.zero := by
  have e : W7 m c (Proc.devRef .tc main_v18) = occurs (W3 m c (Proc.devRef .tc main_v5)) :=
    (ops1_4_v18 (W6 m c)).trans (congrArg occurs (W6_v5 m c))
  refine (congrFun e (ix2 cl (0 : Fin 1))).trans ?_
  refine (occurs_apply _ cl).trans ?_
  rw [W3_v5]

theorem W7_v10 : W7 m c (Proc.devRef .tc main_v10) = W5 m c (Proc.devRef .tc main_v10) :=
  (W7_of m c main_v10 (by decide)).trans (W6_of m c main_v10 (by decide))

/-! ## Region 1's entry -/

/-- The prototypes. -/
theorem W8_v19 (cl : Fin 64) (d : Fin 256) :
    W8 m c (Proc.devRef .tc main_v19) (ix2 cl d) = Cert.Spec.protos (xL m c) (labL m c) (pL m c) cl d := by
  refine (congrFun (ops1_5_v19 (W7 m c)) (ix2 cl d)).trans ?_
  refine (choose_apply _ _ _ cl d).trans ?_
  unfold Cert.Spec.protos
  rw [W7_v18, W7_v15, W7_v10, W5_v10]

theorem W8_v2_0 : W8 m c (Proc.devRef .tc main_v2_0) = W2 m c (Proc.devRef .tc main_v2_0) :=
  (W8_of m c main_v2_0 (by decide)).trans <| (W7_of m c main_v2_0 (by decide)).trans <| (W6_of m c main_v2_0 (by decide)).trans <|
    (W5_of m c main_v2_0 (by decide)).trans <| (W4_of m c main_v2_0 (by decide)).trans (W3_of m c main_v2_0 (by decide))
theorem W8_v0 : W8 m c (Proc.devRef .tc main_v0) = W1 m c (Proc.devRef .tc main_v0) :=
  (W8_of m c main_v0 (by decide)).trans <| (W7_of m c main_v0 (by decide)).trans <| (W6_of m c main_v0 (by decide)).trans <|
    (W5_of m c main_v0 (by decide)).trans <| (W4_of m c main_v0 (by decide)).trans <| (W3_of m c main_v0 (by decide)).trans (W2_v0 m c)
theorem W8_v1 : W8 m c (Proc.devRef .tc main_v1) = W1 m c (Proc.devRef .tc main_v1) :=
  (W8_of m c main_v1 (by decide)).trans <| (W7_of m c main_v1 (by decide)).trans <| (W6_of m c main_v1 (by decide)).trans <|
    (W5_of m c main_v1 (by decide)).trans <| (W4_of m c main_v1 (by decide)).trans <| (W3_of m c main_v1 (by decide)).trans (W2_v1 m c)
theorem W8_v5 : W8 m c (Proc.devRef .tc main_v5) = W3 m c (Proc.devRef .tc main_v5) :=
  (W8_of m c main_v5 (by decide)).trans <| (W7_of m c main_v5 (by decide)).trans (W6_v5 m c)

theorem V8_dn : dn (V8 m) c = Cert.Spec.normRow (xL m c) := by
  funext r d
  exact (congrFun (W8_v2_0 m c) (ix2 r d)).trans (W2_dirs m c r d)
theorem V8_labq : labq (V8 m) c = labL m c := by
  funext r
  exact (congrFun (W8_v0 m c) (ix2 r (0 : Fin 1))).trans (W1_v0 m c r)
theorem V8_labk : labk (V8 m) c = labL m c := by
  funext j
  exact (congrFun (W8_v1 m c) (ix2 (0 : Fin 1) j)).trans (W1_v1 m c j)
theorem V8_pr : pr (V8 m) c = Cert.Spec.protos (xL m c) (labL m c) (pL m c) := by
  funext cl d
  exact W8_v19 m c cl d

/-! ## Region 1's exit -/

theorem W9_contrib (r : Fin 8192) :
    W9 m c (Proc.devRef .tc main_v20_0) (ix2 r (0 : Fin 1)) = Cert.Spec.contribRow (Cert.Spec.normRow (xL m c)) (labL m c) (labL m c) r := by
  refine (congrFun (W9_out5 m c) (ix2 r (0 : Fin 1))).trans ?_
  refine (contrib_arr (V8 m) c r).trans ?_
  rw [V8_dn, V8_labq, V8_labk]

theorem W9_align (r : Fin 8192) :
    W9 m c (Proc.devRef .tc main_v20_1) (ix2 r (0 : Fin 1))
      = Cert.Spec.alignRow (Cert.Spec.normRow (xL m c)) (labL m c) (Cert.Spec.protos (xL m c) (labL m c) (pL m c)) r := by
  refine (congrFun (W9_out6 m c) (ix2 r (0 : Fin 1))).trans ?_
  refine (align_arr (V8 m) c r).trans ?_
  rw [V8_dn, V8_labq, V8_pr]

theorem W9_wrong (r : Fin 8192) (cl : Fin 64) :
    W9 m c (Proc.devRef .tc main_v20_2) (ix2 r cl)
      = Cert.Spec.wrongAt (Cert.Spec.normRow (xL m c)) (labL m c) (Cert.Spec.protos (xL m c) (labL m c) (pL m c)) r cl := by
  refine (congrFun (W9_out7 m c) (ix2 r cl)).trans ?_
  refine (wrong_arr (V8 m) c r cl).trans ?_
  rw [V8_dn, V8_labq, V8_pr]

theorem W9_v5 : W9 m c (Proc.devRef .tc main_v5) = W3 m c (Proc.devRef .tc main_v5) :=
  (W9_of_ne m c main_v5 (by decide)).trans (W8_v5 m c)

/-! ## The three averages -/

/-- The alignment average. -/
theorem W10_v22 :
    W10 m c (Proc.devRef .tc main_v22) ix0 = Cert.Spec.lAlign (Cert.Spec.normRow (xL m c)) (labL m c) (Cert.Spec.protos (xL m c) (labL m c) (pL m c)) := by
  refine (congrFun (ops2_v22 (W9 m c)) ix0).trans ?_
  refine (meanRows_apply _).trans ?_
  unfold Cert.Spec.lAlign
  exact congrArg (fun t => Ideal.div t Cert.Spec.c8192) (Finset.sum_congr rfl fun r _ => W9_align m c r)

/-- Per class the number of rows of other classes. -/
theorem others_W9 (cl : Fin 64) : others (W9 m c (Proc.devRef .tc main_v5)) (ix1 cl) = Cert.Spec.negCount (labL m c) cl := by
  refine (others_apply _ cl).trans ?_
  unfold Cert.Spec.negCount
  rw [W9_v5, W3_v5]

/-- Per class the mean separation term over the rows of other classes. -/
theorem W11_v31 (cl : Fin 64) :
    W11 m c (Proc.devRef .tc main_v31) (ix1 cl)
      = Cert.Spec.perClass (Cert.Spec.normRow (xL m c)) (labL m c) (Cert.Spec.protos (xL m c) (labL m c) (pL m c)) cl := by
  have e : W11 m c (Proc.devRef .tc main_v31)
      = pick (anyOther (others (W9 m c (Proc.devRef .tc main_v5))))
          (perOther (colSums (W9 m c (Proc.devRef .tc main_v20_2))) (others (W9 m c (Proc.devRef .tc main_v5))))
          (constant (F := Ideal) S_ .f32 0x00000000#32) :=
    (ops2_1_v31 (W10 m c)).trans (congr (congrArg₂ pick (ops2_v27 (W9 m c)) (ops2_v30 (W9 m c))) (ops2_cst10 (W9 m c)))
  refine (congrFun e (ix1 cl)).trans ?_
  refine (pick_apply _ _ _ cl).trans ?_
  unfold Cert.Spec.perClass
  rw [anyOther_apply, perOther_apply, colSums_apply, others_W9]
  refine congrArg (fun t => if Ideal.cmp .ogt (Cert.Spec.negCount (labL m c) cl) Cert.Spec.zero = 1#1 then
    Ideal.div t (max (Cert.Spec.negCount (labL m c) cl) Cert.Spec.one) else Cert.Spec.zero) ?_
  exact Finset.sum_congr rfl fun r _ => W9_wrong m c r cl

theorem W11_v22 : W11 m c (Proc.devRef .tc main_v22) = W10 m c (Proc.devRef .tc main_v22) := W11_of m c main_v22 (by decide)
theorem W11_v20_0 : W11 m c (Proc.devRef .tc main_v20_0) = W9 m c (Proc.devRef .tc main_v20_0) :=
  (W11_of m c main_v20_0 (by decide)).trans (W10_of m c main_v20_0 (by decide))

/-! ## The weighted total -/

theorem kernel_total_at : W12 m c (Proc.devRef .tc main_v40) ix0 = Cert.Spec.total (xL m c) (labL m c) (pL m c) := by
  refine (congrFun (ops2_2_v40 (W11 m c)) ix0).trans ?_
  refine (weighted_apply _ _ _).trans ?_
  unfold Cert.Spec.total
  have h1 : W11 m c (Proc.devRef .tc main_v22) ix0
      = Cert.Spec.lAlign (Cert.Spec.normRow (xL m c)) (labL m c) (Cert.Spec.protos (xL m c) (labL m c) (pL m c)) :=
    (congrFun (W11_v22 m c) ix0).trans (W10_v22 m c)
  have h2 : meanCls (W11 m c (Proc.devRef .tc main_v31)) ix0
      = Cert.Spec.lSep (Cert.Spec.normRow (xL m c)) (labL m c) (Cert.Spec.protos (xL m c) (labL m c) (pL m c)) := by
    refine (meanCls_apply _).trans ?_
    unfold Cert.Spec.lSep
    exact congrArg (fun t => Ideal.div t Cert.Spec.c64) (Finset.sum_congr rfl fun cl _ => W11_v31 m c cl)
  have h3 : meanRows (W11 m c (Proc.devRef .tc main_v20_0)) ix0 = Cert.Spec.lHard (Cert.Spec.normRow (xL m c)) (labL m c) := by
    refine (meanRows_apply _).trans ?_
    unfold Cert.Spec.lHard
    refine congrArg (fun t => Ideal.div t Cert.Spec.c8192) (Finset.sum_congr rfl fun r _ => ?_)
    exact (congrFun (W11_v20_0 m c) (ix2 r (0 : Fin 1))).trans (W9_contrib m c r)
  rw [h1, h2, h3]

/-- The program's result on core `c`: the specification's loss of the launch contents. -/
theorem kernel_total : W12 m c (Proc.devRef .tc main_v40) = fun _ => Cert.Spec.total (xL m c) (labL m c) (pL m c) := by
  funext j
  rw [eq_ix0 j]
  exact kernel_total_at m c

end Launch

end Cert.KernelIdeal.HandValue
end
-- ==== Proof.RefVal2.lean ====
import proofs.«401042_j13357348290857_3_alg».proof.Proof.RefRead
import proofs.«401042_j13357348290857_3_alg».proof.Proof.Spec
import Idealize.ShloMosaic.Lib.ValueIdx
import Idealize.ShloMosaic.Lib.ValueIdxRank1
import Idealize.ShloMosaic.Lib.StableHlo.Predicate
import Idealize.ShloMosaic.PureOps.Ideal.Laws

/-!
# The reference's first stages are the specification's: normalised rows, prototypes, the alignment average

Over the extended reals. Every row is divided by the larger of its Euclidean norm and a small constant, so an
entry of the normalised rows depends on its own row alone. The class indicator of a row is the equality bit of
its label with the class's word, widened to a float; a class's count and its summed normalised rows are sums of
that indicator over all rows; a class's prototype is the normalised sum where the count is above zero and the
normalised given prototype otherwise. The alignment average reads, for each row, the prototype of the row's own
class through a gather of rows of the prototype table: for a label in 0 … 63 the wrap of negative labels leaves
the label alone, the clamp of the start index does nothing, and the row read is the one whose indicator is 1, so
the gathered entry is the sum over classes of the indicator times the prototype's entry (all other terms vanish).
No law that needs finite entries is used: only `0 + y = y`, `1 * y = y`, `0 * y = 0`.
-/

noncomputable section

namespace Cert.ReferenceIdeal.RefValue2

open Cert.ReferenceIdeal Cert.ReferenceIdeal.Gen Idealize.ShloMosaic Idealize.ShloMosaic.StableHlo
open Idealize.ShloMosaic.ValueIdx (ix0 ix1 ix2)

/-! ## Words and indicators -/

/-- The equality bit of two words, widened to a float, is the indicator of their equality. -/
theorem uitofp_cmpi_eq (a b : BitVec 32) :
    FloatOps.uitofp (F := Ideal) .f32 (IntOp.cmpi .eq a b) = if a = b then (1 : EReal) else 0 := by
  show (((IntOp.cmpi .eq a b).toNat : ℝ) : EReal) = _
  by_cases h : a = b
  · rw [if_pos h, Predicate.cmpi_eq_iff.mpr h]; simp
  · rw [if_neg h, ValueIdx.eq_zero_of_ne_one (fun hc => h (Predicate.cmpi_eq_iff.mp hc))]; simp

/-- A word read signed as a number in 0 … 63 is that number read unsigned. -/
theorem toNat_of_range (l : BitVec 32) (h0 : 0 ≤ l.toInt) (h1 : l.toInt < 64) :
    l.toNat = l.toInt.toNat ∧ l.toNat < 64 := by
  have := BitVec.toInt_eq_toNat_cond l
  have := l.isLt
  split_ifs at * <;> omega

/-- A label that is not negative is left alone by the wrap of negative labels. -/
theorem wrap_of_nonneg (l : BitVec 32) (h0 : 0 ≤ l.toInt) (h1 : l.toInt < 64) :
    Scalar.select (IntOp.cmpi .slt l 0#32) (IntOp.addi l 64#32) l = l := by
  have hl := toNat_of_range l h0 h1
  have : ¬ IntOp.cmpi .slt l 0#32 = 1#1 := by
    rw [Predicate.slt_iff_toNat (by omega) (by decide)]; simp
  rw [ValueIdx.eq_zero_of_ne_one this, ValueIdx.select_zero]

/-- Of the class indicators of one row exactly one is 1: a sum weighted by them is its term at the row's class. -/
theorem onehot_pick (lab : Cert.Spec.Labels) (r : Fin 8192) (h0 : 0 ≤ (lab r).toInt) (h1 : (lab r).toInt < 64)
    (f : Fin 64 → EReal) :
    ∑ cl : Fin 64, Cert.Spec.onehot lab r cl * f cl = f ⟨(lab r).toInt.toNat, by omega⟩ := by
  have hl := toNat_of_range (lab r) h0 h1
  rw [Finset.sum_eq_single (⟨(lab r).toInt.toNat, by omega⟩ : Fin 64)]
  · unfold Cert.Spec.onehot
    rw [if_pos, one_mul]
    apply BitVec.eq_of_toNat_eq
    simp only [BitVec.toNat_ofNat]
    omega
  · intro cl _ hne
    unfold Cert.Spec.onehot
    rw [if_neg, zero_mul]
    intro hc
    apply hne
    apply Fin.ext
    have := congrArg BitVec.toNat hc
    simp only [BitVec.toNat_ofNat] at this
    have := cl.isLt
    show cl.val = (lab r).toInt.toNat
    omega
  · intro h; exact absurd (Finset.mem_univ _) h

/-- A sum over the indices of a vector of 8192 entries is the sum over its 8192 positions. -/
theorem sum_rows (f : S8192.Idx → EReal) : ∑ j : S8192.Idx, f j = ∑ r : Fin 8192, f (ix1 r) :=
  (Equiv.sum_comp ValueIdx.idxEquiv1.symm f).symm

/-! ## The gather of rows of a table -/

/-- Entry (r, d) of the gather is the table's entry (row, d), the row being the start index of position r read
    signed and clamped into 0 … 63: axis 0 of the table is collapsed and started by the index, axis 1 is the offset axis. -/
theorem gather_rows {α : Type} (x : S64x256.Idx → α) (idx : IVec S8192x1 32) (r : Fin 8192) (d : Fin 256) :
    Host.gather gather_S64x256_S8192x1_S8192x256_1_0_n_n_0_1_1256 x idx (ix2 r d)
      = x (ix2 (⟨min (idx (ix2 r (0 : Fin 1))).toInt.toNat 63, by omega⟩ : Fin 64) d) := by
  unfold Host.gather
  congr 1
  funext a
  refine Fin.ext ?_
  match a with
  | ⟨0, _⟩ =>
    show gather_S64x256_S8192x1_S8192x256_1_0_n_n_0_1_1256.start (ix2 r d) idx 0
      + gather_S64x256_S8192x1_S8192x256_1_0_n_n_0_1_1256.batchCoord (ix2 r d) 0
      + gather_S64x256_S8192x1_S8192x256_1_0_n_n_0_1_1256.offCoord (ix2 r d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S64x256_S8192x1_S8192x256_1_0_n_n_0_1_1256.startIndexMap from List.mem_singleton.mpr rfl)]
    have hsi : gather_S64x256_S8192x1_S8192x256_1_0_n_n_0_1_1256.siIdx (ix2 r d)
        ⟨List.idxOf (0 : Fin 2) gather_S64x256_S8192x1_S8192x256_1_0_n_n_0_1_1256.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S64x256_S8192x1_S8192x256_1_0_n_n_0_1_1256.start (ix2 r d) idx 1
      + gather_S64x256_S8192x1_S8192x256_1_0_n_n_0_1_1256.batchCoord (ix2 r d) 1
      + gather_S64x256_S8192x1_S8192x256_1_0_n_n_0_1_1256.offCoord (ix2 r d) 1 = _
    rw [GatherDims.batchCoord_eq_zero _ _ _ List.not_mem_nil]
    unfold GatherDims.start
    rw [dif_neg (show ¬ (1 : Fin 2) ∈ gather_S64x256_S8192x1_S8192x256_1_0_n_n_0_1_1256.startIndexMap by decide)]
    unfold GatherDims.offCoord
    rw [dif_pos (show (1 : Fin 2) ∈ gather_S64x256_S8192x1_S8192x256_1_0_n_n_0_1_1256.sKept by decide)]
    simp only [Nat.zero_add]
    exact congrArg (fun b => ((ix2 r d b).val)) (show _ = (1 : Fin 2) by decide)

/-- The same, with the row named: any class whose number is the clamped start index. -/
theorem gather_rows_at {α : Type} (x : S64x256.Idx → α) (idx : IVec S8192x1 32) (r : Fin 8192) (d : Fin 256)
    (c : Fin 64) (hc : c.val = min (idx (ix2 r (0 : Fin 1))).toInt.toNat 63) :
    Host.gather gather_S64x256_S8192x1_S8192x256_1_0_n_n_0_1_1256 x idx (ix2 r d) = x (ix2 c d) := by
  rw [gather_rows]
  exact congrArg (fun c' : Fin 64 => x (ix2 c' d)) (Fin.ext hc.symm)

/-! ## The three inputs by coordinates -/

variable (a0 : FVec Ideal S8192x256 .f32) (a1 : IVec S8192 32) (a2 : FVec Ideal S64x256 .f32)

/-- The rows, the labels and the given prototypes, read by their coordinates. -/
abbrev rowsOf : Cert.Spec.Rows 8192 := fun r d => a0 (ix2 r d)
abbrev labelsOf : Cert.Spec.Labels := fun r => a1 (ix1 r)
abbrev protosOf : Cert.Spec.Rows 64 := fun cl d => a2 (ix2 cl d)

/-! ## Normalised rows: a row over the larger of its norm and the small constant -/

theorem dirs_idx (r : Fin 8192) (d k : Fin 256) :
    ReadP.idx_main_call1_v1 (ReadP.idx_main_call1_v2 (ReadP.idx_main_v8 (ix2 r d))) k = ix2 r k :=
  funext fun a => Fin.ext (by match a with | ⟨0, _⟩ => rfl | ⟨1, _⟩ => rfl)

/-- Entry (r, d) of the normalised rows depends on row r alone: its entry d over max(norm of row r, eps). -/
theorem dirs_stage (r : Fin 8192) (d : Fin 256) :
    ReadP.val_main_v9 (F := Ideal) a0 (ix2 r d) = Cert.Spec.normRow (rowsOf a0) r d := by
  rw [ReadP.val_main_v9_apply, ReadP.val_main_v8_apply, ReadP.val_main_v7_apply, ReadP.val_main_v5_apply,
    ReadP.val_main_v6_apply, ReadP.val_main_cst_0_apply, ReadP.val_main_call1_v2_apply, ReadP.val_main_call1_v1_apply,
    ReadP.val_main_call1_cst_apply]
  simp only [ReadP.val_main_call1_v0_apply, dirs_idx, Ideal.hostDivf_def, Ideal.maximumf_def, Ideal.hostUnary_sqrt_def,
    Ideal.mulf_def, Ideal.ofBits_def, Ideal.ofBits_zero_f32, zero_add]
  rfl

theorem given_idx (cl : Fin 64) (d k : Fin 256) :
    ReadP.idx_main_call0_v1 (ReadP.idx_main_call0_v2 (ReadP.idx_main_v3 (ix2 cl d))) k = ix2 cl k :=
  funext fun a => Fin.ext (by match a with | ⟨0, _⟩ => rfl | ⟨1, _⟩ => rfl)

/-- The given prototypes, normalised the same way. -/
theorem given_stage (cl : Fin 64) (d : Fin 256) :
    ReadP.val_main_v4 (F := Ideal) a2 (ix2 cl d) = Cert.Spec.normRow (protosOf a2) cl d := by
  rw [ReadP.val_main_v4_apply, ReadP.val_main_v3_apply, ReadP.val_main_v2_apply, ReadP.val_main_v0_apply,
    ReadP.val_main_v1_apply, ReadP.val_main_cst_apply, ReadP.val_main_call0_v2_apply, ReadP.val_main_call0_v1_apply,
    ReadP.val_main_call0_cst_apply]
  simp only [ReadP.val_main_call0_v0_apply, given_idx, Ideal.hostDivf_def, Ideal.maximumf_def, Ideal.hostUnary_sqrt_def,
    Ideal.mulf_def, Ideal.ofBits_def, Ideal.ofBits_zero_f32, zero_add]
  rfl

/-! ## Class indicators, counts and per-class sums -/

theorem onehot_idx_row (r : Fin 8192) (cl : Fin 64) :
    ReadP.idx_main_v10 (ReadP.idx_main_v13 (ix2 r cl)) = ix1 r :=
  funext fun a => Fin.ext (by match a with | ⟨0, _⟩ => rfl)

/-- Entry (r, cl) of the indicator array is 1 exactly when row r's label is the word of cl. -/
theorem onehot_stage (r : Fin 8192) (cl : Fin 64) :
    ReadP.val_main_v16 (F := Ideal) a1 (ix2 r cl) = Cert.Spec.onehot (labelsOf a1) r cl := by
  rw [ReadP.val_main_v16_apply, ReadP.val_main_v15_apply, ReadP.val_main_v13_apply, ReadP.val_main_v10_apply,
    ReadP.val_main_v14_apply, ReadP.val_main_v12_apply, ReadP.val_main_v11_apply, onehot_idx_row, uitofp_cmpi_eq]
  rfl

theorem counts_idx (cl : Fin 64) (k : Fin 8192) : ReadP.idx_main_v17 (ix1 cl) k = ix2 k cl :=
  funext fun a => Fin.ext (by match a with | ⟨0, _⟩ => rfl | ⟨1, _⟩ => rfl)

/-- The count of class cl: the sum of its indicator over all rows. -/
theorem counts_stage (cl : Fin 64) :
    ReadP.val_main_v17 (F := Ideal) a1 (ix1 cl) = Cert.Spec.counts (labelsOf a1) cl := by
  rw [ReadP.val_main_v17_apply, ReadP.val_main_cst_1_apply]
  simp only [counts_idx, onehot_stage, Ideal.ofBits_def, Ideal.ofBits_zero_f32, zero_add]
  rfl

theorem sums_lidx (cl : Fin 64) (d : Fin 256) (k : Fin 8192) :
    ReadP.idx_main_v18 (ReadP.lidx_main_v19 (ix2 cl d) k) = ix2 k cl :=
  funext fun a => Fin.ext (by match a with | ⟨0, _⟩ => rfl | ⟨1, _⟩ => rfl)

theorem sums_ridx (cl : Fin 64) (d : Fin 256) (k : Fin 8192) :
    ReadP.ridx_main_v19 (ix2 cl d) k = ix2 k d :=
  funext fun a => Fin.ext (by match a with | ⟨0, _⟩ => rfl | ⟨1, _⟩ => rfl)

/-- Entry (cl, d) of the per-class sums: over all rows, the indicator of cl times the normalised row's entry d. -/
theorem sums_stage (cl : Fin 64) (d : Fin 256) :
    ReadP.val_main_v19 (F := Ideal) a0 a1 (ix2 cl d) = Cert.Spec.sums (rowsOf a0) (labelsOf a1) cl d := by
  rw [ReadP.val_main_v19_apply]
  simp only [ReadP.val_main_v18_apply, sums_lidx, sums_ridx, onehot_stage, dirs_stage]
  rfl

theorem batch_idx (cl : Fin 64) (d k : Fin 256) :
    ReadP.idx_main_call2_v1 (ReadP.idx_main_call2_v2 (ReadP.idx_main_v23 (ix2 cl d))) k = ix2 cl k :=
  funext fun a => Fin.ext (by match a with | ⟨0, _⟩ => rfl | ⟨1, _⟩ => rfl)

/-- The per-class sums, normalised. -/
theorem batch_stage (cl : Fin 64) (d : Fin 256) :
    ReadP.val_main_v24 (F := Ideal) a0 a1 (ix2 cl d)
      = Cert.Spec.normRow (Cert.Spec.sums (rowsOf a0) (labelsOf a1)) cl d := by
  rw [ReadP.val_main_v24_apply, ReadP.val_main_v23_apply, ReadP.val_main_v22_apply, ReadP.val_main_v20_apply,
    ReadP.val_main_v21_apply, ReadP.val_main_cst_2_apply, ReadP.val_main_call2_v2_apply, ReadP.val_main_call2_v1_apply,
    ReadP.val_main_call2_cst_apply]
  simp only [ReadP.val_main_call2_v0_apply, batch_idx, sums_stage, Ideal.hostDivf_def, Ideal.maximumf_def,
    Ideal.hostUnary_sqrt_def, Ideal.mulf_def, Ideal.ofBits_def, Ideal.ofBits_zero_f32, zero_add]
  rfl

theorem occurs_idx (cl : Fin 64) (d : Fin 256) :
    ReadP.idx_main_v25 (ReadP.idx_main_call3_v0 (ix2 cl d)) = ix1 cl :=
  funext fun a => Fin.ext (by match a with | ⟨0, _⟩ => rfl)

/-- The bit that chooses the prototype of class cl: whether its count is above zero. -/
theorem occurs_stage (cl : Fin 64) (d : Fin 256) :
    ReadP.val_main_call3_v0 (F := Ideal) a1 (ix2 cl d)
      = Ideal.cmp .ogt (Cert.Spec.counts (labelsOf a1) cl) Cert.Spec.zero := by
  rw [ReadP.val_main_call3_v0_apply, ReadP.val_main_v27_apply, ReadP.val_main_v25_apply, ReadP.val_main_v26_apply,
    ReadP.val_main_cst_3_apply, occurs_idx, counts_stage]
  rfl

/-- A class's prototype: its normalised sum of rows when the class occurs, else the normalised given one. -/
theorem protos_stage (cl : Fin 64) (d : Fin 256) :
    ReadP.val_main_v28 (F := Ideal) a0 a1 a2 (ix2 cl d)
      = Cert.Spec.protos (rowsOf a0) (labelsOf a1) (protosOf a2) cl d := by
  rw [ReadP.val_main_v28_apply, occurs_stage, batch_stage, given_stage]
  unfold Cert.Spec.protos
  by_cases h : Ideal.cmp .ogt (Cert.Spec.counts (labelsOf a1) cl) Cert.Spec.zero = 1#1
  · rw [if_pos h, h, ValueIdx.select_one]
  · rw [if_neg h, ValueIdx.eq_zero_of_ne_one h, ValueIdx.select_zero]

/-! ## The alignment average -/

theorem wrapped_idx (r : Fin 8192) : ReadP.idx_main_v34 (ix2 r (0 : Fin 1)) = ix1 r :=
  funext fun a => Fin.ext (by match a with | ⟨0, _⟩ => rfl)

/-- The start index of position r: row r's label, which the wrap of negative labels leaves alone. -/
theorem wrapped_stage (hlab : ∀ r : Fin 8192, (0 : Int) ≤ (labelsOf a1 r).toInt ∧ (labelsOf a1 r).toInt < 64) (r : Fin 8192) :
    ReadP.val_main_v34 (F := Ideal) a1 (ix2 r (0 : Fin 1)) = labelsOf a1 r := by
  rw [ReadP.val_main_v34_apply, wrapped_idx, ReadP.val_main_v33_apply, ReadP.val_main_v30_apply, ReadP.val_main_v29_apply,
    ReadP.val_main_c_apply, ReadP.val_main_v32_apply, ReadP.val_main_v31_apply, ReadP.val_main_c_4_apply]
  exact wrap_of_nonneg _ (hlab r).1 (hlab r).2

/-- Entry (r, d) of the gathered prototypes is the prototypes' entry d weighted by row r's class indicators:
    exactly one class matches a label in range. -/
theorem picked_stage (hlab : ∀ r : Fin 8192, (0 : Int) ≤ (labelsOf a1 r).toInt ∧ (labelsOf a1 r).toInt < 64)
    (r : Fin 8192) (d : Fin 256) :
    ReadP.val_main_v35 (F := Ideal) a0 a1 a2 (ix2 r d)
      = ∑ cl : Fin 64, Cert.Spec.onehot (labelsOf a1) r cl
          * Cert.Spec.protos (rowsOf a0) (labelsOf a1) (protosOf a2) cl d := by
  have hl := toNat_of_range (labelsOf a1 r) (hlab r).1 (hlab r).2
  unfold ReadP.val_main_v35
  rw [gather_rows_at _ _ r d (⟨(labelsOf a1 r).toInt.toNat, by omega⟩ : Fin 64)
      (by rw [wrapped_stage a1 hlab r]; show (labelsOf a1 r).toInt.toNat = min (labelsOf a1 r).toInt.toNat 63; omega),
    protos_stage]
  exact (onehot_pick (labelsOf a1) r (hlab r).1 (hlab r).2
    (fun cl => Cert.Spec.protos (rowsOf a0) (labelsOf a1) (protosOf a2) cl d)).symm

theorem align_idx (r : Fin 8192) (k : Fin 256) : ReadP.idx_main_v37 (ix1 r) k = ix2 r k :=
  funext fun a => Fin.ext (by match a with | ⟨0, _⟩ => rfl | ⟨1, _⟩ => rfl)

/-- Row r's term of the average: one minus the cosine of the normalised row with its class's prototype. -/
theorem alignRow_stage (hlab : ∀ r : Fin 8192, (0 : Int) ≤ (labelsOf a1 r).toInt ∧ (labelsOf a1 r).toInt < 64)
    (r : Fin 8192) :
    ReadP.val_main_v39 (F := Ideal) a0 a1 a2 (ix1 r)
      = Cert.Spec.alignRow (Cert.Spec.normRow (rowsOf a0)) (labelsOf a1)
          (Cert.Spec.protos (rowsOf a0) (labelsOf a1) (protosOf a2)) r := by
  rw [ReadP.val_main_v39_apply, ReadP.val_main_v38_apply, ReadP.val_main_cst_6_apply, ReadP.val_main_v37_apply,
    ReadP.val_main_cst_5_apply]
  simp only [ReadP.val_main_v36_apply, align_idx, dirs_stage, picked_stage a0 a1 a2 hlab, Ideal.subf_def, Ideal.mulf_def,
    Ideal.ofBits_def, Ideal.ofBits_zero_f32, zero_add]
  rfl

/-- The alignment average: the mean over the 8192 rows of one minus the cosine with the row's class's prototype. -/
theorem align_stage (hlab : ∀ r : Fin 8192, (0 : Int) ≤ (labelsOf a1 r).toInt ∧ (labelsOf a1 r).toInt < 64) :
    ReadP.val_main_v41 (F := Ideal) a0 a1 a2 ix0
      = Cert.Spec.lAlign (Cert.Spec.normRow (rowsOf a0)) (labelsOf a1)
          (Cert.Spec.protos (rowsOf a0) (labelsOf a1) (protosOf a2)) := by
  rw [ReadP.val_main_v41_apply, ReadP.val_main_v40_apply, ReadP.val_main_cst_7_apply, ReadP.val_main_cst_8_apply, sum_rows]
  simp only [alignRow_stage a0 a1 a2 hlab, Ideal.hostDivf_def, Ideal.ofBits_def, Ideal.ofBits_zero_f32, zero_add]
  rfl

end Cert.ReferenceIdeal.RefValue2

end
-- ==== Proof.RefVal3.lean ====
import proofs.«401042_j13357348290857_3_alg».proof.Proof.RefRead
import proofs.«401042_j13357348290857_3_alg».proof.Proof.Spec
import Idealize.ShloMosaic.PureOps.Ideal.Laws
import Idealize.ShloMosaic.PureOps.Reduce
import Idealize.ShloMosaic.Lib.StableHlo.Predicate
import Idealize.ShloMosaic.Lib.ValueIdx
import Idealize.ShloMosaic.Lib.ValueIdxRank1

/-!
# The separation average and the hard-negative average of the reference program

The reference program's scalar for the separation term (the value of its operation 62) and for the
hard-negative term (operation 79) are the specification's two averages, given that its normalised
rows (operation 9) and its prototypes (operation 28) are the specification's.

Separation: per class, the hinge of the cosine of every row with that class's prototype is kept for
the rows of other classes, summed over rows, and divided by the number of such rows (at least one);
a class that every row belongs to contributes zero.  The program counts those rows in 32-bit words,
the specification as 8192 minus the float count of the class's rows: both are the same natural
number, at most 8192.

Hard negatives: per row, the largest cosine with a row of another label, from minus infinity; the
program keeps the hinge only where some label differs, the specification's hinge at minus infinity
is zero, so the two agree.
-/

noncomputable section

namespace Cert.ReferenceIdeal.RefValue3

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## The literals -/

theorem ofBits_neg_inf : Ideal.ofBits .f32 0xFF800000#32 = (⊥ : EReal) := by simp [Ideal.ofBits, Ideal.ieee]

theorem ofBits_one : Ideal.ofBits .f32 0x3F800000#32 = (1 : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

/-! ## Folds -/

/-- The fold of the maximum from the bottom is the supremum. -/
theorem fold_maximumf_bot {ι : Type} [DecidableEq ι] (s : Finset ι) (f : ι → EReal) :
    s.fold (FloatOps.maximumf (F := Ideal) (φ := .f32)) (⊥ : EReal) f = s.sup f := by
  induction s using Finset.induction_on with
  | empty => rw [Finset.fold_empty, Finset.sup_empty]
  | insert a s ha ih => rw [Finset.fold_insert ha, Finset.sup_insert, ih]; rfl

theorem ori_eq_one_iff (x y : BitVec 1) : IntOp.ori x y = 1#1 ↔ x = 1#1 ∨ y = 1#1 := by
  rcases BitVec.eq_zero_or_eq_one x with rfl | rfl <;> rcases BitVec.eq_zero_or_eq_one y with rfl | rfl <;> decide

/-- The fold of the disjunction from false is true exactly when some bit is. -/
theorem fold_ori_eq_one_iff {ι : Type} [DecidableEq ι] (s : Finset ι) (g : ι → BitVec 1) :
    s.fold IntOp.ori 0#1 g = 1#1 ↔ ∃ j ∈ s, g j = 1#1 := by
  induction s using Finset.induction_on with
  | empty => rw [Finset.fold_empty]; simp
  | insert a s ha ih =>
    rw [Finset.fold_insert ha, ori_eq_one_iff, ih]
    constructor
    · rintro (h | ⟨j, hj, h⟩)
      · exact ⟨a, Finset.mem_insert_self a s, h⟩
      · exact ⟨j, Finset.mem_insert_of_mem hj, h⟩
    · rintro ⟨j, hj, h⟩
      rcases Finset.mem_insert.1 hj with rfl | hj
      · exact Or.inl h
      · exact Or.inr ⟨j, hj, h⟩

/-! ## Counting rows of a class -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of rows of class cl. -/
def inCount (lab : Cert.Spec.Labels) (cl : Fin 64) : ℕ := (Finset.univ.filter fun r : Fin 8192 => lab r = BitVec.ofNat 32 cl.val).card
/-- The number of rows of another class than cl. -/
def outCount (lab : Cert.Spec.Labels) (cl : Fin 64) : ℕ := (Finset.univ.filter fun r : Fin 8192 => ¬ lab r = BitVec.ofNat 32 cl.val).card

theorem in_add_out (lab : Cert.Spec.Labels) (cl : Fin 64) : inCount lab cl + outCount lab cl = 8192 := by
  unfold inCount outCount
  have h := Finset.card_filter_add_card_filter_not (s := (Finset.univ : Finset (Fin 8192))) (fun r => lab r = BitVec.ofNat 32 cl.val)
  rw [Finset.card_univ, Fintype.card_fin] at h
  exact h

theorem outCount_le (lab : Cert.Spec.Labels) (cl : Fin 64) : outCount lab cl ≤ 8192 := by
  have := in_add_out lab cl; omega

theorem counts_eq (lab : Cert.Spec.Labels) (cl : Fin 64) : Cert.Spec.counts lab cl = ((inCount lab cl : ℝ) : EReal) := by
  unfold Cert.Spec.counts Cert.Spec.onehot inCount
  have h : ∀ r : Fin 8192, (if lab r = BitVec.ofNat 32 cl.val then (1 : EReal) else 0)
      = (((if lab r = BitVec.ofNat 32 cl.val then (1 : ℝ) else 0 : ℝ)) : EReal) := by
    intro r; split <;> simp
  rw [Finset.sum_congr rfl (fun r _ => h r), ← coe_sum, Finset.sum_boole]

theorem negCount_eq (lab : Cert.Spec.Labels) (cl : Fin 64) : Cert.Spec.negCount lab cl = ((outCount lab cl : ℝ) : EReal) := by
  unfold Cert.Spec.negCount
  rw [counts_eq, show Cert.Spec.c8192 = ((8192 : ℝ) : EReal) from ofBits_8192, ← EReal.coe_sub]
  congr 1
  have h : ((inCount lab cl + outCount lab cl : ℕ) : ℝ) = 8192 := by rw [in_add_out]; norm_num
  push_cast at h
  linarith

theorem cmp_negCount (lab : Cert.Spec.Labels) (cl : Fin 64) :
    Ideal.cmp .ogt (Cert.Spec.negCount lab cl) Cert.Spec.zero = 1#1 ↔ 0 < outCount lab cl := by
  rw [negCount_eq, show Cert.Spec.zero = (0 : EReal) from Ideal.ofBits_zero_f32]
  unfold Ideal.cmp
  rw [Predicate.ofBool_eq_one_iff, decide_eq_true_iff, ← EReal.coe_zero, EReal.coe_lt_coe_iff, Nat.cast_pos]

theorem max_negCount (lab : Cert.Spec.Labels) (cl : Fin 64) :
    max (Cert.Spec.negCount lab cl) Cert.Spec.one = (((max (outCount lab cl) 1 : ℕ) : ℝ) : EReal) := by
  rw [negCount_eq, show Cert.Spec.one = (1 : EReal) from ofBits_one, ← EReal.coe_one, ← EReal.coe_strictMono.monotone.map_max, Nat.cast_max, Nat.cast_one]

/-! ## The same count as a word -/

theorem sgt_zero_iff {w : BitVec 32} (hw : w.toNat < 2 ^ 31) : IntOp.cmpi .sgt w 0#32 = 1#1 ↔ 0 < w.toNat :=
  Predicate.sgt_iff_toNat hw (by decide)

theorem sitofp_maxsi_one {w : BitVec 32} (hw : w.toNat < 2 ^ 31) :
    (((IntOp.maxsi w 1#32).toInt : ℝ) : EReal) = (((max w.toNat 1 : ℕ) : ℝ) : EReal) := by
  have h1 : (1#32 : BitVec 32).toNat < 2 ^ 31 := by decide
  have e1 : (1#32 : BitVec 32).toNat = 1 := rfl
  congr 1
  unfold IntOp.maxsi
  by_cases h : (1#32 : BitVec 32).slt w = true
  · have hlt := (Predicate.slt_bool_iff_toNat h1 hw).1 (by rw [h]; rfl)
    rw [if_pos h, Predicate.toInt_eq_toNat_of_lt hw, Int.cast_natCast, max_eq_left (by omega)]
  · have hle : ¬ (1#32 : BitVec 32).toNat < w.toNat := fun hlt => h (by
      have := (Predicate.slt_bool_iff_toNat h1 hw).2 hlt
      exact (Predicate.ofBool_eq_one_iff _).1 this)
    rw [if_neg h, Predicate.toInt_eq_toNat_of_lt h1, Int.cast_natCast, e1, max_eq_right (by omega)]

/-! ## The hinge at the bottom -/

theorem hinge_bot (c z : EReal) : max ((⊥ : EReal) - c) z = z := by
  rw [sub_eq_add_neg, EReal.bot_add]; exact max_eq_right bot_le

/-! ## Small facts about bits and selections -/

theorem cmpi_ne_eq_one_iff (x y : BitVec 32) : IntOp.cmpi .ne x y = 1#1 ↔ x ≠ y := by
  simp only [IntOp.cmpi, Predicate.ofBool_eq_one_iff, bne_iff_ne]

theorem not_eq_one_iff (b : BitVec 1) : ~~~b = 1#1 ↔ ¬ b = 1#1 := by
  rcases BitVec.eq_zero_or_eq_one b with rfl | rfl <;> decide

theorem select_ite {α : Type} (c : BitVec 1) (P : Prop) [Decidable P] (h : c = 1#1 ↔ P) (a b : α) :
    Scalar.select c a b = if P then a else b := by
  rcases BitVec.eq_zero_or_eq_one c with hc | hc
  · subst hc; rw [ValueIdx.select_zero, if_neg (fun hp => absurd (h.2 hp) (by decide))]
  · subst hc; rw [ValueIdx.select_one, if_pos (h.1 rfl)]

/-- Row r of an [n × m] rectangle with column k put back is (r, k). -/
theorem lift_row {n m : Nat} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  match c with
  | ⟨0, _⟩ => rfl
  | ⟨1, _⟩ => rfl

section Stages

variable (a0 : (⟨S8192x256, .f32⟩ : BufTy).Contents (Elt Ideal)) (a1 : (⟨S8192, .i32⟩ : BufTy).Contents (Elt Ideal))
  (a2 : (⟨S64x256, .f32⟩ : BufTy).Contents (Elt Ideal))
  (dn : Cert.Spec.Rows 8192) (lab : Cert.Spec.Labels) (pr : Cert.Spec.Rows 64)

/-! ## The hard-negative average -/

/-- The similarity of rows r and j: the inner product of the two normalised rows. -/
theorem sim_at (h9 : ∀ r d, val_main_v9 (F := Ideal) a0 (ix2 r d) = dn r d) (r j : Fin 8192) :
    val_main_v64 (F := Ideal) a0 (ix2 r j) = ∑ d : Fin 256, dn r d * dn j d := by
  rw [val_main_v64_apply]
  refine Finset.sum_congr rfl fun k _ => ?_
  rw [val_main_v63_apply]
  have e1 : lidx_main_v64 (ix2 r j) k = ix2 r k :=
    funext fun a => Fin.ext (by match a with | ⟨0, _⟩ => rfl | ⟨1, _⟩ => rfl)
  have e2 : idx_main_v63 (ridx_main_v64 (ix2 r j) k) = ix2 j k :=
    funext fun a => Fin.ext (by match a with | ⟨0, _⟩ => rfl | ⟨1, _⟩ => rfl)
  rw [e1, e2, h9, h9]

/-- Whether the labels of rows r and j differ. -/
theorem diff_at (hl : ∀ r, a1 (ix1 r) = lab r) (r j : Fin 8192) :
    val_main_v69 (F := Ideal) a1 (ix2 r j) = IntOp.cmpi .ne (lab r) (lab j) := by
  rw [val_main_v69_apply, val_main_v67_apply, val_main_v65_apply, val_main_v68_apply, val_main_v66_apply]
  have e1 : idx_main_v65 (idx_main_v67 (ix2 r j)) = ix1 r :=
    funext fun a => Fin.ext (by match a with | ⟨0, _⟩ => rfl)
  have e2 : idx_main_v66 (idx_main_v68 (ix2 r j)) = ix1 j :=
    funext fun a => Fin.ext (by match a with | ⟨0, _⟩ => rfl)
  rw [e1, e2, hl, hl]

/-- The similarity kept where the labels differ, minus infinity elsewhere. -/
theorem masked_at (h9 : ∀ r d, val_main_v9 (F := Ideal) a0 (ix2 r d) = dn r d) (hl : ∀ r, a1 (ix1 r) = lab r) (r j : Fin 8192) :
    val_main_v70 (F := Ideal) a0 a1 (ix2 r j) = if lab r ≠ lab j then ∑ d : Fin 256, dn r d * dn j d else ⊥ := by
  rw [val_main_v70_apply, diff_at a1 lab hl, sim_at a0 dn h9, val_main_call5_v1_apply, val_main_call5_v0_apply,
    val_main_cst_18_apply, Ideal.ofBits_def, ofBits_neg_inf]
  exact select_ite _ _ (cmpi_ne_eq_one_iff _ _) _ _

/-- The maximum over one row of an 8192 × 8192 table, from minus infinity, is the supremum of the row. -/
theorem reduce_max_row (y : FVec Ideal S8192x8192 .f32) (r : Fin 8192) :
    Host.reduce (α := Ideal .f32) FloatOps.maximumf y (val_main_cst_19 (F := Ideal)) reducesTo_S8192x8192_S8192_d1 h_S_ (ix1 r)
      = Finset.univ.sup fun j : Fin 8192 => y (ix2 r j) := by
  have hR : S8192x8192.Reduces [1] S8192 := by decide
  rw [Host.reduce_eq_fold_single (α := Ideal .f32) FloatOps.maximumf y _ reducesTo_S8192x8192_S8192_d1 hR h_S_ (ix1 r),
    val_main_cst_19_apply, Ideal.ofBits_def, ofBits_neg_inf]
  have hf : (y ∘ hR.lift (ix1 r)) = fun j : Fin 8192 => y (ix2 r j) := funext fun k => congrArg y (lift_row hR r k)
  refine Eq.trans ?_ (fold_maximumf_bot (Finset.univ : Finset (Fin 8192)) (fun j => y (ix2 r j)))
  exact congrArg (fun f => Finset.fold (FloatOps.maximumf (F := Ideal) (φ := .f32)) (⊥ : EReal) f (Finset.univ : Finset (Fin 8192))) hf

/-- The disjunction over one row of an 8192 × 8192 table of bits, from false, holds when some bit of the row does. -/
theorem reduce_or_row (y : IVec S8192x8192 1) (r : Fin 8192) :
    Host.reduce (α := BitVec 1) IntOp.ori y (val_main_c_20 (F := Ideal)) reducesTo_S8192x8192_S8192_d1 h_S_ (ix1 r) = 1#1
      ↔ ∃ j : Fin 8192, y (ix2 r j) = 1#1 := by
  have hR : S8192x8192.Reduces [1] S8192 := by decide
  rw [Host.reduce_eq_fold_single (α := BitVec 1) IntOp.ori y _ reducesTo_S8192x8192_S8192_d1 hR h_S_ (ix1 r), val_main_c_20_apply]
  have hf : (y ∘ hR.lift (ix1 r)) = fun j : Fin 8192 => y (ix2 r j) := funext fun k => congrArg y (lift_row hR r k)
  refine Iff.trans (iff_of_eq (congrArg (fun f => Finset.fold IntOp.ori 0#1 f (Finset.univ : Finset (Fin 8192)) = 1#1) hf)) ?_
  rw [fold_ori_eq_one_iff]
  exact ⟨fun ⟨j, _, h⟩ => ⟨j, h⟩, fun ⟨j, h⟩ => ⟨j, Finset.mem_univ _, h⟩⟩

/-- The largest similarity of row r with a row of another label. -/
theorem hardest_at (h9 : ∀ r d, val_main_v9 (F := Ideal) a0 (ix2 r d) = dn r d) (hl : ∀ r, a1 (ix1 r) = lab r) (r : Fin 8192) :
    val_main_v71 (F := Ideal) a0 a1 (ix1 r) = Cert.Spec.hardest dn lab lab r := by
  unfold val_main_v71
  refine (reduce_max_row _ r).trans ?_
  unfold Cert.Spec.hardest
  exact congrArg (Finset.univ.sup) (funext fun j => masked_at a0 a1 dn lab h9 hl r j)

/-- Whether some row has another label than row r. -/
theorem hasneg_at (hl : ∀ r, a1 (ix1 r) = lab r) (r : Fin 8192) :
    val_main_v72 (F := Ideal) a1 (ix1 r) = 1#1 ↔ ∃ j : Fin 8192, lab r ≠ lab j := by
  unfold val_main_v72
  refine (reduce_or_row _ r).trans ?_
  exact exists_congr fun j => by rw [diff_at a1 lab hl]; exact cmpi_ne_eq_one_iff _ _

/-- Row r's hinge of its largest similarity with a row of another label. -/
theorem contrib_at (h9 : ∀ r d, val_main_v9 (F := Ideal) a0 (ix2 r d) = dn r d) (hl : ∀ r, a1 (ix1 r) = lab r) (r : Fin 8192) :
    val_main_v77 (F := Ideal) a0 a1 (ix1 r) = Cert.Spec.contribRow dn lab lab r := by
  rw [val_main_v77_apply, val_main_v76_apply, val_main_v74_apply, val_main_v73_apply, val_main_cst_21_apply,
    val_main_v75_apply, val_main_cst_22_apply, val_main_call6_v1_apply, val_main_call6_v0_apply, val_main_cst_23_apply,
    hardest_at a0 a1 dn lab h9 hl r, select_ite _ _ (hasneg_at a1 lab hl r)]
  simp only [Ideal.ofBits_def, Ideal.subf_def, Ideal.maximumf_def]
  unfold Cert.Spec.contribRow
  split
  · rfl
  · next hno =>
    have hb : Cert.Spec.hardest dn lab lab r = ⊥ := by
      unfold Cert.Spec.hardest
      refine (Finset.sup_eq_bot_iff _ _).2 fun j _ => ?_
      rw [if_neg (fun hne => hno ⟨j, hne⟩)]
    rw [hb, hinge_bot]

/-- The hard-negative average. -/
theorem hard_stage_of (h9 : ∀ r d, val_main_v9 (F := Ideal) a0 (ix2 r d) = dn r d) (hl : ∀ r, a1 (ix1 r) = lab r) :
    val_main_v79 (F := Ideal) a0 a1 ix0 = Cert.Spec.lHard dn lab := by
  rw [val_main_v79_apply, val_main_v78_apply, val_main_cst_24_apply, val_main_cst_25_apply]
  simp only [Ideal.ofBits_def, Ideal.hostDivf_def]
  rw [Ideal.ofBits_zero_f32, zero_add]
  unfold Cert.Spec.lHard
  refine congrArg (fun s => Ideal.div s Cert.Spec.c8192) ?_
  refine ((Equiv.sum_comp (ValueIdx.idxEquiv1 (n := 8192)).symm _).symm.trans ?_)
  exact Finset.sum_congr rfl fun r _ => contrib_at a0 a1 dn lab h9 hl r

/-! ## The separation average -/

/-- Whether row r has class cl. -/
theorem onehot_bit (hl : ∀ r, a1 (ix1 r) = lab r) (r : Fin 8192) (cl : Fin 64) :
    val_main_v15 (F := Ideal) a1 (ix2 r cl) = IntOp.cmpi .eq (lab r) (BitVec.ofNat 32 cl.val) := by
  rw [val_main_v15_apply, val_main_v13_apply, val_main_v10_apply, val_main_v14_apply, val_main_v12_apply, val_main_v11_apply]
  have e1 : idx_main_v10 (idx_main_v13 (ix2 r cl)) = ix1 r :=
    funext fun a => Fin.ext (by match a with | ⟨0, _⟩ => rfl)
  rw [e1, hl]

/-- The cosine of row r with class cl's prototype. -/
theorem allcos_at (h9 : ∀ r d, val_main_v9 (F := Ideal) a0 (ix2 r d) = dn r d)
    (h28 : ∀ cl d, val_main_v28 (F := Ideal) a0 a1 a2 (ix2 cl d) = pr cl d) (r : Fin 8192) (cl : Fin 64) :
    val_main_v43 (F := Ideal) a0 a1 a2 (ix2 r cl) = ∑ d : Fin 256, dn r d * pr cl d := by
  rw [val_main_v43_apply]
  refine Finset.sum_congr rfl fun k _ => ?_
  rw [val_main_v42_apply]
  have e1 : lidx_main_v43 (ix2 r cl) k = ix2 r k :=
    funext fun a => Fin.ext (by match a with | ⟨0, _⟩ => rfl | ⟨1, _⟩ => rfl)
  have e2 : idx_main_v42 (ridx_main_v43 (ix2 r cl) k) = ix2 cl k :=
    funext fun a => Fin.ext (by match a with | ⟨0, _⟩ => rfl | ⟨1, _⟩ => rfl)
  rw [e1, e2, h9, h28]

/-- One where row r is of another class than cl, zero where it is of class cl. -/
theorem notoh_at (hl : ∀ r, a1 (ix1 r) = lab r) (r : Fin 8192) (cl : Fin 64) :
    val_main_v51 (F := Ideal) a1 (ix2 r cl) = Cert.Spec.one - Cert.Spec.onehot lab r cl := by
  rw [val_main_v51_apply, val_main_v44_apply, onehot_bit a1 lab hl]
  show (((~~~(IntOp.cmpi .eq (lab r) (BitVec.ofNat 32 cl.val))).toNat : ℝ) : EReal) = _
  unfold Cert.Spec.onehot
  rw [show Cert.Spec.one = (1 : EReal) from ofBits_one]
  by_cases h : lab r = BitVec.ofNat 32 cl.val
  · rw [if_pos h, Predicate.cmpi_eq_iff.2 h, ← EReal.coe_one, ← EReal.coe_sub, sub_self,
      show (~~~(1#1 : BitVec 1)).toNat = 0 from rfl, Nat.cast_zero]
  · rw [if_neg h, ValueIdx.eq_zero_of_ne_one (fun hc => h (Predicate.cmpi_eq_iff.1 hc)), sub_zero]
    show (((1 : ℕ) : ℝ) : EReal) = 1
    rw [Nat.cast_one, EReal.coe_one]

/-- The hinge of the cosine of row r with class cl's prototype, kept where r is of another class. -/
theorem wrong_at (h9 : ∀ r d, val_main_v9 (F := Ideal) a0 (ix2 r d) = dn r d)
    (h28 : ∀ cl d, val_main_v28 (F := Ideal) a0 a1 a2 (ix2 cl d) = pr cl d) (hl : ∀ r, a1 (ix1 r) = lab r)
    (r : Fin 8192) (cl : Fin 64) :
    val_main_v52 (F := Ideal) a0 a1 a2 (ix2 r cl) = Cert.Spec.wrongAt dn lab pr r cl := by
  rw [val_main_v52_apply, val_main_v50_apply, val_main_v48_apply, val_main_v47_apply, val_main_cst_10_apply,
    val_main_v49_apply, val_main_cst_11_apply, allcos_at a0 a1 a2 dn pr h9 h28, notoh_at a1 lab hl]
  simp only [Ideal.ofBits_def, Ideal.subf_def, Ideal.maximumf_def, Ideal.mulf_def]
  rfl

/-- The sum over rows of the kept hinges of class cl. -/
theorem wrongsum_at (h9 : ∀ r d, val_main_v9 (F := Ideal) a0 (ix2 r d) = dn r d)
    (h28 : ∀ cl d, val_main_v28 (F := Ideal) a0 a1 a2 (ix2 cl d) = pr cl d) (hl : ∀ r, a1 (ix1 r) = lab r) (cl : Fin 64) :
    val_main_v55 (F := Ideal) a0 a1 a2 (ix1 cl) = ∑ r : Fin 8192, Cert.Spec.wrongAt dn lab pr r cl := by
  rw [val_main_v55_apply, val_main_cst_13_apply, Ideal.ofBits_def, Ideal.ofBits_zero_f32, zero_add]
  refine Finset.sum_congr rfl fun k _ => ?_
  have e1 : idx_main_v55 (ix1 cl) k = ix2 k cl :=
    funext fun a => Fin.ext (by match a with | ⟨0, _⟩ => rfl | ⟨1, _⟩ => rfl)
  rw [e1, wrong_at a0 a1 a2 dn lab pr h9 h28 hl]

/-- The word that counts the rows of another class than cl holds their number. -/
theorem negword_at (hl : ∀ r, a1 (ix1 r) = lab r) (cl : Fin 64) :
    (val_main_v46 (F := Ideal) a1 (ix1 cl)).toNat = outCount lab cl := by
  unfold val_main_v46 val_main_v45 val_main_c_9
  rw [Predicate.toNat_reduce_count_rows (by decide) (val_main_v44 (F := Ideal) a1) natLt_1_32 reducesTo_S8192x64_S64_d0 h_S_ (ix1 cl)]
  unfold outCount
  refine congrArg Finset.card (Finset.filter_congr fun r _ => ?_)
  have e : (Predicate.ij r cl : S8192x64.Idx) = ix2 r cl :=
    funext fun a => by match a with | ⟨0, _⟩ => rfl | ⟨1, _⟩ => rfl
  show val_main_v44 (F := Ideal) a1 (Predicate.ij r cl) = 1#1 ↔ _
  rw [e, val_main_v44_apply, onehot_bit a1 lab hl, not_eq_one_iff, Predicate.cmpi_eq_iff]

theorem negword_lt (hl : ∀ r, a1 (ix1 r) = lab r) (cl : Fin 64) : (val_main_v46 (F := Ideal) a1 (ix1 cl)).toNat < 2 ^ 31 := by
  rw [negword_at a1 lab hl]; have := outCount_le lab cl; omega

/-- Whether some row is of another class than cl. -/
theorem anyneg_at (hl : ∀ r, a1 (ix1 r) = lab r) (cl : Fin 64) :
    val_main_v54 (F := Ideal) a1 (ix1 cl) = 1#1 ↔ 0 < outCount lab cl := by
  rw [val_main_v54_apply, val_main_v53_apply, val_main_c_12_apply, sgt_zero_iff (negword_lt a1 lab hl cl), negword_at a1 lab hl]

/-- The divisor: the number of rows of another class than cl, at least one. -/
theorem den_at (hl : ∀ r, a1 (ix1 r) = lab r) (cl : Fin 64) :
    val_main_v58 (F := Ideal) a1 (ix1 cl) = (((max (outCount lab cl) 1 : ℕ) : ℝ) : EReal) := by
  rw [val_main_v58_apply, val_main_v57_apply, val_main_v56_apply, val_main_c_14_apply]
  show (((IntOp.maxsi (val_main_v46 (F := Ideal) a1 (ix1 cl)) 1#32).toInt : ℝ) : EReal) = _
  rw [sitofp_maxsi_one (negword_lt a1 lab hl cl), negword_at a1 lab hl]

/-- Class cl's mean kept hinge. -/
theorem perclass_at (h9 : ∀ r d, val_main_v9 (F := Ideal) a0 (ix2 r d) = dn r d)
    (h28 : ∀ cl d, val_main_v28 (F := Ideal) a0 a1 a2 (ix2 cl d) = pr cl d) (hl : ∀ r, a1 (ix1 r) = lab r) (cl : Fin 64) :
    val_main_v60 (F := Ideal) a0 a1 a2 (ix1 cl) = Cert.Spec.perClass dn lab pr cl := by
  rw [val_main_v60_apply, val_main_v59_apply, val_main_call4_v1_apply, val_main_call4_v0_apply, val_main_cst_15_apply,
    wrongsum_at a0 a1 a2 dn lab pr h9 h28 hl, den_at a1 lab hl, select_ite _ _ (anyneg_at a1 lab hl cl)]
  simp only [Ideal.ofBits_def, Ideal.hostDivf_def]
  unfold Cert.Spec.perClass
  rw [max_negCount]
  by_cases h : 0 < outCount lab cl
  · rw [if_pos h, if_pos ((cmp_negCount lab cl).2 h)]
  · rw [if_neg h, if_neg (fun hc => h ((cmp_negCount lab cl).1 hc))]

/-- The separation average. -/
theorem sep_stage_of (h9 : ∀ r d, val_main_v9 (F := Ideal) a0 (ix2 r d) = dn r d)
    (h28 : ∀ cl d, val_main_v28 (F := Ideal) a0 a1 a2 (ix2 cl d) = pr cl d) (hl : ∀ r, a1 (ix1 r) = lab r) :
    val_main_v62 (F := Ideal) a0 a1 a2 ix0 = Cert.Spec.lSep dn lab pr := by
  rw [val_main_v62_apply, val_main_v61_apply, val_main_cst_16_apply, val_main_cst_17_apply]
  simp only [Ideal.ofBits_def, Ideal.hostDivf_def]
  rw [Ideal.ofBits_zero_f32, zero_add]
  unfold Cert.Spec.lSep
  refine congrArg (fun s => Ideal.div s Cert.Spec.c64) ?_
  refine ((Equiv.sum_comp (ValueIdx.idxEquiv1 (n := 64)).symm _).symm.trans ?_)
  exact Finset.sum_congr rfl fun cl _ => perclass_at a0 a1 a2 dn lab pr h9 h28 hl cl

/-! ## The two averages over the program's own arguments -/

theorem sep_stage
    (h9 : ∀ r d, val_main_v9 (F := Ideal) a0 (ix2 r d) = Cert.Spec.normRow (fun r d => a0 (ix2 r d)) r d)
    (h28 : ∀ cl d, val_main_v28 (F := Ideal) a0 a1 a2 (ix2 cl d)
      = Cert.Spec.protos (fun r d => a0 (ix2 r d)) (fun r => a1 (ix1 r)) (fun cl d => a2 (ix2 cl d)) cl d) :
    val_main_v62 (F := Ideal) a0 a1 a2 ix0
      = Cert.Spec.lSep (Cert.Spec.normRow (fun r d => a0 (ix2 r d))) (fun r => a1 (ix1 r))
          (Cert.Spec.protos (fun r d => a0 (ix2 r d)) (fun r => a1 (ix1 r)) (fun cl d => a2 (ix2 cl d))) :=
  sep_stage_of a0 a1 a2 _ _ _ h9 h28 (fun _ => rfl)

theorem hard_stage
    (h9 : ∀ r d, val_main_v9 (F := Ideal) a0 (ix2 r d) = Cert.Spec.normRow (fun r d => a0 (ix2 r d)) r d) :
    val_main_v79 (F := Ideal) a0 a1 ix0
      = Cert.Spec.lHard (Cert.Spec.normRow (fun r d => a0 (ix2 r d))) (fun r => a1 (ix1 r)) :=
  hard_stage_of a0 a1 _ _ h9 (fun _ => rfl)

end Stages

end Cert.ReferenceIdeal.RefValue3

end
-- ==== Proof.RefVal.lean ====
import proofs.«401042_j13357348290857_3_alg».proof.Proof.RefVal2
import proofs.«401042_j13357348290857_3_alg».proof.Proof.RefVal3

/-!
# The reference's result is the specification's loss

The last five operations multiply each of the three averages (alignment, separation, hardest other-label row)
by its weight word and add the products in the order written; the three averages are the specification's by the
two modules imported here, the normalised rows and the prototypes being the same arrays in all three.
-/

noncomputable section

namespace Cert.ReferenceIdeal.RefValue

open Cert.ReferenceIdeal Cert.ReferenceIdeal.Gen Idealize.ShloMosaic Idealize.ShloMosaic.StableHlo
open Idealize.ShloMosaic.ValueIdx (ix0 ix1 ix2)
open Cert.ReferenceIdeal.RefValue2 (rowsOf labelsOf protosOf)

variable (a0 : FVec Ideal S8192x256 .f32) (a1 : IVec S8192 32) (a2 : FVec Ideal S64x256 .f32)

/-- The reference's result is the loss: the three averages, each times its weight, added in the order written.
    The labels are in 0 … 63 (needed by the alignment average alone, which reads a row's own class's prototype). -/
theorem ref_total (hlab : ∀ r : Fin 8192, (0 : Int) ≤ (labelsOf a1 r).toInt ∧ (labelsOf a1 r).toInt < 64) :
    ReadP.val_main_v84 (F := Ideal) a0 a1 a2
      = fun _ => Cert.Spec.total (rowsOf a0) (labelsOf a1) (protosOf a2) := by
  funext i
  obtain rfl : i = ix0 := ValueIdx.eq_ix0 i
  rw [ReadP.val_main_v84_apply, ReadP.val_main_v82_apply, ReadP.val_main_v80_apply, ReadP.val_main_v81_apply,
    ReadP.val_main_v83_apply, ReadP.val_main_cst_26_apply, ReadP.val_main_cst_27_apply, ReadP.val_main_cst_28_apply,
    RefValue2.align_stage a0 a1 a2 hlab,
    RefValue3.sep_stage_of a0 a1 a2 (Cert.Spec.normRow (rowsOf a0)) (labelsOf a1)
      (Cert.Spec.protos (rowsOf a0) (labelsOf a1) (protosOf a2))
      (RefValue2.dirs_stage a0) (RefValue2.protos_stage a0 a1 a2) (fun _ => rfl),
    RefValue3.hard_stage_of a0 a1 (Cert.Spec.normRow (rowsOf a0)) (labelsOf a1) (RefValue2.dirs_stage a0) (fun _ => rfl)]
  rfl

end Cert.ReferenceIdeal.RefValue

end
-- ==== Proof.Pre.lean ====
import proofs.«401042_j13357348290857_3_alg».proof.Pre_finite_inputs
import proofs.«401042_j13357348290857_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

/-!
# The precondition, decoded

The precondition is one bit: the conjunction of three `all`s.  Every entry of the rows and of the
given prototypes has absolute value below `+∞`, so it is a real; every label is at least `0` and
below `64` as a signed word.  The label part does not mention floats and holds for every float family.
-/

noncomputable section

namespace Cert.PreFacts

open Idealize.ShloMosaic Cert.Pre_finite_inputs Cert.Pre_finite_inputs.Gen

/-- The scalar shape has one index. -/
instance : Subsingleton S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- An extended real whose absolute value is below `+∞` is a real. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => exact absurd h (by simp [Ideal.cmp])
  | coe r => exact ⟨r, rfl⟩
  | top => exact absurd h (by simp [Ideal.cmp])

/-- The three `all`s of the precondition, each read at every index (float part at the extended reals). -/
theorem parts {a0 : FVec Ideal S8192x256 .f32} {a1 : IVec S8192 32} {a2 : FVec Ideal S64x256 .f32}
    (h : Cert.Pre_finite_inputs.fn (F := Ideal) a0 a1 a2 = fun _ => 1#1) :
    (∀ i, Ideal.cmp .olt (max (a0 i) (-(a0 i))) (Ideal.ofBits .f32 0x7F800000#32) = 1#1)
    ∧ (∀ i, Ideal.cmp .olt (max (a2 i) (-(a2 i))) (Ideal.ofBits .f32 0x7F800000#32) = 1#1)
    ∧ (∀ i, IntOp.cmpi .sge (a1 i) 0#32 = 1#1 ∧ IntOp.cmpi .slt (a1 i) 64#32 = 1#1) := by
  have e := congrFun h ValueIdx.ix0
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun i => ?_⟩
  · exact Host.reduce_andi_all _ _ _ _ _ e0 i
  · exact Host.reduce_andi_all _ _ _ _ _ e1 i
  · exact IntOp.andi_eq_one.1 (Host.reduce_andi_all _ _ _ _ _ e2 i)

/-- Every entry of the rows is a real. -/
theorem rows_real {a0 : FVec Ideal S8192x256 .f32} {a1 : IVec S8192 32} {a2 : FVec Ideal S64x256 .f32}
    (h : Cert.Pre_finite_inputs.fn (F := Ideal) a0 a1 a2 = fun _ => 1#1) (i : S8192x256.Idx) :
    ∃ r : ℝ, a0 i = (r : EReal) := real_of_abs_lt _ ((parts h).1 i)

/-- Every entry of the given prototypes is a real. -/
theorem protos_real {a0 : FVec Ideal S8192x256 .f32} {a1 : IVec S8192 32} {a2 : FVec Ideal S64x256 .f32}
    (h : Cert.Pre_finite_inputs.fn (F := Ideal) a0 a1 a2 = fun _ => 1#1) (i : S64x256.Idx) :
    ∃ r : ℝ, a2 i = (r : EReal) := real_of_abs_lt _ ((parts h).2.1 i)

/-- Every label is in `[0, 64)`, for every float family. -/
theorem labels_range {F : FTy → Type} [FloatOps F] {a0 : FVec F S8192x256 .f32} {a1 : IVec S8192 32} {a2 : FVec F S64x256 .f32}
    (h : Cert.Pre_finite_inputs.fn (F := F) a0 a1 a2 = fun _ => 1#1) (i : S8192.Idx) :
    (0 : Int) ≤ (a1 i).toInt ∧ (a1 i).toInt < 64 := by
  have e := congrFun h ValueIdx.ix0
  dsimp only [Cert.Pre_finite_inputs.fn] at e
  obtain ⟨-, e2⟩ := IntOp.andi_eq_one.1 e
  obtain ⟨hge, hlt⟩ := IntOp.andi_eq_one.1 (Host.reduce_andi_all _ _ _ _ _ e2 i)
  have hge' : IntOp.cmpi .sge (a1 i) 0#32 = 1#1 := hge
  have hlt' : IntOp.cmpi .slt (a1 i) 64#32 = 1#1 := hlt
  rw [IntOp.cmpi_sge] at hge'
  rw [IntOp.cmpi_slt] at hlt'
  exact ⟨by simpa using hge', by simpa using hlt'⟩

end Cert.PreFacts

end
-- ==== Proof.lean ====
/-
  The five claims of this certificate.

  The loss (proof/Proof/Spec.lean, `Cert.Spec.total`): every row of `dirs` is divided by the larger of its Euclidean norm and a small
  constant; per class the normalised rows are summed and counted; a class's prototype is its normalised sum when the class occurs and the
  normalised given prototype otherwise; the result is a weighted sum of three averages — one minus the cosine of a row with its own
  class's prototype, the per-class mean over rows of other classes of the hinge of the cosine with that class's prototype, and the hinge of
  the largest cosine of a row with a row of a different label (a maximum over no rows is `⊥`, whose hinge is `0`).

  The kernel computes it in two grid launches.  The first normalises a tile of 2048 rows per grid point and adds the tile's
  indicatorᵀ·rows product and the indicator's column sums to two accumulators, one pair per half of the rows; the host adds the two
  halves.  The second, per tile of 1024 query rows, stores at its first key step the alignment term (the prototypes weighted by the row's
  class indicator, which is the row's own prototype when the label lies in 0 … 63) and the separation terms, and over four key steps of 2048
  rows keeps the running maximum of the masked cosines, started from a fill value that stands for `-∞`; its hinge is stored at the last step.
  Regrouping a sum over 8192 rows as sums over tiles, and a maximum over 8192 rows as a join of four, uses only associativity and
  commutativity on the extended reals.  The reference gathers the row's prototype, counts the rows of other classes as an integer and
  guards the hinge of an empty maximum by a flag: under `0 ≤ label < 64` these are the same numbers.

  `frame` claims: every weakly fair execution terminates, faults nowhere, and leaves the three argument arrays as launched.
  `preserves`: the two sites where the fill value is named denote `⊥` by the certificate's table.
-/
import proofs.«401042_j13357348290857_3_alg».proof.Defs
import proofs.«401042_j13357348290857_3_alg».proof.Proof.Gen.Kernel
import proofs.«401042_j13357348290857_3_alg».proof.Proof.Gen.KernelIdeal
import proofs.«401042_j13357348290857_3_alg».proof.Proof.Gen.ReferenceIdeal
import proofs.«401042_j13357348290857_3_alg».proof.Proof.Gen.Pre_finite_inputs
import proofs.«401042_j13357348290857_3_alg».proof.Proof.KB.Run
import proofs.«401042_j13357348290857_3_alg».proof.Proof.KI.Host
import proofs.«401042_j13357348290857_3_alg».proof.Proof.RefVal
import proofs.«401042_j13357348290857_3_alg».proof.Proof.Pre
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- At both sites the fill value's name denotes `⊥`. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

open Cert.KernelIdeal Cert.KernelIdeal.Gen Cert.KernelIdeal.Hand Cert.KernelIdeal.HandValue in
/-- The idealized kernel program ends with the loss of its launch arguments in its result and the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v40) = (fun _ => Cert.Spec.total (xL m c) (labL m c) (pL m c))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r h c =>
    ⟨(h c _ (mem_uc main_v40 (by decide))).trans (kernel_total m c),
     (h c _ (mem_uc main_arg0 (by decide))).trans (W12_main_arg0 m c),
     (h c _ (mem_uc main_arg1 (by decide))).trans (W12_main_arg1 m c),
     (h c _ (mem_uc main_arg2 (by decide))).trans (W12_main_arg2 m c)⟩) (run_all (F := Ideal) m ρ)

/-- From memories agreeing on the arguments both idealized programs end with the loss of those arguments: the kernel's by its
    launch and values, the reference's because its last stage is the loss when every label lies in `0 … 63`, which the
    precondition says. -/
theorem algebraic : Cert.algebraic_KernelIdeal_ReferenceIdeal := by
  intro m ρ m' ρ' hpre hagree
  refine ⟨fun c => fun _ => Cert.Spec.total (Cert.KernelIdeal.HandValue.xL m c) (Cert.KernelIdeal.HandValue.labL m c) (Cert.KernelIdeal.HandValue.pL m c), kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v84_eq, (hagree c).1, (hagree c).2.1, (hagree c).2.2]
  exact Cert.ReferenceIdeal.RefValue.ref_total _ _ _ (fun r => Cert.PreFacts.labels_range (hpre c) _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
